-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v109)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v88)) (v3 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v88) = v2 c
          ∧ r.2.mem ((c.tc : Thread Cert.KernelIdeal.nD Cert.KernelIdeal.τ).loc Cert.KernelIdeal.main_v86) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v249) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v250) = v2 c
          ∧ r.2.mem ((c.tc : Thread Cert.ReferenceIdeal.nD Cert.ReferenceIdeal.τ).loc Cert.ReferenceIdeal.main_v251) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x27 : Shape := ⟨2, ![100000, 27]⟩
abbrev S2x1600000 : Shape := ⟨2, ![2, 1600000]⟩
abbrev S100000 : Shape := ⟨1, ![100000]⟩
abbrev S27x64 : Shape := ⟨2, ![27, 64]⟩
abbrev S4x128x128 : Shape := ⟨3, ![4, 128, 128]⟩
abbrev S384x128 : Shape := ⟨2, ![384, 128]⟩
abbrev S384 : Shape := ⟨1, ![384]⟩
abbrev S128x1 : Shape := ⟨2, ![128, 1]⟩
abbrev S1 : Shape := ⟨1, ![1]⟩
abbrev S_ : Shape := ⟨0, ![]⟩

class Facts : Prop where
  bcast_S_S100000x27 : S_.BroadcastsInDim S100000x27 (![] : Fin 0 → Fin S100000x27.rank)
  reducesTo_S100000x27_S_d0_1 : S100000x27.ReducesTo [0, 1] S_
  h_S_ : 0 < S_.numel
  bcast_S_S27x64 : S_.BroadcastsInDim S27x64 (![] : Fin 0 → Fin S27x64.rank)
  reducesTo_S27x64_S_d0_1 : S27x64.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x1 .f32) (main_arg10 : FVec F S1 .f32) (main_arg11 : FVec F S128x1 .f32) (main_arg12 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S384x128 .f32) (main_arg7 : FVec F S384 .f32) (main_arg8 : FVec F S384 .f32) (main_arg9 : FVec F S128x1 .f32) (main_arg10 : FVec F S1 .f32) (main_arg11 : FVec F S128x1 .f32) (main_arg12 : FVec F S1 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384x128 .f32 := Host.absf main_arg6
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg7
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg8
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x27 .f32) (main_arg1 : IVec S2x1600000 32) (main_arg2 : IVec S100000 32) (main_arg3 : FVec F S27x64 .f32) (main_arg4 : FVec F S4x128x128 .f32) (main_arg5 : FVec F S384x128 .f32) (main_arg6 : FVec F S384x128 .f32) (main_arg7 : FVec F S384 .f32) (main_arg8 : FVec F S384 .f32) (main_arg9 : FVec F S128x1 .f32) (main_arg10 : FVec F S1 .f32) (main_arg11 : FVec F S128x1 .f32) (main_arg12 : FVec F S1 .f32) : IVec S_ 1 :=
  let main_v0 : FVec F S100000x27 .f32 := Host.absf main_arg0
  let main_cst : FVec F S_ .f32 := constant S_ .f32 0x7F800000#32
  let main_v1 : FVec F S100000x27 .f32 := broadcastInDim S100000x27 ![] bcast_S_S100000x27 main_cst
  let main_v2 : IVec S100000x27 1 := cmpf .olt main_v0 main_v1
  let main_c : IVec S_ 1 := constantI S_ 1 1#1
  let main_v3 : IVec S_ 1 := (fun x v => Host.reduce IntOp.andi x v reducesTo_S100000x27_S_d0_1 h_S_) main_v2 main_c
  let main_v4 : FVec F S27x64 .f32 := Host.absf main_arg3
  let main_cst_0 : FVec F S_ .f32 := constant S_ .f32 0x7F800000#32
  let main_v5 : FVec F S27x64 .f32 := broadcastInDim S27x64 ![] bcast_S_S27x64 main_cst_0
  let main_v6 : IVec S27x64 1 := cmpf .olt main_v4 main_v5
  let main_c_1 : IVec S_ 1 := constantI S_ 1 1#1
  let main_v7 : IVec S_ 1 := (fun x v => Host.reduce IntOp.andi x v reducesTo_S27x64_S_d0_1 h_S_) main_v6 main_c_1
  let main_v8 : IVec S_ 1 := andi main_v3 main_v7
  let main_v9 : FVec F S4x128x128 .f32 := Host.absf main_arg4
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg6 main_arg7 main_arg8 main_arg9 main_arg10 main_arg11 main_arg12 main_v13 main_v16
-- ==== Kernel.lean ====
abbrev S100000x27 : Shape := ⟨2, ![100000, 27]⟩
abbrev S2x1600000 : Shape := ⟨2, ![2, 1600000]⟩
abbrev S100000 : Shape := ⟨1, ![100000]⟩
abbrev S27x64 : Shape := ⟨2, ![27, 64]⟩
abbrev S4x128x128 : Shape := ⟨3, ![4, 128, 128]⟩
abbrev S384x128 : Shape := ⟨2, ![384, 128]⟩
abbrev S384 : Shape := ⟨1, ![384]⟩
abbrev S128x1 : Shape := ⟨2, ![128, 1]⟩
abbrev S1 : Shape := ⟨1, ![1]⟩
abbrev S100000x64 : Shape := ⟨2, ![100000, 64]⟩
abbrev S100000x128 : Shape := ⟨2, ![100000, 128]⟩
abbrev S5000x27 : Shape := ⟨2, ![5000, 27]⟩
abbrev S5000x64 : Shape := ⟨2, ![5000, 64]⟩
abbrev S5000x128 : Shape := ⟨2, ![5000, 128]⟩
abbrev S1x1600000 : Shape := ⟨2, ![1, 1600000]⟩
abbrev S1600000 : Shape := ⟨1, ![1600000]⟩
abbrev S128x384 : Shape := ⟨2, ![128, 384]⟩
abbrev S1x384 : Shape := ⟨2, ![1, 384]⟩
abbrev S1x128x128 : Shape := ⟨3, ![1, 128, 128]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S2000x128 : Shape := ⟨2, ![2000, 128]⟩
abbrev S2000x384 : Shape := ⟨2, ![2000, 384]⟩
abbrev S128 : Shape := ⟨1, ![128]⟩
abbrev S1x128 : Shape := ⟨2, ![1, 128]⟩
abbrev S2 : Shape := ⟨1, ![2]⟩
abbrev S100000x1 : Shape := ⟨2, ![100000, 1]⟩
abbrev S512x128 : Shape := ⟨2, ![512, 128]⟩
abbrev S2000x1 : Shape := ⟨2, ![2000, 1]⟩
abbrev S2000x512 : Shape := ⟨2, ![2000, 512]⟩
abbrev S2000x126 : Shape := ⟨2, ![2000, 126]⟩
abbrev S512x2000 : Shape := ⟨2, ![512, 2000]⟩
abbrev S512x1 : Shape := ⟨2, ![512, 1]⟩
abbrev S512 : Shape := ⟨1, ![512]⟩

abbrev nBuf : Space → Nat
  | .hbm => 150
  | .vmem => 78
  | .smem => 0
  | _ => 0

abbrev hbmTy0_0 (i : Nat) : BufTy := match i % 128 with
  | 0 => ⟨S100000x27, .f32⟩
  | 1 => ⟨S2x1600000, .i32⟩
  | 2 => ⟨S100000, .i32⟩
  | 3 => ⟨S27x64, .f32⟩
  | 4 => ⟨S4x128x128, .f32⟩
  | 5 => ⟨S384x128, .f32⟩
  | 6 => ⟨S384x128, .f32⟩
  | 7 => ⟨S384, .f32⟩
  | 8 => ⟨S384, .f32⟩
  | 9 => ⟨S128x1, .f32⟩
  | 10 => ⟨S1, .f32⟩
  | 11 => ⟨S128x1, .f32⟩
  | 12 => ⟨S1, .f32⟩
  | 13 => ⟨S100000x64, .f32⟩
  | 14 => ⟨S100000x128, .f32⟩
  | 15 => ⟨S1x1600000, .i32⟩
  | 16 => ⟨S1600000, .i32⟩
  | 17 => ⟨S1x1600000, .i32⟩
  | 18 => ⟨S1600000, .i32⟩
  | 19 => ⟨S128x384, .f32⟩
  | 20 => ⟨S128x384, .f32⟩
  | 21 => ⟨S1x384, .f32⟩
  | 22 => ⟨S1x384, .f32⟩
  | 23 => ⟨S1x128x128, .f32⟩
  | 24 => ⟨S128x128, .f32⟩
  | 25 => ⟨S100000x128, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x128, .f32⟩
  | 35 => ⟨S_, .f32⟩
  | 36 => ⟨S100000x128, .f32⟩
  | 37 => ⟨S1600000x1, .i32⟩
  | 38 => ⟨S100000x128, .f32⟩
  | 39 => ⟨S100000x128, .f32⟩
  | 40 => ⟨S1x128x128, .f32⟩
  | 41 => ⟨S128x128, .f32⟩
  | 42 => ⟨S100000x128, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S100000x128, .f32⟩
  | 57 => ⟨S1x128x128, .f32⟩
  | 58 => ⟨S128x128, .f32⟩
  | 59 => ⟨S100000x128, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S_, .f32⟩
  | 70 => ⟨S100000x128, .f32⟩
  | 71 => ⟨S1600000x1, .i32⟩
  | 72 => ⟨S100000x128, .f32⟩
  | 73 => ⟨S100000x128, .f32⟩
  | 74 => ⟨S1x128x128, .f32⟩
  | 75 => ⟨S128x128, .f32⟩
  | 76 => ⟨S100000x128, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S100000x128, .f32⟩
  | 91 => ⟨S_, .f32⟩
  | 92 => ⟨S128x128, .f32⟩
  | 93 => ⟨S128, .f32⟩
  | 94 => ⟨S_, .i32⟩
  | 95 => ⟨S1, .i32⟩
  | 96 => ⟨S128x128, .f32⟩
  | 97 => ⟨S128, .f32⟩
  | 98 => ⟨S_, .i32⟩
  | 99 => ⟨S1, .i32⟩
  | 100 => ⟨S128x128, .f32⟩
  | 101 => ⟨S_, .f32⟩
  | 102 => ⟨S1x128, .f32⟩
  | 103 => ⟨S_, .f32⟩
  | 104 => ⟨S_, .i32⟩
  | 105 => ⟨S1, .i32⟩
  | 106 => ⟨S_, .i32⟩
  | 107 => ⟨S1, .i32⟩
  | 108 => ⟨S2, .i32⟩
  | 109 => ⟨S1x128, .f32⟩
  | 110 => ⟨S_, .f32⟩
  | 111 => ⟨S_, .i32⟩
  | 112 => ⟨S1, .i32⟩
  | 113 => ⟨S_, .i32⟩
  | 114 => ⟨S1, .i32⟩
  | 115 => ⟨S2, .i32⟩
  | 116 => ⟨S1x128, .f32⟩
  | 117 => ⟨S100000x1, .i32⟩
  | 118 => ⟨S100000x128, .f32⟩
  | 119 => ⟨S100000x128, .f32⟩
  | 120 => ⟨S512x128, .f32⟩
  | 121 => ⟨S100000x1, .f32⟩
  | 122 => ⟨S100000, .f32⟩
  | 123 => ⟨S100000x1, .f32⟩
  | 124 => ⟨S100000, .f32⟩
  | 125 => ⟨S512x1, .f32⟩
  | 126 => ⟨S512, .f32⟩
  | 127 => ⟨S512x1, .f32⟩
  | _ => ⟨S100000x27, .f32⟩

abbrev hbmTy0_1 (i : Nat) : BufTy := match i % 128 with
  | 0 => ⟨S512, .f32⟩
  | 1 => ⟨S_, .i32⟩
  | 2 => ⟨S100000, .i32⟩
  | 3 => ⟨S100000, .i1⟩
  | 4 => ⟨S_, .i32⟩
  | 5 => ⟨S100000, .i32⟩
  | 6 => ⟨S100000, .i32⟩
  | 7 => ⟨S100000, .i32⟩
  | 8 => ⟨S100000x1, .i32⟩
  | 9 => ⟨S100000, .f32⟩
  | 10 => ⟨S_, .i32⟩
  | 11 => ⟨S100000, .i32⟩
  | 12 => ⟨S100000, .i1⟩
  | 13 => ⟨S_, .i32⟩
  | 14 => ⟨S100000, .i32⟩
  | 15 => ⟨S100000, .i32⟩
  | 16 => ⟨S100000, .i32⟩
  | 17 => ⟨S100000x1, .i32⟩
  | 18 => ⟨S100000, .f32⟩
  | 19 => ⟨S100000, .f32⟩
  | 20 => ⟨S100000, .f32⟩
  | 21 => ⟨S100000, .f32⟩
  | _ => ⟨S100000x27, .f32⟩

abbrev hbmTy (i : Nat) : BufTy := match i / 128 with
  | 0 => hbmTy0_0 i
  | 1 => hbmTy0_1 i
  | _ => ⟨S100000x27, .f32⟩

abbrev bufTy : (tb : Table) → Fin (tcTables nBuf tb) → BufTy
  | .hbm, ⟨i, _⟩ => hbmTy i
  | .local _ .vmem, ⟨0, _⟩ => ⟨S5000x27, .f32⟩
  | .local _ .vmem, ⟨1, _⟩ => ⟨S5000x27, .f32⟩
  | .local _ .vmem, ⟨2, _⟩ => ⟨S27x64, .f32⟩
  | .local _ .vmem, ⟨3, _⟩ => ⟨S5000x64, .f32⟩
  | .local _ .vmem, ⟨4, _⟩ => ⟨S5000x64, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S5000x128, .f32⟩
  | .local _ .vmem, ⟨11, _⟩ => ⟨S5000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x384, .f32⟩
  | .local _ .vmem, ⟨17, _⟩ => ⟨S128x384, .f32⟩
  | .local _ .vmem, ⟨18, _⟩ => ⟨S1x384, .f32⟩
  | .local _ .vmem, ⟨19, _⟩ => ⟨S1x384, .f32⟩
  | .local _ .vmem, ⟨20, _⟩ => ⟨S2000x128, .f32⟩
  | .local _ .vmem, ⟨21, _⟩ => ⟨S2000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S128x384, .f32⟩
  | .local _ .vmem, ⟨32, _⟩ => ⟨S128x384, .f32⟩
  | .local _ .vmem, ⟨33, _⟩ => ⟨S1x384, .f32⟩
  | .local _ .vmem, ⟨34, _⟩ => ⟨S1x384, .f32⟩
  | .local _ .vmem, ⟨35, _⟩ => ⟨S2000x128, .f32⟩
  | .local _ .vmem, ⟨36, _⟩ => ⟨S2000x128, .f32⟩
  | .local _ .vmem, ⟨37, _⟩ => ⟨S5000x128, .f32⟩
  | .local _ .vmem, ⟨38, _⟩ => ⟨S5000x128, .f32⟩
  | .local _ .vmem, ⟨39, _⟩ => ⟨S128x128, .f32⟩
  | .local _ .vmem, ⟨40, _⟩ => ⟨S5000x128, .f32⟩
  | .local _ .vmem, ⟨41, _⟩ => ⟨S5000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S128x384, .f32⟩
  | .local _ .vmem, ⟨47, _⟩ => ⟨S128x384, .f32⟩
  | .local _ .vmem, ⟨48, _⟩ => ⟨S1x384, .f32⟩
  | .local _ .vmem, ⟨49, _⟩ => ⟨S1x384, .f32⟩
  | .local _ .vmem, ⟨50, _⟩ => ⟨S2000x128, .f32⟩
  | .local _ .vmem, ⟨51, _⟩ => ⟨S2000x128, .f32⟩
  | .local _ .vmem, ⟨52, _⟩ => ⟨S5000x128, .f32⟩
  | .local _ .vmem, ⟨53, _⟩ => ⟨S5000x128, .f32⟩
  | .local _ .vmem, ⟨54, _⟩ => ⟨S128x128, .f32⟩
  | .local _ .vmem, ⟨55, _⟩ => ⟨S5000x128, .f32⟩
  | .local _ .vmem, ⟨56, _⟩ => ⟨S5000x128, .f32⟩
  | .local _ .vmem, ⟨57, _⟩ => ⟨S2000x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S128x384, .f32⟩
  | .local _ .vmem, ⟨62, _⟩ => ⟨S128x384, .f32⟩
  | .local _ .vmem, ⟨63, _⟩ => ⟨S1x384, .f32⟩
  | .local _ .vmem, ⟨64, _⟩ => ⟨S1x384, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S128x128, .f32⟩
  | .local _ .vmem, ⟨70, _⟩ => ⟨S1x128, .f32⟩
  | .local _ .vmem, ⟨71, _⟩ => ⟨S2000x1, .i32⟩
  | .local _ .vmem, ⟨72, _⟩ => ⟨S2000x1, .i32⟩
  | .local _ .vmem, ⟨73, _⟩ => ⟨S2000x128, .f32⟩
  | .local _ .vmem, ⟨74, _⟩ => ⟨S2000x128, .f32⟩
  | .local _ .vmem, ⟨75, _⟩ => ⟨S2000x128, .f32⟩
  | .local _ .vmem, ⟨76, _⟩ => ⟨S2000x128, .f32⟩
  | .local _ .vmem, ⟨77, _⟩ => ⟨S512x128, .f32⟩
  | _, _ => ⟨S100000x27, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_1 : Ref sig .tc := ⟨.hbm, 43, rfl⟩
abbrev main_v26 : Ref sig .tc := ⟨.hbm, 44, rfl⟩
abbrev main_v27 : Ref sig .tc := ⟨.hbm, 45, rfl⟩
abbrev main_c_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_4 : Ref sig .tc := ⟨.hbm, 60, rfl⟩
abbrev main_v40 : Ref sig .tc := ⟨.hbm, 61, rfl⟩
abbrev main_v41 : Ref sig .tc := ⟨.hbm, 62, rfl⟩
abbrev main_c_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_7 : Ref sig .tc := ⟨.hbm, 77, rfl⟩
abbrev main_v54 : Ref sig .tc := ⟨.hbm, 78, rfl⟩
abbrev main_v55 : Ref sig .tc := ⟨.hbm, 79, rfl⟩
abbrev main_c_8 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_9 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_10 : Ref sig .tc := ⟨.hbm, 91, rfl⟩
abbrev main_v65 : Ref sig .tc := ⟨.hbm, 92, rfl⟩
abbrev main_v66 : Ref sig .tc := ⟨.hbm, 93, rfl⟩
abbrev main_c_11 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_12 : Ref sig .tc := ⟨.hbm, 98, rfl⟩
abbrev main_v70 : Ref sig .tc := ⟨.hbm, 99, rfl⟩
abbrev main_v71 : Ref sig .tc := ⟨.hbm, 100, rfl⟩
abbrev main_cst_13 : Ref sig .tc := ⟨.hbm, 101, rfl⟩
abbrev main_v72 : Ref sig .tc := ⟨.hbm, 102, rfl⟩
abbrev main_v73 : Ref sig .tc := ⟨.hbm, 103, rfl⟩
abbrev main_c_14 : Ref sig .tc := ⟨.hbm, 104, rfl⟩
abbrev main_v74 : Ref sig .tc := ⟨.hbm, 105, rfl⟩
abbrev main_c_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_16 : Ref sig .tc := ⟨.hbm, 111, rfl⟩
abbrev main_v79 : Ref sig .tc := ⟨.hbm, 112, rfl⟩
abbrev main_c_17 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84_0 : Ref sig .tc := ⟨.hbm, 118, rfl⟩
abbrev main_v84_1 : Ref sig .tc := ⟨.hbm, 119, rfl⟩
abbrev main_v84_2 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_18 : Ref sig .tc := ⟨.hbm, 129, rfl⟩
abbrev main_v93 : Ref sig .tc := ⟨.hbm, 130, rfl⟩
abbrev main_v94 : Ref sig .tc := ⟨.hbm, 131, rfl⟩
abbrev main_c_19 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c_20 : Ref sig .tc := ⟨.hbm, 138, rfl⟩
abbrev main_v100 : Ref sig .tc := ⟨.hbm, 139, rfl⟩
abbrev main_v101 : Ref sig .tc := ⟨.hbm, 140, rfl⟩
abbrev main_c_21 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg6_0 : Ref sig .tc := ⟨.vmem, 35, rfl⟩
abbrev cc4_stg6_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg2_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg6_0 : Ref sig .tc := ⟨.vmem, 50, rfl⟩
abbrev cc6_stg6_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg2_1 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg1_1 : Ref sig .tc := ⟨.vmem, 60, rfl⟩
abbrev cc8_stg2_0 : Ref sig .tc := ⟨.vmem, 61, rfl⟩
abbrev cc8_stg3_0 : Ref sig .tc := ⟨.vmem, 62, rfl⟩
abbrev cc8_stg4_0 : Ref sig .tc := ⟨.vmem, 63, rfl⟩
abbrev cc8_stg5_0 : Ref sig .tc := ⟨.vmem, 64, rfl⟩
abbrev cc8_stg6_0 : Ref sig .tc := ⟨.vmem, 65, rfl⟩
abbrev cc8_stg6_1 : Ref sig .tc := ⟨.vmem, 66, rfl⟩
abbrev cc9_stg0_0 : Ref sig .tc := ⟨.vmem, 67, rfl⟩
abbrev cc9_stg0_1 : Ref sig .tc := ⟨.vmem, 68, rfl⟩
abbrev cc9_stg1_0 : Ref sig .tc := ⟨.vmem, 69, rfl⟩
abbrev cc9_stg2_0 : Ref sig .tc := ⟨.vmem, 70, rfl⟩
abbrev cc9_stg3_0 : Ref sig .tc := ⟨.vmem, 71, rfl⟩
abbrev cc9_stg3_1 : Ref sig .tc := ⟨.vmem, 72, rfl⟩
abbrev cc9_stg4_0 : Ref sig .tc := ⟨.vmem, 73, rfl⟩
abbrev cc9_stg4_1 : Ref sig .tc := ⟨.vmem, 74, rfl⟩
abbrev cc9_stg5_0 : Ref sig .tc := ⟨.vmem, 75, rfl⟩
abbrev cc9_stg5_1 : Ref sig .tc := ⟨.vmem, 76, rfl⟩
abbrev cc9_stg6_0 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem6_0 : DmaSem sig := 35
abbrev cc4_sem6_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem2_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem5_0 : DmaSem sig := 49
abbrev cc6_sem6_0 : DmaSem sig := 50
abbrev cc6_sem6_1 : DmaSem sig := 51
abbrev cc7_sem0_0 : DmaSem sig := 52
abbrev cc7_sem0_1 : DmaSem sig := 53
abbrev cc7_sem1_0 : DmaSem sig := 54
abbrev cc7_sem2_0 : DmaSem sig := 55
abbrev cc7_sem2_1 : DmaSem sig := 56
abbrev cc8_sem0_0 : DmaSem sig := 57
abbrev cc8_sem0_1 : DmaSem sig := 58
abbrev cc8_sem1_0 : DmaSem sig := 59
abbrev cc8_sem1_1 : DmaSem sig := 60
abbrev cc8_sem2_0 : DmaSem sig := 61
abbrev cc8_sem3_0 : DmaSem sig := 62
abbrev cc8_sem4_0 : DmaSem sig := 63
abbrev cc8_sem5_0 : DmaSem sig := 64
abbrev cc8_sem6_0 : DmaSem sig := 65
abbrev cc8_sem6_1 : DmaSem sig := 66
abbrev cc9_sem0_0 : DmaSem sig := 67
abbrev cc9_sem0_1 : DmaSem sig := 68
abbrev cc9_sem1_0 : DmaSem sig := 69
abbrev cc9_sem2_0 : DmaSem sig := 70
abbrev cc9_sem3_0 : DmaSem sig := 71
abbrev cc9_sem3_1 : DmaSem sig := 72
abbrev cc9_sem4_0 : DmaSem sig := 73
abbrev cc9_sem4_1 : DmaSem sig := 74
abbrev cc9_sem5_0 : DmaSem sig := 75
abbrev cc9_sem5_1 : DmaSem sig := 76
abbrev cc9_sem6_0 : DmaSem sig := 77

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x27 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S27x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x384 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x384 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x384 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x384 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x384 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x384 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x384 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x384 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x384 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x384 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x384 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x384 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S2000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x1 .i32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S2000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S2000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 1 → Memref sig .tc .vmem S512x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

class Facts₀ : Prop where
  inb_S5000x27_S5000x27_0_0 : ∀ a, (![0, 0] : Fin 2 → Nat) a + S5000x27.size a ≤ S5000x27.size a
  h_S5000x27 : 0 < S5000x27.numel
  bitsLt_bf16_f32 : FTy.bits .bf16 < FTy.bits .f32
  inb_S27x64_S27x64_0_0 : ∀ a, (![0, 0] : Fin 2 → Nat) a + S27x64.size a ≤ S27x64.size a
  h_S27x64 : 0 < S27x64.numel
  inb_S5000x64_S5000x64_0_0 : ∀ a, (![0, 0] : Fin 2 → Nat) a + S5000x64.size a ≤ S5000x64.size a
  h_S5000x64 : 0 < S5000x64.numel
  concatenates_S5000x64_S5000x64_S5000x128_d1 : Shape.Concatenates [S5000x64, S5000x64] S5000x128 1
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S384x128_S128x384_1_0 : S384x128.Transposes [1, 0] S128x384
  shapeCasts_S384_S1x384 : S384.ShapeCasts S1x384
  slices_S4x128x128_S1x128x128_0_0_0 : S4x128x128.Slices ![0, 0, 0] S1x128x128
  shapeCasts_S1x128x128_S128x128 : S1x128x128.ShapeCasts S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  bcast_S_S128x128 : S_.BroadcastsInDim S128x128 (![] : Fin 0 → Fin S128x128.rank)
  shapeCasts_S128x1_S128 : S128x1.ShapeCasts S128
  bcast_S_S1 : S_.BroadcastsInDim S1 (![] : Fin 0 → Fin S1.rank)
  bcast_S_S1x128 : S_.BroadcastsInDim S1x128 (![] : Fin 0 → Fin S1x128.rank)
  shapeCasts_S1_S_ : S1.ShapeCasts S_
  concatenates_S1_S1_S2_d0 : Shape.Concatenates [S1, S1] S2 0
  shapeCasts_S100000_S100000x1 : S100000.ShapeCasts S100000x1
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  iota_S2000x512_d1_w32 : S2000x512.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  natLt_1_32 : 1 < 32
  slices_S2000x128_o0_0_S2000x1 : S2000x128.Slices ![0, 0] S2000x1
  slices_S2000x128_o0_1_S2000x1 : S2000x128.Slices ![0, 1] S2000x1
  concatenates_S2000x1_S2000x1_S2000x126_S2000x128_d1 : Shape.Concatenates [S2000x1, S2000x1, S2000x126] S2000x128 1
  transposes_S2000x512_p1_0_S512x2000 : S2000x512.Transposes [1, 0] S512x2000
  shapeCasts_S512x128_S512x128 : S512x128.ShapeCasts S512x128
  slices_S100000x128_S100000x1_0_0 : S100000x128.Slices ![0, 0] S100000x1
  shapeCasts_S100000x1_S100000 : S100000x1.ShapeCasts S100000
  slices_S100000x128_S100000x1_0_1 : S100000x128.Slices ![0, 1] S100000x1
  slices_S512x128_S512x1_0_0 : S512x128.Slices ![0, 0] S512x1
  shapeCasts_S512x1_S512 : S512x1.ShapeCasts S512
  slices_S512x128_S512x1_0_1 : S512x128.Slices ![0, 1] S512x1
  bcast_S_S100000 : S_.BroadcastsInDim S100000 (![] : Fin 0 → Fin S100000.rank)
  bcast_S100000_S100000x1_0 : S100000.BroadcastsInDim S100000x1 (![0] : Fin 1 → Fin S100000x1.rank)
  dot_S5000x27_S27x64_S5000x64_1_0_0_1_n_n_wf : DotDims.WF S5000x27 S27x64 S5000x64 [1] [0] [0] [1] [] []
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x384_S2000x384_1_0_0_1_n_n_wf : DotDims.WF S2000x128 S128x384 S2000x384 [1] [0] [0] [1] [] []
  scatter_S128x128_S1_S128_0_1_1_0_wf : ScatterDims.WF S128x128 S1 S128 [0] [1] [1] 0
  scatter_S1x128_S2_S__n_01_01_0_wf : ScatterDims.WF S1x128 S2 S_ [] [0, 1] [0, 1] 0
  dot_S2000x128_S128x128_S2000x128_1_0_0_1_n_n_wf : DotDims.WF S2000x128 S128x128 S2000x128 [1] [0] [0] [1] [] []
  dot_S512x2000_S2000x128_S512x128_1_0_0_1_n_n_wf : DotDims.WF S512x2000 S2000x128 S512x128 [1] [0] [0] [1] [] []
  gather_S512_S100000x1_S100000_n_0_n_n_0_1_1_wf : GatherDims.WF S512 S100000x1 S100000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x27.size a ≤ S100000x27.size a
  hwx0_0 : ∀ i : grid0.Coords, EltTy.bits .f32 = 32 ∨ (Rect.block (s := S100000x27) S5000x27.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S27x64.size a ≤ S27x64.size a
  hwx0_1 : ∀ i : grid0.Coords, EltTy.bits .f32 = 32 ∨ (Rect.block (s := S27x64) S27x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x384.size a ≤ S128x384.size a
  hwx2_2 : ∀ i : grid2.Coords, EltTy.bits .f32 = 32 ∨ (Rect.block (s := S128x384) S128x384.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x384.size a ≤ S128x384.size a
  hwx2_3 : ∀ i : grid2.Coords, EltTy.bits .f32 = 32 ∨ (Rect.block (s := S128x384) S128x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x384.size a ≤ S1x384.size a
  hwx2_4 : ∀ i : grid2.Coords, EltTy.bits .f32 = 32 ∨ (Rect.block (s := S1x384) S1x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x384.size a ≤ S128x384.size a
  hwx4_2 : ∀ i : grid4.Coords, EltTy.bits .f32 = 32 ∨ (Rect.block (s := S128x384) S128x384.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x384.size a ≤ S128x384.size a
  hwx4_3 : ∀ i : grid4.Coords, EltTy.bits .f32 = 32 ∨ (Rect.block (s := S128x384) S128x384.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x384.size a ≤ S1x384.size a
  hwx4_4 : ∀ i : grid4.Coords, EltTy.bits .f32 = 32 ∨ (Rect.block (s := S1x384) S1x384.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x384.size a ≤ S1x384.size a
  hwx4_5 : ∀ i : grid4.Coords, EltTy.bits .f32 = 32 ∨ (Rect.block (s := S1x384) S1x384.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S100000x128.size a
  hwx4_6 : ∀ i : grid4.Coords, EltTy.bits .f32 = 32 ∨ (Rect.block (s := S100000x128) S2000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S100000x128.size a
  hwx6_1 : ∀ i : grid6.Coords, EltTy.bits .f32 = 32 ∨ (Rect.block (s := S100000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x384.size a ≤ S128x384.size a
  hwx6_2 : ∀ i : grid6.Coords, EltTy.bits .f32 = 32 ∨ (Rect.block (s := S128x384) S128x384.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x384.size a ≤ S128x384.size a
  hwx6_3 : ∀ i : grid6.Coords, EltTy.bits .f32 = 32 ∨ (Rect.block (s := S128x384) S128x384.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x384.size a ≤ S1x384.size a
  hwx6_4 : ∀ i : grid6.Coords, EltTy.bits .f32 = 32 ∨ (Rect.block (s := S1x384) S1x384.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x384.size a ≤ S1x384.size a
  hwx6_5 : ∀ i : grid6.Coords, EltTy.bits .f32 = 32 ∨ (Rect.block (s := S1x384) S1x384.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x128.size a ≤ S100000x128.size a
  hwx6_6 : ∀ i : grid6.Coords, EltTy.bits .f32 = 32 ∨ (Rect.block (s := S100000x128) S2000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S100000x128.size a
  hwx8_0 : ∀ i : grid8.Coords, EltTy.bits .f32 = 32 ∨ (Rect.block (s := S100000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S100000x128.size a
  hwx8_1 : ∀ i : grid8.Coords, EltTy.bits .f32 = 32 ∨ (Rect.block (s := S100000x128) S2000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x384.size a ≤ S128x384.size a
  hwx8_2 : ∀ i : grid8.Coords, EltTy.bits .f32 = 32 ∨ (Rect.block (s := S128x384) S128x384.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x384.size a ≤ S128x384.size a
  hwx8_3 : ∀ i : grid8.Coords, EltTy.bits .f32 = 32 ∨ (Rect.block (s := S128x384) S128x384.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x384.size a ≤ S1x384.size a
  hwx8_4 : ∀ i : grid8.Coords, EltTy.bits .f32 = 32 ∨ (Rect.block (s := S1x384) S1x384.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x384.size a ≤ S1x384.size a
  hwx8_5 : ∀ i : grid8.Coords, EltTy.bits .f32 = 32 ∨ (Rect.block (s := S1x384) S1x384.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S2000x128.size a ≤ S100000x128.size a
  hwx8_6 : ∀ i : grid8.Coords, EltTy.bits .f32 = 32 ∨ (Rect.block (s := S100000x128) S2000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S100000x128.size a
  hwx9_0 : ∀ i : grid9.Coords, EltTy.bits .f32 = 32 ∨ (Rect.block (s := S100000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x1.size a ≤ S100000x1.size a
  hwx9_3 : ∀ i : grid9.Coords, EltTy.bits .i32 = 32 ∨ (Rect.block (s := S100000x1) S2000x1.size (cc9_transform_3 i) (hinb9_3 i)).WholeWords (EltTy.packing .i32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2000x128.size a ≤ S100000x128.size a
  hwx9_4 : ∀ i : grid9.Coords, EltTy.bits .f32 = 32 ∨ (Rect.block (s := S100000x128) S2000x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x128.size a ≤ S100000x128.size a
  hwx9_5 : ∀ i : grid9.Coords, EltTy.bits .f32 = 32 ∨ (Rect.block (s := S100000x128) S2000x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S512x128.size a ≤ S512x128.size a
  hwx9_6 : ∀ i : grid9.Coords, EltTy.bits .f32 = 32 ∨ (Rect.block (s := S512x128) S512x128.size (cc9_transform_6 i) (hinb9_6 i)).WholeWords (EltTy.packing .f32)

variable [Facts₀]

def dot_S5000x27_S27x64_S5000x64_1_0_0_1_n_n : DotDims S5000x27 S27x64 S5000x64 where
  lhsContracting := [1]
  rhsContracting := [0]
  lhsNonContracting := [0]
  rhsNonContracting := [1]
  lhsBatch := []
  rhsBatch := []
  wf := dot_S5000x27_S27x64_S5000x64_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def scatter_S128x128_S1_S128_0_1_1_0 : ScatterDims S128x128 S1 S128 where
  updateWindowDims := [0]
  insertedWindowDims := [1]
  scatterDimsToOperandDims := [1]
  indexVectorDim := 0
  wf := scatter_S128x128_S1_S128_0_1_1_0_wf
def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S512x2000_S2000x128_S512x128_1_0_0_1_n_n : DotDims S512x2000 S2000x128 S512x128 where
  lhsContracting := [1]
  rhsContracting := [0]
  lhsNonContracting := [0]
  rhsNonContracting := [1]
  lhsBatch := []
  rhsBatch := []
  wf := dot_S512x2000_S2000x128_S512x128_1_0_0_1_n_n_wf
def gather_S512_S100000x1_S100000_n_0_n_n_0_1_1 : GatherDims S512 S100000x1 S100000 where
  offsetDims := []
  collapsedSliceDims := [0]
  operandBatchingDims := []
  startIndicesBatchingDims := []
  startIndexMap := [0]
  indexVectorDim := 1
  sliceSizes := ![1]
  wf := gather_S512_S100000x1_S100000_n_0_n_n_0_1_1_wf

abbrev win0_0 : Pipeline.Window sig grid0 :=
  Pipeline.Window.ofSpec (Memref.whole main_arg0) S5000x27.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S27x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S5000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v21) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_1) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S128x384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S128x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v22) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v25) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v35) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v22) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v5) S128x384.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v6) S128x384.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v7) S1x384.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v8) S1x384.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v36) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v36) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v38) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v39) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v49) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v36) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v5) S128x384.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v6) S128x384.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v7) S1x384.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v8) S1x384.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v50) S2000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v50) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v52) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v53) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v63) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v50) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v5) S128x384.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v6) S128x384.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v7) S1x384.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v8) S1x384.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v64) S2000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v64) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v71) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v82) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v83) S2000x1.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v84_0) S2000x128.size cc9_transform_4 reads9_4 true false 2 stage9_4 sem9_4
    hrank9 hreads9_4 hinb9_4 nbuf9_4 (Memref.isWhole_whole _) hwx9_4 hstage9_4

abbrev win9_5 : Pipeline.Window sig grid9 :=
  Pipeline.Window.ofSpec (Memref.whole main_v84_1) S2000x128.size cc9_transform_5 reads9_5 true false 2 stage9_5 sem9_5
    hrank9 hreads9_5 hinb9_5 nbuf9_5 (Memref.isWhole_whole _) hwx9_5 hstage9_5

abbrev win9_6 : Pipeline.Window sig grid9 :=
  Pipeline.Window.ofSpec (Memref.whole main_v84_2) S512x128.size cc9_transform_6 reads9_6 true true 1 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

class Facts : Prop extends Facts₀ where

variable [Facts]
-- ==== ReferenceIdeal.lean ====
abbrev S100000x27 : Shape := ⟨2, ![100000, 27]⟩
abbrev S2x1600000 : Shape := ⟨2, ![2, 1600000]⟩
abbrev S100000 : Shape := ⟨1, ![100000]⟩
abbrev S27x64 : Shape := ⟨2, ![27, 64]⟩
abbrev S4x128x128 : Shape := ⟨3, ![4, 128, 128]⟩
abbrev S384x128 : Shape := ⟨2, ![384, 128]⟩
abbrev S384 : Shape := ⟨1, ![384]⟩
abbrev S128x1 : Shape := ⟨2, ![128, 1]⟩
abbrev S1 : Shape := ⟨1, ![1]⟩
abbrev S100000x64 : Shape := ⟨2, ![100000, 64]⟩
abbrev S_ : Shape := ⟨0, ![]⟩
abbrev S100000x128 : Shape := ⟨2, ![100000, 128]⟩
abbrev S1x1600000 : Shape := ⟨2, ![1, 1600000]⟩
abbrev S1600000 : Shape := ⟨1, ![1600000]⟩
abbrev S1x128x128 : Shape := ⟨3, ![1, 128, 128]⟩
abbrev S128x128 : Shape := ⟨2, ![128, 128]⟩
abbrev S1600000x1 : Shape := ⟨2, ![1600000, 1]⟩
abbrev S1600000x128 : Shape := ⟨2, ![1600000, 128]⟩
abbrev S128x384 : Shape := ⟨2, ![128, 384]⟩
abbrev S100000x384 : Shape := ⟨2, ![100000, 384]⟩
abbrev S1x384 : Shape := ⟨2, ![1, 384]⟩
abbrev S100000x1 : Shape := ⟨2, ![100000, 1]⟩
abbrev S1x1 : Shape := ⟨2, ![1, 1]⟩
abbrev S512x1 : Shape := ⟨2, ![512, 1]⟩

abbrev nBuf : Space → Nat
  | .hbm => 322
  | .vmem => 0
  | .smem => 0
  | _ => 0

abbrev hbmTy0_0 (i : Nat) : BufTy := match i % 128 with
  | 0 => ⟨S100000x27, .f32⟩
  | 1 => ⟨S2x1600000, .i32⟩
  | 2 => ⟨S100000, .i32⟩
  | 3 => ⟨S27x64, .f32⟩
  | 4 => ⟨S4x128x128, .f32⟩
  | 5 => ⟨S384x128, .f32⟩
  | 6 => ⟨S384x128, .f32⟩
  | 7 => ⟨S384, .f32⟩
  | 8 => ⟨S384, .f32⟩
  | 9 => ⟨S128x1, .f32⟩
  | 10 => ⟨S1, .f32⟩
  | 11 => ⟨S128x1, .f32⟩
  | 12 => ⟨S1, .f32⟩
  | 13 => ⟨S100000x64, .f32⟩
  | 14 => ⟨S100000x64, .f32⟩
  | 15 => ⟨S100000x64, .f32⟩
  | 16 => ⟨S_, .f32⟩
  | 17 => ⟨S100000x64, .f32⟩
  | 18 => ⟨S100000x64, .f32⟩
  | 19 => ⟨S_, .f32⟩
  | 20 => ⟨S100000x64, .f32⟩
  | 21 => ⟨S100000x64, .f32⟩
  | 22 => ⟨S_, .i32⟩
  | 23 => ⟨S_, .f32⟩
  | 24 => ⟨S100000x128, .f32⟩
  | 25 => ⟨S1x1600000, .i32⟩
  | 26 => ⟨S1600000, .i32⟩
  | 27 => ⟨S1x1600000, .i32⟩
  | 28 => ⟨S1600000, .i32⟩
  | 29 => ⟨S1x128x128, .f32⟩
  | 30 => ⟨S128x128, .f32⟩
  | 31 => ⟨S100000x128, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .f32⟩
  | 41 => ⟨S_, .f32⟩
  | 42 => ⟨S100000x128, .f32⟩
  | 43 => ⟨S1600000x1, .i32⟩
  | 44 => ⟨S100000x128, .f32⟩
  | 45 => ⟨S128x384, .f32⟩
  | 46 => ⟨S100000x384, .f32⟩
  | 47 => ⟨S1x384, .f32⟩
  | 48 => ⟨S100000x384, .f32⟩
  | 49 => ⟨S100000x384, .f32⟩
  | 50 => ⟨S128x384, .f32⟩
  | 51 => ⟨S100000x384, .f32⟩
  | 52 => ⟨S1x384, .f32⟩
  | 53 => ⟨S100000x384, .f32⟩
  | 54 => ⟨S100000x384, .f32⟩
  | 55 => ⟨S100000x128, .f32⟩
  | 56 => ⟨S100000x128, .f32⟩
  | 57 => ⟨S100000x128, .f32⟩
  | 58 => ⟨S100000x128, .f32⟩
  | 59 => ⟨S100000x128, .f32⟩
  | 60 => ⟨S100000x128, .f32⟩
  | 61 => ⟨S100000x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S100000x128, .f32⟩
  | 86 => ⟨S100000x128, .f32⟩
  | 87 => ⟨S100000x128, .f32⟩
  | 88 => ⟨S1x128x128, .f32⟩
  | 89 => ⟨S128x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S128x384, .f32⟩
  | 105 => ⟨S100000x384, .f32⟩
  | 106 => ⟨S1x384, .f32⟩
  | 107 => ⟨S100000x384, .f32⟩
  | 108 => ⟨S100000x384, .f32⟩
  | 109 => ⟨S128x384, .f32⟩
  | 110 => ⟨S100000x384, .f32⟩
  | 111 => ⟨S1x384, .f32⟩
  | 112 => ⟨S100000x384, .f32⟩
  | 113 => ⟨S100000x384, .f32⟩
  | 114 => ⟨S100000x128, .f32⟩
  | 115 => ⟨S100000x128, .f32⟩
  | 116 => ⟨S100000x128, .f32⟩
  | 117 => ⟨S100000x128, .f32⟩
  | 118 => ⟨S100000x128, .f32⟩
  | 119 => ⟨S100000x128, .f32⟩
  | 120 => ⟨S100000x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S_, .f32⟩
  | 127 => ⟨S100000x128, .f32⟩
  | _ => ⟨S100000x27, .f32⟩

abbrev hbmTy0_1 (i : Nat) : BufTy := match i % 128 with
  | 0 => ⟨S100000x128, .f32⟩
  | 1 => ⟨S100000x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S100000x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S100000x128, .f32⟩
  | 17 => ⟨S100000x128, .f32⟩
  | 18 => ⟨S100000x128, .f32⟩
  | 19 => ⟨S1x128x128, .f32⟩
  | 20 => ⟨S128x128, .f32⟩
  | 21 => ⟨S100000x128, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S128x384, .f32⟩
  | 36 => ⟨S100000x384, .f32⟩
  | 37 => ⟨S1x384, .f32⟩
  | 38 => ⟨S100000x384, .f32⟩
  | 39 => ⟨S100000x384, .f32⟩
  | 40 => ⟨S128x384, .f32⟩
  | 41 => ⟨S100000x384, .f32⟩
  | 42 => ⟨S1x384, .f32⟩
  | 43 => ⟨S100000x384, .f32⟩
  | 44 => ⟨S100000x384, .f32⟩
  | 45 => ⟨S100000x128, .f32⟩
  | 46 => ⟨S100000x128, .f32⟩
  | 47 => ⟨S100000x128, .f32⟩
  | 48 => ⟨S100000x128, .f32⟩
  | 49 => ⟨S100000x128, .f32⟩
  | 50 => ⟨S100000x128, .f32⟩
  | 51 => ⟨S100000x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S100000x128, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S100000x128, .f32⟩
  | 77 => ⟨S100000x128, .f32⟩
  | 78 => ⟨S1x128x128, .f32⟩
  | 79 => ⟨S128x128, .f32⟩
  | 80 => ⟨S100000x128, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S128x384, .f32⟩
  | 95 => ⟨S100000x384, .f32⟩
  | 96 => ⟨S1x384, .f32⟩
  | 97 => ⟨S100000x384, .f32⟩
  | 98 => ⟨S100000x384, .f32⟩
  | 99 => ⟨S128x384, .f32⟩
  | 100 => ⟨S100000x384, .f32⟩
  | 101 => ⟨S1x384, .f32⟩
  | 102 => ⟨S100000x384, .f32⟩
  | 103 => ⟨S100000x384, .f32⟩
  | 104 => ⟨S100000x128, .f32⟩
  | 105 => ⟨S100000x128, .f32⟩
  | 106 => ⟨S100000x128, .f32⟩
  | 107 => ⟨S100000x128, .f32⟩
  | 108 => ⟨S100000x128, .f32⟩
  | 109 => ⟨S100000x128, .f32⟩
  | 110 => ⟨S100000x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S100000x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x27, .f32⟩

abbrev hbmTy0_2 (i : Nat) : BufTy := match i % 128 with
  | 0 => ⟨S100000x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S100000x1, .f32⟩
  | 13 => ⟨S1x1, .f32⟩
  | 14 => ⟨S100000x1, .f32⟩
  | 15 => ⟨S100000x1, .f32⟩
  | 16 => ⟨S100000x1, .f32⟩
  | 17 => ⟨S1x1, .f32⟩
  | 18 => ⟨S100000x1, .f32⟩
  | 19 => ⟨S100000x1, .f32⟩
  | 20 => ⟨S_, .f32⟩
  | 21 => ⟨S100000x1, .f32⟩
  | 22 => ⟨S100000x1, .f32⟩
  | 23 => ⟨S100000x1, .f32⟩
  | 24 => ⟨S100000x1, .f32⟩
  | 25 => ⟨S100000x1, .i1⟩
  | 26 => ⟨S100000x1, .f32⟩
  | 27 => ⟨S100000x1, .f32⟩
  | 28 => ⟨S100000x1, .f32⟩
  | 29 => ⟨S100000x1, .f32⟩
  | 30 => ⟨S100000x1, .f32⟩
  | 31 => ⟨S100000x1, .f32⟩
  | 32 => ⟨S100000x1, .f32⟩
  | 33 => ⟨S100000x1, .f32⟩
  | 34 => ⟨S_, .f32⟩
  | 35 => ⟨S512x1, .f32⟩
  | 36 => ⟨S100000x1, .i32⟩
  | 37 => ⟨S512x1, .f32⟩
  | 38 => ⟨S_, .f32⟩
  | 39 => ⟨S512x1, .f32⟩
  | 40 => ⟨S100000x1, .i32⟩
  | 41 => ⟨S512x1, .f32⟩
  | 42 => ⟨S_, .i32⟩
  | 43 => ⟨S100000, .i32⟩
  | 44 => ⟨S100000, .i1⟩
  | 45 => ⟨S_, .i32⟩
  | 46 => ⟨S100000, .i32⟩
  | 47 => ⟨S100000, .i32⟩
  | 48 => ⟨S100000, .i32⟩
  | 49 => ⟨S100000x1, .i32⟩
  | 50 => ⟨S100000x1, .f32⟩
  | 51 => ⟨S_, .i32⟩
  | 52 => ⟨S100000, .i32⟩
  | 53 => ⟨S100000, .i1⟩
  | 54 => ⟨S_, .i32⟩
  | 55 => ⟨S100000, .i32⟩
  | 56 => ⟨S100000, .i32⟩
  | 57 => ⟨S100000, .i32⟩
  | 58 => ⟨S100000x1, .i32⟩
  | 59 => ⟨S100000x1, .f32⟩
  | 60 => ⟨S100000x1, .f32⟩
  | 61 => ⟨S100000x1, .f32⟩
  | 62 => ⟨S100000x1, .f32⟩
  | 63 => ⟨S100000, .f32⟩
  | 64 => ⟨S100000, .f32⟩
  | 65 => ⟨S100000, .f32⟩
  | _ => ⟨S100000x27, .f32⟩

abbrev hbmTy (i : Nat) : BufTy := match i / 128 with
  | 0 => hbmTy0_0 i
  | 1 => hbmTy0_1 i
  | 2 => hbmTy0_2 i
  | _ => ⟨S100000x27, .f32⟩

abbrev bufTy : (tb : Table) → Fin (tcTables nBuf tb) → BufTy
  | .hbm, ⟨i, _⟩ => hbmTy i
  | _, _ => ⟨S100000x27, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_call0_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_8 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_9 : Ref sig .tc := ⟨.hbm, 91, rfl⟩
abbrev main_v66 : Ref sig .tc := ⟨.hbm, 92, rfl⟩
abbrev main_v67 : Ref sig .tc := ⟨.hbm, 93, rfl⟩
abbrev main_c_10 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_11 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_12 : Ref sig .tc := ⟨.hbm, 123, rfl⟩
abbrev main_v95 : Ref sig .tc := ⟨.hbm, 124, rfl⟩
abbrev main_v96 : Ref sig .tc := ⟨.hbm, 125, rfl⟩
abbrev main_cst_13 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_14 : Ref sig .tc := ⟨.hbm, 132, rfl⟩
abbrev main_v102 : Ref sig .tc := ⟨.hbm, 133, rfl⟩
abbrev main_v103 : Ref sig .tc := ⟨.hbm, 134, rfl⟩
abbrev main_cst_15 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_16 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_c_17 : Ref sig .tc := ⟨.hbm, 150, rfl⟩
abbrev main_v117 : Ref sig .tc := ⟨.hbm, 151, rfl⟩
abbrev main_v118 : Ref sig .tc := ⟨.hbm, 152, rfl⟩
abbrev main_c_18 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_19 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_cst_20 : Ref sig .tc := ⟨.hbm, 182, rfl⟩
abbrev main_v146 : Ref sig .tc := ⟨.hbm, 183, rfl⟩
abbrev main_v147 : Ref sig .tc := ⟨.hbm, 184, rfl⟩
abbrev main_cst_21 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_cst_22 : Ref sig .tc := ⟨.hbm, 191, rfl⟩
abbrev main_v153 : Ref sig .tc := ⟨.hbm, 192, rfl⟩
abbrev main_v154 : Ref sig .tc := ⟨.hbm, 193, rfl⟩
abbrev main_cst_23 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_cst_24 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_c_25 : Ref sig .tc := ⟨.hbm, 209, rfl⟩
abbrev main_v168 : Ref sig .tc := ⟨.hbm, 210, rfl⟩
abbrev main_v169 : Ref sig .tc := ⟨.hbm, 211, rfl⟩
abbrev main_c_26 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_cst_27 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_cst_28 : Ref sig .tc := ⟨.hbm, 241, rfl⟩
abbrev main_v197 : Ref sig .tc := ⟨.hbm, 242, rfl⟩
abbrev main_v198 : Ref sig .tc := ⟨.hbm, 243, rfl⟩
abbrev main_cst_29 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_cst_30 : Ref sig .tc := ⟨.hbm, 250, rfl⟩
abbrev main_v204 : Ref sig .tc := ⟨.hbm, 251, rfl⟩
abbrev main_v205 : Ref sig .tc := ⟨.hbm, 252, rfl⟩
abbrev main_cst_31 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_cst_32 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_call1_cst : Ref sig .tc := ⟨.hbm, 265, rfl⟩
abbrev main_call1_v0 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_call2_cst : Ref sig .tc := ⟨.hbm, 276, rfl⟩
abbrev main_call2_v0 : Ref sig .tc := ⟨.hbm, 277, rfl⟩
abbrev main_call2_v1 : Ref sig .tc := ⟨.hbm, 278, rfl⟩
abbrev main_call2_v2 : Ref sig .tc := ⟨.hbm, 279, rfl⟩
abbrev main_call2_v3 : Ref sig .tc := ⟨.hbm, 280, rfl⟩
abbrev main_call2_v4 : Ref sig .tc := ⟨.hbm, 281, rfl⟩
abbrev main_call2_v5 : Ref sig .tc := ⟨.hbm, 282, rfl⟩
abbrev main_call2_v6 : Ref sig .tc := ⟨.hbm, 283, rfl⟩
abbrev main_call2_v7 : Ref sig .tc := ⟨.hbm, 284, rfl⟩
abbrev main_call2_v8 : Ref sig .tc := ⟨.hbm, 285, rfl⟩
abbrev main_call2_v9 : Ref sig .tc := ⟨.hbm, 286, rfl⟩
abbrev main_call2_v10 : Ref sig .tc := ⟨.hbm, 287, rfl⟩
abbrev main_call2_v11 : Ref sig .tc := ⟨.hbm, 288, rfl⟩
abbrev main_v225 : Ref sig .tc := ⟨.hbm, 289, rfl⟩
abbrev main_cst_33 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_cst_34 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_c_35 : Ref sig .tc := ⟨.hbm, 298, rfl⟩
abbrev main_v232 : Ref sig .tc := ⟨.hbm, 299, rfl⟩
abbrev main_v233 : Ref sig .tc := ⟨.hbm, 300, rfl⟩
abbrev main_c_36 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_c_37 : Ref sig .tc := ⟨.hbm, 307, rfl⟩
abbrev main_v239 : Ref sig .tc := ⟨.hbm, 308, rfl⟩
abbrev main_v240 : Ref sig .tc := ⟨.hbm, 309, rfl⟩
abbrev main_c_38 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  pads_S100000x64_S100000x128_000_0640 : S100000x64.Pads (![0, 0] : Fin 2 → Nat) ![0, 64] ![0, 0] S100000x128
  h_S_ : 0 < S_.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S4x128x128_S1x128x128_0_0_0 : S4x128x128.Slices ![0, 0, 0] S1x128x128
  shapeCasts_S1x128x128_S128x128 : S1x128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S_S512x1 : S_.BroadcastsInDim S512x1 (![] : Fin 0 → Fin S512x1.rank)
  bcast_S100000_S100000x1_0 : S100000.BroadcastsInDim S100000x1 (![0] : Fin 1 → Fin S100000x1.rank)
  bcast_S_S100000 : S_.BroadcastsInDim S100000 (![] : Fin 0 → Fin S100000.rank)
  shapeCasts_S100000x1_S100000 : S100000x1.ShapeCasts S100000
  dot_S100000x27_S27x64_S100000x64_1_0_0_1_n_n_wf : DotDims.WF S100000x27 S27x64 S100000x64 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x384_S100000x384_1_0_0_1_n_n_wf : DotDims.WF S100000x128 S128x384 S100000x384 [1] [0] [0] [1] [] []
  dot_S100000x128_S128x1_S100000x1_1_0_0_1_n_n_wf : DotDims.WF S100000x128 S128x1 S100000x1 [1] [0] [0] [1] [] []
  scatter_S512x1_S100000x1_S100000x1_1_0_0_1_wf : ScatterDims.WF S512x1 S100000x1 S100000x1 [1] [0] [0] 1
  gather_S512x1_S100000x1_S100000x1_1_0_n_n_0_1_11_wf : GatherDims.WF S512x1 S100000x1 S100000x1 [1] [0] [] [0] [] 1 ![1, 1]

variable [Facts₀]

def dot_S100000x27_S27x64_S100000x64_1_0_0_1_n_n : DotDims S100000x27 S27x64 S100000x64 where
  lhsContracting := [1]
  rhsContracting := [0]
  lhsNonContracting := [0]
  rhsNonContracting := [1]
  lhsBatch := []
  rhsBatch := []
  wf := dot_S100000x27_S27x64_S100000x64_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def gather_S512x1_S100000x1_S100000x1_1_0_n_n_0_1_11 : GatherDims S512x1 S100000x1 S100000x1 where
  offsetDims := [1]
  collapsedSliceDims := [0]
  operandBatchingDims := []
  startIndicesBatchingDims := []
  startIndexMap := [0]
  indexVectorDim := 1
  sliceSizes := ![1, 1]
  wf := gather_S512x1_S100000x1_S100000x1_1_0_n_n_0_1_11_wf

class Facts : Prop extends Facts₀ where

variable [Facts]
-- ==== Proof.Spec.lean ====
/-
  The mathematics both programs compute, stated once over the extended reals, entry by entry.

  A node table `x` of 100000 rows is embedded by one dense layer and a logistic, padded with zero columns to width
  128, and then passed four times through one round of message passing: a 128×128 product, an aggregation of the
  products' rows along the graph's edges (a parameter `Agg` here: both programs apply the very same chain of host
  operations to the edge list, so it is never opened), and a gated recurrent cell. Two linear heads on the rectified
  state give a mean `mu` and, through a softplus, a width `sigma`; both are summed per graph, and the mean is
  corrected by its graph's sum weighted by the width's share of its graph's sum.

  Every function below is given at literal row and column coordinates (`…At`) and as the array whose entry at
  `(r, j)` is that value.
-/
import Idealize.ShloMosaic.PureOps.Ideal
import Idealize.ShloMosaic.Lib.ValueIdx

noncomputable section

open scoped BigOperators

namespace Cert.Spec

open Idealize.ShloMosaic Idealize.ShloMosaic.ValueIdx

/-- An a×b array of extended reals. -/
abbrev Mat (a b : ℕ) := (⟨2, ![a, b]⟩ : Shape).Idx → EReal
/-- A vector of a extended reals. -/
abbrev Vc (a : ℕ) := (⟨1, ![a]⟩ : Shape).Idx → EReal

/-! ## The embedding -/

/-- Row r of `x` against column j of `w`, through the logistic. -/
def embedAt (x : Mat 100000 27) (w : Mat 27 64) (r : Fin 100000) (j : Fin 64) : EReal :=
  Ideal.logistic (∑ k : Fin 27, x (ix2 r k) * w (ix2 k j))
def embed (x : Mat 100000 27) (w : Mat 27 64) : Mat 100000 64 := fun i => embedAt x w (i 0) (i 1)
theorem embed_apply (x : Mat 100000 27) (w : Mat 27 64) (r : Fin 100000) (j : Fin 64) :
    embed x w (ix2 r j) = embedAt x w r j := rfl

/-- The embedding widened to 128 columns: the first 64 are the embedding's, the rest zero. -/
def padAt (e : Mat 100000 64) (r : Fin 100000) (j : Fin 128) : EReal :=
  if h : j.val < 64 then e (ix2 r ⟨j.val, h⟩) else 0
def pad (e : Mat 100000 64) : Mat 100000 128 := fun i => padAt e (i 0) (i 1)
theorem pad_apply (e : Mat 100000 64) (r : Fin 100000) (j : Fin 128) : pad e (ix2 r j) = padAt e r j := rfl

/-! ## One round: the message product and the gated cell -/

/-- Row r of the state against column j of the round's weight. -/
def msgAt (h : Mat 100000 128) (W : Mat 128 128) (r : Fin 100000) (j : Fin 128) : EReal :=
  ∑ k : Fin 128, h (ix2 r k) * W (ix2 k j)
def msg (h : Mat 100000 128) (W : Mat 128 128) : Mat 100000 128 := fun i => msgAt h W (i 0) (i 1)
theorem msg_apply (h : Mat 100000 128) (W : Mat 128 128) (r : Fin 100000) (j : Fin 128) :
    msg h W (ix2 r j) = msgAt h W r j := rfl

/-- One gate pre-activation: row r of `a` against column c of a 128×384 weight, plus the bias at c. -/
def gateAt (a : Mat 100000 128) (w : Mat 128 384) (b : Fin 384 → EReal) (r : Fin 100000) (c : Fin 384) : EReal :=
  (∑ k : Fin 128, a (ix2 r k) * w (ix2 k c)) + b c

/-- The three column blocks of a gate row: reset, update, candidate. -/
def col0 (j : Fin 128) : Fin 384 := ⟨j.val, by omega⟩
def col1 (j : Fin 128) : Fin 384 := ⟨j.val + 128, by omega⟩
def col2 (j : Fin 128) : Fin 384 := ⟨j.val + 256, by omega⟩

/-- The gated recurrent cell at (r, j): reset and update gates by the logistic of the summed pre-activations, the
    candidate by the hyperbolic tangent with the hidden part scaled by the reset gate, and the convex mix with the old
    state. -/
def gruAt (a h : Mat 100000 128) (wi wh : Mat 128 384) (bi bh : Fin 384 → EReal) (r : Fin 100000) (j : Fin 128) : EReal :=
  let rg := Ideal.logistic (gateAt a wi bi r (col0 j) + gateAt h wh bh r (col0 j))
  let zg := Ideal.logistic (gateAt a wi bi r (col1 j) + gateAt h wh bh r (col1 j))
  let ng := Ideal.tanh (gateAt a wi bi r (col2 j) + rg * gateAt h wh bh r (col2 j))
  (1 - zg) * ng + zg * h (ix2 r j)
def gru (a h : Mat 100000 128) (wi wh : Mat 128 384) (bi bh : Fin 384 → EReal) : Mat 100000 128 :=
  fun i => gruAt a h wi wh bi bh (i 0) (i 1)
theorem gru_apply (a h : Mat 100000 128) (wi wh : Mat 128 384) (bi bh : Fin 384 → EReal) (r : Fin 100000) (j : Fin 128) :
    gru a h wi wh bi bh (ix2 r j) = gruAt a h wi wh bi bh r j := rfl

/-- One round of message passing: product, aggregation along the edges, cell. -/
def round (Agg : Mat 100000 128 → Mat 100000 128) (W : Mat 128 128) (wi wh : Mat 128 384) (bi bh : Fin 384 → EReal)
    (h : Mat 100000 128) : Mat 100000 128 :=
  gru (Agg (msg h W)) h wi wh bi bh

/-! ## The heads -/

/-- A linear head on the rectified state: row r of max(h, 0) against a 128-column of weights, plus a bias. -/
def headAt (h : Mat 100000 128) (w : Fin 128 → EReal) (b : EReal) (r : Fin 100000) : EReal :=
  (∑ k : Fin 128, max (h (ix2 r k)) 0 * w k) + b

/-- The softplus, in the stable spelling: max(y, 0) + log(1 + e^(−|y|)). -/
def softplus (y : EReal) : EReal := max y 0 + Ideal.log1p (Ideal.exp (-(max y (-y))))

/-- The sum of the entries of `v` whose graph word, read signed, is g. -/
def segAt (batch : IVec ⟨1, ![100000]⟩ 32) (v : Fin 100000 → EReal) (g : Fin 512) : EReal :=
  ∑ n : Fin 100000, if (batch (ix1 n)).toInt = (g.val : ℤ) then v n else 0

/-- The corrected mean at node n, the node's graph read through q. -/
def corrAt (mu sig : Fin 100000 → EReal) (musum sigsum : Fin 512 → EReal) (q : Fin 100000 → Fin 512) (n : Fin 100000) : EReal :=
  mu n - musum (q n) * Ideal.div (sig n) (sigsum (q n))

/-! ## The whole network -/

/-- Everything the two host programs compute from the arguments by one and the same chain of operations: the
    aggregation along the edges, the four round weights, the two transposed cell weights, and the node-to-graph
    lookup. -/
structure Shared where
  Agg : Mat 100000 128 → Mat 100000 128
  W0 : Mat 128 128
  W1 : Mat 128 128
  W2 : Mat 128 128
  W3 : Mat 128 128
  wi : Mat 128 384
  wh : Mat 128 384
  q : Fin 100000 → Fin 512

/-- The state after the four rounds. -/
def state (S : Shared) (bi bh : Fin 384 → EReal) (x : Mat 100000 27) (w0 : Mat 27 64) : Mat 100000 128 :=
  round S.Agg S.W3 S.wi S.wh bi bh (round S.Agg S.W2 S.wi S.wh bi bh (round S.Agg S.W1 S.wi S.wh bi bh
    (round S.Agg S.W0 S.wi S.wh bi bh (pad (embed x w0)))))

/-- The uncorrected mean at node n. -/
def muAt (h : Mat 100000 128) (w1 : Fin 128 → EReal) (b1 : EReal) (n : Fin 100000) : EReal := headAt h w1 b1 n
/-- The width at node n. -/
def sigAt (h : Mat 100000 128) (w2 : Fin 128 → EReal) (b2 : EReal) (n : Fin 100000) : EReal := softplus (headAt h w2 b2 n)

/-- The corrected mean at node n. -/
def mucAt (batch : IVec ⟨1, ![100000]⟩ 32) (q : Fin 100000 → Fin 512) (h : Mat 100000 128)
    (w1 : Fin 128 → EReal) (b1 : EReal) (w2 : Fin 128 → EReal) (b2 : EReal) (n : Fin 100000) : EReal :=
  corrAt (muAt h w1 b1) (sigAt h w2 b2) (segAt batch (muAt h w1 b1)) (segAt batch (sigAt h w2 b2)) q n

/-! ## The last kernel's arrays, as it lays them out

The last kernel works on 128-wide rows: both heads share one 128×128 weight (column 0 the mean's, column 1 the
width's pre-activation, the other columns zero) and one bias row; it keeps column 0 of the linear result and
column 1 of its softplus, and sums those two columns per graph. -/

/-- The linear result at (r, c): row r of max(h, 0) against column c of the weight, plus the bias row at c. -/
def linAt (h : Mat 100000 128) (w : Mat 128 128) (b : Mat 1 128) (r : Fin 100000) (c : Fin 128) : EReal :=
  (∑ k : Fin 128, max (h (ix2 r k)) 0 * w (ix2 k c)) + b (ix2 0 c)

/-- The row that is summed per graph: the linear result in column 0, its softplus in column 1, zero elsewhere. -/
def msAt (h : Mat 100000 128) (w : Mat 128 128) (b : Mat 1 128) (n : Fin 100000) (c : Fin 128) : EReal :=
  if c.val = 0 then linAt h w b n c else if c.val = 1 then softplus (linAt h w b n c) else 0

/-- The per-graph sums at (g, c): the rows of `msAt` whose graph word (a column of words here), read signed, is g. -/
def sumsAt (bcol : IVec ⟨2, ![100000, 1]⟩ 32) (h : Mat 100000 128) (w : Mat 128 128) (b : Mat 1 128)
    (g : Fin 512) (c : Fin 128) : EReal :=
  ∑ n : Fin 100000, if (bcol (ix2 n 0)).toInt = (g.val : ℤ) then msAt h w b n c else 0

end Cert.Spec

end
-- ==== Proof.KChainDefs.lean ====
/-
  The host-side functions the kernel program applies between its regions, named once: the aggregation of message
  rows along the graph's edges (rows gathered by the wrapped source words, scatter-added into zeros by the target
  words), the round weights cut out of the stacked weight array, and each node's graph read off its graph word
  (wrapped, read signed, clamped into the table).
-/
import proofs.«400059_j34591666602133_1_alg».proof.Proof.Gen.KernelIdeal
import proofs.«400059_j34591666602133_1_alg».proof.Proof.Spec

noncomputable section

namespace Cert.KernelIdeal.Chain

open Idealize.ShloMosaic Idealize.ShloMosaic.ValueIdx Cert.KernelIdeal
open Cert.KernelIdeal.Facts₀ Cert.KernelIdeal.Facts

/-- The edges' source words: row 0 of the edge list. -/
def srcOf (e : IVec S2x1600000 32) : IVec S1600000 32 :=
  shapeCast S1600000 (extractStridedSlice S1x1600000 ![0, 0] e slices_S2x1600000_S1x1600000_0_0) shapeCasts_S1x1600000_S1600000
/-- The edges' target words: row 1 of the edge list. -/
def dstOf (e : IVec S2x1600000 32) : IVec S1600000 32 :=
  shapeCast S1600000 (extractStridedSlice S1x1600000 ![1, 0] e slices_S2x1600000_S1x1600000_1_0) shapeCasts_S1x1600000_S1600000

/-- The aggregation along the edges: the rows of `M` named by the source words (a negative word wrapped by the row
    count first), added up per target word into an array of zeros. -/
def aggOf (src dst : IVec S1600000 32) (M : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 M
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The four round weights, cut out of the stacked [4,128,128] array. -/
def wOf0 (g : FVec Ideal S4x128x128 .f32) : FVec Ideal S128x128 .f32 :=
  shapeCast S128x128 (extractStridedSlice S1x128x128 ![0, 0, 0] g slices_S4x128x128_S1x128x128_0_0_0) shapeCasts_S1x128x128_S128x128
def wOf1 (g : FVec Ideal S4x128x128 .f32) : FVec Ideal S128x128 .f32 :=
  shapeCast S128x128 (extractStridedSlice S1x128x128 ![1, 0, 0] g slices_S4x128x128_S1x128x128_1_0_0) shapeCasts_S1x128x128_S128x128
def wOf2 (g : FVec Ideal S4x128x128 .f32) : FVec Ideal S128x128 .f32 :=
  shapeCast S128x128 (extractStridedSlice S1x128x128 ![2, 0, 0] g slices_S4x128x128_S1x128x128_2_0_0) shapeCasts_S1x128x128_S128x128
def wOf3 (g : FVec Ideal S4x128x128 .f32) : FVec Ideal S128x128 .f32 :=
  shapeCast S128x128 (extractStridedSlice S1x128x128 ![3, 0, 0] g slices_S4x128x128_S1x128x128_3_0_0) shapeCasts_S1x128x128_S128x128

/-- The cell's transposed weight. -/
def wT (w : FVec Ideal S384x128 .f32) : FVec Ideal S128x384 .f32 := transpose S128x384 [1, 0] w transposes_S384x128_S128x384_1_0

/-- The column of wrapped graph words the two lookups start from. -/
def graphCol (b : IVec S100000 32) : IVec S100000x1 32 :=
  broadcastInDim S100000x1 ![0] bcast_S100000_S100000x1_0
    (select (cmpi .slt b (broadcastInDim S100000 ![] bcast_S_S100000 (constantI S_ 32 0#32)))
      (addi b (broadcastInDim S100000 ![] bcast_S_S100000 (constantI S_ 32 512#32))) b)
/-- Each node's graph: its wrapped graph word, read signed and clamped into the 512 graphs. -/
def graphOf (b : IVec S100000 32) (n : Fin 100000) : Fin 512 := ⟨min (graphCol b (ix2 n 0)).toInt.toNat 511, by omega⟩

end Cert.KernelIdeal.Chain

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.KEmbed.lean ====
/-
  The embedding region's two result arrays as whole-array functions of the arrays the region finds:
  each grid point writes rows 5000·t … 5000·t + 4999 of the logistic of the product, and of its zero-padded copy.
-/
import proofs.«400059_j34591666602133_1_alg».proof.Proof.Gen.KernelIdeal.Frame
import proofs.«400059_j34591666602133_1_alg».proof.Proof.Spec
import proofs.«400059_j34591666602133_1_alg».proof.Proof.LibDenseLayer
import Idealize.ShloMosaic.Lib.ValueIdx
import Idealize.ShloMosaic.Lib.Pipeline.Value
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen

-- the TensorCore's buffer contents when the region is entered: the parameter the region's proof data are stated at
variable (V : (c : Dev nD) → (b : Ref sig .tc) → Buf (Elt Ideal) ((c : Thread nD τ).loc b))

namespace Embed

/-! ## The body's two values at an entry of a block

Over a 5000×27 row block x and the 27×64 weight w: the first stored value is the logistic of the product x·w; the
second is that value with 64 zero columns to its right. -/

/-- The logistic of the block product at row r and column j: row r of the row block against column j of the weight. -/
theorem pay_embed_apply (x : Vec Ideal S5000x27 .f32) (w : Vec Ideal S27x64 .f32) (r : Fin 5000) (j : Fin 64) :
    k0_pay1 (F := Ideal) x w (ix2 r j) = Ideal.logistic (∑ k : Fin 27, x (ix2 r k) * w (ix2 k j)) := by
  unfold k0_pay1
  show Ideal.logistic _ = _
  exact congrArg Ideal.logistic
    (Idealize.ShloMosaic.DenseLayer.matmul_rows_apply dot_S5000x27_S27x64_S5000x64_1_0_0_1_n_n_wf none _ _ r j)

/-- The padded block in a column below 64 reads the logistic of the product in that column. -/
theorem pay_pad_apply_left (x : Vec Ideal S5000x27 .f32) (w : Vec Ideal S27x64 .f32) (r : Fin 5000) (j : Fin 128)
    (hj : j.val < 64) :
    k0_pay2 (F := Ideal) x w (ix2 r j) = k0_pay1 (F := Ideal) x w (ix2 r ⟨j.val, hj⟩) := by
  unfold k0_pay2
  refine concatenate_pair_apply_left (t := S5000x128) (s₁ := S5000x64) (s₂ := S5000x64) (1 : Fin 2) _ _
    concatenates_S5000x64_S5000x64_S5000x128_d1 (ix2 r j) rfl (ix2 r (⟨j.val, hj⟩ : Fin 64)) fun b => ?_
  match b with
  | ⟨0, _⟩ => rfl
  | ⟨1, _⟩ => rfl

/-- The padded block in a column from 64 on reads zero. -/
theorem pay_pad_apply_right (x : Vec Ideal S5000x27 .f32) (w : Vec Ideal S27x64 .f32) (r : Fin 5000) (j : Fin 128)
    (hj : ¬ j.val < 64) :
    k0_pay2 (F := Ideal) x w (ix2 r j) = 0 := by
  unfold k0_pay2
  have hlt : j.val - 64 < 64 := by have := j.isLt; omega
  refine (concatenate_pair_apply_right (t := S5000x128) (s₁ := S5000x64) (s₂ := S5000x64) (1 : Fin 2) _ _
    concatenates_S5000x64_S5000x64_S5000x128_d1 (ix2 r j) rfl rfl (ix2 r (⟨j.val - 64, hlt⟩ : Fin 64))
    (fun b hb => ?_) ?_).trans ?_
  · match b with
    | ⟨0, _⟩ => rfl
    | ⟨1, _⟩ => exact absurd rfl hb
  · show j.val - 64 + 64 = j.val
    omega
  · exact Ideal.ofBits_zero_f32

/-! ## Where a block's entry sits in its array -/

theorem zero_offsets : (![0, 0] : Fin 2 → Nat) = fun _ => 0 := funext fun a => by fin_cases a <;> rfl

/-- The block indices over the grid: the three row-blocked windows sit at block t of the rows and block 0 of the
    columns, the weight's window at block 0 of both. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of block t is row 5000·t + p of the array. -/
def rowOf (t : Fin cfg0.N) (p : Fin 5000) : Fin 100000 :=
  ⟨t.val * 5000 + p.val, by have ht := t.isLt; have hN : cfg0.N = 20 := N_0; have hp := p.isLt; omega⟩

/-- Entry (p, k) of the node table's block t is entry (5000·t + p, k) of the table. -/
theorem emb_x (t : Fin cfg0.N) (p : Fin 5000) (k : Fin 27) :
    ((cfg0.win 0).blk t).view.emb (ix2 p k) = ix2 (rowOf t p) k := by
  obtain ⟨e0, e1, -⟩ := block_indices t
  funext a; apply Fin.ext
  match a with
  | ⟨0, _⟩ => show win0_0.index t (0 : Fin 2) * 5000 + 1 * p.val = t.val * 5000 + p.val; omega
  | ⟨1, _⟩ => show win0_0.index t (1 : Fin 2) * 27 + 1 * k.val = k.val; omega

/-- The weight's block at every point is the whole weight. -/
theorem emb_w (t : Fin cfg0.N) (k : Fin 27) (q : Fin 64) :
    ((cfg0.win 1).blk t).view.emb (ix2 k q) = ix2 k q := by
  obtain ⟨-, -, e0, e1, -⟩ := block_indices t
  funext a; apply Fin.ext
  match a with
  | ⟨0, _⟩ => show win0_1.index t (0 : Fin 2) * 27 + 1 * k.val = k.val; omega
  | ⟨1, _⟩ => show win0_1.index t (1 : Fin 2) * 64 + 1 * q.val = q.val; omega

/-- Entry (p, q) of the embedding's block t is entry (5000·t + p, q) of the embedding. -/
theorem emb_x1 (t : Fin cfg0.N) (p : Fin 5000) (q : Fin 64) :
    ((cfg0.win 2).blk t).view.emb (ix2 p q) = ix2 (rowOf t p) q := by
  obtain ⟨-, -, -, -, e0, e1, -⟩ := block_indices t
  funext a; apply Fin.ext
  match a with
  | ⟨0, _⟩ => show win0_2.index t (0 : Fin 2) * 5000 + 1 * p.val = t.val * 5000 + p.val; omega
  | ⟨1, _⟩ => show win0_2.index t (1 : Fin 2) * 64 + 1 * q.val = q.val; omega

/-- Entry (p, q) of the padded embedding's block t is entry (5000·t + p, q) of the padded embedding. -/
theorem emb_h0 (t : Fin cfg0.N) (p : Fin 5000) (q : Fin 128) :
    ((cfg0.win 3).blk t).view.emb (ix2 p q) = ix2 (rowOf t p) q := by
  obtain ⟨-, -, -, -, -, -, e0, e1⟩ := block_indices t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

/-! ## What a point writes back -/

/-- The logistic of block t's product at (p, q) is the embedding of the whole table at (5000·t + p, q): the block's
    row p is the table's row 5000·t + p, and the weight is the same at every point. -/
theorem block_embed (c : Dev nD) (t : Fin cfg0.N) (p : Fin 5000) (q : Fin 64) :
    k0_pay1 (F := Ideal) (iblk0 V c 0 t) (iblk0 V c 1 t) (ix2 p q)
      = Cert.Spec.embed (V c main_arg0) (V c main_arg3) (ix2 (rowOf t p) q) := by
  rw [Cert.Spec.embed_apply]
  refine (pay_embed_apply (iblk0 V c 0 t) (iblk0 V c 1 t) p q).trans ?_
  unfold Cert.Spec.embedAt
  refine congrArg Ideal.logistic (Finset.sum_congr rfl fun k _ => ?_)
  have hx : iblk0 V c 0 t (ix2 p k) = V c main_arg0 (ix2 (rowOf t p) k) := by
    show V c main_arg0 (((cfg0.win 0).blk t).view.emb (ix2 p k)) = _
    rw [emb_x t p k]
  have hw : iblk0 V c 1 t (ix2 k q) = V c main_arg3 (ix2 k q) := by
    show V c main_arg3 (((cfg0.win 1).blk t).view.emb (ix2 k q)) = _
    rw [emb_w t k q]
  exact congrArg₂ (fun a b : EReal => a * b) hx hw

/-- What point t writes back to the embedding's array is block t of the embedding of the arrays the region finds. -/
theorem flushed_x1 (c : Dev nD) (t : Fin cfg0.N) :
    (dat0 V c).flushed 2 t
      = ((cfg0.win 2).blk t).view.read (Elt Ideal) (Cert.Spec.embed (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x27) zero_offsets, View.ld_unit_zero (S := S27x64) zero_offsets]
  funext y
  obtain ⟨p, q, rfl⟩ : ∃ (p : Fin 5000) (q : Fin 64), y = ix2 p q := ⟨y 0, y 1, eq_ix2 y⟩
  show k0_pay1 (F := Ideal) (iblk0 V c 0 t) (iblk0 V c 1 t) (ix2 p q)
      = Cert.Spec.embed (V c main_arg0) (V c main_arg3) (((cfg0.win 2).blk t).view.emb (ix2 p q))
  rw [emb_x1 t p q]
  exact block_embed V c t p q

/-- What point t writes back to the padded array is block t of the padded embedding. -/
theorem flushed_h0 (c : Dev nD) (t : Fin cfg0.N) :
    (dat0 V c).flushed 3 t
      = ((cfg0.win 3).blk t).view.read (Elt Ideal)
          (Cert.Spec.pad (Cert.Spec.embed (V c main_arg0) (V c main_arg3))) := by
  show (cfg0.win 3).cut (grid0.coords t) ((dat0 V c).after 3 t) = _
  rw [after0_3]
  unfold out0_3
  rw [View.canon_unit_zero zero_offsets]
  simp only [View.ld_unit_zero (S := S5000x27) zero_offsets, View.ld_unit_zero (S := S27x64) zero_offsets]
  funext y
  obtain ⟨p, q, rfl⟩ : ∃ (p : Fin 5000) (q : Fin 128), y = ix2 p q := ⟨y 0, y 1, eq_ix2 y⟩
  show k0_pay2 (F := Ideal) (iblk0 V c 0 t) (iblk0 V c 1 t) (ix2 p q)
      = Cert.Spec.pad (Cert.Spec.embed (V c main_arg0) (V c main_arg3)) (((cfg0.win 3).blk t).view.emb (ix2 p q))
  rw [emb_h0 t p q, Cert.Spec.pad_apply]
  unfold Cert.Spec.padAt
  by_cases hq : q.val < 64
  · rw [dif_pos hq]
    exact (pay_pad_apply_left (iblk0 V c 0 t) (iblk0 V c 1 t) p q hq).trans (block_embed V c t p ⟨q.val, hq⟩)
  · rw [dif_neg hq]
    exact pay_pad_apply_right (iblk0 V c 0 t) (iblk0 V c 1 t) p q hq

/-! ## The blocks cover the arrays -/

/-- An index of the embedding's array is in point t's block iff each coordinate is in the block's range. -/
theorem mem_blk_x1 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0_0).slice (win0_2.rect t)).set ↔ _
  rw [View.set_slice_whole, Rect.mem_set_unit]
  exact Iff.rfl

/-- An index of the padded array is in point t's block iff each coordinate is in the block's range. -/
theorem mem_blk_h0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v0_1).slice (win0_3.rect t)).set ↔ _
  rw [View.set_slice_whole, Rect.mem_set_unit]
  exact Iff.rfl

/-- Row r of the embedding's array is written by point r / 5000. -/
theorem cover_x1 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, e0, e1, -⟩ := block_indices t
  refine ⟨t, flush0_2 t, ?_⟩
  rw [mem_blk_x1]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- Row r of the padded array is written by point r / 5000. -/
theorem cover_h0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, e0, e1⟩ := block_indices t
  refine ⟨t, flush0_3 t, ?_⟩
  rw [mem_blk_h0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

end Embed

/-! ## The two arrays after the region -/

theorem embed_x1 (c : Dev nD) : (dat0 V c).arrAt 2 cfg0.N = Cert.Spec.embed (V c main_arg0) (V c main_arg3) :=
  (dat0 V c).arrAt_eq_of_cover 2 _ (fun t _ => Embed.flushed_x1 V c t) Embed.cover_x1
theorem embed_h0 (c : Dev nD) : (dat0 V c).arrAt 3 cfg0.N = Cert.Spec.pad (Cert.Spec.embed (V c main_arg0) (V c main_arg3)) :=
  (dat0 V c).arrAt_eq_of_cover 3 _ (fun t _ => Embed.flushed_h0 V c t) Embed.cover_h0

end Cert.KernelIdeal.RegionValue

end
-- ==== Proof.KMsg1.lean ====
/-
  The first message region's result array: rows of the state against the round's 128×128 weight.
-/
import proofs.«400059_j34591666602133_1_alg».proof.Proof.Gen.KernelIdeal.Frame
import proofs.«400059_j34591666602133_1_alg».proof.Proof.Spec
import proofs.«400059_j34591666602133_1_alg».proof.Proof.LibDenseLayer
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen
open Idealize.ShloMosaic.Pipeline (Dat)

-- the TensorCore's buffer contents when the region is entered: the parameter the region's proof data are stated at
variable (V : (c : Dev nD) → (b : Ref sig .tc) → Buf (Elt Ideal) ((c : Thread nD τ).loc b))

/-!
  The region walks the 100000 rows of the state in 20 blocks of 5000 rows. At block t it holds rows 5000·t … 5000·t + 4999
  of the state and the whole weight, forms their product into a zero accumulator, and writes the 5000×128 result back as
  rows 5000·t … 5000·t + 4999 of the result array. At the ideal values the change of float format in front of the product
  is the identity, so entry (p, q) of a block's product is Σ_l state(5000·t + p, l) · weight(l, q): the entry
  (5000·t + p, q) of the whole product. The 20 blocks tile the result array (row r lies in block r / 5000), so the array
  ends holding the whole product, entry by entry.
-/

/-! ## One block's product, entry by entry -/

/-- The body reads and writes whole blocks: their offsets, a pair of zeros, are the zero function. -/
private theorem zero_offsets : (![0, 0] : Fin 2 → Nat) = fun _ => 0 := funext fun a => by fin_cases a <;> rfl

/-- Entry (r, j) of the body's product of a 5000×128 block of rows with the 128×128 weight: row r of the block against
    column j of the weight. The casts of a shape to itself and the changes of format in front of the product are the
    identity at the ideal values, and the accumulator is zero. -/
private theorem product_apply (x : Vec Ideal S5000x128 .f32) (w : Vec Ideal S128x128 .f32) (r : Fin 5000) (j : Fin 128) :
    k1_pay1 (F := Ideal) x w (ix2 r j) = ∑ l : Fin 128, x (ix2 r l) * w (ix2 l j) := by
  unfold k1_pay1
  refine (DenseLayer.matmul_rows_apply dot_S5000x128_S128x128_S5000x128_1_0_0_1_n_n_wf none _ _ r j).trans ?_
  simp only [truncf_apply, shapeCast_self]

/-- When row p of the block is row r of the state A and the block of the weight is the weight W itself, entry (p, q)
    of the block's product is entry (r, q) of the whole product of A with W. -/
private theorem block_product (A : Cert.Spec.Mat 100000 128) (W : Cert.Spec.Mat 128 128)
    (x : Vec Ideal S5000x128 .f32) (w : Vec Ideal S128x128 .f32) (p : Fin 5000) (q : Fin 128) (r : Fin 100000)
    (hx : ∀ l : Fin 128, x (ix2 p l) = A (ix2 r l)) (hw : ∀ l : Fin 128, w (ix2 l q) = W (ix2 l q)) :
    k1_pay1 (F := Ideal) x w (ix2 p q) = Cert.Spec.msg A W (ix2 r q) := by
  refine (product_apply x w p q).trans ?_
  rw [Cert.Spec.msg_apply]
  exact Finset.sum_congr rfl fun l _ => by rw [hx l, hw l]

/-! ## Where the blocks lie -/

/-- The block indices over the grid: at point t the state's window and the result's window are at row block t, column
    block 0; the weight's window stays at block (0, 0). -/
private theorem index_facts : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point t writes back is block t of the whole product: entry (p, q) of the body's result sits at row 5000·t + p,
    column q of the result array; there the state's block holds row 5000·t + p of the state and the weight's block is
    the weight. -/
private theorem flushed_eq (c : Dev nD) (t : Fin cfg1.N) :
    (dat1 V c).flushed 2 t
      = ((cfg1.win 2).blk t).view.read (Elt Ideal) (Cert.Spec.msg (V c main_v0_1) (V c main_v10)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x128) zero_offsets]
  obtain ⟨e0, e1, e2, e3, e4, e5⟩ := index_facts t
  have ht : t.val < 20 := lt_of_lt_of_eq t.isLt N_1
  funext y
  have hp : (y 0).val < 5000 := (y 0).isLt
  have hq : (y 1).val < 128 := (y 1).isLt
  -- the entry's coordinates inside the block
  have hy : (cfg1.win 2).xinj (grid1.coords t) y = ix2 (⟨(y 0).val, hp⟩ : Fin 5000) (⟨(y 1).val, hq⟩ : Fin 128) := by
    funext a
    match a with
    | ⟨0, _⟩ => rfl
    | ⟨1, _⟩ => rfl
  -- and in the result array: the block index times the block's extent plus the coordinate inside the block
  have hi : ((cfg1.win 2).blk t).view.emb y
      = ix2 (⟨t.val * 5000 + (y 0).val, by omega⟩ : Fin 100000) (⟨(y 1).val, hq⟩ : Fin 128) := by
    funext a; apply Fin.ext
    match a with
    | ⟨0, _⟩ => show win1_2.index t (0 : Fin 2) * 5000 + 1 * (y 0).val = t.val * 5000 + (y 0).val; omega
    | ⟨1, _⟩ => show win1_2.index t (1 : Fin 2) * 128 + 1 * (y 1).val = (y 1).val; omega
  show k1_pay1 (iblk1 V c 0 t) (iblk1 V c 1 t) ((cfg1.win 2).xinj (grid1.coords t) y)
    = Cert.Spec.msg (V c main_v0_1) (V c main_v10) (((cfg1.win 2).blk t).view.emb y)
  rw [hy, hi]
  refine block_product (V c main_v0_1) (V c main_v10) (iblk1 V c 0 t) (iblk1 V c 1 t) _ _ _ (fun l => ?_) (fun l => ?_)
  · -- row p of the state's block is row 5000·t + p of the state
    show V c main_v0_1 (((cfg1.win 0).blk t).view.emb (ix2 (⟨(y 0).val, hp⟩ : Fin 5000) l)) = _
    refine congrArg (V c main_v0_1) (funext fun a => Fin.ext ?_)
    match a with
    | ⟨0, _⟩ => show win1_0.index t (0 : Fin 2) * 5000 + 1 * (y 0).val = t.val * 5000 + (y 0).val; omega
    | ⟨1, _⟩ => show win1_0.index t (1 : Fin 2) * 128 + 1 * l.val = l.val; omega
  · -- the weight's block is the whole weight
    show V c main_v10 (((cfg1.win 1).blk t).view.emb (ix2 l (⟨(y 1).val, hq⟩ : Fin 128))) = _
    refine congrArg (V c main_v10) (funext fun a => Fin.ext ?_)
    match a with
    | ⟨0, _⟩ => show win1_1.index t (0 : Fin 2) * 128 + 1 * l.val = l.val; omega
    | ⟨1, _⟩ => show win1_1.index t (1 : Fin 2) * 128 + 1 * (y 1).val = (y 1).val; omega

/-- An entry of the result array lies in point t's block exactly when, on each axis, its coordinate is in the block's
    range: from the block index times the block's extent, for one extent. -/
private theorem mem_block (t : Fin cfg1.N) (i : S100000x128.Idx) :
    i ∈ ((cfg1.win 2).blk t).view.set
      ↔ ∀ a : Fin 2, win1_2.index t a * S5000x128.size a ≤ (i a).val
          ∧ (i a).val < win1_2.index t a * S5000x128.size a + S5000x128.size a := by
  show i ∈ ((View.whole main_v11).slice (win1_2.rect t)).set ↔ _
  rw [View.set_slice_whole, Rect.mem_set_unit]
  exact Iff.rfl

/-- The blocks tile the result array: the entry in row r lies in the block of point r / 5000, and every point writes
    its block back. -/
private theorem covered (i : S100000x128.Idx) :
    ∃ t : Fin cfg1.N, (cfg1.win 2).flush t = true ∧ i ∈ ((cfg1.win 2).blk t).view.set := by
  have hr : (i 0).val < 100000 := (i 0).isLt
  have hj : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, e4, e5⟩ := index_facts t
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-! ## The result array -/

theorem msg1 (c : Dev nD) : (dat1 V c).arrAt 2 cfg1.N = Cert.Spec.msg (V c main_v0_1) (V c main_v10) :=
  (dat1 V c).arrAt_eq_of_cover 2 (Cert.Spec.msg (V c main_v0_1) (V c main_v10)) (fun t _ => flushed_eq V c t) covered

end Cert.KernelIdeal.RegionValue

end
-- ==== Proof.KGru2.lean ====
/-
  The first cell region's result array: the gated recurrent cell of the aggregated messages and the old state.
-/
import proofs.«400059_j34591666602133_1_alg».proof.Proof.Gen.KernelIdeal.Frame
import proofs.«400059_j34591666602133_1_alg».proof.Proof.Spec
import proofs.«400059_j34591666602133_1_alg».proof.Proof.LibDenseLayer

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen

-- the TensorCore's buffer contents when the region is entered: the parameter the region's proof data are stated at
variable (V : (c : Dev nD) → (b : Ref sig .tc) → Buf (Elt Ideal) ((c : Thread nD τ).loc b))

/-! ## The body's arithmetic on one block of rows

At each of the grid's points the body holds 2000 rows of the aggregated messages and the same 2000 rows of the old
state, and the two 128×384 weights and the two bias rows whole. It forms two blocks of gate rows (a block against a
weight, plus the bias row repeated down the rows), cuts each into three column blocks of width 128 (reset, update,
candidate), and mixes them entry by entry. An entry (p, j) of the result therefore depends on row p of the two
blocks only, through the six pre-activations at columns j, j + 128 and j + 256. -/

/-- The gate rows of a block of rows: the block against a 128×384 weight, plus the bias row repeated down the rows. -/
private def gateRows (x : Vec Ideal S2000x128 .f32) (w : Vec Ideal S128x384 .f32) (b : Vec Ideal S1x384 .f32) :
    FVec Ideal S2000x384 .f32 :=
  addf (matmul dot_S2000x128_S128x384_S2000x384_1_0_0_1_n_n none
      (truncf .bf16 (shapeCast S2000x128 x shapeCasts_S2000x128_S2000x128) bitsLt_bf16_f32)
      (truncf .bf16 (shapeCast S128x384 w shapeCasts_S128x384_S128x384) bitsLt_bf16_f32)
      (constant S2000x384 .f32 0x00000000#32))
    (broadcastTo S2000x384 (shapeCast S1x384 b shapeCasts_S1x384_S1x384) broadcasts_S1x384_S2000x384)

/-- The cell on a block of rows, from the two blocks of gate rows and the old state's block: with r, z the logistics
    of the summed reset and update columns and n the hyperbolic tangent of the input's candidate column plus r times
    the state's, the block (1 − z)·n + z·h. -/
private def cellRows (gi gh : FVec Ideal S2000x384 .f32) (hold : Vec Ideal S2000x128 .f32) : FVec Ideal S2000x128 .f32 :=
  addf
    (mulf
      (subf (broadcast S2000x128 (Scalar.ofBits .f32 0x3F800000#32))
        (logistic (addf (extractStridedSlice S2000x128 ![0, 128] gi slices_S2000x384_o0_128_S2000x128)
          (extractStridedSlice S2000x128 ![0, 128] gh slices_S2000x384_o0_128_S2000x128))))
      (tanh (addf (extractStridedSlice S2000x128 ![0, 256] gi slices_S2000x384_o0_256_S2000x128)
        (mulf
          (logistic (addf (extractStridedSlice S2000x128 ![0, 0] gi slices_S2000x384_o0_0_S2000x128)
            (extractStridedSlice S2000x128 ![0, 0] gh slices_S2000x384_o0_0_S2000x128)))
          (extractStridedSlice S2000x128 ![0, 256] gh slices_S2000x384_o0_256_S2000x128)))))
    (mulf
      (logistic (addf (extractStridedSlice S2000x128 ![0, 128] gi slices_S2000x384_o0_128_S2000x128)
        (extractStridedSlice S2000x128 ![0, 128] gh slices_S2000x384_o0_128_S2000x128)))
      (shapeCast S2000x128 hold shapeCasts_S2000x128_S2000x128))

/-- The body's payload is the cell on the gate rows of its loaded blocks (the old state's block is loaded twice). -/
private theorem payload_eq (a h : Vec Ideal S2000x128 .f32) (wi wh : Vec Ideal S128x384 .f32) (bi bh : Vec Ideal S1x384 .f32)
    (h' : Vec Ideal S2000x128 .f32) :
    k2_pay1 (F := Ideal) a h wi wh bi bh h' = cellRows (gateRows a wi bi) (gateRows h wh bh) h' := rfl

/-- A gate row of a block at (p, c): row p of the block against column c of the weight, plus the bias at c. The
    changes of format are the identity on extended reals, and the product into a zero accumulator is the plain sum. -/
private theorem gateRows_apply (x : Vec Ideal S2000x128 .f32) (w : Vec Ideal S128x384 .f32) (b : Vec Ideal S1x384 .f32)
    (p : Fin 2000) (c : Fin 384) :
    gateRows x w b (ix2 p c) = (∑ l : Fin 128, x (ix2 p l) * w (ix2 l c)) + b (ix2 0 c) := by
  unfold gateRows
  rw [shapeCast_self, shapeCast_self, shapeCast_self]
  refine (addf_apply _ _ _).trans ?_
  refine congrArg₂ (· + ·) ?_ ?_
  · exact DenseLayer.matmul_rows_apply dot_S2000x128_S128x384_S2000x384_1_0_0_1_n_n_wf none _ _ p c
  · exact broadcastTo_1b_ab_apply _ _ p c

/-- The cell's arithmetic on the six pre-activations (input's and state's reset, update, candidate) and the old
    state's entry. -/
private def mix (ir hr iz hz ic hc hold : EReal) : EReal :=
  (1 - Ideal.logistic (iz + hz)) * Ideal.tanh (ic + Ideal.logistic (ir + hr) * hc) + Ideal.logistic (iz + hz) * hold

/-- The cell on a block at (p, j): a column block cut at offset o reads the gate row at column o + j, so the six
    pre-activations are the two gate rows at j, j + 128 and j + 256; the literal one is the number one. -/
private theorem cellRows_apply (gi gh : FVec Ideal S2000x384 .f32) (hold : Vec Ideal S2000x128 .f32) (p : Fin 2000) (j : Fin 128) :
    cellRows gi gh hold (ix2 p j)
      = mix (gi (ix2 p (Cert.Spec.col0 j))) (gh (ix2 p (Cert.Spec.col0 j)))
          (gi (ix2 p (Cert.Spec.col1 j))) (gh (ix2 p (Cert.Spec.col1 j)))
          (gi (ix2 p (Cert.Spec.col2 j))) (gh (ix2 p (Cert.Spec.col2 j))) (hold (ix2 p j)) := by
  have ei0 := slice2_axis1_apply 0 gi slices_S2000x384_o0_0_S2000x128 p j (Cert.Spec.col0 j) (Nat.zero_add _).symm
  have eh0 := slice2_axis1_apply 0 gh slices_S2000x384_o0_0_S2000x128 p j (Cert.Spec.col0 j) (Nat.zero_add _).symm
  have ei1 := slice2_axis1_apply 128 gi slices_S2000x384_o0_128_S2000x128 p j (Cert.Spec.col1 j) (Nat.add_comm _ _)
  have eh1 := slice2_axis1_apply 128 gh slices_S2000x384_o0_128_S2000x128 p j (Cert.Spec.col1 j) (Nat.add_comm _ _)
  have ei2 := slice2_axis1_apply 256 gi slices_S2000x384_o0_256_S2000x128 p j (Cert.Spec.col2 j) (Nat.add_comm _ _)
  have eh2 := slice2_axis1_apply 256 gh slices_S2000x384_o0_256_S2000x128 p j (Cert.Spec.col2 j) (Nat.add_comm _ _)
  unfold cellRows mix
  rw [shapeCast_self]
  -- the pointwise operations at an index are the extended reals' own
  show (Ideal.ofBits .f32 0x3F800000#32 - Ideal.logistic (_ + _)) * Ideal.tanh (_ + Ideal.logistic (_ + _) * _)
      + Ideal.logistic (_ + _) * hold (ix2 p j) = _
  rw [ei0, eh0, ei1, eh1, ei2, eh2, Ideal.ofBits_one_f32]

/-- The payload at (p, j), when row p of the two row blocks is row r of the two arrays: the cell of the arrays at
    (r, j). Only row p of the blocks enters, through the six sums over the 128 columns. -/
private theorem payload_apply (A H : Cert.Spec.Mat 100000 128) (wi wh : Vec Ideal S128x384 .f32) (bi bh : Vec Ideal S1x384 .f32)
    (a h h' : Vec Ideal S2000x128 .f32) (r : Fin 100000) (p : Fin 2000)
    (ha : ∀ l : Fin 128, a (ix2 p l) = A (ix2 r l)) (hh : ∀ l : Fin 128, h (ix2 p l) = H (ix2 r l))
    (hh' : ∀ l : Fin 128, h' (ix2 p l) = H (ix2 r l)) (j : Fin 128) :
    k2_pay1 (F := Ideal) a h wi wh bi bh h' (ix2 p j)
      = Cert.Spec.gruAt A H wi wh (fun k => bi (ix2 0 k)) (fun k => bh (ix2 0 k)) r j := by
  rw [payload_eq, cellRows_apply]
  simp only [gateRows_apply, ha, hh, hh' j]
  rfl

/-- The payload of row blocks that are read off the two arrays through one placement e of block indices (rows
    moved by a constant, columns kept) is the cell of the arrays read through e: the entries of block row p sit in
    ONE row of the arrays, the row of e (p, j), at their own columns. -/
private theorem payload_block (A H : Cert.Spec.Mat 100000 128) (wi wh : Vec Ideal S128x384 .f32) (bi bh : Vec Ideal S1x384 .f32)
    (a h h' : Vec Ideal S2000x128 .f32) (wi' wh' : Vec Ideal S128x384 .f32) (bi' bh' : Vec Ideal S1x384 .f32)
    (e : S2000x128.Idx → S100000x128.Idx) (base : ℕ)
    (hrow : ∀ y, (e y 0).val = base + (y 0).val) (hcol : ∀ y, (e y 1).val = (y 1).val)
    (ha : ∀ y, a y = A (e y)) (hh : ∀ y, h y = H (e y)) (hh' : ∀ y, h' y = H (e y))
    (ewi : wi' = wi) (ewh : wh' = wh) (ebi : bi' = bi) (ebh : bh' = bh) :
    k2_pay1 (F := Ideal) a h wi' wh' bi' bh' h'
      = fun y => Cert.Spec.gru A H wi wh (fun k => bi (ix2 0 k)) (fun k => bh (ix2 0 k)) (e y) := by
  subst ewi ewh ebi ebh
  funext y
  obtain ⟨p, j, rfl⟩ : ∃ (p : Fin 2000) (j : Fin 128), y = ix2 p j := ⟨y 0, y 1, eq_ix2 y⟩
  -- block row p lies in the array row of e (p, j), whatever the column
  have hrows : ∀ l : Fin 128, e (ix2 p l) = ix2 (e (ix2 p j) 0) l := fun l => by
    funext d; apply Fin.ext
    match d with
    | ⟨0, _⟩ => exact (hrow (ix2 p l)).trans (hrow (ix2 p j)).symm
    | ⟨1, _⟩ => exact hcol (ix2 p l)
  have hself : e (ix2 p j) = ix2 (e (ix2 p j) 0) j := hrows j
  refine (payload_apply A H wi' wh' bi' bh' a h h' (e (ix2 p j) 0) p
    (fun l => (ha _).trans (congrArg A (hrows l))) (fun l => (hh _).trans (congrArg H (hrows l)))
    (fun l => (hh' _).trans (congrArg H (hrows l))) j).trans ?_
  rw [hself]
  rfl

/-! ## From the blocks to the array

The grid is one-dimensional, of 50 points. Block t of a row-blocked window is rows 2000·t … 2000·t + 1999 of its
array, all 128 columns; the weights' and the biases' windows are their whole arrays at every point. Every point
writes its block of the result back, and the 50 blocks tile the 100000 rows: row r is in the block of point r / 2000. -/

/-- The zero offsets, however spelt. -/
private theorem offsets_zero : (![0, 0] : Fin 2 → Nat) = fun _ => 0 := funext fun a => by fin_cases a <;> rfl

/-- The printed index maps, decided over the grid: the three row-blocked windows are at block t along the rows and
    block 0 along the columns; the four small windows are at block 0 on both axes. -/
private theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point t writes back is block t of the cell of the arrays as the region finds them: the result's block and
    the two row-blocked inputs' blocks sit at the same rows and columns of their arrays, and the small windows'
    blocks are their arrays. A block's coordinate in its array is block index × block size + 1 × the coordinate
    inside the block. -/
private theorem flushed_eq (c : Dev nD) (t : Fin cfg2.N) :
    (dat2 V c).flushed 6 t = ((cfg2.win 6).blk t).view.read (Elt Ideal)
      (Cert.Spec.gru (V c main_v21) (V c main_v0_1) (V c main_v5) (V c main_v6)
        (fun k => V c main_v7 (ix2 0 k)) (fun k => V c main_v8 (ix2 0 k))) := by
  show (cfg2.win 6).cut (grid2.coords t) ((dat2 V c).after 6 t) = _
  rw [after2_6]
  unfold out2_6
  -- the body's one store fills the whole staging buffer, and each load reads a whole block
  rw [View.canon_unit_zero offsets_zero]
  simp only [View.ld_unit_zero (S := S2000x128) offsets_zero, View.ld_unit_zero (S := S128x384) offsets_zero,
    View.ld_unit_zero (S := S1x384) offsets_zero]
  obtain ⟨a0, a1, b0, b1, c0, c1, d0, d1, e0, e1, f0, f1, g0, g1⟩ := index_facts t
  refine (congrArg ((cfg2.win 6).cut (grid2.coords t))
    (payload_block (V c main_v21) (V c main_v0_1) (V c main_v5) (V c main_v6) (V c main_v7) (V c main_v8)
      (iblk2 V c 0 t) (iblk2 V c 1 t) (iblk2 V c 1 t) (iblk2 V c 2 t) (iblk2 V c 3 t) (iblk2 V c 4 t) (iblk2 V c 5 t)
      (((cfg2.win 6).blk t).view.emb) (2000 * t.val) ?_ ?_ ?_ ?_ ?_ ?_ ?_ ?_ ?_)).trans ?_
  -- the result's block: rows from 2000·t on, the columns as they are
  · intro y
    show win2_6.index t (0 : Fin 2) * 2000 + 1 * (y 0).val = _
    rw [g0]; omega
  · intro y
    show win2_6.index t (1 : Fin 2) * 128 + 1 * (y 1).val = _
    rw [g1]; omega
  -- the messages' block, and the old state's (loaded twice), are read where the result's block is written
  · intro y
    show V c main_v21 (((cfg2.win 0).blk t).view.emb y) = V c main_v21 (((cfg2.win 6).blk t).view.emb y)
    refine congrArg _ (funext fun a => Fin.ext ?_)
    match a with
    | ⟨0, _⟩ => show win2_0.index t (0 : Fin 2) * 2000 + 1 * (y 0).val = win2_6.index t (0 : Fin 2) * 2000 + 1 * (y 0).val; rw [a0, g0]
    | ⟨1, _⟩ => show win2_0.index t (1 : Fin 2) * 128 + 1 * (y 1).val = win2_6.index t (1 : Fin 2) * 128 + 1 * (y 1).val; rw [a1, g1]
  · intro y
    show V c main_v0_1 (((cfg2.win 1).blk t).view.emb y) = V c main_v0_1 (((cfg2.win 6).blk t).view.emb y)
    refine congrArg _ (funext fun a => Fin.ext ?_)
    match a with
    | ⟨0, _⟩ => show win2_1.index t (0 : Fin 2) * 2000 + 1 * (y 0).val = win2_6.index t (0 : Fin 2) * 2000 + 1 * (y 0).val; rw [b0, g0]
    | ⟨1, _⟩ => show win2_1.index t (1 : Fin 2) * 128 + 1 * (y 1).val = win2_6.index t (1 : Fin 2) * 128 + 1 * (y 1).val; rw [b1, g1]
  · intro y
    show V c main_v0_1 (((cfg2.win 1).blk t).view.emb y) = V c main_v0_1 (((cfg2.win 6).blk t).view.emb y)
    refine congrArg _ (funext fun a => Fin.ext ?_)
    match a with
    | ⟨0, _⟩ => show win2_1.index t (0 : Fin 2) * 2000 + 1 * (y 0).val = win2_6.index t (0 : Fin 2) * 2000 + 1 * (y 0).val; rw [b0, g0]
    | ⟨1, _⟩ => show win2_1.index t (1 : Fin 2) * 128 + 1 * (y 1).val = win2_6.index t (1 : Fin 2) * 128 + 1 * (y 1).val; rw [b1, g1]
  -- the weights' and the biases' blocks are their whole arrays
  · funext y
    show V c main_v5 (((cfg2.win 2).blk t).view.emb y) = V c main_v5 y
    refine congrArg _ (funext fun a => Fin.ext ?_)
    match a with
    | ⟨0, _⟩ => show win2_2.index t (0 : Fin 2) * 128 + 1 * (y 0).val = (y 0).val; rw [c0]; omega
    | ⟨1, _⟩ => show win2_2.index t (1 : Fin 2) * 384 + 1 * (y 1).val = (y 1).val; rw [c1]; omega
  · funext y
    show V c main_v6 (((cfg2.win 3).blk t).view.emb y) = V c main_v6 y
    refine congrArg _ (funext fun a => Fin.ext ?_)
    match a with
    | ⟨0, _⟩ => show win2_3.index t (0 : Fin 2) * 128 + 1 * (y 0).val = (y 0).val; rw [d0]; omega
    | ⟨1, _⟩ => show win2_3.index t (1 : Fin 2) * 384 + 1 * (y 1).val = (y 1).val; rw [d1]; omega
  · funext y
    show V c main_v7 (((cfg2.win 4).blk t).view.emb y) = V c main_v7 y
    refine congrArg _ (funext fun a => Fin.ext ?_)
    match a with
    | ⟨0, _⟩ => show win2_4.index t (0 : Fin 2) * 1 + 1 * (y 0).val = (y 0).val; rw [e0]; omega
    | ⟨1, _⟩ => show win2_4.index t (1 : Fin 2) * 384 + 1 * (y 1).val = (y 1).val; rw [e1]; omega
  · funext y
    show V c main_v8 (((cfg2.win 5).blk t).view.emb y) = V c main_v8 y
    refine congrArg _ (funext fun a => Fin.ext ?_)
    match a with
    | ⟨0, _⟩ => show win2_5.index t (0 : Fin 2) * 1 + 1 * (y 0).val = (y 0).val; rw [f0]; omega
    | ⟨1, _⟩ => show win2_5.index t (1 : Fin 2) * 384 + 1 * (y 1).val = (y 1).val; rw [f1]; omega
  -- the cell of the arrays read through the block's placement IS the block of the cell
  · rfl

/-- An index of the array is in point t's block iff each coordinate is in the block's range on its axis. -/
private theorem mem_block (t : Fin cfg2.N) (i : S100000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v22).slice (win2_6.rect t)).set ↔ _
  rw [View.set_slice_whole, Rect.mem_set_unit]
  exact Iff.rfl

/-- Every row of the array is in the block of the point its number divided by the block's height names, and that
    point writes back. -/
private theorem covered (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : grid2.N = 50 := N_2
  obtain ⟨t, ht⟩ : ∃ t : Fin cfg2.N, t.val = (i 0).val / 2000 :=
    ⟨⟨(i 0).val / 2000, by show (i 0).val / 2000 < grid2.N; omega⟩, rfl⟩
  obtain ⟨-, -, -, -, -, -, -, -, -, -, -, -, g0, g1⟩ := index_facts t
  refine ⟨t, flush2_6 t, ?_⟩
  rw [mem_block]
  intro a
  match a with
  | ⟨0, _⟩ =>
    show win2_6.index t (0 : Fin 2) * 2000 ≤ (i 0).val ∧ (i 0).val < win2_6.index t (0 : Fin 2) * 2000 + 2000
    rw [g0]; omega
  | ⟨1, _⟩ =>
    show win2_6.index t (1 : Fin 2) * 128 ≤ (i 1).val ∧ (i 1).val < win2_6.index t (1 : Fin 2) * 128 + 128
    rw [g1]; omega

/-- The array after the region: every point's block is that block of the cell, and the blocks cover the array. -/
theorem gru2 (c : Dev nD) : (dat2 V c).arrAt 6 cfg2.N
    = Cert.Spec.gru (V c main_v21) (V c main_v0_1) (V c main_v5) (V c main_v6) (fun k => V c main_v7 (ix2 0 k)) (fun k => V c main_v8 (ix2 0 k)) :=
  (dat2 V c).arrAt_eq_of_cover 6 _ (fun t _ => flushed_eq V c t) covered

end Cert.KernelIdeal.RegionValue

end
-- ==== Proof.KChainA.lean ====
/-
  From the launch to the end of the first round: the embedding region, the host stretch that cuts the edge list,
  transposes the cell weights and reshapes the biases, the first message region, the aggregation, the first cell region.
-/
import proofs.«400059_j34591666602133_1_alg».proof.Proof.Gen.KernelIdeal.Frame
import proofs.«400059_j34591666602133_1_alg».proof.Proof.Spec
import proofs.«400059_j34591666602133_1_alg».proof.Proof.KChainDefs
import proofs.«400059_j34591666602133_1_alg».proof.Proof.KEmbed
import proofs.«400059_j34591666602133_1_alg».proof.Proof.KMsg1
import proofs.«400059_j34591666602133_1_alg».proof.Proof.KGru2
import Idealize.ShloMosaic.Lib.ValueLayout
set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- A buffer that none of a host stretch's operations writes holds after the stretch what it held before:
    the stretch's result buffers are listed and told apart from the given one. -/
local macro "keeps% " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- The cell is a function of its six operands. -/
theorem gru_congr {a a' h h' : Cert.Spec.Mat 100000 128} {wi wi' wh wh' : Cert.Spec.Mat 128 384}
    {bi bi' bh bh' : Fin 384 → EReal}
    (ea : a = a') (eh : h = h') (ewi : wi = wi') (ewh : wh = wh') (ebi : bi = bi') (ebh : bh = bh') :
    Cert.Spec.gru a h wi wh bi bh = Cert.Spec.gru a' h' wi' wh' bi' bh' := by
  rw [ea, eh, ewi, ewh, ebi, ebh]

/-! ## Boundary 1: the embedding region is left

Its two result arrays hold the embedding and the padded embedding of the launch's node table and first weight;
no argument other than its two inputs is among its arrays. -/

theorem B1_x1 (c : Dev nD) : W1 m ρ c (Proc.devRef .tc main_v0_0)
    = Cert.Spec.embed (m ((c : Thread nD τ).loc main_arg0)) (m ((c : Thread nD τ).loc main_arg3)) :=
  (W1_arr m ρ c 2).trans (RegionValue.embed_x1 (V0 m ρ) c)
theorem B1_h0 (c : Dev nD) : W1 m ρ c (Proc.devRef .tc main_v0_1)
    = Cert.Spec.pad (Cert.Spec.embed (m ((c : Thread nD τ).loc main_arg0)) (m ((c : Thread nD τ).loc main_arg3))) :=
  (W1_arr m ρ c 3).trans (RegionValue.embed_h0 (V0 m ρ) c)
theorem B1_arg1 (c : Dev nD) : W1 m ρ c (Proc.devRef .tc main_arg1) = m ((c : Thread nD τ).loc main_arg1) :=
  W1_of_ne m ρ c main_arg1 (by decide)
theorem B1_arg2 (c : Dev nD) : W1 m ρ c (Proc.devRef .tc main_arg2) = m ((c : Thread nD τ).loc main_arg2) :=
  W1_of_ne m ρ c main_arg2 (by decide)
theorem B1_arg4 (c : Dev nD) : W1 m ρ c (Proc.devRef .tc main_arg4) = m ((c : Thread nD τ).loc main_arg4) :=
  W1_of_ne m ρ c main_arg4 (by decide)
theorem B1_arg5 (c : Dev nD) : W1 m ρ c (Proc.devRef .tc main_arg5) = m ((c : Thread nD τ).loc main_arg5) :=
  W1_of_ne m ρ c main_arg5 (by decide)
theorem B1_arg6 (c : Dev nD) : W1 m ρ c (Proc.devRef .tc main_arg6) = m ((c : Thread nD τ).loc main_arg6) :=
  W1_of_ne m ρ c main_arg6 (by decide)
theorem B1_arg7 (c : Dev nD) : W1 m ρ c (Proc.devRef .tc main_arg7) = m ((c : Thread nD τ).loc main_arg7) :=
  W1_of_ne m ρ c main_arg7 (by decide)
theorem B1_arg8 (c : Dev nD) : W1 m ρ c (Proc.devRef .tc main_arg8) = m ((c : Thread nD τ).loc main_arg8) :=
  W1_of_ne m ρ c main_arg8 (by decide)
theorem B1_arg9 (c : Dev nD) : W1 m ρ c (Proc.devRef .tc main_arg9) = m ((c : Thread nD τ).loc main_arg9) :=
  W1_of_ne m ρ c main_arg9 (by decide)
theorem B1_arg10 (c : Dev nD) : W1 m ρ c (Proc.devRef .tc main_arg10) = m ((c : Thread nD τ).loc main_arg10) :=
  W1_of_ne m ρ c main_arg10 (by decide)
theorem B1_arg11 (c : Dev nD) : W1 m ρ c (Proc.devRef .tc main_arg11) = m ((c : Thread nD τ).loc main_arg11) :=
  W1_of_ne m ρ c main_arg11 (by decide)
theorem B1_arg12 (c : Dev nD) : W1 m ρ c (Proc.devRef .tc main_arg12) = m ((c : Thread nD τ).loc main_arg12) :=
  W1_of_ne m ρ c main_arg12 (by decide)

/-! ## Boundary 2: the first host stretch has run

It wrote the two rows of the edge list as vectors, the two transposed cell weights, the two bias rows and the first
round weight, each a function of one argument; the embedding's arrays and the other arguments are not written. -/

theorem B2_x1 (c : Dev nD) : W2 m ρ c (Proc.devRef .tc main_v0_0)
    = Cert.Spec.embed (m ((c : Thread nD τ).loc main_arg0)) (m ((c : Thread nD τ).loc main_arg3)) :=
  (keeps% hostOps1).trans (B1_x1 m ρ c)
theorem B2_h0 (c : Dev nD) : W2 m ρ c (Proc.devRef .tc main_v0_1)
    = Cert.Spec.pad (Cert.Spec.embed (m ((c : Thread nD τ).loc main_arg0)) (m ((c : Thread nD τ).loc main_arg3))) :=
  (keeps% hostOps1).trans (B1_h0 m ρ c)
theorem B2_src (c : Dev nD) : W2 m ρ c (Proc.devRef .tc main_v2) = srcOf (m ((c : Thread nD τ).loc main_arg1)) := by
  rw [← B1_arg1 m ρ c]
  show StableHlo.after hostOps1 (W1 m ρ c) (Proc.devRef .tc main_v2) = _
  after_results; rfl
theorem B2_dst (c : Dev nD) : W2 m ρ c (Proc.devRef .tc main_v4) = dstOf (m ((c : Thread nD τ).loc main_arg1)) := by
  rw [← B1_arg1 m ρ c]
  show StableHlo.after hostOps1 (W1 m ρ c) (Proc.devRef .tc main_v4) = _
  after_results; rfl
theorem B2_wi (c : Dev nD) : W2 m ρ c (Proc.devRef .tc main_v5) = wT (m ((c : Thread nD τ).loc main_arg5)) := by
  rw [← B1_arg5 m ρ c]
  show StableHlo.after hostOps1 (W1 m ρ c) (Proc.devRef .tc main_v5) = _
  after_results; rfl
theorem B2_wh (c : Dev nD) : W2 m ρ c (Proc.devRef .tc main_v6) = wT (m ((c : Thread nD τ).loc main_arg6)) := by
  rw [← B1_arg6 m ρ c]
  show StableHlo.after hostOps1 (W1 m ρ c) (Proc.devRef .tc main_v6) = _
  after_results; rfl
theorem B2_bi (c : Dev nD) : W2 m ρ c (Proc.devRef .tc main_v7)
    = shapeCast S1x384 (m ((c : Thread nD τ).loc main_arg7)) shapeCasts_S384_S1x384 := by
  rw [← B1_arg7 m ρ c]
  show StableHlo.after hostOps1 (W1 m ρ c) (Proc.devRef .tc main_v7) = _
  after_results; rfl
theorem B2_bh (c : Dev nD) : W2 m ρ c (Proc.devRef .tc main_v8)
    = shapeCast S1x384 (m ((c : Thread nD τ).loc main_arg8)) shapeCasts_S384_S1x384 := by
  rw [← B1_arg8 m ρ c]
  show StableHlo.after hostOps1 (W1 m ρ c) (Proc.devRef .tc main_v8) = _
  after_results; rfl
theorem B2_w0 (c : Dev nD) : W2 m ρ c (Proc.devRef .tc main_v10) = wOf0 (m ((c : Thread nD τ).loc main_arg4)) := by
  rw [← B1_arg4 m ρ c]
  show StableHlo.after hostOps1 (W1 m ρ c) (Proc.devRef .tc main_v10) = _
  after_results; rfl
theorem B2_arg2 (c : Dev nD) : W2 m ρ c (Proc.devRef .tc main_arg2) = m ((c : Thread nD τ).loc main_arg2) :=
  (keeps% hostOps1).trans (B1_arg2 m ρ c)
theorem B2_arg4 (c : Dev nD) : W2 m ρ c (Proc.devRef .tc main_arg4) = m ((c : Thread nD τ).loc main_arg4) :=
  (keeps% hostOps1).trans (B1_arg4 m ρ c)
theorem B2_arg9 (c : Dev nD) : W2 m ρ c (Proc.devRef .tc main_arg9) = m ((c : Thread nD τ).loc main_arg9) :=
  (keeps% hostOps1).trans (B1_arg9 m ρ c)
theorem B2_arg10 (c : Dev nD) : W2 m ρ c (Proc.devRef .tc main_arg10) = m ((c : Thread nD τ).loc main_arg10) :=
  (keeps% hostOps1).trans (B1_arg10 m ρ c)
theorem B2_arg11 (c : Dev nD) : W2 m ρ c (Proc.devRef .tc main_arg11) = m ((c : Thread nD τ).loc main_arg11) :=
  (keeps% hostOps1).trans (B1_arg11 m ρ c)
theorem B2_arg12 (c : Dev nD) : W2 m ρ c (Proc.devRef .tc main_arg12) = m ((c : Thread nD τ).loc main_arg12) :=
  (keeps% hostOps1).trans (B1_arg12 m ρ c)

/-! ## Boundary 3: the first message region is left

Its result array holds the product of the padded embedding with the first round weight; its first input array is
left as entered, and nothing else this chain follows is among its arrays. -/

theorem B3_msg (c : Dev nD) : W3 m ρ c (Proc.devRef .tc main_v11)
    = Cert.Spec.msg (Cert.Spec.pad (Cert.Spec.embed (m ((c : Thread nD τ).loc main_arg0)) (m ((c : Thread nD τ).loc main_arg3))))
        (wOf0 (m ((c : Thread nD τ).loc main_arg4))) :=
  ((W3_arr m ρ c 2).trans (RegionValue.msg1 (V2 m ρ) c)).trans
    (congrArg₂ Cert.Spec.msg (B2_h0 m ρ c) (B2_w0 m ρ c))
theorem B3_h0 (c : Dev nD) : W3 m ρ c (Proc.devRef .tc main_v0_1)
    = Cert.Spec.pad (Cert.Spec.embed (m ((c : Thread nD τ).loc main_arg0)) (m ((c : Thread nD τ).loc main_arg3))) :=
  ((W3_arr m ρ c 0).trans (((dat1 (V2 m ρ) c).arrAt_in 0 rfl _).trans (A_eq1 (V2 m ρ) c 0))).trans (B2_h0 m ρ c)
theorem B3_x1 (c : Dev nD) : W3 m ρ c (Proc.devRef .tc main_v0_0)
    = Cert.Spec.embed (m ((c : Thread nD τ).loc main_arg0)) (m ((c : Thread nD τ).loc main_arg3)) :=
  (W3_of_ne m ρ c main_v0_0 (by decide)).trans (B2_x1 m ρ c)
theorem B3_src (c : Dev nD) : W3 m ρ c (Proc.devRef .tc main_v2) = srcOf (m ((c : Thread nD τ).loc main_arg1)) :=
  (W3_of_ne m ρ c main_v2 (by decide)).trans (B2_src m ρ c)
theorem B3_dst (c : Dev nD) : W3 m ρ c (Proc.devRef .tc main_v4) = dstOf (m ((c : Thread nD τ).loc main_arg1)) :=
  (W3_of_ne m ρ c main_v4 (by decide)).trans (B2_dst m ρ c)
theorem B3_wi (c : Dev nD) : W3 m ρ c (Proc.devRef .tc main_v5) = wT (m ((c : Thread nD τ).loc main_arg5)) :=
  (W3_of_ne m ρ c main_v5 (by decide)).trans (B2_wi m ρ c)
theorem B3_wh (c : Dev nD) : W3 m ρ c (Proc.devRef .tc main_v6) = wT (m ((c : Thread nD τ).loc main_arg6)) :=
  (W3_of_ne m ρ c main_v6 (by decide)).trans (B2_wh m ρ c)
theorem B3_bi (c : Dev nD) : W3 m ρ c (Proc.devRef .tc main_v7)
    = shapeCast S1x384 (m ((c : Thread nD τ).loc main_arg7)) shapeCasts_S384_S1x384 :=
  (W3_of_ne m ρ c main_v7 (by decide)).trans (B2_bi m ρ c)
theorem B3_bh (c : Dev nD) : W3 m ρ c (Proc.devRef .tc main_v8)
    = shapeCast S1x384 (m ((c : Thread nD τ).loc main_arg8)) shapeCasts_S384_S1x384 :=
  (W3_of_ne m ρ c main_v8 (by decide)).trans (B2_bh m ρ c)
theorem B3_arg2 (c : Dev nD) : W3 m ρ c (Proc.devRef .tc main_arg2) = m ((c : Thread nD τ).loc main_arg2) :=
  (W3_of_ne m ρ c main_arg2 (by decide)).trans (B2_arg2 m ρ c)
theorem B3_arg4 (c : Dev nD) : W3 m ρ c (Proc.devRef .tc main_arg4) = m ((c : Thread nD τ).loc main_arg4) :=
  (W3_of_ne m ρ c main_arg4 (by decide)).trans (B2_arg4 m ρ c)
theorem B3_arg9 (c : Dev nD) : W3 m ρ c (Proc.devRef .tc main_arg9) = m ((c : Thread nD τ).loc main_arg9) :=
  (W3_of_ne m ρ c main_arg9 (by decide)).trans (B2_arg9 m ρ c)
theorem B3_arg10 (c : Dev nD) : W3 m ρ c (Proc.devRef .tc main_arg10) = m ((c : Thread nD τ).loc main_arg10) :=
  (W3_of_ne m ρ c main_arg10 (by decide)).trans (B2_arg10 m ρ c)
theorem B3_arg11 (c : Dev nD) : W3 m ρ c (Proc.devRef .tc main_arg11) = m ((c : Thread nD τ).loc main_arg11) :=
  (W3_of_ne m ρ c main_arg11 (by decide)).trans (B2_arg11 m ρ c)
theorem B3_arg12 (c : Dev nD) : W3 m ρ c (Proc.devRef .tc main_arg12) = m ((c : Thread nD τ).loc main_arg12) :=
  (W3_of_ne m ρ c main_arg12 (by decide)).trans (B2_arg12 m ρ c)

/-! ## Boundary 4: the aggregation has run

The stretch's last operation wrote the message rows gathered by the wrapped source words and added up per target
word; every buffer the chain follows from here on is one the stretch does not write. -/

theorem B4_agg (c : Dev nD) : W4 m ρ c (Proc.devRef .tc main_v21)
    = aggOf (srcOf (m ((c : Thread nD τ).loc main_arg1))) (dstOf (m ((c : Thread nD τ).loc main_arg1)))
        (Cert.Spec.msg (Cert.Spec.pad (Cert.Spec.embed (m ((c : Thread nD τ).loc main_arg0)) (m ((c : Thread nD τ).loc main_arg3))))
          (wOf0 (m ((c : Thread nD τ).loc main_arg4)))) := by
  rw [← B3_src m ρ c, ← B3_dst m ρ c, ← B3_msg m ρ c]
  show StableHlo.after hostOps2 (W3 m ρ c) (Proc.devRef .tc main_v21) = _
  after_results; rfl
theorem B4_h0 (c : Dev nD) : W4 m ρ c (Proc.devRef .tc main_v0_1)
    = Cert.Spec.pad (Cert.Spec.embed (m ((c : Thread nD τ).loc main_arg0)) (m ((c : Thread nD τ).loc main_arg3))) :=
  (keeps% hostOps2).trans (B3_h0 m ρ c)
theorem B4_x1 (c : Dev nD) : W4 m ρ c (Proc.devRef .tc main_v0_0)
    = Cert.Spec.embed (m ((c : Thread nD τ).loc main_arg0)) (m ((c : Thread nD τ).loc main_arg3)) :=
  (keeps% hostOps2).trans (B3_x1 m ρ c)
theorem B4_src (c : Dev nD) : W4 m ρ c (Proc.devRef .tc main_v2) = srcOf (m ((c : Thread nD τ).loc main_arg1)) :=
  (keeps% hostOps2).trans (B3_src m ρ c)
theorem B4_dst (c : Dev nD) : W4 m ρ c (Proc.devRef .tc main_v4) = dstOf (m ((c : Thread nD τ).loc main_arg1)) :=
  (keeps% hostOps2).trans (B3_dst m ρ c)
theorem B4_wi (c : Dev nD) : W4 m ρ c (Proc.devRef .tc main_v5) = wT (m ((c : Thread nD τ).loc main_arg5)) :=
  (keeps% hostOps2).trans (B3_wi m ρ c)
theorem B4_wh (c : Dev nD) : W4 m ρ c (Proc.devRef .tc main_v6) = wT (m ((c : Thread nD τ).loc main_arg6)) :=
  (keeps% hostOps2).trans (B3_wh m ρ c)
theorem B4_bi (c : Dev nD) : W4 m ρ c (Proc.devRef .tc main_v7)
    = shapeCast S1x384 (m ((c : Thread nD τ).loc main_arg7)) shapeCasts_S384_S1x384 :=
  (keeps% hostOps2).trans (B3_bi m ρ c)
theorem B4_bh (c : Dev nD) : W4 m ρ c (Proc.devRef .tc main_v8)
    = shapeCast S1x384 (m ((c : Thread nD τ).loc main_arg8)) shapeCasts_S384_S1x384 :=
  (keeps% hostOps2).trans (B3_bh m ρ c)
theorem B4_arg2 (c : Dev nD) : W4 m ρ c (Proc.devRef .tc main_arg2) = m ((c : Thread nD τ).loc main_arg2) :=
  (keeps% hostOps2).trans (B3_arg2 m ρ c)
theorem B4_arg4 (c : Dev nD) : W4 m ρ c (Proc.devRef .tc main_arg4) = m ((c : Thread nD τ).loc main_arg4) :=
  (keeps% hostOps2).trans (B3_arg4 m ρ c)
theorem B4_arg9 (c : Dev nD) : W4 m ρ c (Proc.devRef .tc main_arg9) = m ((c : Thread nD τ).loc main_arg9) :=
  (keeps% hostOps2).trans (B3_arg9 m ρ c)
theorem B4_arg10 (c : Dev nD) : W4 m ρ c (Proc.devRef .tc main_arg10) = m ((c : Thread nD τ).loc main_arg10) :=
  (keeps% hostOps2).trans (B3_arg10 m ρ c)
theorem B4_arg11 (c : Dev nD) : W4 m ρ c (Proc.devRef .tc main_arg11) = m ((c : Thread nD τ).loc main_arg11) :=
  (keeps% hostOps2).trans (B3_arg11 m ρ c)
theorem B4_arg12 (c : Dev nD) : W4 m ρ c (Proc.devRef .tc main_arg12) = m ((c : Thread nD τ).loc main_arg12) :=
  (keeps% hostOps2).trans (B3_arg12 m ρ c)

/-- A bias row is the bias vector with a unit axis in front: at (0, k) it reads the vector at k. -/
theorem B4_bi_at (c : Dev nD) (k : Fin 384) :
    (W4 m ρ c (Proc.devRef .tc main_v7) : FVec Ideal S1x384 .f32) (ix2 0 k) = (m ((c : Thread nD τ).loc main_arg7)) (ix1 k) :=
  (congrFun (B4_bi m ρ c) (ix2 0 k)).trans (shapeCast_a_1a_apply _ _ 0 k)
theorem B4_bh_at (c : Dev nD) (k : Fin 384) :
    (W4 m ρ c (Proc.devRef .tc main_v8) : FVec Ideal S1x384 .f32) (ix2 0 k) = (m ((c : Thread nD τ).loc main_arg8)) (ix1 k) :=
  (congrFun (B4_bh m ρ c) (ix2 0 k)).trans (shapeCast_a_1a_apply _ _ 0 k)

-- boundary 5: the contents when the first cell region is left
theorem A_x1 (c : Dev nD) : W5 m ρ c (Proc.devRef .tc main_v0_0) = Cert.Spec.embed (m ((c : Thread nD τ).loc main_arg0)) (m ((c : Thread nD τ).loc main_arg3)) :=
  (W5_of_ne m ρ c main_v0_0 (by decide)).trans (B4_x1 m ρ c)
theorem A_h1 (c : Dev nD) : W5 m ρ c (Proc.devRef .tc main_v22)
    = Cert.Spec.round (aggOf (srcOf (m ((c : Thread nD τ).loc main_arg1))) (dstOf (m ((c : Thread nD τ).loc main_arg1)))) (wOf0 (m ((c : Thread nD τ).loc main_arg4))) (wT (m ((c : Thread nD τ).loc main_arg5))) (wT (m ((c : Thread nD τ).loc main_arg6)))
        (fun k => (m ((c : Thread nD τ).loc main_arg7)) (ix1 k)) (fun k => (m ((c : Thread nD τ).loc main_arg8)) (ix1 k)) (Cert.Spec.pad (Cert.Spec.embed (m ((c : Thread nD τ).loc main_arg0)) (m ((c : Thread nD τ).loc main_arg3)))) :=
  -- the region's result is the cell of what it found in its six input arrays; a round is the cell of the
  -- aggregated product and the old state
  ((W5_arr m ρ c 6).trans (RegionValue.gru2 (V4 m ρ) c)).trans
    (gru_congr (B4_agg m ρ c) (B4_h0 m ρ c) (B4_wi m ρ c) (B4_wh m ρ c)
      (funext fun k => B4_bi_at m ρ c k) (funext fun k => B4_bh_at m ρ c k))
theorem A_src (c : Dev nD) : W5 m ρ c (Proc.devRef .tc main_v2) = srcOf (m ((c : Thread nD τ).loc main_arg1)) :=
  (W5_of_ne m ρ c main_v2 (by decide)).trans (B4_src m ρ c)
theorem A_dst (c : Dev nD) : W5 m ρ c (Proc.devRef .tc main_v4) = dstOf (m ((c : Thread nD τ).loc main_arg1)) :=
  (W5_of_ne m ρ c main_v4 (by decide)).trans (B4_dst m ρ c)
theorem A_wi (c : Dev nD) : W5 m ρ c (Proc.devRef .tc main_v5) = wT (m ((c : Thread nD τ).loc main_arg5)) :=
  ((W5_arr m ρ c 2).trans (((dat2 (V4 m ρ) c).arrAt_in 2 rfl _).trans (A_eq2 (V4 m ρ) c 2))).trans (B4_wi m ρ c)
theorem A_wh (c : Dev nD) : W5 m ρ c (Proc.devRef .tc main_v6) = wT (m ((c : Thread nD τ).loc main_arg6)) :=
  ((W5_arr m ρ c 3).trans (((dat2 (V4 m ρ) c).arrAt_in 3 rfl _).trans (A_eq2 (V4 m ρ) c 3))).trans (B4_wh m ρ c)
theorem A_bi (c : Dev nD) (k : Fin 384) : (W5 m ρ c (Proc.devRef .tc main_v7) : FVec Ideal S1x384 .f32) (ix2 0 k) = (m ((c : Thread nD τ).loc main_arg7)) (ix1 k) :=
  (congrFun ((W5_arr m ρ c 4).trans (((dat2 (V4 m ρ) c).arrAt_in 4 rfl _).trans (A_eq2 (V4 m ρ) c 4))) (ix2 0 k)).trans (B4_bi_at m ρ c k)
theorem A_bh (c : Dev nD) (k : Fin 384) : (W5 m ρ c (Proc.devRef .tc main_v8) : FVec Ideal S1x384 .f32) (ix2 0 k) = (m ((c : Thread nD τ).loc main_arg8)) (ix1 k) :=
  (congrFun ((W5_arr m ρ c 5).trans (((dat2 (V4 m ρ) c).arrAt_in 5 rfl _).trans (A_eq2 (V4 m ρ) c 5))) (ix2 0 k)).trans (B4_bh_at m ρ c k)
theorem A_arg2 (c : Dev nD) : W5 m ρ c (Proc.devRef .tc main_arg2) = (m ((c : Thread nD τ).loc main_arg2)) :=
  (W5_of_ne m ρ c main_arg2 (by decide)).trans (B4_arg2 m ρ c)
theorem A_arg4 (c : Dev nD) : W5 m ρ c (Proc.devRef .tc main_arg4) = (m ((c : Thread nD τ).loc main_arg4)) :=
  (W5_of_ne m ρ c main_arg4 (by decide)).trans (B4_arg4 m ρ c)
theorem A_arg9 (c : Dev nD) : W5 m ρ c (Proc.devRef .tc main_arg9) = (m ((c : Thread nD τ).loc main_arg9)) :=
  (W5_of_ne m ρ c main_arg9 (by decide)).trans (B4_arg9 m ρ c)
theorem A_arg10 (c : Dev nD) : W5 m ρ c (Proc.devRef .tc main_arg10) = (m ((c : Thread nD τ).loc main_arg10)) :=
  (W5_of_ne m ρ c main_arg10 (by decide)).trans (B4_arg10 m ρ c)
theorem A_arg11 (c : Dev nD) : W5 m ρ c (Proc.devRef .tc main_arg11) = (m ((c : Thread nD τ).loc main_arg11)) :=
  (W5_of_ne m ρ c main_arg11 (by decide)).trans (B4_arg11 m ρ c)
theorem A_arg12 (c : Dev nD) : W5 m ρ c (Proc.devRef .tc main_arg12) = (m ((c : Thread nD τ).loc main_arg12)) :=
  (W5_of_ne m ρ c main_arg12 (by decide)).trans (B4_arg12 m ρ c)

end Cert.KernelIdeal.Chain

end
-- ==== Proof.KMsg3.lean ====
/-
  The second message region's result array: rows of the state against the round's 128×128 weight.
-/
import proofs.«400059_j34591666602133_1_alg».proof.Proof.Gen.KernelIdeal.Frame
import proofs.«400059_j34591666602133_1_alg».proof.Proof.Spec
import proofs.«400059_j34591666602133_1_alg».proof.Proof.LibDenseLayer
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen
open Idealize.ShloMosaic.Pipeline (Dat)

-- the TensorCore's buffer contents when the region is entered: the parameter the region's proof data are stated at
variable (V : (c : Dev nD) → (b : Ref sig .tc) → Buf (Elt Ideal) ((c : Thread nD τ).loc b))

/-!
  The region walks the 100000 rows of the state in 20 blocks of 5000 rows. At block t it holds rows 5000·t … 5000·t + 4999
  of the state and the whole weight, forms their product into a zero accumulator, and writes the 5000×128 result back as
  rows 5000·t … 5000·t + 4999 of the result array. At the ideal values the change of float format in front of the product
  is the identity, so entry (p, q) of a block's product is Σ_l state(5000·t + p, l) · weight(l, q): the entry
  (5000·t + p, q) of the whole product. The 20 blocks tile the result array (row r lies in block r / 5000), so the array
  ends holding the whole product, entry by entry.
-/

/-! ## One block's product, entry by entry -/

/-- The body reads and writes whole blocks: their offsets, a pair of zeros, are the zero function. -/
private theorem zero_offsets : (![0, 0] : Fin 2 → Nat) = fun _ => 0 := funext fun a => by fin_cases a <;> rfl

/-- Entry (r, j) of the body's product of a 5000×128 block of rows with the 128×128 weight: row r of the block against
    column j of the weight. The casts of a shape to itself and the changes of format in front of the product are the
    identity at the ideal values, and the accumulator is zero. -/
private theorem product_apply (x : Vec Ideal S5000x128 .f32) (w : Vec Ideal S128x128 .f32) (r : Fin 5000) (j : Fin 128) :
    k3_pay1 (F := Ideal) x w (ix2 r j) = ∑ l : Fin 128, x (ix2 r l) * w (ix2 l j) := by
  unfold k3_pay1
  refine (DenseLayer.matmul_rows_apply dot_S5000x128_S128x128_S5000x128_1_0_0_1_n_n_wf none _ _ r j).trans ?_
  simp only [truncf_apply, shapeCast_self]

/-- When row p of the block is row r of the state A and the block of the weight is the weight W itself, entry (p, q)
    of the block's product is entry (r, q) of the whole product of A with W. -/
private theorem block_product (A : Cert.Spec.Mat 100000 128) (W : Cert.Spec.Mat 128 128)
    (x : Vec Ideal S5000x128 .f32) (w : Vec Ideal S128x128 .f32) (p : Fin 5000) (q : Fin 128) (r : Fin 100000)
    (hx : ∀ l : Fin 128, x (ix2 p l) = A (ix2 r l)) (hw : ∀ l : Fin 128, w (ix2 l q) = W (ix2 l q)) :
    k3_pay1 (F := Ideal) x w (ix2 p q) = Cert.Spec.msg A W (ix2 r q) := by
  refine (product_apply x w p q).trans ?_
  rw [Cert.Spec.msg_apply]
  exact Finset.sum_congr rfl fun l _ => by rw [hx l, hw l]

/-! ## Where the blocks lie -/

/-- The block indices over the grid: at point t the state's window and the result's window are at row block t, column
    block 0; the weight's window stays at block (0, 0). -/
private theorem index_facts : ∀ t : Fin cfg3.N,
    win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is block t of the whole product: entry (p, q) of the body's result sits at row 5000·t + p,
    column q of the result array; there the state's block holds row 5000·t + p of the state and the weight's block is
    the weight. -/
private theorem flushed_eq (c : Dev nD) (t : Fin cfg3.N) :
    (dat3 V c).flushed 2 t
      = ((cfg3.win 2).blk t).view.read (Elt Ideal) (Cert.Spec.msg (V c main_v22) (V c main_v24)) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S128x128) zero_offsets]
  obtain ⟨e0, e1, e2, e3, e4, e5⟩ := index_facts t
  have ht : t.val < 20 := lt_of_lt_of_eq t.isLt N_3
  funext y
  have hp : (y 0).val < 5000 := (y 0).isLt
  have hq : (y 1).val < 128 := (y 1).isLt
  -- the entry's coordinates inside the block
  have hy : (cfg3.win 2).xinj (grid3.coords t) y = ix2 (⟨(y 0).val, hp⟩ : Fin 5000) (⟨(y 1).val, hq⟩ : Fin 128) := by
    funext a
    match a with
    | ⟨0, _⟩ => rfl
    | ⟨1, _⟩ => rfl
  -- and in the result array: the block index times the block's extent plus the coordinate inside the block
  have hi : ((cfg3.win 2).blk t).view.emb y
      = ix2 (⟨t.val * 5000 + (y 0).val, by omega⟩ : Fin 100000) (⟨(y 1).val, hq⟩ : Fin 128) := by
    funext a; apply Fin.ext
    match a with
    | ⟨0, _⟩ => show win3_2.index t (0 : Fin 2) * 5000 + 1 * (y 0).val = t.val * 5000 + (y 0).val; omega
    | ⟨1, _⟩ => show win3_2.index t (1 : Fin 2) * 128 + 1 * (y 1).val = (y 1).val; omega
  show k3_pay1 (iblk3 V c 0 t) (iblk3 V c 1 t) ((cfg3.win 2).xinj (grid3.coords t) y)
    = Cert.Spec.msg (V c main_v22) (V c main_v24) (((cfg3.win 2).blk t).view.emb y)
  rw [hy, hi]
  refine block_product (V c main_v22) (V c main_v24) (iblk3 V c 0 t) (iblk3 V c 1 t) _ _ _ (fun l => ?_) (fun l => ?_)
  · -- row p of the state's block is row 5000·t + p of the state
    show V c main_v22 (((cfg3.win 0).blk t).view.emb (ix2 (⟨(y 0).val, hp⟩ : Fin 5000) l)) = _
    refine congrArg (V c main_v22) (funext fun a => Fin.ext ?_)
    match a with
    | ⟨0, _⟩ => show win3_0.index t (0 : Fin 2) * 5000 + 1 * (y 0).val = t.val * 5000 + (y 0).val; omega
    | ⟨1, _⟩ => show win3_0.index t (1 : Fin 2) * 128 + 1 * l.val = l.val; omega
  · -- the weight's block is the whole weight
    show V c main_v24 (((cfg3.win 1).blk t).view.emb (ix2 l (⟨(y 1).val, hq⟩ : Fin 128))) = _
    refine congrArg (V c main_v24) (funext fun a => Fin.ext ?_)
    match a with
    | ⟨0, _⟩ => show win3_1.index t (0 : Fin 2) * 128 + 1 * l.val = l.val; omega
    | ⟨1, _⟩ => show win3_1.index t (1 : Fin 2) * 128 + 1 * (y 1).val = (y 1).val; omega

/-- An entry of the result array lies in point t's block exactly when, on each axis, its coordinate is in the block's
    range: from the block index times the block's extent, for one extent. -/
private theorem mem_block (t : Fin cfg3.N) (i : S100000x128.Idx) :
    i ∈ ((cfg3.win 2).blk t).view.set
      ↔ ∀ a : Fin 2, win3_2.index t a * S5000x128.size a ≤ (i a).val
          ∧ (i a).val < win3_2.index t a * S5000x128.size a + S5000x128.size a := by
  show i ∈ ((View.whole main_v25).slice (win3_2.rect t)).set ↔ _
  rw [View.set_slice_whole, Rect.mem_set_unit]
  exact Iff.rfl

/-- The blocks tile the result array: the entry in row r lies in the block of point r / 5000, and every point writes
    its block back. -/
private theorem covered (i : S100000x128.Idx) :
    ∃ t : Fin cfg3.N, (cfg3.win 2).flush t = true ∧ i ∈ ((cfg3.win 2).blk t).view.set := by
  have hr : (i 0).val < 100000 := (i 0).isLt
  have hj : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, e4, e5⟩ := index_facts t
  refine ⟨t, flush3_2 t, ?_⟩
  rw [mem_block]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-! ## The result array -/

theorem msg3 (c : Dev nD) : (dat3 V c).arrAt 2 cfg3.N = Cert.Spec.msg (V c main_v22) (V c main_v24) :=
  (dat3 V c).arrAt_eq_of_cover 2 (Cert.Spec.msg (V c main_v22) (V c main_v24)) (fun t _ => flushed_eq V c t) covered

end Cert.KernelIdeal.RegionValue

end
-- ==== Proof.KGru4.lean ====
/-
  The second cell region's result array: the gated recurrent cell of the aggregated messages and the old state.
-/
import proofs.«400059_j34591666602133_1_alg».proof.Proof.Gen.KernelIdeal.Frame
import proofs.«400059_j34591666602133_1_alg».proof.Proof.Spec
import proofs.«400059_j34591666602133_1_alg».proof.Proof.LibDenseLayer

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen

-- the TensorCore's buffer contents when the region is entered: the parameter the region's proof data are stated at
variable (V : (c : Dev nD) → (b : Ref sig .tc) → Buf (Elt Ideal) ((c : Thread nD τ).loc b))

/-! ## The body's arithmetic on one block of rows

At each of the grid's points the body holds 2000 rows of the aggregated messages and the same 2000 rows of the old
state, and the two 128×384 weights and the two bias rows whole. It forms two blocks of gate rows (a block against a
weight, plus the bias row repeated down the rows), cuts each into three column blocks of width 128 (reset, update,
candidate), and mixes them entry by entry. An entry (p, j) of the result therefore depends on row p of the two
blocks only, through the six pre-activations at columns j, j + 128 and j + 256. -/

/-- The gate rows of a block of rows: the block against a 128×384 weight, plus the bias row repeated down the rows. -/
private def gateRows (x : Vec Ideal S2000x128 .f32) (w : Vec Ideal S128x384 .f32) (b : Vec Ideal S1x384 .f32) :
    FVec Ideal S2000x384 .f32 :=
  addf (matmul dot_S2000x128_S128x384_S2000x384_1_0_0_1_n_n none
      (truncf .bf16 (shapeCast S2000x128 x shapeCasts_S2000x128_S2000x128) bitsLt_bf16_f32)
      (truncf .bf16 (shapeCast S128x384 w shapeCasts_S128x384_S128x384) bitsLt_bf16_f32)
      (constant S2000x384 .f32 0x00000000#32))
    (broadcastTo S2000x384 (shapeCast S1x384 b shapeCasts_S1x384_S1x384) broadcasts_S1x384_S2000x384)

/-- The cell on a block of rows, from the two blocks of gate rows and the old state's block: with r, z the logistics
    of the summed reset and update columns and n the hyperbolic tangent of the input's candidate column plus r times
    the state's, the block (1 − z)·n + z·h. -/
private def cellRows (gi gh : FVec Ideal S2000x384 .f32) (hold : Vec Ideal S2000x128 .f32) : FVec Ideal S2000x128 .f32 :=
  addf
    (mulf
      (subf (broadcast S2000x128 (Scalar.ofBits .f32 0x3F800000#32))
        (logistic (addf (extractStridedSlice S2000x128 ![0, 128] gi slices_S2000x384_o0_128_S2000x128)
          (extractStridedSlice S2000x128 ![0, 128] gh slices_S2000x384_o0_128_S2000x128))))
      (tanh (addf (extractStridedSlice S2000x128 ![0, 256] gi slices_S2000x384_o0_256_S2000x128)
        (mulf
          (logistic (addf (extractStridedSlice S2000x128 ![0, 0] gi slices_S2000x384_o0_0_S2000x128)
            (extractStridedSlice S2000x128 ![0, 0] gh slices_S2000x384_o0_0_S2000x128)))
          (extractStridedSlice S2000x128 ![0, 256] gh slices_S2000x384_o0_256_S2000x128)))))
    (mulf
      (logistic (addf (extractStridedSlice S2000x128 ![0, 128] gi slices_S2000x384_o0_128_S2000x128)
        (extractStridedSlice S2000x128 ![0, 128] gh slices_S2000x384_o0_128_S2000x128)))
      (shapeCast S2000x128 hold shapeCasts_S2000x128_S2000x128))

/-- The body's payload is the cell on the gate rows of its loaded blocks (the old state's block is loaded twice). -/
private theorem payload_eq (a h : Vec Ideal S2000x128 .f32) (wi wh : Vec Ideal S128x384 .f32) (bi bh : Vec Ideal S1x384 .f32)
    (h' : Vec Ideal S2000x128 .f32) :
    k4_pay1 (F := Ideal) a h wi wh bi bh h' = cellRows (gateRows a wi bi) (gateRows h wh bh) h' := rfl

/-- A gate row of a block at (p, c): row p of the block against column c of the weight, plus the bias at c. The
    changes of format are the identity on extended reals, and the product into a zero accumulator is the plain sum. -/
private theorem gateRows_apply (x : Vec Ideal S2000x128 .f32) (w : Vec Ideal S128x384 .f32) (b : Vec Ideal S1x384 .f32)
    (p : Fin 2000) (c : Fin 384) :
    gateRows x w b (ix2 p c) = (∑ l : Fin 128, x (ix2 p l) * w (ix2 l c)) + b (ix2 0 c) := by
  unfold gateRows
  rw [shapeCast_self, shapeCast_self, shapeCast_self]
  refine (addf_apply _ _ _).trans ?_
  refine congrArg₂ (· + ·) ?_ ?_
  · exact DenseLayer.matmul_rows_apply dot_S2000x128_S128x384_S2000x384_1_0_0_1_n_n_wf none _ _ p c
  · exact broadcastTo_1b_ab_apply _ _ p c

/-- The cell's arithmetic on the six pre-activations (input's and state's reset, update, candidate) and the old
    state's entry. -/
private def mix (ir hr iz hz ic hc hold : EReal) : EReal :=
  (1 - Ideal.logistic (iz + hz)) * Ideal.tanh (ic + Ideal.logistic (ir + hr) * hc) + Ideal.logistic (iz + hz) * hold

/-- The cell on a block at (p, j): a column block cut at offset o reads the gate row at column o + j, so the six
    pre-activations are the two gate rows at j, j + 128 and j + 256; the literal one is the number one. -/
private theorem cellRows_apply (gi gh : FVec Ideal S2000x384 .f32) (hold : Vec Ideal S2000x128 .f32) (p : Fin 2000) (j : Fin 128) :
    cellRows gi gh hold (ix2 p j)
      = mix (gi (ix2 p (Cert.Spec.col0 j))) (gh (ix2 p (Cert.Spec.col0 j)))
          (gi (ix2 p (Cert.Spec.col1 j))) (gh (ix2 p (Cert.Spec.col1 j)))
          (gi (ix2 p (Cert.Spec.col2 j))) (gh (ix2 p (Cert.Spec.col2 j))) (hold (ix2 p j)) := by
  have ei0 := slice2_axis1_apply 0 gi slices_S2000x384_o0_0_S2000x128 p j (Cert.Spec.col0 j) (Nat.zero_add _).symm
  have eh0 := slice2_axis1_apply 0 gh slices_S2000x384_o0_0_S2000x128 p j (Cert.Spec.col0 j) (Nat.zero_add _).symm
  have ei1 := slice2_axis1_apply 128 gi slices_S2000x384_o0_128_S2000x128 p j (Cert.Spec.col1 j) (Nat.add_comm _ _)
  have eh1 := slice2_axis1_apply 128 gh slices_S2000x384_o0_128_S2000x128 p j (Cert.Spec.col1 j) (Nat.add_comm _ _)
  have ei2 := slice2_axis1_apply 256 gi slices_S2000x384_o0_256_S2000x128 p j (Cert.Spec.col2 j) (Nat.add_comm _ _)
  have eh2 := slice2_axis1_apply 256 gh slices_S2000x384_o0_256_S2000x128 p j (Cert.Spec.col2 j) (Nat.add_comm _ _)
  unfold cellRows mix
  rw [shapeCast_self]
  -- the pointwise operations at an index are the extended reals' own
  show (Ideal.ofBits .f32 0x3F800000#32 - Ideal.logistic (_ + _)) * Ideal.tanh (_ + Ideal.logistic (_ + _) * _)
      + Ideal.logistic (_ + _) * hold (ix2 p j) = _
  rw [ei0, eh0, ei1, eh1, ei2, eh2, Ideal.ofBits_one_f32]

/-- The payload at (p, j), when row p of the two row blocks is row r of the two arrays: the cell of the arrays at
    (r, j). Only row p of the blocks enters, through the six sums over the 128 columns. -/
private theorem payload_apply (A H : Cert.Spec.Mat 100000 128) (wi wh : Vec Ideal S128x384 .f32) (bi bh : Vec Ideal S1x384 .f32)
    (a h h' : Vec Ideal S2000x128 .f32) (r : Fin 100000) (p : Fin 2000)
    (ha : ∀ l : Fin 128, a (ix2 p l) = A (ix2 r l)) (hh : ∀ l : Fin 128, h (ix2 p l) = H (ix2 r l))
    (hh' : ∀ l : Fin 128, h' (ix2 p l) = H (ix2 r l)) (j : Fin 128) :
    k4_pay1 (F := Ideal) a h wi wh bi bh h' (ix2 p j)
      = Cert.Spec.gruAt A H wi wh (fun k => bi (ix2 0 k)) (fun k => bh (ix2 0 k)) r j := by
  rw [payload_eq, cellRows_apply]
  simp only [gateRows_apply, ha, hh, hh' j]
  rfl

/-- The payload of row blocks that are read off the two arrays through one placement e of block indices (rows
    moved by a constant, columns kept) is the cell of the arrays read through e: the entries of block row p sit in
    ONE row of the arrays, the row of e (p, j), at their own columns. -/
private theorem payload_block (A H : Cert.Spec.Mat 100000 128) (wi wh : Vec Ideal S128x384 .f32) (bi bh : Vec Ideal S1x384 .f32)
    (a h h' : Vec Ideal S2000x128 .f32) (wi' wh' : Vec Ideal S128x384 .f32) (bi' bh' : Vec Ideal S1x384 .f32)
    (e : S2000x128.Idx → S100000x128.Idx) (base : ℕ)
    (hrow : ∀ y, (e y 0).val = base + (y 0).val) (hcol : ∀ y, (e y 1).val = (y 1).val)
    (ha : ∀ y, a y = A (e y)) (hh : ∀ y, h y = H (e y)) (hh' : ∀ y, h' y = H (e y))
    (ewi : wi' = wi) (ewh : wh' = wh) (ebi : bi' = bi) (ebh : bh' = bh) :
    k4_pay1 (F := Ideal) a h wi' wh' bi' bh' h'
      = fun y => Cert.Spec.gru A H wi wh (fun k => bi (ix2 0 k)) (fun k => bh (ix2 0 k)) (e y) := by
  subst ewi ewh ebi ebh
  funext y
  obtain ⟨p, j, rfl⟩ : ∃ (p : Fin 2000) (j : Fin 128), y = ix2 p j := ⟨y 0, y 1, eq_ix2 y⟩
  -- block row p lies in the array row of e (p, j), whatever the column
  have hrows : ∀ l : Fin 128, e (ix2 p l) = ix2 (e (ix2 p j) 0) l := fun l => by
    funext d; apply Fin.ext
    match d with
    | ⟨0, _⟩ => exact (hrow (ix2 p l)).trans (hrow (ix2 p j)).symm
    | ⟨1, _⟩ => exact hcol (ix2 p l)
  have hself : e (ix2 p j) = ix2 (e (ix2 p j) 0) j := hrows j
  refine (payload_apply A H wi' wh' bi' bh' a h h' (e (ix2 p j) 0) p
    (fun l => (ha _).trans (congrArg A (hrows l))) (fun l => (hh _).trans (congrArg H (hrows l)))
    (fun l => (hh' _).trans (congrArg H (hrows l))) j).trans ?_
  rw [hself]
  rfl

/-! ## From the blocks to the array

The grid is one-dimensional, of 50 points. Block t of a row-blocked window is rows 2000·t … 2000·t + 1999 of its
array, all 128 columns; the weights' and the biases' windows are their whole arrays at every point. Every point
writes its block of the result back, and the 50 blocks tile the 100000 rows: row r is in the block of point r / 2000. -/

/-- The zero offsets, however spelt. -/
private theorem offsets_zero : (![0, 0] : Fin 2 → Nat) = fun _ => 0 := funext fun a => by fin_cases a <;> rfl

/-- The printed index maps, decided over the grid: the three row-blocked windows are at block t along the rows and
    block 0 along the columns; the four small windows are at block 0 on both axes. -/
private theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- What point t writes back is block t of the cell of the arrays as the region finds them: the result's block and
    the two row-blocked inputs' blocks sit at the same rows and columns of their arrays, and the small windows'
    blocks are their arrays. A block's coordinate in its array is block index × block size + 1 × the coordinate
    inside the block. -/
private theorem flushed_eq (c : Dev nD) (t : Fin cfg4.N) :
    (dat4 V c).flushed 6 t = ((cfg4.win 6).blk t).view.read (Elt Ideal)
      (Cert.Spec.gru (V c main_v35) (V c main_v22) (V c main_v5) (V c main_v6)
        (fun k => V c main_v7 (ix2 0 k)) (fun k => V c main_v8 (ix2 0 k))) := by
  show (cfg4.win 6).cut (grid4.coords t) ((dat4 V c).after 6 t) = _
  rw [after4_6]
  unfold out4_6
  -- the body's one store fills the whole staging buffer, and each load reads a whole block
  rw [View.canon_unit_zero offsets_zero]
  simp only [View.ld_unit_zero (S := S2000x128) offsets_zero, View.ld_unit_zero (S := S128x384) offsets_zero,
    View.ld_unit_zero (S := S1x384) offsets_zero]
  obtain ⟨a0, a1, b0, b1, c0, c1, d0, d1, e0, e1, f0, f1, g0, g1⟩ := index_facts t
  refine (congrArg ((cfg4.win 6).cut (grid4.coords t))
    (payload_block (V c main_v35) (V c main_v22) (V c main_v5) (V c main_v6) (V c main_v7) (V c main_v8)
      (iblk4 V c 0 t) (iblk4 V c 1 t) (iblk4 V c 1 t) (iblk4 V c 2 t) (iblk4 V c 3 t) (iblk4 V c 4 t) (iblk4 V c 5 t)
      (((cfg4.win 6).blk t).view.emb) (2000 * t.val) ?_ ?_ ?_ ?_ ?_ ?_ ?_ ?_ ?_)).trans ?_
  -- the result's block: rows from 2000·t on, the columns as they are
  · intro y
    show win4_6.index t (0 : Fin 2) * 2000 + 1 * (y 0).val = _
    rw [g0]; omega
  · intro y
    show win4_6.index t (1 : Fin 2) * 128 + 1 * (y 1).val = _
    rw [g1]; omega
  -- the messages' block, and the old state's (loaded twice), are read where the result's block is written
  · intro y
    show V c main_v35 (((cfg4.win 0).blk t).view.emb y) = V c main_v35 (((cfg4.win 6).blk t).view.emb y)
    refine congrArg _ (funext fun a => Fin.ext ?_)
    match a with
    | ⟨0, _⟩ => show win4_0.index t (0 : Fin 2) * 2000 + 1 * (y 0).val = win4_6.index t (0 : Fin 2) * 2000 + 1 * (y 0).val; rw [a0, g0]
    | ⟨1, _⟩ => show win4_0.index t (1 : Fin 2) * 128 + 1 * (y 1).val = win4_6.index t (1 : Fin 2) * 128 + 1 * (y 1).val; rw [a1, g1]
  · intro y
    show V c main_v22 (((cfg4.win 1).blk t).view.emb y) = V c main_v22 (((cfg4.win 6).blk t).view.emb y)
    refine congrArg _ (funext fun a => Fin.ext ?_)
    match a with
    | ⟨0, _⟩ => show win4_1.index t (0 : Fin 2) * 2000 + 1 * (y 0).val = win4_6.index t (0 : Fin 2) * 2000 + 1 * (y 0).val; rw [b0, g0]
    | ⟨1, _⟩ => show win4_1.index t (1 : Fin 2) * 128 + 1 * (y 1).val = win4_6.index t (1 : Fin 2) * 128 + 1 * (y 1).val; rw [b1, g1]
  · intro y
    show V c main_v22 (((cfg4.win 1).blk t).view.emb y) = V c main_v22 (((cfg4.win 6).blk t).view.emb y)
    refine congrArg _ (funext fun a => Fin.ext ?_)
    match a with
    | ⟨0, _⟩ => show win4_1.index t (0 : Fin 2) * 2000 + 1 * (y 0).val = win4_6.index t (0 : Fin 2) * 2000 + 1 * (y 0).val; rw [b0, g0]
    | ⟨1, _⟩ => show win4_1.index t (1 : Fin 2) * 128 + 1 * (y 1).val = win4_6.index t (1 : Fin 2) * 128 + 1 * (y 1).val; rw [b1, g1]
  -- the weights' and the biases' blocks are their whole arrays
  · funext y
    show V c main_v5 (((cfg4.win 2).blk t).view.emb y) = V c main_v5 y
    refine congrArg _ (funext fun a => Fin.ext ?_)
    match a with
    | ⟨0, _⟩ => show win4_2.index t (0 : Fin 2) * 128 + 1 * (y 0).val = (y 0).val; rw [c0]; omega
    | ⟨1, _⟩ => show win4_2.index t (1 : Fin 2) * 384 + 1 * (y 1).val = (y 1).val; rw [c1]; omega
  · funext y
    show V c main_v6 (((cfg4.win 3).blk t).view.emb y) = V c main_v6 y
    refine congrArg _ (funext fun a => Fin.ext ?_)
    match a with
    | ⟨0, _⟩ => show win4_3.index t (0 : Fin 2) * 128 + 1 * (y 0).val = (y 0).val; rw [d0]; omega
    | ⟨1, _⟩ => show win4_3.index t (1 : Fin 2) * 384 + 1 * (y 1).val = (y 1).val; rw [d1]; omega
  · funext y
    show V c main_v7 (((cfg4.win 4).blk t).view.emb y) = V c main_v7 y
    refine congrArg _ (funext fun a => Fin.ext ?_)
    match a with
    | ⟨0, _⟩ => show win4_4.index t (0 : Fin 2) * 1 + 1 * (y 0).val = (y 0).val; rw [e0]; omega
    | ⟨1, _⟩ => show win4_4.index t (1 : Fin 2) * 384 + 1 * (y 1).val = (y 1).val; rw [e1]; omega
  · funext y
    show V c main_v8 (((cfg4.win 5).blk t).view.emb y) = V c main_v8 y
    refine congrArg _ (funext fun a => Fin.ext ?_)
    match a with
    | ⟨0, _⟩ => show win4_5.index t (0 : Fin 2) * 1 + 1 * (y 0).val = (y 0).val; rw [f0]; omega
    | ⟨1, _⟩ => show win4_5.index t (1 : Fin 2) * 384 + 1 * (y 1).val = (y 1).val; rw [f1]; omega
  -- the cell of the arrays read through the block's placement IS the block of the cell
  · rfl

/-- An index of the array is in point t's block iff each coordinate is in the block's range on its axis. -/
private theorem mem_block (t : Fin cfg4.N) (i : S100000x128.Idx) :
    i ∈ ((cfg4.win 6).blk t).view.set ↔ ∀ a : Fin 2, win4_6.index t a * S2000x128.size a ≤ (i a).val
      ∧ (i a).val < win4_6.index t a * S2000x128.size a + S2000x128.size a := by
  show i ∈ ((View.whole main_v36).slice (win4_6.rect t)).set ↔ _
  rw [View.set_slice_whole, Rect.mem_set_unit]
  exact Iff.rfl

/-- Every row of the array is in the block of the point its number divided by the block's height names, and that
    point writes back. -/
private theorem covered (i : S100000x128.Idx) :
    ∃ t : Fin cfg4.N, (cfg4.win 6).flush t = true ∧ i ∈ ((cfg4.win 6).blk t).view.set := by
  have hi0 : (i 0).val < 100000 := (i 0).isLt
  have hi1 : (i 1).val < 128 := (i 1).isLt
  have hN : grid4.N = 50 := N_4
  obtain ⟨t, ht⟩ : ∃ t : Fin cfg4.N, t.val = (i 0).val / 2000 :=
    ⟨⟨(i 0).val / 2000, by show (i 0).val / 2000 < grid4.N; omega⟩, rfl⟩
  obtain ⟨-, -, -, -, -, -, -, -, -, -, -, -, g0, g1⟩ := index_facts t
  refine ⟨t, flush4_6 t, ?_⟩
  rw [mem_block]
  intro a
  match a with
  | ⟨0, _⟩ =>
    show win4_6.index t (0 : Fin 2) * 2000 ≤ (i 0).val ∧ (i 0).val < win4_6.index t (0 : Fin 2) * 2000 + 2000
    rw [g0]; omega
  | ⟨1, _⟩ =>
    show win4_6.index t (1 : Fin 2) * 128 ≤ (i 1).val ∧ (i 1).val < win4_6.index t (1 : Fin 2) * 128 + 128
    rw [g1]; omega

/-- The array after the region: every point's block is that block of the cell, and the blocks cover the array. -/
theorem gru4 (c : Dev nD) : (dat4 V c).arrAt 6 cfg4.N
    = Cert.Spec.gru (V c main_v35) (V c main_v22) (V c main_v5) (V c main_v6) (fun k => V c main_v7 (ix2 0 k)) (fun k => V c main_v8 (ix2 0 k)) :=
  (dat4 V c).arrAt_eq_of_cover 6 _ (fun t _ => flushed_eq V c t) covered

end Cert.KernelIdeal.RegionValue

end
-- ==== Proof.KMsg5.lean ====
/-
  The third message region's result array: rows of the state against the round's 128×128 weight.
-/
import proofs.«400059_j34591666602133_1_alg».proof.Proof.Gen.KernelIdeal.Frame
import proofs.«400059_j34591666602133_1_alg».proof.Proof.Spec
import proofs.«400059_j34591666602133_1_alg».proof.Proof.LibDenseLayer
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen
open Idealize.ShloMosaic.Pipeline (Dat)

-- the TensorCore's buffer contents when the region is entered: the parameter the region's proof data are stated at
variable (V : (c : Dev nD) → (b : Ref sig .tc) → Buf (Elt Ideal) ((c : Thread nD τ).loc b))

/-!
  The region walks the 100000 rows of the state in 20 blocks of 5000 rows. At block t it holds rows 5000·t … 5000·t + 4999
  of the state and the whole weight, forms their product into a zero accumulator, and writes the 5000×128 result back as
  rows 5000·t … 5000·t + 4999 of the result array. At the ideal values the change of float format in front of the product
  is the identity, so entry (p, q) of a block's product is Σ_l state(5000·t + p, l) · weight(l, q): the entry
  (5000·t + p, q) of the whole product. The 20 blocks tile the result array (row r lies in block r / 5000), so the array
  ends holding the whole product, entry by entry.
-/

/-! ## One block's product, entry by entry -/

/-- The body reads and writes whole blocks: their offsets, a pair of zeros, are the zero function. -/
private theorem zero_offsets : (![0, 0] : Fin 2 → Nat) = fun _ => 0 := funext fun a => by fin_cases a <;> rfl

/-- Entry (r, j) of the body's product of a 5000×128 block of rows with the 128×128 weight: row r of the block against
    column j of the weight. The casts of a shape to itself and the changes of format in front of the product are the
    identity at the ideal values, and the accumulator is zero. -/
private theorem product_apply (x : Vec Ideal S5000x128 .f32) (w : Vec Ideal S128x128 .f32) (r : Fin 5000) (j : Fin 128) :
    k5_pay1 (F := Ideal) x w (ix2 r j) = ∑ l : Fin 128, x (ix2 r l) * w (ix2 l j) := by
  unfold k5_pay1
  refine (DenseLayer.matmul_rows_apply dot_S5000x128_S128x128_S5000x128_1_0_0_1_n_n_wf none _ _ r j).trans ?_
  simp only [truncf_apply, shapeCast_self]

/-- When row p of the block is row r of the state A and the block of the weight is the weight W itself, entry (p, q)
    of the block's product is entry (r, q) of the whole product of A with W. -/
private theorem block_product (A : Cert.Spec.Mat 100000 128) (W : Cert.Spec.Mat 128 128)
    (x : Vec Ideal S5000x128 .f32) (w : Vec Ideal S128x128 .f32) (p : Fin 5000) (q : Fin 128) (r : Fin 100000)
    (hx : ∀ l : Fin 128, x (ix2 p l) = A (ix2 r l)) (hw : ∀ l : Fin 128, w (ix2 l q) = W (ix2 l q)) :
    k5_pay1 (F := Ideal) x w (ix2 p q) = Cert.Spec.msg A W (ix2 r q) := by
  refine (product_apply x w p q).trans ?_
  rw [Cert.Spec.msg_apply]
  exact Finset.sum_congr rfl fun l _ => by rw [hx l, hw l]

/-! ## Where the blocks lie -/

/-- The block indices over the grid: at point t the state's window and the result's window are at row block t, column
    block 0; the weight's window stays at block (0, 0). -/
private theorem index_facts : ∀ t : Fin cfg5.N,
    win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- What point t writes back is block t of the whole product: entry (p, q) of the body's result sits at row 5000·t + p,
    column q of the result array; there the state's block holds row 5000·t + p of the state and the weight's block is
    the weight. -/
private theorem flushed_eq (c : Dev nD) (t : Fin cfg5.N) :
    (dat5 V c).flushed 2 t
      = ((cfg5.win 2).blk t).view.read (Elt Ideal) (Cert.Spec.msg (V c main_v36) (V c main_v38)) := by
  show (cfg5.win 2).cut (grid5.coords t) ((dat5 V c).after 2 t) = _
  rw [after5_2]
  unfold out5_2
  rw [View.canon_unit_zero zero_offsets]
  simp only [View.ld_unit_zero (S := S5000x128) zero_offsets, View.ld_unit_zero (S := S128x128) zero_offsets]
  obtain ⟨e0, e1, e2, e3, e4, e5⟩ := index_facts t
  have ht : t.val < 20 := lt_of_lt_of_eq t.isLt N_5
  funext y
  have hp : (y 0).val < 5000 := (y 0).isLt
  have hq : (y 1).val < 128 := (y 1).isLt
  -- the entry's coordinates inside the block
  have hy : (cfg5.win 2).xinj (grid5.coords t) y = ix2 (⟨(y 0).val, hp⟩ : Fin 5000) (⟨(y 1).val, hq⟩ : Fin 128) := by
    funext a
    match a with
    | ⟨0, _⟩ => rfl
    | ⟨1, _⟩ => rfl
  -- and in the result array: the block index times the block's extent plus the coordinate inside the block
  have hi : ((cfg5.win 2).blk t).view.emb y
      = ix2 (⟨t.val * 5000 + (y 0).val, by omega⟩ : Fin 100000) (⟨(y 1).val, hq⟩ : Fin 128) := by
    funext a; apply Fin.ext
    match a with
    | ⟨0, _⟩ => show win5_2.index t (0 : Fin 2) * 5000 + 1 * (y 0).val = t.val * 5000 + (y 0).val; omega
    | ⟨1, _⟩ => show win5_2.index t (1 : Fin 2) * 128 + 1 * (y 1).val = (y 1).val; omega
  show k5_pay1 (iblk5 V c 0 t) (iblk5 V c 1 t) ((cfg5.win 2).xinj (grid5.coords t) y)
    = Cert.Spec.msg (V c main_v36) (V c main_v38) (((cfg5.win 2).blk t).view.emb y)
  rw [hy, hi]
  refine block_product (V c main_v36) (V c main_v38) (iblk5 V c 0 t) (iblk5 V c 1 t) _ _ _ (fun l => ?_) (fun l => ?_)
  · -- row p of the state's block is row 5000·t + p of the state
    show V c main_v36 (((cfg5.win 0).blk t).view.emb (ix2 (⟨(y 0).val, hp⟩ : Fin 5000) l)) = _
    refine congrArg (V c main_v36) (funext fun a => Fin.ext ?_)
    match a with
    | ⟨0, _⟩ => show win5_0.index t (0 : Fin 2) * 5000 + 1 * (y 0).val = t.val * 5000 + (y 0).val; omega
    | ⟨1, _⟩ => show win5_0.index t (1 : Fin 2) * 128 + 1 * l.val = l.val; omega
  · -- the weight's block is the whole weight
    show V c main_v38 (((cfg5.win 1).blk t).view.emb (ix2 l (⟨(y 1).val, hq⟩ : Fin 128))) = _
    refine congrArg (V c main_v38) (funext fun a => Fin.ext ?_)
    match a with
    | ⟨0, _⟩ => show win5_1.index t (0 : Fin 2) * 128 + 1 * l.val = l.val; omega
    | ⟨1, _⟩ => show win5_1.index t (1 : Fin 2) * 128 + 1 * (y 1).val = (y 1).val; omega

/-- An entry of the result array lies in point t's block exactly when, on each axis, its coordinate is in the block's
    range: from the block index times the block's extent, for one extent. -/
private theorem mem_block (t : Fin cfg5.N) (i : S100000x128.Idx) :
    i ∈ ((cfg5.win 2).blk t).view.set
      ↔ ∀ a : Fin 2, win5_2.index t a * S5000x128.size a ≤ (i a).val
          ∧ (i a).val < win5_2.index t a * S5000x128.size a + S5000x128.size a := by
  show i ∈ ((View.whole main_v39).slice (win5_2.rect t)).set ↔ _
  rw [View.set_slice_whole, Rect.mem_set_unit]
  exact Iff.rfl

/-- The blocks tile the result array: the entry in row r lies in the block of point r / 5000, and every point writes
    its block back. -/
private theorem covered (i : S100000x128.Idx) :
    ∃ t : Fin cfg5.N, (cfg5.win 2).flush t = true ∧ i ∈ ((cfg5.win 2).blk t).view.set := by
  have hr : (i 0).val < 100000 := (i 0).isLt
  have hj : (i 1).val < 128 := (i 1).isLt
  have hN : cfg5.N = 20 := N_5
  obtain ⟨t, ht⟩ : ∃ t : Fin cfg5.N, t.val = (i 0).val / 5000 := ⟨⟨(i 0).val / 5000, by rw [hN]; omega⟩, rfl⟩
  obtain ⟨-, -, -, -, e4, e5⟩ := index_facts t
  refine ⟨t, flush5_2 t, ?_⟩
  rw [mem_block]
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 128 ≤ (i 1).val ∧ (i 1).val < win5_2.index t (1 : Fin 2) * 128 + 128
    omega

/-! ## The result array -/

theorem msg5 (c : Dev nD) : (dat5 V c).arrAt 2 cfg5.N = Cert.Spec.msg (V c main_v36) (V c main_v38) :=
  (dat5 V c).arrAt_eq_of_cover 2 (Cert.Spec.msg (V c main_v36) (V c main_v38)) (fun t _ => flushed_eq V c t) covered

end Cert.KernelIdeal.RegionValue

end
-- ==== Proof.KGru6.lean ====
/-
  The third cell region's result array: the gated recurrent cell of the aggregated messages and the old state.
-/
import proofs.«400059_j34591666602133_1_alg».proof.Proof.Gen.KernelIdeal.Frame
import proofs.«400059_j34591666602133_1_alg».proof.Proof.Spec
import proofs.«400059_j34591666602133_1_alg».proof.Proof.LibDenseLayer

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen

-- the TensorCore's buffer contents when the region is entered: the parameter the region's proof data are stated at
variable (V : (c : Dev nD) → (b : Ref sig .tc) → Buf (Elt Ideal) ((c : Thread nD τ).loc b))

/-! ## The body's arithmetic on one block of rows

At each of the grid's points the body holds 2000 rows of the aggregated messages and the same 2000 rows of the old
state, and the two 128×384 weights and the two bias rows whole. It forms two blocks of gate rows (a block against a
weight, plus the bias row repeated down the rows), cuts each into three column blocks of width 128 (reset, update,
candidate), and mixes them entry by entry. An entry (p, j) of the result therefore depends on row p of the two
blocks only, through the six pre-activations at columns j, j + 128 and j + 256. -/

/-- The gate rows of a block of rows: the block against a 128×384 weight, plus the bias row repeated down the rows. -/
private def gateRows (x : Vec Ideal S2000x128 .f32) (w : Vec Ideal S128x384 .f32) (b : Vec Ideal S1x384 .f32) :
    FVec Ideal S2000x384 .f32 :=
  addf (matmul dot_S2000x128_S128x384_S2000x384_1_0_0_1_n_n none
      (truncf .bf16 (shapeCast S2000x128 x shapeCasts_S2000x128_S2000x128) bitsLt_bf16_f32)
      (truncf .bf16 (shapeCast S128x384 w shapeCasts_S128x384_S128x384) bitsLt_bf16_f32)
      (constant S2000x384 .f32 0x00000000#32))
    (broadcastTo S2000x384 (shapeCast S1x384 b shapeCasts_S1x384_S1x384) broadcasts_S1x384_S2000x384)

/-- The cell on a block of rows, from the two blocks of gate rows and the old state's block: with r, z the logistics
    of the summed reset and update columns and n the hyperbolic tangent of the input's candidate column plus r times
    the state's, the block (1 − z)·n + z·h. -/
private def cellRows (gi gh : FVec Ideal S2000x384 .f32) (hold : Vec Ideal S2000x128 .f32) : FVec Ideal S2000x128 .f32 :=
  addf
    (mulf
      (subf (broadcast S2000x128 (Scalar.ofBits .f32 0x3F800000#32))
        (logistic (addf (extractStridedSlice S2000x128 ![0, 128] gi slices_S2000x384_o0_128_S2000x128)
          (extractStridedSlice S2000x128 ![0, 128] gh slices_S2000x384_o0_128_S2000x128))))
      (tanh (addf (extractStridedSlice S2000x128 ![0, 256] gi slices_S2000x384_o0_256_S2000x128)
        (mulf
          (logistic (addf (extractStridedSlice S2000x128 ![0, 0] gi slices_S2000x384_o0_0_S2000x128)
            (extractStridedSlice S2000x128 ![0, 0] gh slices_S2000x384_o0_0_S2000x128)))
          (extractStridedSlice S2000x128 ![0, 256] gh slices_S2000x384_o0_256_S2000x128)))))
    (mulf
      (logistic (addf (extractStridedSlice S2000x128 ![0, 128] gi slices_S2000x384_o0_128_S2000x128)
        (extractStridedSlice S2000x128 ![0, 128] gh slices_S2000x384_o0_128_S2000x128)))
      (shapeCast S2000x128 hold shapeCasts_S2000x128_S2000x128))

/-- The body's payload is the cell on the gate rows of its loaded blocks (the old state's block is loaded twice). -/
private theorem payload_eq (a h : Vec Ideal S2000x128 .f32) (wi wh : Vec Ideal S128x384 .f32) (bi bh : Vec Ideal S1x384 .f32)
    (h' : Vec Ideal S2000x128 .f32) :
    k6_pay1 (F := Ideal) a h wi wh bi bh h' = cellRows (gateRows a wi bi) (gateRows h wh bh) h' := rfl

/-- A gate row of a block at (p, c): row p of the block against column c of the weight, plus the bias at c. The
    changes of format are the identity on extended reals, and the product into a zero accumulator is the plain sum. -/
private theorem gateRows_apply (x : Vec Ideal S2000x128 .f32) (w : Vec Ideal S128x384 .f32) (b : Vec Ideal S1x384 .f32)
    (p : Fin 2000) (c : Fin 384) :
    gateRows x w b (ix2 p c) = (∑ l : Fin 128, x (ix2 p l) * w (ix2 l c)) + b (ix2 0 c) := by
  unfold gateRows
  rw [shapeCast_self, shapeCast_self, shapeCast_self]
  refine (addf_apply _ _ _).trans ?_
  refine congrArg₂ (· + ·) ?_ ?_
  · exact DenseLayer.matmul_rows_apply dot_S2000x128_S128x384_S2000x384_1_0_0_1_n_n_wf none _ _ p c
  · exact broadcastTo_1b_ab_apply _ _ p c

/-- The cell's arithmetic on the six pre-activations (input's and state's reset, update, candidate) and the old
    state's entry. -/
private def mix (ir hr iz hz ic hc hold : EReal) : EReal :=
  (1 - Ideal.logistic (iz + hz)) * Ideal.tanh (ic + Ideal.logistic (ir + hr) * hc) + Ideal.logistic (iz + hz) * hold

/-- The cell on a block at (p, j): a column block cut at offset o reads the gate row at column o + j, so the six
    pre-activations are the two gate rows at j, j + 128 and j + 256; the literal one is the number one. -/
private theorem cellRows_apply (gi gh : FVec Ideal S2000x384 .f32) (hold : Vec Ideal S2000x128 .f32) (p : Fin 2000) (j : Fin 128) :
    cellRows gi gh hold (ix2 p j)
      = mix (gi (ix2 p (Cert.Spec.col0 j))) (gh (ix2 p (Cert.Spec.col0 j)))
          (gi (ix2 p (Cert.Spec.col1 j))) (gh (ix2 p (Cert.Spec.col1 j)))
          (gi (ix2 p (Cert.Spec.col2 j))) (gh (ix2 p (Cert.Spec.col2 j))) (hold (ix2 p j)) := by
  have ei0 := slice2_axis1_apply 0 gi slices_S2000x384_o0_0_S2000x128 p j (Cert.Spec.col0 j) (Nat.zero_add _).symm
  have eh0 := slice2_axis1_apply 0 gh slices_S2000x384_o0_0_S2000x128 p j (Cert.Spec.col0 j) (Nat.zero_add _).symm
  have ei1 := slice2_axis1_apply 128 gi slices_S2000x384_o0_128_S2000x128 p j (Cert.Spec.col1 j) (Nat.add_comm _ _)
  have eh1 := slice2_axis1_apply 128 gh slices_S2000x384_o0_128_S2000x128 p j (Cert.Spec.col1 j) (Nat.add_comm _ _)
  have ei2 := slice2_axis1_apply 256 gi slices_S2000x384_o0_256_S2000x128 p j (Cert.Spec.col2 j) (Nat.add_comm _ _)
  have eh2 := slice2_axis1_apply 256 gh slices_S2000x384_o0_256_S2000x128 p j (Cert.Spec.col2 j) (Nat.add_comm _ _)
  unfold cellRows mix
  rw [shapeCast_self]
  -- the pointwise operations at an index are the extended reals' own
  show (Ideal.ofBits .f32 0x3F800000#32 - Ideal.logistic (_ + _)) * Ideal.tanh (_ + Ideal.logistic (_ + _) * _)
      + Ideal.logistic (_ + _) * hold (ix2 p j) = _
  rw [ei0, eh0, ei1, eh1, ei2, eh2, Ideal.ofBits_one_f32]

/-- The payload at (p, j), when row p of the two row blocks is row r of the two arrays: the cell of the arrays at
    (r, j). Only row p of the blocks enters, through the six sums over the 128 columns. -/
private theorem payload_apply (A H : Cert.Spec.Mat 100000 128) (wi wh : Vec Ideal S128x384 .f32) (bi bh : Vec Ideal S1x384 .f32)
    (a h h' : Vec Ideal S2000x128 .f32) (r : Fin 100000) (p : Fin 2000)
    (ha : ∀ l : Fin 128, a (ix2 p l) = A (ix2 r l)) (hh : ∀ l : Fin 128, h (ix2 p l) = H (ix2 r l))
    (hh' : ∀ l : Fin 128, h' (ix2 p l) = H (ix2 r l)) (j : Fin 128) :
    k6_pay1 (F := Ideal) a h wi wh bi bh h' (ix2 p j)
      = Cert.Spec.gruAt A H wi wh (fun k => bi (ix2 0 k)) (fun k => bh (ix2 0 k)) r j := by
  rw [payload_eq, cellRows_apply]
  simp only [gateRows_apply, ha, hh, hh' j]
  rfl

/-- The payload of row blocks that are read off the two arrays through one placement e of block indices (rows
    moved by a constant, columns kept) is the cell of the arrays read through e: the entries of block row p sit in
    ONE row of the arrays, the row of e (p, j), at their own columns. -/
private theorem payload_block (A H : Cert.Spec.Mat 100000 128) (wi wh : Vec Ideal S128x384 .f32) (bi bh : Vec Ideal S1x384 .f32)
    (a h h' : Vec Ideal S2000x128 .f32) (wi' wh' : Vec Ideal S128x384 .f32) (bi' bh' : Vec Ideal S1x384 .f32)
    (e : S2000x128.Idx → S100000x128.Idx) (base : ℕ)
    (hrow : ∀ y, (e y 0).val = base + (y 0).val) (hcol : ∀ y, (e y 1).val = (y 1).val)
    (ha : ∀ y, a y = A (e y)) (hh : ∀ y, h y = H (e y)) (hh' : ∀ y, h' y = H (e y))
    (ewi : wi' = wi) (ewh : wh' = wh) (ebi : bi' = bi) (ebh : bh' = bh) :
    k6_pay1 (F := Ideal) a h wi' wh' bi' bh' h'
      = fun y => Cert.Spec.gru A H wi wh (fun k => bi (ix2 0 k)) (fun k => bh (ix2 0 k)) (e y) := by
  subst ewi ewh ebi ebh
  funext y
  obtain ⟨p, j, rfl⟩ : ∃ (p : Fin 2000) (j : Fin 128), y = ix2 p j := ⟨y 0, y 1, eq_ix2 y⟩
  -- block row p lies in the array row of e (p, j), whatever the column
  have hrows : ∀ l : Fin 128, e (ix2 p l) = ix2 (e (ix2 p j) 0) l := fun l => by
    funext d; apply Fin.ext
    match d with
    | ⟨0, _⟩ => exact (hrow (ix2 p l)).trans (hrow (ix2 p j)).symm
    | ⟨1, _⟩ => exact hcol (ix2 p l)
  have hself : e (ix2 p j) = ix2 (e (ix2 p j) 0) j := hrows j
  refine (payload_apply A H wi' wh' bi' bh' a h h' (e (ix2 p j) 0) p
    (fun l => (ha _).trans (congrArg A (hrows l))) (fun l => (hh _).trans (congrArg H (hrows l)))
    (fun l => (hh' _).trans (congrArg H (hrows l))) j).trans ?_
  rw [hself]
  rfl

/-! ## From the blocks to the array

The grid is one-dimensional, of 50 points. Block t of a row-blocked window is rows 2000·t … 2000·t + 1999 of its
array, all 128 columns; the weights' and the biases' windows are their whole arrays at every point. Every point
writes its block of the result back, and the 50 blocks tile the 100000 rows: row r is in the block of point r / 2000. -/

/-- The zero offsets, however spelt. -/
private theorem offsets_zero : (![0, 0] : Fin 2 → Nat) = fun _ => 0 := funext fun a => by fin_cases a <;> rfl

/-- The printed index maps, decided over the grid: the three row-blocked windows are at block t along the rows and
    block 0 along the columns; the four small windows are at block 0 on both axes. -/
private theorem index_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- What point t writes back is block t of the cell of the arrays as the region finds them: the result's block and
    the two row-blocked inputs' blocks sit at the same rows and columns of their arrays, and the small windows'
    blocks are their arrays. A block's coordinate in its array is block index × block size + 1 × the coordinate
    inside the block. -/
private theorem flushed_eq (c : Dev nD) (t : Fin cfg6.N) :
    (dat6 V c).flushed 6 t = ((cfg6.win 6).blk t).view.read (Elt Ideal)
      (Cert.Spec.gru (V c main_v49) (V c main_v36) (V c main_v5) (V c main_v6)
        (fun k => V c main_v7 (ix2 0 k)) (fun k => V c main_v8 (ix2 0 k))) := by
  show (cfg6.win 6).cut (grid6.coords t) ((dat6 V c).after 6 t) = _
  rw [after6_6]
  unfold out6_6
  -- the body's one store fills the whole staging buffer, and each load reads a whole block
  rw [View.canon_unit_zero offsets_zero]
  simp only [View.ld_unit_zero (S := S2000x128) offsets_zero, View.ld_unit_zero (S := S128x384) offsets_zero,
    View.ld_unit_zero (S := S1x384) offsets_zero]
  obtain ⟨a0, a1, b0, b1, c0, c1, d0, d1, e0, e1, f0, f1, g0, g1⟩ := index_facts t
  refine (congrArg ((cfg6.win 6).cut (grid6.coords t))
    (payload_block (V c main_v49) (V c main_v36) (V c main_v5) (V c main_v6) (V c main_v7) (V c main_v8)
      (iblk6 V c 0 t) (iblk6 V c 1 t) (iblk6 V c 1 t) (iblk6 V c 2 t) (iblk6 V c 3 t) (iblk6 V c 4 t) (iblk6 V c 5 t)
      (((cfg6.win 6).blk t).view.emb) (2000 * t.val) ?_ ?_ ?_ ?_ ?_ ?_ ?_ ?_ ?_)).trans ?_
  -- the result's block: rows from 2000·t on, the columns as they are
  · intro y
    show win6_6.index t (0 : Fin 2) * 2000 + 1 * (y 0).val = _
    rw [g0]; omega
  · intro y
    show win6_6.index t (1 : Fin 2) * 128 + 1 * (y 1).val = _
    rw [g1]; omega
  -- the messages' block, and the old state's (loaded twice), are read where the result's block is written
  · intro y
    show V c main_v49 (((cfg6.win 0).blk t).view.emb y) = V c main_v49 (((cfg6.win 6).blk t).view.emb y)
    refine congrArg _ (funext fun a => Fin.ext ?_)
    match a with
    | ⟨0, _⟩ => show win6_0.index t (0 : Fin 2) * 2000 + 1 * (y 0).val = win6_6.index t (0 : Fin 2) * 2000 + 1 * (y 0).val; rw [a0, g0]
    | ⟨1, _⟩ => show win6_0.index t (1 : Fin 2) * 128 + 1 * (y 1).val = win6_6.index t (1 : Fin 2) * 128 + 1 * (y 1).val; rw [a1, g1]
  · intro y
    show V c main_v36 (((cfg6.win 1).blk t).view.emb y) = V c main_v36 (((cfg6.win 6).blk t).view.emb y)
    refine congrArg _ (funext fun a => Fin.ext ?_)
    match a with
    | ⟨0, _⟩ => show win6_1.index t (0 : Fin 2) * 2000 + 1 * (y 0).val = win6_6.index t (0 : Fin 2) * 2000 + 1 * (y 0).val; rw [b0, g0]
    | ⟨1, _⟩ => show win6_1.index t (1 : Fin 2) * 128 + 1 * (y 1).val = win6_6.index t (1 : Fin 2) * 128 + 1 * (y 1).val; rw [b1, g1]
  · intro y
    show V c main_v36 (((cfg6.win 1).blk t).view.emb y) = V c main_v36 (((cfg6.win 6).blk t).view.emb y)
    refine congrArg _ (funext fun a => Fin.ext ?_)
    match a with
    | ⟨0, _⟩ => show win6_1.index t (0 : Fin 2) * 2000 + 1 * (y 0).val = win6_6.index t (0 : Fin 2) * 2000 + 1 * (y 0).val; rw [b0, g0]
    | ⟨1, _⟩ => show win6_1.index t (1 : Fin 2) * 128 + 1 * (y 1).val = win6_6.index t (1 : Fin 2) * 128 + 1 * (y 1).val; rw [b1, g1]
  -- the weights' and the biases' blocks are their whole arrays
  · funext y
    show V c main_v5 (((cfg6.win 2).blk t).view.emb y) = V c main_v5 y
    refine congrArg _ (funext fun a => Fin.ext ?_)
    match a with
    | ⟨0, _⟩ => show win6_2.index t (0 : Fin 2) * 128 + 1 * (y 0).val = (y 0).val; rw [c0]; omega
    | ⟨1, _⟩ => show win6_2.index t (1 : Fin 2) * 384 + 1 * (y 1).val = (y 1).val; rw [c1]; omega
  · funext y
    show V c main_v6 (((cfg6.win 3).blk t).view.emb y) = V c main_v6 y
    refine congrArg _ (funext fun a => Fin.ext ?_)
    match a with
    | ⟨0, _⟩ => show win6_3.index t (0 : Fin 2) * 128 + 1 * (y 0).val = (y 0).val; rw [d0]; omega
    | ⟨1, _⟩ => show win6_3.index t (1 : Fin 2) * 384 + 1 * (y 1).val = (y 1).val; rw [d1]; omega
  · funext y
    show V c main_v7 (((cfg6.win 4).blk t).view.emb y) = V c main_v7 y
    refine congrArg _ (funext fun a => Fin.ext ?_)
    match a with
    | ⟨0, _⟩ => show win6_4.index t (0 : Fin 2) * 1 + 1 * (y 0).val = (y 0).val; rw [e0]; omega
    | ⟨1, _⟩ => show win6_4.index t (1 : Fin 2) * 384 + 1 * (y 1).val = (y 1).val; rw [e1]; omega
  · funext y
    show V c main_v8 (((cfg6.win 5).blk t).view.emb y) = V c main_v8 y
    refine congrArg _ (funext fun a => Fin.ext ?_)
    match a with
    | ⟨0, _⟩ => show win6_5.index t (0 : Fin 2) * 1 + 1 * (y 0).val = (y 0).val; rw [f0]; omega
    | ⟨1, _⟩ => show win6_5.index t (1 : Fin 2) * 384 + 1 * (y 1).val = (y 1).val; rw [f1]; omega
  -- the cell of the arrays read through the block's placement IS the block of the cell
  · rfl

/-- An index of the array is in point t's block iff each coordinate is in the block's range on its axis. -/
private theorem mem_block (t : Fin cfg6.N) (i : S100000x128.Idx) :
    i ∈ ((cfg6.win 6).blk t).view.set ↔ ∀ a : Fin 2, win6_6.index t a * S2000x128.size a ≤ (i a).val
      ∧ (i a).val < win6_6.index t a * S2000x128.size a + S2000x128.size a := by
  show i ∈ ((View.whole main_v50).slice (win6_6.rect t)).set ↔ _
  rw [View.set_slice_whole, Rect.mem_set_unit]
  exact Iff.rfl

/-- Every row of the array is in the block of the point its number divided by the block's height names, and that
    point writes back. -/
private theorem covered (i : S100000x128.Idx) :
    ∃ t : Fin cfg6.N, (cfg6.win 6).flush t = true ∧ i ∈ ((cfg6.win 6).blk t).view.set := by
  have hi0 : (i 0).val < 100000 := (i 0).isLt
  have hi1 : (i 1).val < 128 := (i 1).isLt
  have hN : grid6.N = 50 := N_6
  obtain ⟨t, ht⟩ : ∃ t : Fin cfg6.N, t.val = (i 0).val / 2000 :=
    ⟨⟨(i 0).val / 2000, by show (i 0).val / 2000 < grid6.N; omega⟩, rfl⟩
  obtain ⟨-, -, -, -, -, -, -, -, -, -, -, -, g0, g1⟩ := index_facts t
  refine ⟨t, flush6_6 t, ?_⟩
  rw [mem_block]
  intro a
  match a with
  | ⟨0, _⟩ =>
    show win6_6.index t (0 : Fin 2) * 2000 ≤ (i 0).val ∧ (i 0).val < win6_6.index t (0 : Fin 2) * 2000 + 2000
    rw [g0]; omega
  | ⟨1, _⟩ =>
    show win6_6.index t (1 : Fin 2) * 128 ≤ (i 1).val ∧ (i 1).val < win6_6.index t (1 : Fin 2) * 128 + 128
    rw [g1]; omega

/-- The array after the region: every point's block is that block of the cell, and the blocks cover the array. -/
theorem gru6 (c : Dev nD) : (dat6 V c).arrAt 6 cfg6.N
    = Cert.Spec.gru (V c main_v49) (V c main_v36) (V c main_v5) (V c main_v6) (fun k => V c main_v7 (ix2 0 k)) (fun k => V c main_v8 (ix2 0 k)) :=
  (dat6 V c).arrAt_eq_of_cover 6 _ (fun t _ => flushed_eq V c t) covered

end Cert.KernelIdeal.RegionValue

end
-- ==== Proof.KMsg7.lean ====
/-
  The fourth message region's result array: rows of the state against the round's 128×128 weight.
-/
import proofs.«400059_j34591666602133_1_alg».proof.Proof.Gen.KernelIdeal.Frame
import proofs.«400059_j34591666602133_1_alg».proof.Proof.Spec
import proofs.«400059_j34591666602133_1_alg».proof.Proof.LibDenseLayer
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen
open Idealize.ShloMosaic.Pipeline (Dat)

-- the TensorCore's buffer contents when the region is entered: the parameter the region's proof data are stated at
variable (V : (c : Dev nD) → (b : Ref sig .tc) → Buf (Elt Ideal) ((c : Thread nD τ).loc b))

/-!
  The region walks the 100000 rows of the state in 20 blocks of 5000 rows. At block t it holds rows 5000·t … 5000·t + 4999
  of the state and the whole weight, forms their product into a zero accumulator, and writes the 5000×128 result back as
  rows 5000·t … 5000·t + 4999 of the result array. At the ideal values the change of float format in front of the product
  is the identity, so entry (p, q) of a block's product is Σ_l state(5000·t + p, l) · weight(l, q): the entry
  (5000·t + p, q) of the whole product. The 20 blocks tile the result array (row r lies in block r / 5000), so the array
  ends holding the whole product, entry by entry.
-/

/-! ## One block's product, entry by entry -/

/-- The body reads and writes whole blocks: their offsets, a pair of zeros, are the zero function. -/
private theorem zero_offsets : (![0, 0] : Fin 2 → Nat) = fun _ => 0 := funext fun a => by fin_cases a <;> rfl

/-- Entry (r, j) of the body's product of a 5000×128 block of rows with the 128×128 weight: row r of the block against
    column j of the weight. The casts of a shape to itself and the changes of format in front of the product are the
    identity at the ideal values, and the accumulator is zero. -/
private theorem product_apply (x : Vec Ideal S5000x128 .f32) (w : Vec Ideal S128x128 .f32) (r : Fin 5000) (j : Fin 128) :
    k7_pay1 (F := Ideal) x w (ix2 r j) = ∑ l : Fin 128, x (ix2 r l) * w (ix2 l j) := by
  unfold k7_pay1
  refine (DenseLayer.matmul_rows_apply dot_S5000x128_S128x128_S5000x128_1_0_0_1_n_n_wf none _ _ r j).trans ?_
  simp only [truncf_apply, shapeCast_self]

/-- When row p of the block is row r of the state A and the block of the weight is the weight W itself, entry (p, q)
    of the block's product is entry (r, q) of the whole product of A with W. -/
private theorem block_product (A : Cert.Spec.Mat 100000 128) (W : Cert.Spec.Mat 128 128)
    (x : Vec Ideal S5000x128 .f32) (w : Vec Ideal S128x128 .f32) (p : Fin 5000) (q : Fin 128) (r : Fin 100000)
    (hx : ∀ l : Fin 128, x (ix2 p l) = A (ix2 r l)) (hw : ∀ l : Fin 128, w (ix2 l q) = W (ix2 l q)) :
    k7_pay1 (F := Ideal) x w (ix2 p q) = Cert.Spec.msg A W (ix2 r q) := by
  refine (product_apply x w p q).trans ?_
  rw [Cert.Spec.msg_apply]
  exact Finset.sum_congr rfl fun l _ => by rw [hx l, hw l]

/-! ## Where the blocks lie -/

/-- The block indices over the grid: at point t the state's window and the result's window are at row block t, column
    block 0; the weight's window stays at block (0, 0). -/
private theorem index_facts : ∀ t : Fin cfg7.N,
    win7_0.index t (0 : Fin 2) = t.val
    ∧ win7_0.index t (1 : Fin 2) = 0
    ∧ win7_1.index t (0 : Fin 2) = 0
    ∧ win7_1.index t (1 : Fin 2) = 0
    ∧ win7_2.index t (0 : Fin 2) = t.val
    ∧ win7_2.index t (1 : Fin 2) = 0 :=
  (by decide +kernel : ∀ t : Fin grid7.N, _)

/-- What point t writes back is block t of the whole product: entry (p, q) of the body's result sits at row 5000·t + p,
    column q of the result array; there the state's block holds row 5000·t + p of the state and the weight's block is
    the weight. -/
private theorem flushed_eq (c : Dev nD) (t : Fin cfg7.N) :
    (dat7 V c).flushed 2 t
      = ((cfg7.win 2).blk t).view.read (Elt Ideal) (Cert.Spec.msg (V c main_v50) (V c main_v52)) := by
  show (cfg7.win 2).cut (grid7.coords t) ((dat7 V c).after 2 t) = _
  rw [after7_2]
  unfold out7_2
  rw [View.canon_unit_zero zero_offsets]
  simp only [View.ld_unit_zero (S := S5000x128) zero_offsets, View.ld_unit_zero (S := S128x128) zero_offsets]
  obtain ⟨e0, e1, e2, e3, e4, e5⟩ := index_facts t
  have ht : t.val < 20 := lt_of_lt_of_eq t.isLt N_7
  funext y
  have hp : (y 0).val < 5000 := (y 0).isLt
  have hq : (y 1).val < 128 := (y 1).isLt
  -- the entry's coordinates inside the block
  have hy : (cfg7.win 2).xinj (grid7.coords t) y = ix2 (⟨(y 0).val, hp⟩ : Fin 5000) (⟨(y 1).val, hq⟩ : Fin 128) := by
    funext a
    match a with
    | ⟨0, _⟩ => rfl
    | ⟨1, _⟩ => rfl
  -- and in the result array: the block index times the block's extent plus the coordinate inside the block
  have hi : ((cfg7.win 2).blk t).view.emb y
      = ix2 (⟨t.val * 5000 + (y 0).val, by omega⟩ : Fin 100000) (⟨(y 1).val, hq⟩ : Fin 128) := by
    funext a; apply Fin.ext
    match a with
    | ⟨0, _⟩ => show win7_2.index t (0 : Fin 2) * 5000 + 1 * (y 0).val = t.val * 5000 + (y 0).val; omega
    | ⟨1, _⟩ => show win7_2.index t (1 : Fin 2) * 128 + 1 * (y 1).val = (y 1).val; omega
  show k7_pay1 (iblk7 V c 0 t) (iblk7 V c 1 t) ((cfg7.win 2).xinj (grid7.coords t) y)
    = Cert.Spec.msg (V c main_v50) (V c main_v52) (((cfg7.win 2).blk t).view.emb y)
  rw [hy, hi]
  refine block_product (V c main_v50) (V c main_v52) (iblk7 V c 0 t) (iblk7 V c 1 t) _ _ _ (fun l => ?_) (fun l => ?_)
  · -- row p of the state's block is row 5000·t + p of the state
    show V c main_v50 (((cfg7.win 0).blk t).view.emb (ix2 (⟨(y 0).val, hp⟩ : Fin 5000) l)) = _
    refine congrArg (V c main_v50) (funext fun a => Fin.ext ?_)
    match a with
    | ⟨0, _⟩ => show win7_0.index t (0 : Fin 2) * 5000 + 1 * (y 0).val = t.val * 5000 + (y 0).val; omega
    | ⟨1, _⟩ => show win7_0.index t (1 : Fin 2) * 128 + 1 * l.val = l.val; omega
  · -- the weight's block is the whole weight
    show V c main_v52 (((cfg7.win 1).blk t).view.emb (ix2 l (⟨(y 1).val, hq⟩ : Fin 128))) = _
    refine congrArg (V c main_v52) (funext fun a => Fin.ext ?_)
    match a with
    | ⟨0, _⟩ => show win7_1.index t (0 : Fin 2) * 128 + 1 * l.val = l.val; omega
    | ⟨1, _⟩ => show win7_1.index t (1 : Fin 2) * 128 + 1 * (y 1).val = (y 1).val; omega

/-- An entry of the result array lies in point t's block exactly when, on each axis, its coordinate is in the block's
    range: from the block index times the block's extent, for one extent. -/
private theorem mem_block (t : Fin cfg7.N) (i : S100000x128.Idx) :
    i ∈ ((cfg7.win 2).blk t).view.set
      ↔ ∀ a : Fin 2, win7_2.index t a * S5000x128.size a ≤ (i a).val
          ∧ (i a).val < win7_2.index t a * S5000x128.size a + S5000x128.size a := by
  show i ∈ ((View.whole main_v53).slice (win7_2.rect t)).set ↔ _
  rw [View.set_slice_whole, Rect.mem_set_unit]
  exact Iff.rfl

/-- The blocks tile the result array: the entry in row r lies in the block of point r / 5000, and every point writes
    its block back. -/
private theorem covered (i : S100000x128.Idx) :
    ∃ t : Fin cfg7.N, (cfg7.win 2).flush t = true ∧ i ∈ ((cfg7.win 2).blk t).view.set := by
  have hr : (i 0).val < 100000 := (i 0).isLt
  have hj : (i 1).val < 128 := (i 1).isLt
  have hN : cfg7.N = 20 := N_7
  obtain ⟨t, ht⟩ : ∃ t : Fin cfg7.N, t.val = (i 0).val / 5000 := ⟨⟨(i 0).val / 5000, by rw [hN]; omega⟩, rfl⟩
  obtain ⟨-, -, -, -, e4, e5⟩ := index_facts t
  refine ⟨t, flush7_2 t, ?_⟩
  rw [mem_block]
  intro a
  match a with
  | ⟨0, _⟩ =>
    show win7_2.index t (0 : Fin 2) * 5000 ≤ (i 0).val ∧ (i 0).val < win7_2.index t (0 : Fin 2) * 5000 + 5000
    omega
  | ⟨1, _⟩ =>
    show win7_2.index t (1 : Fin 2) * 128 ≤ (i 1).val ∧ (i 1).val < win7_2.index t (1 : Fin 2) * 128 + 128
    omega

/-! ## The result array -/

theorem msg7 (c : Dev nD) : (dat7 V c).arrAt 2 cfg7.N = Cert.Spec.msg (V c main_v50) (V c main_v52) :=
  (dat7 V c).arrAt_eq_of_cover 2 (Cert.Spec.msg (V c main_v50) (V c main_v52)) (fun t _ => flushed_eq V c t) covered

end Cert.KernelIdeal.RegionValue

end
-- ==== Proof.KGru8.lean ====
/-
  The fourth cell region's result array: the gated recurrent cell of the aggregated messages and the old state.
-/
import proofs.«400059_j34591666602133_1_alg».proof.Proof.Gen.KernelIdeal.Frame
import proofs.«400059_j34591666602133_1_alg».proof.Proof.Spec
import proofs.«400059_j34591666602133_1_alg».proof.Proof.LibDenseLayer

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen

-- the TensorCore's buffer contents when the region is entered: the parameter the region's proof data are stated at
variable (V : (c : Dev nD) → (b : Ref sig .tc) → Buf (Elt Ideal) ((c : Thread nD τ).loc b))

/-! ## The body's arithmetic on one block of rows

At each of the grid's points the body holds 2000 rows of the aggregated messages and the same 2000 rows of the old
state, and the two 128×384 weights and the two bias rows whole. It forms two blocks of gate rows (a block against a
weight, plus the bias row repeated down the rows), cuts each into three column blocks of width 128 (reset, update,
candidate), and mixes them entry by entry. An entry (p, j) of the result therefore depends on row p of the two
blocks only, through the six pre-activations at columns j, j + 128 and j + 256. -/

/-- The gate rows of a block of rows: the block against a 128×384 weight, plus the bias row repeated down the rows. -/
private def gateRows (x : Vec Ideal S2000x128 .f32) (w : Vec Ideal S128x384 .f32) (b : Vec Ideal S1x384 .f32) :
    FVec Ideal S2000x384 .f32 :=
  addf (matmul dot_S2000x128_S128x384_S2000x384_1_0_0_1_n_n none
      (truncf .bf16 (shapeCast S2000x128 x shapeCasts_S2000x128_S2000x128) bitsLt_bf16_f32)
      (truncf .bf16 (shapeCast S128x384 w shapeCasts_S128x384_S128x384) bitsLt_bf16_f32)
      (constant S2000x384 .f32 0x00000000#32))
    (broadcastTo S2000x384 (shapeCast S1x384 b shapeCasts_S1x384_S1x384) broadcasts_S1x384_S2000x384)

/-- The cell on a block of rows, from the two blocks of gate rows and the old state's block: with r, z the logistics
    of the summed reset and update columns and n the hyperbolic tangent of the input's candidate column plus r times
    the state's, the block (1 − z)·n + z·h. -/
private def cellRows (gi gh : FVec Ideal S2000x384 .f32) (hold : Vec Ideal S2000x128 .f32) : FVec Ideal S2000x128 .f32 :=
  addf
    (mulf
      (subf (broadcast S2000x128 (Scalar.ofBits .f32 0x3F800000#32))
        (logistic (addf (extractStridedSlice S2000x128 ![0, 128] gi slices_S2000x384_o0_128_S2000x128)
          (extractStridedSlice S2000x128 ![0, 128] gh slices_S2000x384_o0_128_S2000x128))))
      (tanh (addf (extractStridedSlice S2000x128 ![0, 256] gi slices_S2000x384_o0_256_S2000x128)
        (mulf
          (logistic (addf (extractStridedSlice S2000x128 ![0, 0] gi slices_S2000x384_o0_0_S2000x128)
            (extractStridedSlice S2000x128 ![0, 0] gh slices_S2000x384_o0_0_S2000x128)))
          (extractStridedSlice S2000x128 ![0, 256] gh slices_S2000x384_o0_256_S2000x128)))))
    (mulf
      (logistic (addf (extractStridedSlice S2000x128 ![0, 128] gi slices_S2000x384_o0_128_S2000x128)
        (extractStridedSlice S2000x128 ![0, 128] gh slices_S2000x384_o0_128_S2000x128)))
      (shapeCast S2000x128 hold shapeCasts_S2000x128_S2000x128))

/-- The body's payload is the cell on the gate rows of its loaded blocks (the old state's block is loaded twice). -/
private theorem payload_eq (a h : Vec Ideal S2000x128 .f32) (wi wh : Vec Ideal S128x384 .f32) (bi bh : Vec Ideal S1x384 .f32)
    (h' : Vec Ideal S2000x128 .f32) :
    k8_pay1 (F := Ideal) a h wi wh bi bh h' = cellRows (gateRows a wi bi) (gateRows h wh bh) h' := rfl

/-- A gate row of a block at (p, c): row p of the block against column c of the weight, plus the bias at c. The
    changes of format are the identity on extended reals, and the product into a zero accumulator is the plain sum. -/
private theorem gateRows_apply (x : Vec Ideal S2000x128 .f32) (w : Vec Ideal S128x384 .f32) (b : Vec Ideal S1x384 .f32)
    (p : Fin 2000) (c : Fin 384) :
    gateRows x w b (ix2 p c) = (∑ l : Fin 128, x (ix2 p l) * w (ix2 l c)) + b (ix2 0 c) := by
  unfold gateRows
  rw [shapeCast_self, shapeCast_self, shapeCast_self]
  refine (addf_apply _ _ _).trans ?_
  refine congrArg₂ (· + ·) ?_ ?_
  · exact DenseLayer.matmul_rows_apply dot_S2000x128_S128x384_S2000x384_1_0_0_1_n_n_wf none _ _ p c
  · exact broadcastTo_1b_ab_apply _ _ p c

/-- The cell's arithmetic on the six pre-activations (input's and state's reset, update, candidate) and the old
    state's entry. -/
private def mix (ir hr iz hz ic hc hold : EReal) : EReal :=
  (1 - Ideal.logistic (iz + hz)) * Ideal.tanh (ic + Ideal.logistic (ir + hr) * hc) + Ideal.logistic (iz + hz) * hold

/-- The cell on a block at (p, j): a column block cut at offset o reads the gate row at column o + j, so the six
    pre-activations are the two gate rows at j, j + 128 and j + 256; the literal one is the number one. -/
private theorem cellRows_apply (gi gh : FVec Ideal S2000x384 .f32) (hold : Vec Ideal S2000x128 .f32) (p : Fin 2000) (j : Fin 128) :
    cellRows gi gh hold (ix2 p j)
      = mix (gi (ix2 p (Cert.Spec.col0 j))) (gh (ix2 p (Cert.Spec.col0 j)))
          (gi (ix2 p (Cert.Spec.col1 j))) (gh (ix2 p (Cert.Spec.col1 j)))
          (gi (ix2 p (Cert.Spec.col2 j))) (gh (ix2 p (Cert.Spec.col2 j))) (hold (ix2 p j)) := by
  have ei0 := slice2_axis1_apply 0 gi slices_S2000x384_o0_0_S2000x128 p j (Cert.Spec.col0 j) (Nat.zero_add _).symm
  have eh0 := slice2_axis1_apply 0 gh slices_S2000x384_o0_0_S2000x128 p j (Cert.Spec.col0 j) (Nat.zero_add _).symm
  have ei1 := slice2_axis1_apply 128 gi slices_S2000x384_o0_128_S2000x128 p j (Cert.Spec.col1 j) (Nat.add_comm _ _)
  have eh1 := slice2_axis1_apply 128 gh slices_S2000x384_o0_128_S2000x128 p j (Cert.Spec.col1 j) (Nat.add_comm _ _)
  have ei2 := slice2_axis1_apply 256 gi slices_S2000x384_o0_256_S2000x128 p j (Cert.Spec.col2 j) (Nat.add_comm _ _)
  have eh2 := slice2_axis1_apply 256 gh slices_S2000x384_o0_256_S2000x128 p j (Cert.Spec.col2 j) (Nat.add_comm _ _)
  unfold cellRows mix
  rw [shapeCast_self]
  -- the pointwise operations at an index are the extended reals' own
  show (Ideal.ofBits .f32 0x3F800000#32 - Ideal.logistic (_ + _)) * Ideal.tanh (_ + Ideal.logistic (_ + _) * _)
      + Ideal.logistic (_ + _) * hold (ix2 p j) = _
  rw [ei0, eh0, ei1, eh1, ei2, eh2, Ideal.ofBits_one_f32]

/-- The payload at (p, j), when row p of the two row blocks is row r of the two arrays: the cell of the arrays at
    (r, j). Only row p of the blocks enters, through the six sums over the 128 columns. -/
private theorem payload_apply (A H : Cert.Spec.Mat 100000 128) (wi wh : Vec Ideal S128x384 .f32) (bi bh : Vec Ideal S1x384 .f32)
    (a h h' : Vec Ideal S2000x128 .f32) (r : Fin 100000) (p : Fin 2000)
    (ha : ∀ l : Fin 128, a (ix2 p l) = A (ix2 r l)) (hh : ∀ l : Fin 128, h (ix2 p l) = H (ix2 r l))
    (hh' : ∀ l : Fin 128, h' (ix2 p l) = H (ix2 r l)) (j : Fin 128) :
    k8_pay1 (F := Ideal) a h wi wh bi bh h' (ix2 p j)
      = Cert.Spec.gruAt A H wi wh (fun k => bi (ix2 0 k)) (fun k => bh (ix2 0 k)) r j := by
  rw [payload_eq, cellRows_apply]
  simp only [gateRows_apply, ha, hh, hh' j]
  rfl

/-- The payload of row blocks that are read off the two arrays through one placement e of block indices (rows
    moved by a constant, columns kept) is the cell of the arrays read through e: the entries of block row p sit in
    ONE row of the arrays, the row of e (p, j), at their own columns. -/
private theorem payload_block (A H : Cert.Spec.Mat 100000 128) (wi wh : Vec Ideal S128x384 .f32) (bi bh : Vec Ideal S1x384 .f32)
    (a h h' : Vec Ideal S2000x128 .f32) (wi' wh' : Vec Ideal S128x384 .f32) (bi' bh' : Vec Ideal S1x384 .f32)
    (e : S2000x128.Idx → S100000x128.Idx) (base : ℕ)
    (hrow : ∀ y, (e y 0).val = base + (y 0).val) (hcol : ∀ y, (e y 1).val = (y 1).val)
    (ha : ∀ y, a y = A (e y)) (hh : ∀ y, h y = H (e y)) (hh' : ∀ y, h' y = H (e y))
    (ewi : wi' = wi) (ewh : wh' = wh) (ebi : bi' = bi) (ebh : bh' = bh) :
    k8_pay1 (F := Ideal) a h wi' wh' bi' bh' h'
      = fun y => Cert.Spec.gru A H wi wh (fun k => bi (ix2 0 k)) (fun k => bh (ix2 0 k)) (e y) := by
  subst ewi ewh ebi ebh
  funext y
  obtain ⟨p, j, rfl⟩ : ∃ (p : Fin 2000) (j : Fin 128), y = ix2 p j := ⟨y 0, y 1, eq_ix2 y⟩
  -- block row p lies in the array row of e (p, j), whatever the column
  have hrows : ∀ l : Fin 128, e (ix2 p l) = ix2 (e (ix2 p j) 0) l := fun l => by
    funext d; apply Fin.ext
    match d with
    | ⟨0, _⟩ => exact (hrow (ix2 p l)).trans (hrow (ix2 p j)).symm
    | ⟨1, _⟩ => exact hcol (ix2 p l)
  have hself : e (ix2 p j) = ix2 (e (ix2 p j) 0) j := hrows j
  refine (payload_apply A H wi' wh' bi' bh' a h h' (e (ix2 p j) 0) p
    (fun l => (ha _).trans (congrArg A (hrows l))) (fun l => (hh _).trans (congrArg H (hrows l)))
    (fun l => (hh' _).trans (congrArg H (hrows l))) j).trans ?_
  rw [hself]
  rfl

/-! ## From the blocks to the array

The grid is one-dimensional, of 50 points. Block t of a row-blocked window is rows 2000·t … 2000·t + 1999 of its
array, all 128 columns; the weights' and the biases' windows are their whole arrays at every point. Every point
writes its block of the result back, and the 50 blocks tile the 100000 rows: row r is in the block of point r / 2000. -/

/-- The zero offsets, however spelt. -/
private theorem offsets_zero : (![0, 0] : Fin 2 → Nat) = fun _ => 0 := funext fun a => by fin_cases a <;> rfl

/-- The printed index maps, decided over the grid: the three row-blocked windows are at block t along the rows and
    block 0 along the columns; the four small windows are at block 0 on both axes. -/
private theorem index_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

/-- What point t writes back is block t of the cell of the arrays as the region finds them: the result's block and
    the two row-blocked inputs' blocks sit at the same rows and columns of their arrays, and the small windows'
    blocks are their arrays. A block's coordinate in its array is block index × block size + 1 × the coordinate
    inside the block. -/
private theorem flushed_eq (c : Dev nD) (t : Fin cfg8.N) :
    (dat8 V c).flushed 6 t = ((cfg8.win 6).blk t).view.read (Elt Ideal)
      (Cert.Spec.gru (V c main_v63) (V c main_v50) (V c main_v5) (V c main_v6)
        (fun k => V c main_v7 (ix2 0 k)) (fun k => V c main_v8 (ix2 0 k))) := by
  show (cfg8.win 6).cut (grid8.coords t) ((dat8 V c).after 6 t) = _
  rw [after8_6]
  unfold out8_6
  -- the body's one store fills the whole staging buffer, and each load reads a whole block
  rw [View.canon_unit_zero offsets_zero]
  simp only [View.ld_unit_zero (S := S2000x128) offsets_zero, View.ld_unit_zero (S := S128x384) offsets_zero,
    View.ld_unit_zero (S := S1x384) offsets_zero]
  obtain ⟨a0, a1, b0, b1, c0, c1, d0, d1, e0, e1, f0, f1, g0, g1⟩ := index_facts t
  refine (congrArg ((cfg8.win 6).cut (grid8.coords t))
    (payload_block (V c main_v63) (V c main_v50) (V c main_v5) (V c main_v6) (V c main_v7) (V c main_v8)
      (iblk8 V c 0 t) (iblk8 V c 1 t) (iblk8 V c 1 t) (iblk8 V c 2 t) (iblk8 V c 3 t) (iblk8 V c 4 t) (iblk8 V c 5 t)
      (((cfg8.win 6).blk t).view.emb) (2000 * t.val) ?_ ?_ ?_ ?_ ?_ ?_ ?_ ?_ ?_)).trans ?_
  -- the result's block: rows from 2000·t on, the columns as they are
  · intro y
    show win8_6.index t (0 : Fin 2) * 2000 + 1 * (y 0).val = _
    rw [g0]; omega
  · intro y
    show win8_6.index t (1 : Fin 2) * 128 + 1 * (y 1).val = _
    rw [g1]; omega
  -- the messages' block, and the old state's (loaded twice), are read where the result's block is written
  · intro y
    show V c main_v63 (((cfg8.win 0).blk t).view.emb y) = V c main_v63 (((cfg8.win 6).blk t).view.emb y)
    refine congrArg _ (funext fun a => Fin.ext ?_)
    match a with
    | ⟨0, _⟩ => show win8_0.index t (0 : Fin 2) * 2000 + 1 * (y 0).val = win8_6.index t (0 : Fin 2) * 2000 + 1 * (y 0).val; rw [a0, g0]
    | ⟨1, _⟩ => show win8_0.index t (1 : Fin 2) * 128 + 1 * (y 1).val = win8_6.index t (1 : Fin 2) * 128 + 1 * (y 1).val; rw [a1, g1]
  · intro y
    show V c main_v50 (((cfg8.win 1).blk t).view.emb y) = V c main_v50 (((cfg8.win 6).blk t).view.emb y)
    refine congrArg _ (funext fun a => Fin.ext ?_)
    match a with
    | ⟨0, _⟩ => show win8_1.index t (0 : Fin 2) * 2000 + 1 * (y 0).val = win8_6.index t (0 : Fin 2) * 2000 + 1 * (y 0).val; rw [b0, g0]
    | ⟨1, _⟩ => show win8_1.index t (1 : Fin 2) * 128 + 1 * (y 1).val = win8_6.index t (1 : Fin 2) * 128 + 1 * (y 1).val; rw [b1, g1]
  · intro y
    show V c main_v50 (((cfg8.win 1).blk t).view.emb y) = V c main_v50 (((cfg8.win 6).blk t).view.emb y)
    refine congrArg _ (funext fun a => Fin.ext ?_)
    match a with
    | ⟨0, _⟩ => show win8_1.index t (0 : Fin 2) * 2000 + 1 * (y 0).val = win8_6.index t (0 : Fin 2) * 2000 + 1 * (y 0).val; rw [b0, g0]
    | ⟨1, _⟩ => show win8_1.index t (1 : Fin 2) * 128 + 1 * (y 1).val = win8_6.index t (1 : Fin 2) * 128 + 1 * (y 1).val; rw [b1, g1]
  -- the weights' and the biases' blocks are their whole arrays
  · funext y
    show V c main_v5 (((cfg8.win 2).blk t).view.emb y) = V c main_v5 y
    refine congrArg _ (funext fun a => Fin.ext ?_)
    match a with
    | ⟨0, _⟩ => show win8_2.index t (0 : Fin 2) * 128 + 1 * (y 0).val = (y 0).val; rw [c0]; omega
    | ⟨1, _⟩ => show win8_2.index t (1 : Fin 2) * 384 + 1 * (y 1).val = (y 1).val; rw [c1]; omega
  · funext y
    show V c main_v6 (((cfg8.win 3).blk t).view.emb y) = V c main_v6 y
    refine congrArg _ (funext fun a => Fin.ext ?_)
    match a with
    | ⟨0, _⟩ => show win8_3.index t (0 : Fin 2) * 128 + 1 * (y 0).val = (y 0).val; rw [d0]; omega
    | ⟨1, _⟩ => show win8_3.index t (1 : Fin 2) * 384 + 1 * (y 1).val = (y 1).val; rw [d1]; omega
  · funext y
    show V c main_v7 (((cfg8.win 4).blk t).view.emb y) = V c main_v7 y
    refine congrArg _ (funext fun a => Fin.ext ?_)
    match a with
    | ⟨0, _⟩ => show win8_4.index t (0 : Fin 2) * 1 + 1 * (y 0).val = (y 0).val; rw [e0]; omega
    | ⟨1, _⟩ => show win8_4.index t (1 : Fin 2) * 384 + 1 * (y 1).val = (y 1).val; rw [e1]; omega
  · funext y
    show V c main_v8 (((cfg8.win 5).blk t).view.emb y) = V c main_v8 y
    refine congrArg _ (funext fun a => Fin.ext ?_)
    match a with
    | ⟨0, _⟩ => show win8_5.index t (0 : Fin 2) * 1 + 1 * (y 0).val = (y 0).val; rw [f0]; omega
    | ⟨1, _⟩ => show win8_5.index t (1 : Fin 2) * 384 + 1 * (y 1).val = (y 1).val; rw [f1]; omega
  -- the cell of the arrays read through the block's placement IS the block of the cell
  · rfl

/-- An index of the array is in point t's block iff each coordinate is in the block's range on its axis. -/
private theorem mem_block (t : Fin cfg8.N) (i : S100000x128.Idx) :
    i ∈ ((cfg8.win 6).blk t).view.set ↔ ∀ a : Fin 2, win8_6.index t a * S2000x128.size a ≤ (i a).val
      ∧ (i a).val < win8_6.index t a * S2000x128.size a + S2000x128.size a := by
  show i ∈ ((View.whole main_v64).slice (win8_6.rect t)).set ↔ _
  rw [View.set_slice_whole, Rect.mem_set_unit]
  exact Iff.rfl

/-- Every row of the array is in the block of the point its number divided by the block's height names, and that
    point writes back. -/
private theorem covered (i : S100000x128.Idx) :
    ∃ t : Fin cfg8.N, (cfg8.win 6).flush t = true ∧ i ∈ ((cfg8.win 6).blk t).view.set := by
  have hi0 : (i 0).val < 100000 := (i 0).isLt
  have hi1 : (i 1).val < 128 := (i 1).isLt
  have hN : grid8.N = 50 := N_8
  obtain ⟨t, ht⟩ : ∃ t : Fin cfg8.N, t.val = (i 0).val / 2000 :=
    ⟨⟨(i 0).val / 2000, by show (i 0).val / 2000 < grid8.N; omega⟩, rfl⟩
  obtain ⟨-, -, -, -, -, -, -, -, -, -, -, -, g0, g1⟩ := index_facts t
  refine ⟨t, flush8_6 t, ?_⟩
  rw [mem_block]
  intro a
  match a with
  | ⟨0, _⟩ =>
    show win8_6.index t (0 : Fin 2) * 2000 ≤ (i 0).val ∧ (i 0).val < win8_6.index t (0 : Fin 2) * 2000 + 2000
    rw [g0]; omega
  | ⟨1, _⟩ =>
    show win8_6.index t (1 : Fin 2) * 128 ≤ (i 1).val ∧ (i 1).val < win8_6.index t (1 : Fin 2) * 128 + 128
    rw [g1]; omega

/-- The array after the region: every point's block is that block of the cell, and the blocks cover the array. -/
theorem gru8 (c : Dev nD) : (dat8 V c).arrAt 6 cfg8.N
    = Cert.Spec.gru (V c main_v63) (V c main_v50) (V c main_v5) (V c main_v6) (fun k => V c main_v7 (ix2 0 k)) (fun k => V c main_v8 (ix2 0 k)) :=
  (dat8 V c).arrAt_eq_of_cover 6 _ (fun t _ => flushed_eq V c t) covered

end Cert.KernelIdeal.RegionValue

end
-- ==== Proof.KChainB2.lean ====
/-
  Round two of the message passing: from the end of cell region one to the end of cell region two, over the
  contents round one leaves.
-/
import proofs.«400059_j34591666602133_1_alg».proof.Proof.Gen.KernelIdeal.Frame
import proofs.«400059_j34591666602133_1_alg».proof.Proof.Spec
import proofs.«400059_j34591666602133_1_alg».proof.Proof.KChainDefs
import proofs.«400059_j34591666602133_1_alg».proof.Proof.KMsg3
import proofs.«400059_j34591666602133_1_alg».proof.Proof.KGru4
set_option maxRecDepth 16384

noncomputable section

namespace Cert.KernelIdeal.Chain.BRound2

open Idealize.ShloMosaic Idealize.ShloMosaic.TcCoe Idealize.ShloMosaic.ValueIdx Idealize.SL.Sem
open Cert.KernelIdeal Cert.KernelIdeal.Gen Cert.KernelIdeal.Chain Cert.KernelIdeal.RegionValue

variable (m : (ℓ : Loc nD τ sig) → Buf (Elt Ideal) ℓ) (ρ : Dev nD → PrngReg)

/-!
  The round is four steps. The host cuts the round's 128×128 weight out of the stacked weights; the message region
  multiplies the state's rows by it; the host aggregates the product's rows along the edges; the cell region mixes
  the aggregate with the state. Each step changes only the buffers it writes, so a buffer is followed through the
  round by asking, step by step, whether the step writes it.
-/

/-! ## The host stretch that cuts out the round's weight -/

/-- The buffers the stretch writes. -/
abbrev wrW : List (Ref sig .tc) := [main_v23, main_v24]

theorem hostW_writes : (hostOps3 : List (HloOp τ sig (Elt Ideal))).Forall fun op =>
    op.writes ⊆ (wrW.map (Proc.devRef (τ := τ) .tc)).toFinset := by
  simp only [List.Forall, StableHlo.unary_writes, StableHlo.reshape_writes, Finset.singleton_subset_iff, List.mem_toFinset]
  exact ⟨List.mem_map_of_mem (by decide), List.mem_map_of_mem (by decide)⟩

/-- A buffer the stretch does not write keeps its contents. -/
theorem hostW_keep (V : Valuation τ sig (Elt Ideal)) (b : Ref sig .tc) (hb : b ∉ wrW) :
    StableHlo.after hostOps3 V (Proc.devRef .tc b) = V (Proc.devRef .tc b) :=
  StableHlo.after_of_writes_sub hostOps3 V hostW_writes hb

/-- The stretch leaves the round's weight: its slice of the stacked weights, as a 128×128 array. -/
theorem hostW_weight (V : Valuation τ sig (Elt Ideal)) :
    StableHlo.after hostOps3 V (Proc.devRef .tc main_v24) = wOf1 (V (Proc.devRef .tc main_arg4)) := by
  after_results; rfl

/-! ## The host stretch that aggregates along the edges -/

/-- The buffers the stretch writes. -/
abbrev wrA : List (Ref sig .tc) :=
  [main_c_1, main_v26, main_v27, main_c_2, main_v28, main_v29, main_v30, main_v31, main_v32, main_cst_3, main_v33,
    main_v34, main_v35]

theorem hostA_writes : (hostOps4 : List (HloOp τ sig (Elt Ideal))).Forall fun op =>
    op.writes ⊆ (wrA.map (Proc.devRef (τ := τ) .tc)).toFinset := by
  simp only [List.Forall, StableHlo.nullary_writes, StableHlo.unary_writes, StableHlo.binary_writes,
    StableHlo.ternary_writes, Finset.singleton_subset_iff, List.mem_toFinset]
  exact ⟨List.mem_map_of_mem (by decide), List.mem_map_of_mem (by decide), List.mem_map_of_mem (by decide),
    List.mem_map_of_mem (by decide), List.mem_map_of_mem (by decide), List.mem_map_of_mem (by decide),
    List.mem_map_of_mem (by decide), List.mem_map_of_mem (by decide), List.mem_map_of_mem (by decide),
    List.mem_map_of_mem (by decide), List.mem_map_of_mem (by decide), List.mem_map_of_mem (by decide),
    List.mem_map_of_mem (by decide)⟩

/-- A buffer the stretch does not write keeps its contents. -/
theorem hostA_keep (V : Valuation τ sig (Elt Ideal)) (b : Ref sig .tc) (hb : b ∉ wrA) :
    StableHlo.after hostOps4 V (Proc.devRef .tc b) = V (Proc.devRef .tc b) :=
  StableHlo.after_of_writes_sub hostOps4 V hostA_writes hb

/-- The stretch leaves the aggregate of the message rows: gathered by the source words, added up by the target
    words. -/
theorem hostA_agg (V : Valuation τ sig (Elt Ideal)) :
    StableHlo.after hostOps4 V (Proc.devRef .tc main_v35)
      = aggOf (V (Proc.devRef .tc main_v2)) (V (Proc.devRef .tc main_v4)) (V (Proc.devRef .tc main_v25)) := by
  after_results_simp; rfl

/-! ## The message region -/

/-- The region's arrays: the state, the round's weight, the product. -/
abbrev arrM : List (Ref sig .tc) := [main_v22, main_v24, main_v25]

/-- A buffer that is none of the region's arrays keeps its contents. -/
theorem regM_keep (c : Dev nD) (b : Ref sig .tc) (hb : b ∉ arrM) :
    W7 m ρ c (Proc.devRef .tc b) = W6 m ρ c (Proc.devRef .tc b) :=
  W7_of_ne m ρ c b fun w e => hb (e ▸ (by decide : ∀ w, Pipeline.arrRef spec3 w ∈ arrM) w)

/-- The state is an input of the region, which leaves it as it found it. -/
theorem regM_state (c : Dev nD) : W7 m ρ c (Proc.devRef .tc main_v22) = W6 m ρ c (Proc.devRef .tc main_v22) :=
  (W7_arr m ρ c 0).trans (((dat3 (V6 m ρ) c).arrAt_in 0 rfl _).trans (A_eq3 (V6 m ρ) c 0))

/-- The region's result: the product of the state it found with the weight it found. -/
theorem regM_out (c : Dev nD) : W7 m ρ c (Proc.devRef .tc main_v25)
    = Cert.Spec.msg (W6 m ρ c (Proc.devRef .tc main_v22)) (W6 m ρ c (Proc.devRef .tc main_v24)) :=
  (W7_arr m ρ c 2).trans (msg3 (V6 m ρ) c)

/-! ## The cell region -/

/-- The region's arrays: the aggregate, the state, the cell's two weights and two biases, the new state. -/
abbrev arrC : List (Ref sig .tc) := [main_v35, main_v22, main_v5, main_v6, main_v7, main_v8, main_v36]

/-- A buffer that is none of the region's arrays keeps its contents. -/
theorem regC_keep (c : Dev nD) (b : Ref sig .tc) (hb : b ∉ arrC) :
    W9 m ρ c (Proc.devRef .tc b) = W8 m ρ c (Proc.devRef .tc b) :=
  W9_of_ne m ρ c b fun w e => hb (e ▸ (by decide : ∀ w, Pipeline.arrRef spec4 w ∈ arrC) w)

/-- The cell's weights and biases are inputs of the region, which leaves them as it found them. -/
theorem regC_wi (c : Dev nD) : W9 m ρ c (Proc.devRef .tc main_v5) = W8 m ρ c (Proc.devRef .tc main_v5) :=
  (W9_arr m ρ c 2).trans (((dat4 (V8 m ρ) c).arrAt_in 2 rfl _).trans (A_eq4 (V8 m ρ) c 2))
theorem regC_wh (c : Dev nD) : W9 m ρ c (Proc.devRef .tc main_v6) = W8 m ρ c (Proc.devRef .tc main_v6) :=
  (W9_arr m ρ c 3).trans (((dat4 (V8 m ρ) c).arrAt_in 3 rfl _).trans (A_eq4 (V8 m ρ) c 3))
theorem regC_bi (c : Dev nD) : W9 m ρ c (Proc.devRef .tc main_v7) = W8 m ρ c (Proc.devRef .tc main_v7) :=
  (W9_arr m ρ c 4).trans (((dat4 (V8 m ρ) c).arrAt_in 4 rfl _).trans (A_eq4 (V8 m ρ) c 4))
theorem regC_bh (c : Dev nD) : W9 m ρ c (Proc.devRef .tc main_v8) = W8 m ρ c (Proc.devRef .tc main_v8) :=
  (W9_arr m ρ c 5).trans (((dat4 (V8 m ρ) c).arrAt_in 5 rfl _).trans (A_eq4 (V8 m ρ) c 5))

/-- The region's result: the cell applied to the aggregate, the state, the weights and the biases it found. -/
theorem regC_out (c : Dev nD) : W9 m ρ c (Proc.devRef .tc main_v36)
    = Cert.Spec.gru (W8 m ρ c (Proc.devRef .tc main_v35)) (W8 m ρ c (Proc.devRef .tc main_v22))
        (W8 m ρ c (Proc.devRef .tc main_v5)) (W8 m ρ c (Proc.devRef .tc main_v6))
        (fun k => ((W8 m ρ c (Proc.devRef .tc main_v7)) : FVec Ideal S1x384 .f32) (ix2 0 k))
        (fun k => ((W8 m ρ c (Proc.devRef .tc main_v8)) : FVec Ideal S1x384 .f32) (ix2 0 k)) :=
  (W9_arr m ρ c 6).trans (gru4 (V8 m ρ) c)

/-! ## Buffers carried through the round -/

/-- After the weight is cut out. -/
theorem keep1 (c : Dev nD) (b : Ref sig .tc) (hb : b ∉ wrW) :
    W6 m ρ c (Proc.devRef .tc b) = W5 m ρ c (Proc.devRef .tc b) :=
  hostW_keep (W5 m ρ c) b hb

/-- After the message region. -/
theorem keep2 (c : Dev nD) (b : Ref sig .tc) (hb : b ∉ wrW ++ arrM) :
    W7 m ρ c (Proc.devRef .tc b) = W5 m ρ c (Proc.devRef .tc b) :=
  (regM_keep m ρ c b fun h => hb (List.mem_append_right _ h)).trans
    (keep1 m ρ c b fun h => hb (List.mem_append_left _ h))

/-- After the aggregation. -/
theorem keep3 (c : Dev nD) (b : Ref sig .tc) (hb : b ∉ wrW ++ arrM ++ wrA) :
    W8 m ρ c (Proc.devRef .tc b) = W5 m ρ c (Proc.devRef .tc b) :=
  (hostA_keep (W7 m ρ c) b fun h => hb (List.mem_append_right _ h)).trans
    (keep2 m ρ c b fun h => hb (List.mem_append_left _ h))

/-- Through the whole round: a buffer no step writes and no region holds as an array ends as it began. -/
theorem keep (c : Dev nD) (b : Ref sig .tc) (hb : b ∉ wrW ++ arrM ++ wrA ++ arrC) :
    W9 m ρ c (Proc.devRef .tc b) = W5 m ρ c (Proc.devRef .tc b) :=
  (regC_keep m ρ c b fun h => hb (List.mem_append_right _ h)).trans
    (keep3 m ρ c b fun h => hb (List.mem_append_left _ h))

/-- The cell's weights and biases: untouched before the cell region, and inputs of it. -/
theorem keep_wi (c : Dev nD) : W9 m ρ c (Proc.devRef .tc main_v5) = W5 m ρ c (Proc.devRef .tc main_v5) :=
  (regC_wi m ρ c).trans (keep3 m ρ c main_v5 (by decide))
theorem keep_wh (c : Dev nD) : W9 m ρ c (Proc.devRef .tc main_v6) = W5 m ρ c (Proc.devRef .tc main_v6) :=
  (regC_wh m ρ c).trans (keep3 m ρ c main_v6 (by decide))
theorem keep_bi (c : Dev nD) : W9 m ρ c (Proc.devRef .tc main_v7) = W5 m ρ c (Proc.devRef .tc main_v7) :=
  (regC_bi m ρ c).trans (keep3 m ρ c main_v7 (by decide))
theorem keep_bh (c : Dev nD) : W9 m ρ c (Proc.devRef .tc main_v8) = W5 m ρ c (Proc.devRef .tc main_v8) :=
  (regC_bh m ρ c).trans (keep3 m ρ c main_v8 (by decide))

/-! ## The round's result -/

/-- The state the cell region finds is the state the round began with: the weight's stretch does not write it, the
    message region only reads it, the aggregation does not write it. -/
theorem state_in (c : Dev nD) : W8 m ρ c (Proc.devRef .tc main_v22) = W5 m ρ c (Proc.devRef .tc main_v22) :=
  (hostA_keep (W7 m ρ c) main_v22 (by decide)).trans
    ((regM_state m ρ c).trans (keep1 m ρ c main_v22 (by decide)))

/-- The message region's product, over what the round began with. -/
theorem product (c : Dev nD) : W7 m ρ c (Proc.devRef .tc main_v25)
    = Cert.Spec.msg (W5 m ρ c (Proc.devRef .tc main_v22)) (wOf1 (W5 m ρ c (Proc.devRef .tc main_arg4))) :=
  (regM_out m ρ c).trans
    (congrArg₂ Cert.Spec.msg (keep1 m ρ c main_v22 (by decide)) (hostW_weight (W5 m ρ c)))

/-- The aggregate the cell region finds, over what the round began with. -/
theorem aggregate (c : Dev nD) : W8 m ρ c (Proc.devRef .tc main_v35)
    = aggOf (W5 m ρ c (Proc.devRef .tc main_v2)) (W5 m ρ c (Proc.devRef .tc main_v4))
        (Cert.Spec.msg (W5 m ρ c (Proc.devRef .tc main_v22)) (wOf1 (W5 m ρ c (Proc.devRef .tc main_arg4)))) :=
  (hostA_agg (W7 m ρ c)).trans
    (congr (congrArg₂ aggOf (keep2 m ρ c main_v2 (by decide)) (keep2 m ρ c main_v4 (by decide))) (product m ρ c))

/-- The new state: one round of message passing applied to the old one, every parameter read where the round
    began. -/
theorem state (c : Dev nD) : W9 m ρ c (Proc.devRef .tc main_v36)
    = Cert.Spec.round (aggOf (W5 m ρ c (Proc.devRef .tc main_v2)) (W5 m ρ c (Proc.devRef .tc main_v4)))
        (wOf1 (W5 m ρ c (Proc.devRef .tc main_arg4)))
        (W5 m ρ c (Proc.devRef .tc main_v5)) (W5 m ρ c (Proc.devRef .tc main_v6))
        (fun k => ((W5 m ρ c (Proc.devRef .tc main_v7)) : FVec Ideal S1x384 .f32) (ix2 0 k))
        (fun k => ((W5 m ρ c (Proc.devRef .tc main_v8)) : FVec Ideal S1x384 .f32) (ix2 0 k))
        (W5 m ρ c (Proc.devRef .tc main_v22)) :=
  (regC_out m ρ c).trans
    (congr (congr (congr (congr (congrArg₂ Cert.Spec.gru (aggregate m ρ c) (state_in m ρ c))
      (keep3 m ρ c main_v5 (by decide))) (keep3 m ρ c main_v6 (by decide)))
      (funext fun k => congrFun (keep3 m ρ c main_v7 (by decide)) (ix2 0 k)))
      (funext fun k => congrFun (keep3 m ρ c main_v8 (by decide)) (ix2 0 k)))

end Cert.KernelIdeal.Chain.BRound2

end
-- ==== Proof.KChainB3.lean ====
/-
  Round three of the message passing: from the end of cell region two to the end of cell region three, over the
  contents round two leaves.
-/
import proofs.«400059_j34591666602133_1_alg».proof.Proof.Gen.KernelIdeal.Frame
import proofs.«400059_j34591666602133_1_alg».proof.Proof.Spec
import proofs.«400059_j34591666602133_1_alg».proof.Proof.KChainDefs
import proofs.«400059_j34591666602133_1_alg».proof.Proof.KMsg5
import proofs.«400059_j34591666602133_1_alg».proof.Proof.KGru6
set_option maxRecDepth 16384

noncomputable section

namespace Cert.KernelIdeal.Chain.BRound3

open Idealize.ShloMosaic Idealize.ShloMosaic.TcCoe Idealize.ShloMosaic.ValueIdx Idealize.SL.Sem
open Cert.KernelIdeal Cert.KernelIdeal.Gen Cert.KernelIdeal.Chain Cert.KernelIdeal.RegionValue

variable (m : (ℓ : Loc nD τ sig) → Buf (Elt Ideal) ℓ) (ρ : Dev nD → PrngReg)

/-!
  The round is four steps. The host cuts the round's 128×128 weight out of the stacked weights; the message region
  multiplies the state's rows by it; the host aggregates the product's rows along the edges; the cell region mixes
  the aggregate with the state. Each step changes only the buffers it writes, so a buffer is followed through the
  round by asking, step by step, whether the step writes it.
-/

/-! ## The host stretch that cuts out the round's weight -/

/-- The buffers the stretch writes. -/
abbrev wrW : List (Ref sig .tc) := [main_v37, main_v38]

theorem hostW_writes : (hostOps5 : List (HloOp τ sig (Elt Ideal))).Forall fun op =>
    op.writes ⊆ (wrW.map (Proc.devRef (τ := τ) .tc)).toFinset := by
  simp only [List.Forall, StableHlo.unary_writes, StableHlo.reshape_writes, Finset.singleton_subset_iff, List.mem_toFinset]
  exact ⟨List.mem_map_of_mem (by decide), List.mem_map_of_mem (by decide)⟩

/-- A buffer the stretch does not write keeps its contents. -/
theorem hostW_keep (V : Valuation τ sig (Elt Ideal)) (b : Ref sig .tc) (hb : b ∉ wrW) :
    StableHlo.after hostOps5 V (Proc.devRef .tc b) = V (Proc.devRef .tc b) :=
  StableHlo.after_of_writes_sub hostOps5 V hostW_writes hb

/-- The stretch leaves the round's weight: its slice of the stacked weights, as a 128×128 array. -/
theorem hostW_weight (V : Valuation τ sig (Elt Ideal)) :
    StableHlo.after hostOps5 V (Proc.devRef .tc main_v38) = wOf2 (V (Proc.devRef .tc main_arg4)) := by
  after_results; rfl

/-! ## The host stretch that aggregates along the edges -/

/-- The buffers the stretch writes. -/
abbrev wrA : List (Ref sig .tc) :=
  [main_c_4, main_v40, main_v41, main_c_5, main_v42, main_v43, main_v44, main_v45, main_v46, main_cst_6, main_v47,
    main_v48, main_v49]

theorem hostA_writes : (hostOps6 : List (HloOp τ sig (Elt Ideal))).Forall fun op =>
    op.writes ⊆ (wrA.map (Proc.devRef (τ := τ) .tc)).toFinset := by
  simp only [List.Forall, StableHlo.nullary_writes, StableHlo.unary_writes, StableHlo.binary_writes,
    StableHlo.ternary_writes, Finset.singleton_subset_iff, List.mem_toFinset]
  exact ⟨List.mem_map_of_mem (by decide), List.mem_map_of_mem (by decide), List.mem_map_of_mem (by decide),
    List.mem_map_of_mem (by decide), List.mem_map_of_mem (by decide), List.mem_map_of_mem (by decide),
    List.mem_map_of_mem (by decide), List.mem_map_of_mem (by decide), List.mem_map_of_mem (by decide),
    List.mem_map_of_mem (by decide), List.mem_map_of_mem (by decide), List.mem_map_of_mem (by decide),
    List.mem_map_of_mem (by decide)⟩

/-- A buffer the stretch does not write keeps its contents. -/
theorem hostA_keep (V : Valuation τ sig (Elt Ideal)) (b : Ref sig .tc) (hb : b ∉ wrA) :
    StableHlo.after hostOps6 V (Proc.devRef .tc b) = V (Proc.devRef .tc b) :=
  StableHlo.after_of_writes_sub hostOps6 V hostA_writes hb

/-- The stretch leaves the aggregate of the message rows: gathered by the source words, added up by the target
    words. -/
theorem hostA_agg (V : Valuation τ sig (Elt Ideal)) :
    StableHlo.after hostOps6 V (Proc.devRef .tc main_v49)
      = aggOf (V (Proc.devRef .tc main_v2)) (V (Proc.devRef .tc main_v4)) (V (Proc.devRef .tc main_v39)) := by
  after_results_simp; rfl

/-! ## The message region -/

/-- The region's arrays: the state, the round's weight, the product. -/
abbrev arrM : List (Ref sig .tc) := [main_v36, main_v38, main_v39]

/-- A buffer that is none of the region's arrays keeps its contents. -/
theorem regM_keep (c : Dev nD) (b : Ref sig .tc) (hb : b ∉ arrM) :
    W11 m ρ c (Proc.devRef .tc b) = W10 m ρ c (Proc.devRef .tc b) :=
  W11_of_ne m ρ c b fun w e => hb (e ▸ (by decide : ∀ w, Pipeline.arrRef spec5 w ∈ arrM) w)

/-- The state is an input of the region, which leaves it as it found it. -/
theorem regM_state (c : Dev nD) : W11 m ρ c (Proc.devRef .tc main_v36) = W10 m ρ c (Proc.devRef .tc main_v36) :=
  (W11_arr m ρ c 0).trans (((dat5 (V10 m ρ) c).arrAt_in 0 rfl _).trans (A_eq5 (V10 m ρ) c 0))

/-- The region's result: the product of the state it found with the weight it found. -/
theorem regM_out (c : Dev nD) : W11 m ρ c (Proc.devRef .tc main_v39)
    = Cert.Spec.msg (W10 m ρ c (Proc.devRef .tc main_v36)) (W10 m ρ c (Proc.devRef .tc main_v38)) :=
  (W11_arr m ρ c 2).trans (msg5 (V10 m ρ) c)

/-! ## The cell region -/

/-- The region's arrays: the aggregate, the state, the cell's two weights and two biases, the new state. -/
abbrev arrC : List (Ref sig .tc) := [main_v49, main_v36, main_v5, main_v6, main_v7, main_v8, main_v50]

/-- A buffer that is none of the region's arrays keeps its contents. -/
theorem regC_keep (c : Dev nD) (b : Ref sig .tc) (hb : b ∉ arrC) :
    W13 m ρ c (Proc.devRef .tc b) = W12 m ρ c (Proc.devRef .tc b) :=
  W13_of_ne m ρ c b fun w e => hb (e ▸ (by decide : ∀ w, Pipeline.arrRef spec6 w ∈ arrC) w)

/-- The cell's weights and biases are inputs of the region, which leaves them as it found them. -/
theorem regC_wi (c : Dev nD) : W13 m ρ c (Proc.devRef .tc main_v5) = W12 m ρ c (Proc.devRef .tc main_v5) :=
  (W13_arr m ρ c 2).trans (((dat6 (V12 m ρ) c).arrAt_in 2 rfl _).trans (A_eq6 (V12 m ρ) c 2))
theorem regC_wh (c : Dev nD) : W13 m ρ c (Proc.devRef .tc main_v6) = W12 m ρ c (Proc.devRef .tc main_v6) :=
  (W13_arr m ρ c 3).trans (((dat6 (V12 m ρ) c).arrAt_in 3 rfl _).trans (A_eq6 (V12 m ρ) c 3))
theorem regC_bi (c : Dev nD) : W13 m ρ c (Proc.devRef .tc main_v7) = W12 m ρ c (Proc.devRef .tc main_v7) :=
  (W13_arr m ρ c 4).trans (((dat6 (V12 m ρ) c).arrAt_in 4 rfl _).trans (A_eq6 (V12 m ρ) c 4))
theorem regC_bh (c : Dev nD) : W13 m ρ c (Proc.devRef .tc main_v8) = W12 m ρ c (Proc.devRef .tc main_v8) :=
  (W13_arr m ρ c 5).trans (((dat6 (V12 m ρ) c).arrAt_in 5 rfl _).trans (A_eq6 (V12 m ρ) c 5))

/-- The region's result: the cell applied to the aggregate, the state, the weights and the biases it found. -/
theorem regC_out (c : Dev nD) : W13 m ρ c (Proc.devRef .tc main_v50)
    = Cert.Spec.gru (W12 m ρ c (Proc.devRef .tc main_v49)) (W12 m ρ c (Proc.devRef .tc main_v36))
        (W12 m ρ c (Proc.devRef .tc main_v5)) (W12 m ρ c (Proc.devRef .tc main_v6))
        (fun k => ((W12 m ρ c (Proc.devRef .tc main_v7)) : FVec Ideal S1x384 .f32) (ix2 0 k))
        (fun k => ((W12 m ρ c (Proc.devRef .tc main_v8)) : FVec Ideal S1x384 .f32) (ix2 0 k)) :=
  (W13_arr m ρ c 6).trans (gru6 (V12 m ρ) c)

/-! ## Buffers carried through the round -/

/-- After the weight is cut out. -/
theorem keep1 (c : Dev nD) (b : Ref sig .tc) (hb : b ∉ wrW) :
    W10 m ρ c (Proc.devRef .tc b) = W9 m ρ c (Proc.devRef .tc b) :=
  hostW_keep (W9 m ρ c) b hb

/-- After the message region. -/
theorem keep2 (c : Dev nD) (b : Ref sig .tc) (hb : b ∉ wrW ++ arrM) :
    W11 m ρ c (Proc.devRef .tc b) = W9 m ρ c (Proc.devRef .tc b) :=
  (regM_keep m ρ c b fun h => hb (List.mem_append_right _ h)).trans
    (keep1 m ρ c b fun h => hb (List.mem_append_left _ h))

/-- After the aggregation. -/
theorem keep3 (c : Dev nD) (b : Ref sig .tc) (hb : b ∉ wrW ++ arrM ++ wrA) :
    W12 m ρ c (Proc.devRef .tc b) = W9 m ρ c (Proc.devRef .tc b) :=
  (hostA_keep (W11 m ρ c) b fun h => hb (List.mem_append_right _ h)).trans
    (keep2 m ρ c b fun h => hb (List.mem_append_left _ h))

/-- Through the whole round: a buffer no step writes and no region holds as an array ends as it began. -/
theorem keep (c : Dev nD) (b : Ref sig .tc) (hb : b ∉ wrW ++ arrM ++ wrA ++ arrC) :
    W13 m ρ c (Proc.devRef .tc b) = W9 m ρ c (Proc.devRef .tc b) :=
  (regC_keep m ρ c b fun h => hb (List.mem_append_right _ h)).trans
    (keep3 m ρ c b fun h => hb (List.mem_append_left _ h))

/-- The cell's weights and biases: untouched before the cell region, and inputs of it. -/
theorem keep_wi (c : Dev nD) : W13 m ρ c (Proc.devRef .tc main_v5) = W9 m ρ c (Proc.devRef .tc main_v5) :=
  (regC_wi m ρ c).trans (keep3 m ρ c main_v5 (by decide))
theorem keep_wh (c : Dev nD) : W13 m ρ c (Proc.devRef .tc main_v6) = W9 m ρ c (Proc.devRef .tc main_v6) :=
  (regC_wh m ρ c).trans (keep3 m ρ c main_v6 (by decide))
theorem keep_bi (c : Dev nD) : W13 m ρ c (Proc.devRef .tc main_v7) = W9 m ρ c (Proc.devRef .tc main_v7) :=
  (regC_bi m ρ c).trans (keep3 m ρ c main_v7 (by decide))
theorem keep_bh (c : Dev nD) : W13 m ρ c (Proc.devRef .tc main_v8) = W9 m ρ c (Proc.devRef .tc main_v8) :=
  (regC_bh m ρ c).trans (keep3 m ρ c main_v8 (by decide))

/-! ## The round's result -/

/-- The state the cell region finds is the state the round began with: the weight's stretch does not write it, the
    message region only reads it, the aggregation does not write it. -/
theorem state_in (c : Dev nD) : W12 m ρ c (Proc.devRef .tc main_v36) = W9 m ρ c (Proc.devRef .tc main_v36) :=
  (hostA_keep (W11 m ρ c) main_v36 (by decide)).trans
    ((regM_state m ρ c).trans (keep1 m ρ c main_v36 (by decide)))

/-- The message region's product, over what the round began with. -/
theorem product (c : Dev nD) : W11 m ρ c (Proc.devRef .tc main_v39)
    = Cert.Spec.msg (W9 m ρ c (Proc.devRef .tc main_v36)) (wOf2 (W9 m ρ c (Proc.devRef .tc main_arg4))) :=
  (regM_out m ρ c).trans
    (congrArg₂ Cert.Spec.msg (keep1 m ρ c main_v36 (by decide)) (hostW_weight (W9 m ρ c)))

/-- The aggregate the cell region finds, over what the round began with. -/
theorem aggregate (c : Dev nD) : W12 m ρ c (Proc.devRef .tc main_v49)
    = aggOf (W9 m ρ c (Proc.devRef .tc main_v2)) (W9 m ρ c (Proc.devRef .tc main_v4))
        (Cert.Spec.msg (W9 m ρ c (Proc.devRef .tc main_v36)) (wOf2 (W9 m ρ c (Proc.devRef .tc main_arg4)))) :=
  (hostA_agg (W11 m ρ c)).trans
    (congr (congrArg₂ aggOf (keep2 m ρ c main_v2 (by decide)) (keep2 m ρ c main_v4 (by decide))) (product m ρ c))

/-- The new state: one round of message passing applied to the old one, every parameter read where the round
    began. -/
theorem state (c : Dev nD) : W13 m ρ c (Proc.devRef .tc main_v50)
    = Cert.Spec.round (aggOf (W9 m ρ c (Proc.devRef .tc main_v2)) (W9 m ρ c (Proc.devRef .tc main_v4)))
        (wOf2 (W9 m ρ c (Proc.devRef .tc main_arg4)))
        (W9 m ρ c (Proc.devRef .tc main_v5)) (W9 m ρ c (Proc.devRef .tc main_v6))
        (fun k => ((W9 m ρ c (Proc.devRef .tc main_v7)) : FVec Ideal S1x384 .f32) (ix2 0 k))
        (fun k => ((W9 m ρ c (Proc.devRef .tc main_v8)) : FVec Ideal S1x384 .f32) (ix2 0 k))
        (W9 m ρ c (Proc.devRef .tc main_v36)) :=
  (regC_out m ρ c).trans
    (congr (congr (congr (congr (congrArg₂ Cert.Spec.gru (aggregate m ρ c) (state_in m ρ c))
      (keep3 m ρ c main_v5 (by decide))) (keep3 m ρ c main_v6 (by decide)))
      (funext fun k => congrFun (keep3 m ρ c main_v7 (by decide)) (ix2 0 k)))
      (funext fun k => congrFun (keep3 m ρ c main_v8 (by decide)) (ix2 0 k)))

end Cert.KernelIdeal.Chain.BRound3

end
-- ==== Proof.KChainB4.lean ====
/-
  Round four of the message passing: from the end of cell region three to the end of cell region four, over the
  contents round three leaves.
-/
import proofs.«400059_j34591666602133_1_alg».proof.Proof.Gen.KernelIdeal.Frame
import proofs.«400059_j34591666602133_1_alg».proof.Proof.Spec
import proofs.«400059_j34591666602133_1_alg».proof.Proof.KChainDefs
import proofs.«400059_j34591666602133_1_alg».proof.Proof.KMsg7
import proofs.«400059_j34591666602133_1_alg».proof.Proof.KGru8
set_option maxRecDepth 16384

noncomputable section

namespace Cert.KernelIdeal.Chain.BRound4

open Idealize.ShloMosaic Idealize.ShloMosaic.TcCoe Idealize.ShloMosaic.ValueIdx Idealize.SL.Sem
open Cert.KernelIdeal Cert.KernelIdeal.Gen Cert.KernelIdeal.Chain Cert.KernelIdeal.RegionValue

variable (m : (ℓ : Loc nD τ sig) → Buf (Elt Ideal) ℓ) (ρ : Dev nD → PrngReg)

/-!
  The round is four steps. The host cuts the round's 128×128 weight out of the stacked weights; the message region
  multiplies the state's rows by it; the host aggregates the product's rows along the edges; the cell region mixes
  the aggregate with the state. Each step changes only the buffers it writes, so a buffer is followed through the
  round by asking, step by step, whether the step writes it.
-/

/-! ## The host stretch that cuts out the round's weight -/

/-- The buffers the stretch writes. -/
abbrev wrW : List (Ref sig .tc) := [main_v51, main_v52]

theorem hostW_writes : (hostOps7 : List (HloOp τ sig (Elt Ideal))).Forall fun op =>
    op.writes ⊆ (wrW.map (Proc.devRef (τ := τ) .tc)).toFinset := by
  simp only [List.Forall, StableHlo.unary_writes, StableHlo.reshape_writes, Finset.singleton_subset_iff, List.mem_toFinset]
  exact ⟨List.mem_map_of_mem (by decide), List.mem_map_of_mem (by decide)⟩

/-- A buffer the stretch does not write keeps its contents. -/
theorem hostW_keep (V : Valuation τ sig (Elt Ideal)) (b : Ref sig .tc) (hb : b ∉ wrW) :
    StableHlo.after hostOps7 V (Proc.devRef .tc b) = V (Proc.devRef .tc b) :=
  StableHlo.after_of_writes_sub hostOps7 V hostW_writes hb

/-- The stretch leaves the round's weight: its slice of the stacked weights, as a 128×128 array. -/
theorem hostW_weight (V : Valuation τ sig (Elt Ideal)) :
    StableHlo.after hostOps7 V (Proc.devRef .tc main_v52) = wOf3 (V (Proc.devRef .tc main_arg4)) := by
  after_results; rfl

/-! ## The host stretch that aggregates along the edges -/

/-- The buffers the stretch writes. -/
abbrev wrA : List (Ref sig .tc) :=
  [main_c_7, main_v54, main_v55, main_c_8, main_v56, main_v57, main_v58, main_v59, main_v60, main_cst_9, main_v61,
    main_v62, main_v63]

theorem hostA_writes : (hostOps8 : List (HloOp τ sig (Elt Ideal))).Forall fun op =>
    op.writes ⊆ (wrA.map (Proc.devRef (τ := τ) .tc)).toFinset := by
  simp only [List.Forall, StableHlo.nullary_writes, StableHlo.unary_writes, StableHlo.binary_writes,
    StableHlo.ternary_writes, Finset.singleton_subset_iff, List.mem_toFinset]
  exact ⟨List.mem_map_of_mem (by decide), List.mem_map_of_mem (by decide), List.mem_map_of_mem (by decide),
    List.mem_map_of_mem (by decide), List.mem_map_of_mem (by decide), List.mem_map_of_mem (by decide),
    List.mem_map_of_mem (by decide), List.mem_map_of_mem (by decide), List.mem_map_of_mem (by decide),
    List.mem_map_of_mem (by decide), List.mem_map_of_mem (by decide), List.mem_map_of_mem (by decide),
    List.mem_map_of_mem (by decide)⟩

/-- A buffer the stretch does not write keeps its contents. -/
theorem hostA_keep (V : Valuation τ sig (Elt Ideal)) (b : Ref sig .tc) (hb : b ∉ wrA) :
    StableHlo.after hostOps8 V (Proc.devRef .tc b) = V (Proc.devRef .tc b) :=
  StableHlo.after_of_writes_sub hostOps8 V hostA_writes hb

/-- The stretch leaves the aggregate of the message rows: gathered by the source words, added up by the target
    words. -/
theorem hostA_agg (V : Valuation τ sig (Elt Ideal)) :
    StableHlo.after hostOps8 V (Proc.devRef .tc main_v63)
      = aggOf (V (Proc.devRef .tc main_v2)) (V (Proc.devRef .tc main_v4)) (V (Proc.devRef .tc main_v53)) := by
  after_results_simp; rfl

/-! ## The message region -/

/-- The region's arrays: the state, the round's weight, the product. -/
abbrev arrM : List (Ref sig .tc) := [main_v50, main_v52, main_v53]

/-- A buffer that is none of the region's arrays keeps its contents. -/
theorem regM_keep (c : Dev nD) (b : Ref sig .tc) (hb : b ∉ arrM) :
    W15 m ρ c (Proc.devRef .tc b) = W14 m ρ c (Proc.devRef .tc b) :=
  W15_of_ne m ρ c b fun w e => hb (e ▸ (by decide : ∀ w, Pipeline.arrRef spec7 w ∈ arrM) w)

/-- The state is an input of the region, which leaves it as it found it. -/
theorem regM_state (c : Dev nD) : W15 m ρ c (Proc.devRef .tc main_v50) = W14 m ρ c (Proc.devRef .tc main_v50) :=
  (W15_arr m ρ c 0).trans (((dat7 (V14 m ρ) c).arrAt_in 0 rfl _).trans (A_eq7 (V14 m ρ) c 0))

/-- The region's result: the product of the state it found with the weight it found. -/
theorem regM_out (c : Dev nD) : W15 m ρ c (Proc.devRef .tc main_v53)
    = Cert.Spec.msg (W14 m ρ c (Proc.devRef .tc main_v50)) (W14 m ρ c (Proc.devRef .tc main_v52)) :=
  (W15_arr m ρ c 2).trans (msg7 (V14 m ρ) c)

/-! ## The cell region -/

/-- The region's arrays: the aggregate, the state, the cell's two weights and two biases, the new state. -/
abbrev arrC : List (Ref sig .tc) := [main_v63, main_v50, main_v5, main_v6, main_v7, main_v8, main_v64]

/-- A buffer that is none of the region's arrays keeps its contents. -/
theorem regC_keep (c : Dev nD) (b : Ref sig .tc) (hb : b ∉ arrC) :
    W17 m ρ c (Proc.devRef .tc b) = W16 m ρ c (Proc.devRef .tc b) :=
  W17_of_ne m ρ c b fun w e => hb (e ▸ (by decide : ∀ w, Pipeline.arrRef spec8 w ∈ arrC) w)

/-- The cell's weights and biases are inputs of the region, which leaves them as it found them. -/
theorem regC_wi (c : Dev nD) : W17 m ρ c (Proc.devRef .tc main_v5) = W16 m ρ c (Proc.devRef .tc main_v5) :=
  (W17_arr m ρ c 2).trans (((dat8 (V16 m ρ) c).arrAt_in 2 rfl _).trans (A_eq8 (V16 m ρ) c 2))
theorem regC_wh (c : Dev nD) : W17 m ρ c (Proc.devRef .tc main_v6) = W16 m ρ c (Proc.devRef .tc main_v6) :=
  (W17_arr m ρ c 3).trans (((dat8 (V16 m ρ) c).arrAt_in 3 rfl _).trans (A_eq8 (V16 m ρ) c 3))
theorem regC_bi (c : Dev nD) : W17 m ρ c (Proc.devRef .tc main_v7) = W16 m ρ c (Proc.devRef .tc main_v7) :=
  (W17_arr m ρ c 4).trans (((dat8 (V16 m ρ) c).arrAt_in 4 rfl _).trans (A_eq8 (V16 m ρ) c 4))
theorem regC_bh (c : Dev nD) : W17 m ρ c (Proc.devRef .tc main_v8) = W16 m ρ c (Proc.devRef .tc main_v8) :=
  (W17_arr m ρ c 5).trans (((dat8 (V16 m ρ) c).arrAt_in 5 rfl _).trans (A_eq8 (V16 m ρ) c 5))

/-- The region's result: the cell applied to the aggregate, the state, the weights and the biases it found. -/
theorem regC_out (c : Dev nD) : W17 m ρ c (Proc.devRef .tc main_v64)
    = Cert.Spec.gru (W16 m ρ c (Proc.devRef .tc main_v63)) (W16 m ρ c (Proc.devRef .tc main_v50))
        (W16 m ρ c (Proc.devRef .tc main_v5)) (W16 m ρ c (Proc.devRef .tc main_v6))
        (fun k => ((W16 m ρ c (Proc.devRef .tc main_v7)) : FVec Ideal S1x384 .f32) (ix2 0 k))
        (fun k => ((W16 m ρ c (Proc.devRef .tc main_v8)) : FVec Ideal S1x384 .f32) (ix2 0 k)) :=
  (W17_arr m ρ c 6).trans (gru8 (V16 m ρ) c)

/-! ## Buffers carried through the round -/

/-- After the weight is cut out. -/
theorem keep1 (c : Dev nD) (b : Ref sig .tc) (hb : b ∉ wrW) :
    W14 m ρ c (Proc.devRef .tc b) = W13 m ρ c (Proc.devRef .tc b) :=
  hostW_keep (W13 m ρ c) b hb

/-- After the message region. -/
theorem keep2 (c : Dev nD) (b : Ref sig .tc) (hb : b ∉ wrW ++ arrM) :
    W15 m ρ c (Proc.devRef .tc b) = W13 m ρ c (Proc.devRef .tc b) :=
  (regM_keep m ρ c b fun h => hb (List.mem_append_right _ h)).trans
    (keep1 m ρ c b fun h => hb (List.mem_append_left _ h))

/-- After the aggregation. -/
theorem keep3 (c : Dev nD) (b : Ref sig .tc) (hb : b ∉ wrW ++ arrM ++ wrA) :
    W16 m ρ c (Proc.devRef .tc b) = W13 m ρ c (Proc.devRef .tc b) :=
  (hostA_keep (W15 m ρ c) b fun h => hb (List.mem_append_right _ h)).trans
    (keep2 m ρ c b fun h => hb (List.mem_append_left _ h))

/-- Through the whole round: a buffer no step writes and no region holds as an array ends as it began. -/
theorem keep (c : Dev nD) (b : Ref sig .tc) (hb : b ∉ wrW ++ arrM ++ wrA ++ arrC) :
    W17 m ρ c (Proc.devRef .tc b) = W13 m ρ c (Proc.devRef .tc b) :=
  (regC_keep m ρ c b fun h => hb (List.mem_append_right _ h)).trans
    (keep3 m ρ c b fun h => hb (List.mem_append_left _ h))

/-- The cell's weights and biases: untouched before the cell region, and inputs of it. -/
theorem keep_wi (c : Dev nD) : W17 m ρ c (Proc.devRef .tc main_v5) = W13 m ρ c (Proc.devRef .tc main_v5) :=
  (regC_wi m ρ c).trans (keep3 m ρ c main_v5 (by decide))
theorem keep_wh (c : Dev nD) : W17 m ρ c (Proc.devRef .tc main_v6) = W13 m ρ c (Proc.devRef .tc main_v6) :=
  (regC_wh m ρ c).trans (keep3 m ρ c main_v6 (by decide))
theorem keep_bi (c : Dev nD) : W17 m ρ c (Proc.devRef .tc main_v7) = W13 m ρ c (Proc.devRef .tc main_v7) :=
  (regC_bi m ρ c).trans (keep3 m ρ c main_v7 (by decide))
theorem keep_bh (c : Dev nD) : W17 m ρ c (Proc.devRef .tc main_v8) = W13 m ρ c (Proc.devRef .tc main_v8) :=
  (regC_bh m ρ c).trans (keep3 m ρ c main_v8 (by decide))

/-! ## The round's result -/

/-- The state the cell region finds is the state the round began with: the weight's stretch does not write it, the
    message region only reads it, the aggregation does not write it. -/
theorem state_in (c : Dev nD) : W16 m ρ c (Proc.devRef .tc main_v50) = W13 m ρ c (Proc.devRef .tc main_v50) :=
  (hostA_keep (W15 m ρ c) main_v50 (by decide)).trans
    ((regM_state m ρ c).trans (keep1 m ρ c main_v50 (by decide)))

/-- The message region's product, over what the round began with. -/
theorem product (c : Dev nD) : W15 m ρ c (Proc.devRef .tc main_v53)
    = Cert.Spec.msg (W13 m ρ c (Proc.devRef .tc main_v50)) (wOf3 (W13 m ρ c (Proc.devRef .tc main_arg4))) :=
  (regM_out m ρ c).trans
    (congrArg₂ Cert.Spec.msg (keep1 m ρ c main_v50 (by decide)) (hostW_weight (W13 m ρ c)))

/-- The aggregate the cell region finds, over what the round began with. -/
theorem aggregate (c : Dev nD) : W16 m ρ c (Proc.devRef .tc main_v63)
    = aggOf (W13 m ρ c (Proc.devRef .tc main_v2)) (W13 m ρ c (Proc.devRef .tc main_v4))
        (Cert.Spec.msg (W13 m ρ c (Proc.devRef .tc main_v50)) (wOf3 (W13 m ρ c (Proc.devRef .tc main_arg4)))) :=
  (hostA_agg (W15 m ρ c)).trans
    (congr (congrArg₂ aggOf (keep2 m ρ c main_v2 (by decide)) (keep2 m ρ c main_v4 (by decide))) (product m ρ c))

/-- The new state: one round of message passing applied to the old one, every parameter read where the round
    began. -/
theorem state (c : Dev nD) : W17 m ρ c (Proc.devRef .tc main_v64)
    = Cert.Spec.round (aggOf (W13 m ρ c (Proc.devRef .tc main_v2)) (W13 m ρ c (Proc.devRef .tc main_v4)))
        (wOf3 (W13 m ρ c (Proc.devRef .tc main_arg4)))
        (W13 m ρ c (Proc.devRef .tc main_v5)) (W13 m ρ c (Proc.devRef .tc main_v6))
        (fun k => ((W13 m ρ c (Proc.devRef .tc main_v7)) : FVec Ideal S1x384 .f32) (ix2 0 k))
        (fun k => ((W13 m ρ c (Proc.devRef .tc main_v8)) : FVec Ideal S1x384 .f32) (ix2 0 k))
        (W13 m ρ c (Proc.devRef .tc main_v50)) :=
  (regC_out m ρ c).trans
    (congr (congr (congr (congr (congrArg₂ Cert.Spec.gru (aggregate m ρ c) (state_in m ρ c))
      (keep3 m ρ c main_v5 (by decide))) (keep3 m ρ c main_v6 (by decide)))
      (funext fun k => congrFun (keep3 m ρ c main_v7 (by decide)) (ix2 0 k)))
      (funext fun k => congrFun (keep3 m ρ c main_v8 (by decide)) (ix2 0 k)))

end Cert.KernelIdeal.Chain.BRound4

end
-- ==== Proof.KChainB.lean ====
/-
  Rounds two to four: from the end of the first cell region to the end of the fourth, over the contents the first
  round leaves.
-/
import proofs.«400059_j34591666602133_1_alg».proof.Proof.Gen.KernelIdeal.Frame
import proofs.«400059_j34591666602133_1_alg».proof.Proof.Spec
import proofs.«400059_j34591666602133_1_alg».proof.Proof.KChainDefs
import proofs.«400059_j34591666602133_1_alg».proof.Proof.KMsg3
import proofs.«400059_j34591666602133_1_alg».proof.Proof.KGru4
import proofs.«400059_j34591666602133_1_alg».proof.Proof.KMsg5
import proofs.«400059_j34591666602133_1_alg».proof.Proof.KGru6
import proofs.«400059_j34591666602133_1_alg».proof.Proof.KMsg7
import proofs.«400059_j34591666602133_1_alg».proof.Proof.KGru8
import proofs.«400059_j34591666602133_1_alg».proof.Proof.KChainB2
import proofs.«400059_j34591666602133_1_alg».proof.Proof.KChainB3
import proofs.«400059_j34591666602133_1_alg».proof.Proof.KChainB4
set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-!
  Each round is proved in its own module over the contents it begins with. Here the three are put end to end. What a
  later round reads of the edge words, the stacked weights and the cell's weights and biases is what round two began
  with, because no round writes them; and the state a round begins with is the state the round before it ends with.
-/

/-- A round is a function of the edge words, the stacked weights, the cell's weights and bias rows, and the state:
    equal ones give equal rounds. -/
private theorem round_congr (wOf : FVec Ideal S4x128x128 .f32 → FVec Ideal S128x128 .f32)
    {s s' d d' : IVec S1600000 32} {g g' : FVec Ideal S4x128x128 .f32} {wi wi' wh wh' : FVec Ideal S128x384 .f32}
    {bi bi' bh bh' : FVec Ideal S1x384 .f32} {h h' : FVec Ideal S100000x128 .f32}
    (hs : s = s') (hd : d = d') (hg : g = g') (hwi : wi = wi') (hwh : wh = wh') (hbi : bi = bi') (hbh : bh = bh')
    (hh : h = h') :
    Cert.Spec.round (aggOf s d) (wOf g) wi wh (fun k => bi (ix2 0 k)) (fun k => bh (ix2 0 k)) h
      = Cert.Spec.round (aggOf s' d') (wOf g') wi' wh' (fun k => bi' (ix2 0 k)) (fun k => bh' (ix2 0 k)) h' := by
  subst hs hd hg hwi hwh hbi hbh hh; rfl

/-! ## Buffers no round touches -/

/-- At the end of round three. -/
private theorem keep13 (c : Dev nD) (b : Ref sig .tc)
    (h2 : b ∉ BRound2.wrW ++ BRound2.arrM ++ BRound2.wrA ++ BRound2.arrC)
    (h3 : b ∉ BRound3.wrW ++ BRound3.arrM ++ BRound3.wrA ++ BRound3.arrC) :
    W13 m ρ c (Proc.devRef .tc b) = W5 m ρ c (Proc.devRef .tc b) :=
  (BRound3.keep m ρ c b h3).trans (BRound2.keep m ρ c b h2)

/-- At the end of round four. -/
private theorem keep17 (c : Dev nD) (b : Ref sig .tc)
    (h2 : b ∉ BRound2.wrW ++ BRound2.arrM ++ BRound2.wrA ++ BRound2.arrC)
    (h3 : b ∉ BRound3.wrW ++ BRound3.arrM ++ BRound3.wrA ++ BRound3.arrC)
    (h4 : b ∉ BRound4.wrW ++ BRound4.arrM ++ BRound4.wrA ++ BRound4.arrC) :
    W17 m ρ c (Proc.devRef .tc b) = W5 m ρ c (Proc.devRef .tc b) :=
  (BRound4.keep m ρ c b h4).trans (keep13 m ρ c b h2 h3)

/-! ## The cell's weights and biases at the end of round three: inputs of each cell region, written by none -/

private theorem wi13 (c : Dev nD) : W13 m ρ c (Proc.devRef .tc main_v5) = W5 m ρ c (Proc.devRef .tc main_v5) :=
  (BRound3.keep_wi m ρ c).trans (BRound2.keep_wi m ρ c)
private theorem wh13 (c : Dev nD) : W13 m ρ c (Proc.devRef .tc main_v6) = W5 m ρ c (Proc.devRef .tc main_v6) :=
  (BRound3.keep_wh m ρ c).trans (BRound2.keep_wh m ρ c)
private theorem bi13 (c : Dev nD) : W13 m ρ c (Proc.devRef .tc main_v7) = W5 m ρ c (Proc.devRef .tc main_v7) :=
  (BRound3.keep_bi m ρ c).trans (BRound2.keep_bi m ρ c)
private theorem bh13 (c : Dev nD) : W13 m ρ c (Proc.devRef .tc main_v8) = W5 m ρ c (Proc.devRef .tc main_v8) :=
  (BRound3.keep_bh m ρ c).trans (BRound2.keep_bh m ρ c)

/-! ## The state after round three -/

/-- Round three applied to round two's result, every parameter read where round two began. -/
private theorem h13 (c : Dev nD) : W13 m ρ c (Proc.devRef .tc main_v50)
    = Cert.Spec.round (aggOf (W5 m ρ c (Proc.devRef .tc main_v2)) (W5 m ρ c (Proc.devRef .tc main_v4))) (wOf2 (W5 m ρ c (Proc.devRef .tc main_arg4))) (W5 m ρ c (Proc.devRef .tc main_v5)) (W5 m ρ c (Proc.devRef .tc main_v6))
        (fun k => ((W5 m ρ c (Proc.devRef .tc main_v7)) : FVec Ideal S1x384 .f32) (ix2 0 k)) (fun k => ((W5 m ρ c (Proc.devRef .tc main_v8)) : FVec Ideal S1x384 .f32) (ix2 0 k))
        (Cert.Spec.round (aggOf (W5 m ρ c (Proc.devRef .tc main_v2)) (W5 m ρ c (Proc.devRef .tc main_v4))) (wOf1 (W5 m ρ c (Proc.devRef .tc main_arg4))) (W5 m ρ c (Proc.devRef .tc main_v5)) (W5 m ρ c (Proc.devRef .tc main_v6))
        (fun k => ((W5 m ρ c (Proc.devRef .tc main_v7)) : FVec Ideal S1x384 .f32) (ix2 0 k)) (fun k => ((W5 m ρ c (Proc.devRef .tc main_v8)) : FVec Ideal S1x384 .f32) (ix2 0 k))
        (W5 m ρ c (Proc.devRef .tc main_v22))) :=
  (BRound3.state m ρ c).trans
    (round_congr wOf2 (BRound2.keep m ρ c main_v2 (by decide)) (BRound2.keep m ρ c main_v4 (by decide))
      (BRound2.keep m ρ c main_arg4 (by decide)) (BRound2.keep_wi m ρ c) (BRound2.keep_wh m ρ c)
      (BRound2.keep_bi m ρ c) (BRound2.keep_bh m ρ c) (BRound2.state m ρ c))

/-! ## The end of round four -/

-- boundary 17: the contents when the fourth cell region is left, over boundary 5's
theorem B_h4 (c : Dev nD) : W17 m ρ c (Proc.devRef .tc main_v64)
    = Cert.Spec.round (aggOf (W5 m ρ c (Proc.devRef .tc main_v2)) (W5 m ρ c (Proc.devRef .tc main_v4))) (wOf3 (W5 m ρ c (Proc.devRef .tc main_arg4))) (W5 m ρ c (Proc.devRef .tc main_v5)) (W5 m ρ c (Proc.devRef .tc main_v6))
        (fun k => ((W5 m ρ c (Proc.devRef .tc main_v7)) : FVec Ideal S1x384 .f32) (ix2 0 k)) (fun k => ((W5 m ρ c (Proc.devRef .tc main_v8)) : FVec Ideal S1x384 .f32) (ix2 0 k))
        (Cert.Spec.round (aggOf (W5 m ρ c (Proc.devRef .tc main_v2)) (W5 m ρ c (Proc.devRef .tc main_v4))) (wOf2 (W5 m ρ c (Proc.devRef .tc main_arg4))) (W5 m ρ c (Proc.devRef .tc main_v5)) (W5 m ρ c (Proc.devRef .tc main_v6))
        (fun k => ((W5 m ρ c (Proc.devRef .tc main_v7)) : FVec Ideal S1x384 .f32) (ix2 0 k)) (fun k => ((W5 m ρ c (Proc.devRef .tc main_v8)) : FVec Ideal S1x384 .f32) (ix2 0 k))
        (Cert.Spec.round (aggOf (W5 m ρ c (Proc.devRef .tc main_v2)) (W5 m ρ c (Proc.devRef .tc main_v4))) (wOf1 (W5 m ρ c (Proc.devRef .tc main_arg4))) (W5 m ρ c (Proc.devRef .tc main_v5)) (W5 m ρ c (Proc.devRef .tc main_v6))
        (fun k => ((W5 m ρ c (Proc.devRef .tc main_v7)) : FVec Ideal S1x384 .f32) (ix2 0 k)) (fun k => ((W5 m ρ c (Proc.devRef .tc main_v8)) : FVec Ideal S1x384 .f32) (ix2 0 k))
        ((W5 m ρ c (Proc.devRef .tc main_v22))))) :=
  (BRound4.state m ρ c).trans
    (round_congr wOf3 (keep13 m ρ c main_v2 (by decide) (by decide)) (keep13 m ρ c main_v4 (by decide) (by decide))
      (keep13 m ρ c main_arg4 (by decide) (by decide)) (wi13 m ρ c) (wh13 m ρ c) (bi13 m ρ c) (bh13 m ρ c)
      (h13 m ρ c))
theorem B_keep_v0_0 (c : Dev nD) : W17 m ρ c (Proc.devRef .tc main_v0_0) = W5 m ρ c (Proc.devRef .tc main_v0_0) :=
  keep17 m ρ c main_v0_0 (by decide) (by decide) (by decide)
theorem B_keep_arg2 (c : Dev nD) : W17 m ρ c (Proc.devRef .tc main_arg2) = W5 m ρ c (Proc.devRef .tc main_arg2) :=
  keep17 m ρ c main_arg2 (by decide) (by decide) (by decide)
theorem B_keep_arg9 (c : Dev nD) : W17 m ρ c (Proc.devRef .tc main_arg9) = W5 m ρ c (Proc.devRef .tc main_arg9) :=
  keep17 m ρ c main_arg9 (by decide) (by decide) (by decide)
theorem B_keep_arg10 (c : Dev nD) : W17 m ρ c (Proc.devRef .tc main_arg10) = W5 m ρ c (Proc.devRef .tc main_arg10) :=
  keep17 m ρ c main_arg10 (by decide) (by decide) (by decide)
theorem B_keep_arg11 (c : Dev nD) : W17 m ρ c (Proc.devRef .tc main_arg11) = W5 m ρ c (Proc.devRef .tc main_arg11) :=
  keep17 m ρ c main_arg11 (by decide) (by decide) (by decide)
theorem B_keep_arg12 (c : Dev nD) : W17 m ρ c (Proc.devRef .tc main_arg12) = W5 m ρ c (Proc.devRef .tc main_arg12) :=
  keep17 m ρ c main_arg12 (by decide) (by decide) (by decide)

end Cert.KernelIdeal.Chain

end
-- ==== Proof.LibScatterSet.lean ====
/-
  The host's replacing scatter read at an entry, for any dimension numbers.

  The host's scatter whose body returns the update's element is a left fold over the update indices in row-major order:
  each step sends its update index to an operand index (the window's start plus the window coordinate, when that is
  inside the operand on every axis) and replaces the entry there by the update's element; an update whose operand index
  falls outside the operand is dropped. So where several updates land on one entry the LATER one in row-major order
  stays. Read at an entry i this gives two cases: either some update lands at i, and then the result at i is the element
  of the LAST update (in row-major order) that lands there; or no update lands at i, and the result at i is the
  operand's entry.

  The road: first a fold over any list whose step replaces the value at the step's target. By induction from the right,
  its value at i is the value of an element n with target i in a splitting l = l₁ ++ n :: l₂ where nothing in l₂ has
  target i, or the initial value at i when nothing in l has target i. The list of all positions below a bound is strictly
  increasing and holds every position, so in such a splitting of it every position above n lies in l₂; that turns the
  splitting into "no later position has target i".
-/
import Idealize.ShloMosaic.PureOps.ShapeOps
import Mathlib.Data.List.Sort

namespace Idealize.ShloMosaic.ScatterSet

open Idealize.ShloMosaic

/-- A left fold whose step, at an element with target i, replaces the value at i by that element's value, and at any
    other element leaves the value at i alone: its value at i is the value of the last element of the list with
    target i, or the initial value at i when the list has no such element. -/
theorem foldl_set_cases {ι I α : Type} (tgt : ι → Option I) (val : ι → α) (i : I)
    (step : (I → α) → ι → (I → α))
    (hhit : ∀ r n, tgt n = some i → step r n i = val n)
    (hmiss : ∀ r n, tgt n ≠ some i → step r n i = r i)
    (x : I → α) (l : List ι) :
    (∃ l₁ n l₂, l = l₁ ++ n :: l₂ ∧ tgt n = some i ∧ (∀ m ∈ l₂, tgt m ≠ some i) ∧ l.foldl step x i = val n)
      ∨ ((∀ m ∈ l, tgt m ≠ some i) ∧ l.foldl step x i = x i) := by
  induction l using List.reverseRecOn with
  | nil => exact Or.inr ⟨by simp, rfl⟩
  | append_singleton l n ih =>
    rw [List.foldl_append, List.foldl_cons, List.foldl_nil]
    by_cases hn : tgt n = some i
    · exact Or.inl ⟨l, n, [], rfl, hn, by simp, hhit _ n hn⟩
    · rw [hmiss _ n hn]
      rcases ih with ⟨l₁, m, l₂, hl, hm, hl₂, hv⟩ | ⟨hno, hv⟩
      · refine Or.inl ⟨l₁, m, l₂ ++ [n], by rw [hl]; simp, hm, ?_, hv⟩
        intro k hk
        rcases List.mem_append.1 hk with hk | hk
        · exact hl₂ k hk
        · rw [List.mem_singleton.1 hk]; exact hn
      · refine Or.inr ⟨?_, hv⟩
        intro k hk
        rcases List.mem_append.1 hk with hk | hk
        · exact hno k hk
        · rw [List.mem_singleton.1 hk]; exact hn

/-- The same fold over all positions below N, in increasing order: its value at i is the value of the LAST position
    with target i, or the initial value at i when no position has target i. -/
theorem foldl_finRange_set_cases {N : ℕ} {I α : Type} (tgt : Fin N → Option I) (val : Fin N → α) (i : I)
    (step : (I → α) → Fin N → (I → α))
    (hhit : ∀ r n, tgt n = some i → step r n i = val n)
    (hmiss : ∀ r n, tgt n ≠ some i → step r n i = r i)
    (x : I → α) :
    (∃ n : Fin N, tgt n = some i ∧ (∀ n' : Fin N, n < n' → tgt n' ≠ some i)
        ∧ (List.finRange N).foldl step x i = val n)
      ∨ ((∀ n : Fin N, tgt n ≠ some i) ∧ (List.finRange N).foldl step x i = x i) := by
  rcases foldl_set_cases tgt val i step hhit hmiss x (List.finRange N) with ⟨l₁, n, l₂, hl, hn, hl₂, hv⟩ | ⟨hno, hv⟩
  · refine Or.inl ⟨n, hn, ?_, hv⟩
    intro n' hlt
    have hsorted : (l₁ ++ n :: l₂).Pairwise (· < ·) := hl ▸ (List.sortedLT_finRange N).pairwise
    have hmem : n' ∈ l₁ ++ n :: l₂ := hl ▸ List.mem_finRange n'
    rcases List.mem_append.1 hmem with h | h
    · exact absurd ((List.pairwise_append.1 hsorted).2.2 n' h n (List.mem_cons_self ..)) (lt_asymm hlt)
    · rcases List.mem_cons.1 h with h | h
      · exact absurd h (ne_of_gt hlt)
      · exact hl₂ n' h
  · exact Or.inr ⟨fun n => hno n (List.mem_finRange n), hv⟩

/-- The replacing scatter read at an entry i: either some update index lands at i, and the result at i is the element
    of the last such update index in row-major order; or no update index lands at i, and the result at i is the operand's
    entry. -/
theorem scatter_set_cases {α : Type} {s si u : Shape} {w : ℕ} (d : ScatterDims s si u)
    (x : s.Idx → α) (idx : IVec si w) (upd : u.Idx → α) (i : s.Idx) :
    (∃ n : Fin u.numel, d.resultIdx? (u.rowMajor.symm n) idx = some i
        ∧ (∀ n' : Fin u.numel, n < n' → d.resultIdx? (u.rowMajor.symm n') idx ≠ some i)
        ∧ Host.scatter d (fun _ b => b) x idx upd i = upd (u.rowMajor.symm n))
    ∨ ((∀ n : Fin u.numel, d.resultIdx? (u.rowMajor.symm n) idx ≠ some i)
        ∧ Host.scatter d (fun _ b => b) x idx upd i = x i) := by
  unfold Host.scatter
  refine foldl_finRange_set_cases (fun n => d.resultIdx? (u.rowMajor.symm n) idx) (fun n => upd (u.rowMajor.symm n)) i
    _ ?_ ?_ x
  · intro r n hn
    have hn' : d.resultIdx? (u.rowMajor.symm n) idx = some i := hn
    simp only [hn', if_true]
  · intro r n hn
    have hn' : d.resultIdx? (u.rowMajor.symm n) idx ≠ some i := hn
    cases h₀ : d.resultIdx? (u.rowMajor.symm n) idx with
    | none => simp only [h₀]
    | some i₀ =>
      have hne : i ≠ i₀ := fun h => hn' (h₀.trans (congrArg some h.symm))
      simp only [h₀, if_neg hne]

end Idealize.ShloMosaic.ScatterSet
-- ==== Proof.LibScatterAddRows.lean ====
/-
  A row-wise accumulating scatter read at an entry, at the ideal values.

  The host's accumulating scatter of an [N, D] array of update rows into a [C, D] operand by an [N, 1] column of row
  indices (the update's second axis the window, the operand's first axis inserted and scattered to, the index vector
  on the indices' second axis) sends update row n whole to operand row idx(n), the index word read as a signed integer and
  not clamped; a row whose index is below 0 or not below C is dropped. So entry (k, e) of the result is the operand's
  entry plus the sum over the rows n of: update entry (n, e) when idx(n) is k, zero otherwise. The scatter of an [N]
  vector of updates into a [C] operand by the same column of indices reads the same way at entry k.

  The road: an update index lands at a given operand index exactly when, on every operand axis, the window's start plus
  the window coordinate is that index's coordinate (`resultIdx?_eq_some_iff`, for any dimension numbers). For these
  dimension numbers the start is the index word on the scattered axis and zero on the window axis, and the window
  coordinate is zero on the inserted axis and the update's column on the window axis; so update (n, e') lands at (k, e)
  exactly when idx(n) reads k and e' is e. The filtered sum over the update indices is then the double sum over rows and
  columns of an `if`, and the inner sum over the columns has one term.
-/
import Idealize.ShloMosaic.PureOps.Ideal.Laws
import Idealize.ShloMosaic.Lib.ValueIdx

noncomputable section

open scoped BigOperators

namespace Idealize.ShloMosaic.ScatterAddRows

open Idealize.ShloMosaic Idealize.ShloMosaic.ValueIdx

/-- An update index lands at i exactly when, on every operand axis, the window's start plus the window coordinate is
    i's coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have h' := Option.some.inj h
      intro a
      have h1 := congrArg (fun f => (f a).val) h'
      simp only at h1
      have h2 := hc a
      omega
    · exact absurd h (by simp)
  · intro h
    have hc : ∀ a, 0 ≤ d.start j idx a + d.window j a ∧ d.start j idx a + d.window j a < s.size a := by
      intro a
      have h1 := h a
      have h2 := (i a).isLt
      omega
    rw [dif_pos hc]
    congr 1
    funext a
    apply Fin.ext
    have h1 := h a
    simp only
    omega

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Rows
variable {C D N : ℕ} (wf : ScatterDims.WF ⟨2, ![C, D]⟩ ⟨2, ![N, 1]⟩ ⟨2, ![N, D]⟩ [1] [0] [0] 1)

/-- The index word an update row reads: the column of indices at (row, 0). -/
private theorem rows_siIdx (j : (⟨2, ![N, D]⟩ : Shape).Idx) (c) :
    (⟨[1], [0], [0], 1, wf⟩ : ScatterDims ⟨2, ![C, D]⟩ ⟨2, ![N, 1]⟩ ⟨2, ![N, D]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the scattered axis the window starts at the row's index word, read signed. -/
private theorem rows_start0 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 0
      = (idx (ix2 (j 0) (0 : Fin 1))).toInt := by
  unfold ScatterDims.start
  rw [dif_pos (List.mem_cons_self ..), rows_siIdx]
  rfl

/-- On the window axis the window starts at zero. -/
private theorem rows_start1 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 1 = 0 := by
  unfold ScatterDims.start
  rw [dif_neg (by simp)]

/-- The inserted axis has window coordinate zero. -/
private theorem rows_window0 (j : (⟨2, ![N, D]⟩ : Shape).Idx) :
    (⟨[1], [0], [0], 1, wf⟩ : ScatterDims ⟨2, ![C, D]⟩ ⟨2, ![N, 1]⟩ ⟨2, ![N, D]⟩).window j 0 = 0 := by
  rfl

/-- The window axis has the update's column as window coordinate. -/
private theorem rows_window1 (j : (⟨2, ![N, D]⟩ : Shape).Idx) :
    (⟨[1], [0], [0], 1, wf⟩ : ScatterDims ⟨2, ![C, D]⟩ ⟨2, ![N, 1]⟩ ⟨2, ![N, D]⟩).window j 1 = (j 1).val := by
  rfl

/-- Update index j lands at (k, e) exactly when its row's index word reads k and its column is e. -/
theorem rows_resultIdx?_iff {w : ℕ} (j : (⟨2, ![N, D]⟩ : Shape).Idx) (idx : IVec ⟨2, ![N, 1]⟩ w) (k : Fin C) (e : Fin D) :
    (⟨[1], [0], [0], 1, wf⟩ : ScatterDims ⟨2, ![C, D]⟩ ⟨2, ![N, 1]⟩ ⟨2, ![N, D]⟩).resultIdx? j idx = some (ix2 k e)
      ↔ (idx (ix2 (j 0) (0 : Fin 1))).toInt = (k.val : ℤ) ∧ j 1 = e := by
  rw [resultIdx?_eq_some_iff, Fin.forall_fin_two, rows_start0, rows_start1, rows_window0, rows_window1]
  constructor
  · rintro ⟨h0, h1⟩
    refine ⟨?_, Fin.ext ?_⟩
    · simpa using h0
    · have : ((j 1).val : ℤ) = (e.val : ℤ) := by simpa using h1
      exact_mod_cast this
  · rintro ⟨h0, h1⟩
    refine ⟨?_, ?_⟩
    · simpa using h0
    · subst h1; simp

end Rows

section Vec
variable {C N : ℕ} (wf : ScatterDims.WF ⟨1, ![C]⟩ ⟨2, ![N, 1]⟩ ⟨1, ![N]⟩ [] [0] [0] 1)

/-- The index word an update reads: the column of indices at (its position, 0). -/
private theorem vec_siIdx (j : (⟨1, ![N]⟩ : Shape).Idx) (c) :
    (⟨[], [0], [0], 1, wf⟩ : ScatterDims ⟨1, ![C]⟩ ⟨2, ![N, 1]⟩ ⟨1, ![N]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the operand's one axis the window starts at the update's index word, read signed. -/
private theorem vec_start0 {w : ℕ} (j : (⟨1, ![N]⟩ : Shape).Idx) (idx : IVec ⟨2, ![N, 1]⟩ w) :
    (⟨[], [0], [0], 1, wf⟩ : ScatterDims ⟨1, ![C]⟩ ⟨2, ![N, 1]⟩ ⟨1, ![N]⟩).start j idx 0
      = (idx (ix2 (j 0) (0 : Fin 1))).toInt := by
  unfold ScatterDims.start
  rw [dif_pos (List.mem_cons_self ..), vec_siIdx]
  rfl

/-- The operand's one axis is inserted: its window coordinate is zero. -/
private theorem vec_window0 (j : (⟨1, ![N]⟩ : Shape).Idx) :
    (⟨[], [0], [0], 1, wf⟩ : ScatterDims ⟨1, ![C]⟩ ⟨2, ![N, 1]⟩ ⟨1, ![N]⟩).window j 0 = 0 := by
  rfl

/-- Update index j lands at k exactly when its index word reads k. -/
theorem vec_resultIdx?_iff {w : ℕ} (j : (⟨1, ![N]⟩ : Shape).Idx) (idx : IVec ⟨2, ![N, 1]⟩ w) (k : Fin C) :
    (⟨[], [0], [0], 1, wf⟩ : ScatterDims ⟨1, ![C]⟩ ⟨2, ![N, 1]⟩ ⟨1, ![N]⟩).resultIdx? j idx = some (ix1 k)
      ↔ (idx (ix2 (j 0) (0 : Fin 1))).toInt = (k.val : ℤ) := by
  rw [resultIdx?_eq_some_iff, Fin.forall_fin_one, vec_start0, vec_window0]
  constructor
  · intro h0
    simpa using h0
  · intro h0
    simpa using h0

end Vec

/-- Rows of width D accumulated into a [C, D] operand by an [N, 1] column of row indices, read at (k, e). -/
theorem scatterAdd_rows_apply {C D N w : ℕ}
    (wf : ScatterDims.WF ⟨2, ![C, D]⟩ ⟨2, ![N, 1]⟩ ⟨2, ![N, D]⟩ [1] [0] [0] 1)
    (x : (⟨2, ![C, D]⟩ : Shape).Idx → EReal) (idx : IVec ⟨2, ![N, 1]⟩ w) (upd : (⟨2, ![N, D]⟩ : Shape).Idx → EReal)
    (k : Fin C) (e : Fin D) :
    Ideal.hostScatterAdd (⟨[1], [0], [0], 1, wf⟩ : ScatterDims ⟨2, ![C, D]⟩ ⟨2, ![N, 1]⟩ ⟨2, ![N, D]⟩) x idx upd (ix2 k e)
      = x (ix2 k e) + ∑ n : Fin N, if (idx (ix2 n (0 : Fin 1))).toInt = (k.val : ℤ) then upd (ix2 n e) else 0 := by
  unfold Ideal.hostScatterAdd
  congr 1
  rw [Finset.sum_filter, sum_idx2]
  refine Finset.sum_congr rfl fun n _ => ?_
  have hiff : ∀ b : Fin D,
      ((⟨[1], [0], [0], 1, wf⟩ : ScatterDims ⟨2, ![C, D]⟩ ⟨2, ![N, 1]⟩ ⟨2, ![N, D]⟩).resultIdx? (ix2 n b) idx = some (ix2 k e))
        ↔ ((idx (ix2 n (0 : Fin 1))).toInt = (k.val : ℤ) ∧ b = e) := fun b => rows_resultIdx?_iff wf (ix2 n b) idx k e
  simp only [hiff]
  by_cases hc : (idx (ix2 n (0 : Fin 1))).toInt = (k.val : ℤ)
  · simp [hc]
  · simp [hc]

/-- Scalars accumulated into a [C] operand by an [N, 1] column of indices, read at k. -/
theorem scatterAdd_vec_apply {C N w : ℕ}
    (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal)
    (k : Fin C) :
    Ideal.hostScatterAdd (⟨[], [0], [0], 1, wf⟩ : ScatterDims ⟨1, ![C]⟩ ⟨2, ![N, 1]⟩ ⟨1, ![N]⟩) x idx upd (ix1 k)
      = x (ix1 k) + ∑ n : Fin N, if (idx (ix2 n (0 : Fin 1))).toInt = (k.val : ℤ) then upd (ix1 n) else 0 := by
  unfold Ideal.hostScatterAdd
  congr 1
  rw [Finset.sum_filter, sum_idx1]
  refine Finset.sum_congr rfl fun n _ => ?_
  exact if_congr (vec_resultIdx?_iff wf (ix1 n) idx k) rfl rfl

end Idealize.ShloMosaic.ScatterAddRows

end
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.KChainC1.lean ====
/-
  The host stretch before the last region: the two heads' weight columns and biases laid into one 128×128 weight
  and one bias row, and the graph words as a column.

  The stretch writes three arrays the last region reads. The weight starts as zeros; a replacing scatter whose one
  index word is 0 writes the first head's weight column (a [128, 1] array read as a vector) into column 0, and a second
  one whose index word is 1 writes the second head's into column 1. The bias row starts as zeros; a replacing scatter
  at the two-word index (0, 0) writes the first head's bias, a second at (0, 1) the second head's. The graph words are
  viewed as a column. The hidden state, the embedding and the graph words themselves are not written.

  A replacing scatter of one whole column by a single index word sends update entry k to (k, word): the window's start
  is 0 on the rows and the word on the columns, the window coordinate is k on the rows and 0 on the inserted column
  axis. So at column e the result's entry (k, e) is the update's entry k when the word reads e, and the operand's entry
  otherwise. A replacing scatter of one scalar at a two-word index sends its only update to (word 0, word 1); every other
  entry keeps the operand's value. Column 0 is therefore the first scatter's update (the second scatter, at column 1,
  leaves it alone) and column 1 is the second scatter's update; likewise for the two bias entries.
-/
import proofs.«400059_j34591666602133_1_alg».proof.Proof.Gen.KernelIdeal.Frame
import proofs.«400059_j34591666602133_1_alg».proof.Proof.Spec
import proofs.«400059_j34591666602133_1_alg».proof.Proof.KChainDefs
import proofs.«400059_j34591666602133_1_alg».proof.Proof.LibScatterSet
import proofs.«400059_j34591666602133_1_alg».proof.Proof.LibScatterAddRows
import proofs.«400059_j34591666602133_1_alg».proof.Proof.LibRowOps
import Idealize.ShloMosaic.Lib.ValueIdx
import Idealize.ShloMosaic.Lib.Pipeline.Value
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen
open Idealize.ShloMosaic.ScatterSet Idealize.ShloMosaic.ScatterAddRows

namespace C1

/-! ## A replacing scatter of one column, and of one scalar, read at an entry -/

section Col
variable {α : Type} {R C : ℕ} (wf : ScatterDims.WF ⟨2, ![R, C]⟩ ⟨1, ![1]⟩ ⟨1, ![R]⟩ [0] [1] [1] 0)

private theorem col_siIdx (j : (⟨1, ![R]⟩ : Shape).Idx) (c) :
    (⟨[0], [1], [1], 0, wf⟩ : ScatterDims ⟨2, ![R, C]⟩ ⟨1, ![1]⟩ ⟨1, ![R]⟩).siIdx j c = ix1 (0 : Fin 1) := by
  funext b
  match b with
  | ⟨0, _⟩ =>
    apply Fin.ext
    have hc : c.val < 1 := c.isLt
    show c.val = 0
    omega

private theorem col_start0 {w : ℕ} (j : (⟨1, ![R]⟩ : Shape).Idx) (idx : IVec ⟨1, ![1]⟩ w) :
    (⟨[0], [1], [1], 0, wf⟩ : ScatterDims ⟨2, ![R, C]⟩ ⟨1, ![1]⟩ ⟨1, ![R]⟩).start j idx 0 = 0 := by
  unfold ScatterDims.start
  rw [dif_neg (by simp)]

private theorem col_start1 {w : ℕ} (j : (⟨1, ![R]⟩ : Shape).Idx) (idx : IVec ⟨1, ![1]⟩ w) :
    (⟨[0], [1], [1], 0, wf⟩ : ScatterDims ⟨2, ![R, C]⟩ ⟨1, ![1]⟩ ⟨1, ![R]⟩).start j idx 1
      = (idx (ix1 (0 : Fin 1))).toInt := by
  unfold ScatterDims.start
  rw [dif_pos (List.mem_cons_self ..), col_siIdx]

private theorem col_window0 (j : (⟨1, ![R]⟩ : Shape).Idx) :
    (⟨[0], [1], [1], 0, wf⟩ : ScatterDims ⟨2, ![R, C]⟩ ⟨1, ![1]⟩ ⟨1, ![R]⟩).window j 0 = (j 0).val := by
  rfl

private theorem col_window1 (j : (⟨1, ![R]⟩ : Shape).Idx) :
    (⟨[0], [1], [1], 0, wf⟩ : ScatterDims ⟨2, ![R, C]⟩ ⟨1, ![1]⟩ ⟨1, ![R]⟩).window j 1 = 0 := by
  rfl

theorem col_resultIdx?_iff {w : ℕ} (j : (⟨1, ![R]⟩ : Shape).Idx) (idx : IVec ⟨1, ![1]⟩ w) (k : Fin R) (e : Fin C) :
    (⟨[0], [1], [1], 0, wf⟩ : ScatterDims ⟨2, ![R, C]⟩ ⟨1, ![1]⟩ ⟨1, ![R]⟩).resultIdx? j idx = some (ix2 k e)
      ↔ j 0 = k ∧ (idx (ix1 (0 : Fin 1))).toInt = (e.val : ℤ) := by
  rw [resultIdx?_eq_some_iff, Fin.forall_fin_two, col_start0, col_start1, col_window0, col_window1]
  constructor
  · rintro ⟨h0, h1⟩
    refine ⟨Fin.ext ?_, ?_⟩
    · have : ((j 0).val : ℤ) = (k.val : ℤ) := by simpa using h0
      exact_mod_cast this
    · simpa using h1
  · rintro ⟨h0, h1⟩
    refine ⟨?_, ?_⟩
    · subst h0; simp
    · simpa using h1

/-- One column written: at the column the index word names, the result's entry is the update's. -/
theorem scatter_col_hit {w : ℕ} (x : (⟨2, ![R, C]⟩ : Shape).Idx → α) (idx : IVec ⟨1, ![1]⟩ w)
    (upd : (⟨1, ![R]⟩ : Shape).Idx → α) (k : Fin R) (e : Fin C)
    (h : (idx (ix1 (0 : Fin 1))).toInt = (e.val : ℤ)) :
    Host.scatter (⟨[0], [1], [1], 0, wf⟩ : ScatterDims ⟨2, ![R, C]⟩ ⟨1, ![1]⟩ ⟨1, ![R]⟩) (fun _ b => b) x idx upd (ix2 k e)
      = upd (ix1 k) := by
  rcases scatter_set_cases (⟨[0], [1], [1], 0, wf⟩ : ScatterDims ⟨2, ![R, C]⟩ ⟨1, ![1]⟩ ⟨1, ![R]⟩) x idx upd (ix2 k e)
    with ⟨n, hn, _, hv⟩ | ⟨hno, _⟩
  · have h0 := ((col_resultIdx?_iff wf _ idx k e).1 hn).1
    exact hv.trans (congrArg upd ((eq_ix1 _).trans (congrArg ix1 h0)))
  · exact absurd ((col_resultIdx?_iff wf _ idx k e).2 ⟨rfl, h⟩)
      (by
        have := hno ((⟨1, ![R]⟩ : Shape).rowMajor (ix1 k))
        rwa [Equiv.symm_apply_apply] at this)

/-- At any other column the operand's entry stays. -/
theorem scatter_col_miss {w : ℕ} (x : (⟨2, ![R, C]⟩ : Shape).Idx → α) (idx : IVec ⟨1, ![1]⟩ w)
    (upd : (⟨1, ![R]⟩ : Shape).Idx → α) (k : Fin R) (e : Fin C)
    (h : (idx (ix1 (0 : Fin 1))).toInt ≠ (e.val : ℤ)) :
    Host.scatter (⟨[0], [1], [1], 0, wf⟩ : ScatterDims ⟨2, ![R, C]⟩ ⟨1, ![1]⟩ ⟨1, ![R]⟩) (fun _ b => b) x idx upd (ix2 k e)
      = x (ix2 k e) := by
  rcases scatter_set_cases (⟨[0], [1], [1], 0, wf⟩ : ScatterDims ⟨2, ![R, C]⟩ ⟨1, ![1]⟩ ⟨1, ![R]⟩) x idx upd (ix2 k e)
    with ⟨n, hn, _, _⟩ | ⟨_, hv⟩
  · exact absurd ((col_resultIdx?_iff wf _ idx k e).1 hn).2 h
  · exact hv

end Col

section Entry
variable {α : Type} {R C : ℕ} (wf : ScatterDims.WF ⟨2, ![R, C]⟩ ⟨1, ![2]⟩ ⟨0, ![]⟩ [] [0, 1] [0, 1] 0)

private theorem ent_siIdx (j : (⟨0, ![]⟩ : Shape).Idx) (c) :
    (⟨[], [0, 1], [0, 1], 0, wf⟩ : ScatterDims ⟨2, ![R, C]⟩ ⟨1, ![2]⟩ ⟨0, ![]⟩).siIdx j c = ix1 (⟨c.val, c.isLt⟩ : Fin 2) := by
  funext b
  match b with
  | ⟨0, _⟩ => exact Fin.ext rfl

private theorem ent_start0 {w : ℕ} (j : (⟨0, ![]⟩ : Shape).Idx) (idx : IVec ⟨1, ![2]⟩ w) :
    (⟨[], [0, 1], [0, 1], 0, wf⟩ : ScatterDims ⟨2, ![R, C]⟩ ⟨1, ![2]⟩ ⟨0, ![]⟩).start j idx 0
      = (idx (ix1 (0 : Fin 2))).toInt := by
  unfold ScatterDims.start
  rw [dif_pos (List.mem_cons_self ..), ent_siIdx]
  rfl

private theorem ent_start1 {w : ℕ} (j : (⟨0, ![]⟩ : Shape).Idx) (idx : IVec ⟨1, ![2]⟩ w) :
    (⟨[], [0, 1], [0, 1], 0, wf⟩ : ScatterDims ⟨2, ![R, C]⟩ ⟨1, ![2]⟩ ⟨0, ![]⟩).start j idx 1
      = (idx (ix1 (1 : Fin 2))).toInt := by
  unfold ScatterDims.start
  rw [dif_pos (by simp), ent_siIdx]
  rfl

private theorem ent_window (j : (⟨0, ![]⟩ : Shape).Idx) (a) :
    (⟨[], [0, 1], [0, 1], 0, wf⟩ : ScatterDims ⟨2, ![R, C]⟩ ⟨1, ![2]⟩ ⟨0, ![]⟩).window j a = 0 := by
  match a with
  | ⟨0, _⟩ => rfl
  | ⟨1, _⟩ => rfl

theorem ent_resultIdx?_iff {w : ℕ} (j : (⟨0, ![]⟩ : Shape).Idx) (idx : IVec ⟨1, ![2]⟩ w) (k : Fin R) (e : Fin C) :
    (⟨[], [0, 1], [0, 1], 0, wf⟩ : ScatterDims ⟨2, ![R, C]⟩ ⟨1, ![2]⟩ ⟨0, ![]⟩).resultIdx? j idx = some (ix2 k e)
      ↔ (idx (ix1 (0 : Fin 2))).toInt = (k.val : ℤ) ∧ (idx (ix1 (1 : Fin 2))).toInt = (e.val : ℤ) := by
  rw [resultIdx?_eq_some_iff, Fin.forall_fin_two, ent_start0, ent_start1, ent_window, ent_window]
  constructor
  · rintro ⟨h0, h1⟩
    exact ⟨by simpa using h0, by simpa using h1⟩
  · rintro ⟨h0, h1⟩
    exact ⟨by simpa using h0, by simpa using h1⟩

/-- One scalar written at the entry the two index words name. -/
theorem scatter_ent_hit {w : ℕ} (x : (⟨2, ![R, C]⟩ : Shape).Idx → α) (idx : IVec ⟨1, ![2]⟩ w)
    (upd : (⟨0, ![]⟩ : Shape).Idx → α) (k : Fin R) (e : Fin C)
    (h0 : (idx (ix1 (0 : Fin 2))).toInt = (k.val : ℤ)) (h1 : (idx (ix1 (1 : Fin 2))).toInt = (e.val : ℤ)) :
    Host.scatter (⟨[], [0, 1], [0, 1], 0, wf⟩ : ScatterDims ⟨2, ![R, C]⟩ ⟨1, ![2]⟩ ⟨0, ![]⟩) (fun _ b => b) x idx upd (ix2 k e)
      = upd ix0 := by
  rcases scatter_set_cases (⟨[], [0, 1], [0, 1], 0, wf⟩ : ScatterDims ⟨2, ![R, C]⟩ ⟨1, ![2]⟩ ⟨0, ![]⟩) x idx upd (ix2 k e)
    with ⟨n, _, _, hv⟩ | ⟨hno, _⟩
  · exact hv.trans (congrArg upd (eq_ix0 _))
  · exact absurd ((ent_resultIdx?_iff wf _ idx k e).2 ⟨h0, h1⟩) (hno ((⟨0, ![]⟩ : Shape).rowMajor ix0))

/-- At any other entry the operand's entry stays. -/
theorem scatter_ent_miss {w : ℕ} (x : (⟨2, ![R, C]⟩ : Shape).Idx → α) (idx : IVec ⟨1, ![2]⟩ w)
    (upd : (⟨0, ![]⟩ : Shape).Idx → α) (k : Fin R) (e : Fin C)
    (h : ¬ ((idx (ix1 (0 : Fin 2))).toInt = (k.val : ℤ) ∧ (idx (ix1 (1 : Fin 2))).toInt = (e.val : ℤ))) :
    Host.scatter (⟨[], [0, 1], [0, 1], 0, wf⟩ : ScatterDims ⟨2, ![R, C]⟩ ⟨1, ![2]⟩ ⟨0, ![]⟩) (fun _ b => b) x idx upd (ix2 k e)
      = x (ix2 k e) := by
  rcases scatter_set_cases (⟨[], [0, 1], [0, 1], 0, wf⟩ : ScatterDims ⟨2, ![R, C]⟩ ⟨1, ![2]⟩ ⟨0, ![]⟩) x idx upd (ix2 k e)
    with ⟨n, hn, _, _⟩ | ⟨_, hv⟩
  · exact absurd ((ent_resultIdx?_iff wf _ idx k e).1 hn) h
  · exact hv

end Entry

/-! ## The arrays the stretch lays down, as functions of the heads' weights and biases -/

/-- The 128×128 weight: zeros, then column 0 replaced by the first head's weight column, then column 1 by the second's. -/
def headW (a b : FVec Ideal S128x1 .f32) : FVec Ideal S128x128 .f32 :=
  Host.scatter scatter_S128x128_S1_S128_0_1_1_0 (fun _ b => b)
    (Host.scatter scatter_S128x128_S1_S128_0_1_1_0 (fun _ b => b)
      (broadcastInDim S128x128 ![] bcast_S_S128x128 (constant (F := Ideal) S_ .f32 0x00000000#32))
      (broadcastInDim S1 ![] bcast_S_S1 (constantI S_ 32 0#32))
      (shapeCast S128 a shapeCasts_S128x1_S128))
    (broadcastInDim S1 ![] bcast_S_S1 (constantI S_ 32 1#32))
    (shapeCast S128 b shapeCasts_S128x1_S128)

/-- The two-word index (p, q). -/
def word2 (p q : BitVec 32) : IVec S2 32 :=
  concatenate S2 0 [⟨S1, broadcastInDim S1 ![] bcast_S_S1 (constantI S_ 32 p)⟩,
    ⟨S1, broadcastInDim S1 ![] bcast_S_S1 (constantI S_ 32 q)⟩] concatenates_S1_S1_S2_d0

/-- The bias row: zeros, then entry (0, 0) replaced by the first head's bias, then entry (0, 1) by the second's. -/
def headB (a b : FVec Ideal S1 .f32) : FVec Ideal S1x128 .f32 :=
  Host.scatter scatter_S1x128_S2_S__n_01_01_0 (fun _ b => b)
    (Host.scatter scatter_S1x128_S2_S__n_01_01_0 (fun _ b => b)
      (broadcastInDim S1x128 ![] bcast_S_S1x128 (constant (F := Ideal) S_ .f32 0x00000000#32))
      (word2 0#32 0#32)
      (shapeCast S_ a shapeCasts_S1_S_))
    (word2 0#32 1#32)
    (shapeCast S_ b shapeCasts_S1_S_)

/-- The first word of a two-word index. -/
theorem word2_fst (p q : BitVec 32) : word2 p q (ix1 (0 : Fin 2)) = p := by
  unfold word2
  refine (concatenate_pair_apply_left (0 : Fin S2.rank) _ _ concatenates_S1_S1_S2_d0 (ix1 (0 : Fin 2)) rfl
    (ix1 (0 : Fin 1)) fun b => ?_).trans rfl
  match b with
  | ⟨0, _⟩ => rfl

/-- The second word of a two-word index. -/
theorem word2_snd (p q : BitVec 32) : word2 p q (ix1 (1 : Fin 2)) = q := by
  unfold word2
  refine (concatenate_pair_apply_right (0 : Fin S2.rank) _ _ concatenates_S1_S1_S2_d0 (ix1 (1 : Fin 2)) rfl rfl
    (ix1 (0 : Fin 1)) (fun b hb => ?_) rfl).trans rfl
  match b with
  | ⟨0, _⟩ => exact absurd rfl hb

/-- A [128, 1] column read as a vector keeps its entries. -/
theorem col_as_vec (a : FVec Ideal S128x1 .f32) (k : Fin 128) :
    shapeCast S128 a shapeCasts_S128x1_S128 (ix1 k) = a (ix2 k 0) :=
  shapeCast_apply a shapeCasts_S128x1_S128 (ix1 k) (ix2 k 0) (by
    rw [Shape.rowMajor_val_two, Shape.rowMajor_val_one]
    show k.val * 1 + 0 = k.val
    omega)

/-- A one-entry vector read as a scalar keeps its entry. -/
theorem one_as_scalar (a : FVec Ideal S1 .f32) : shapeCast S_ a shapeCasts_S1_S_ ix0 = a (ix1 0) :=
  shapeCast_apply a shapeCasts_S1_S_ ix0 (ix1 0) (by
    have h1 : (S1.rowMajor (ix1 0)).val < 1 := (S1.rowMajor (ix1 0)).isLt
    have h2 : (S_.rowMajor ix0).val < 1 := (S_.rowMajor ix0).isLt
    omega)

/-- Column 0 of the weight is the first head's column: the second scatter writes column 1 only. -/
theorem headW_col0 (a b : FVec Ideal S128x1 .f32) (k : Fin 128) : headW a b (ix2 k 0) = a (ix2 k 0) := by
  unfold headW
  refine (scatter_col_miss scatter_S128x128_S1_S128_0_1_1_0_wf _ _ _ k (0 : Fin 128) ?_).trans ?_
  · show (1#32 : BitVec 32).toInt ≠ ((0 : Fin 128).val : ℤ)
    decide
  refine (scatter_col_hit scatter_S128x128_S1_S128_0_1_1_0_wf _ _ _ k (0 : Fin 128) ?_).trans (col_as_vec a k)
  show (0#32 : BitVec 32).toInt = ((0 : Fin 128).val : ℤ)
  decide

/-- Column 1 of the weight is the second head's column. -/
theorem headW_col1 (a b : FVec Ideal S128x1 .f32) (k : Fin 128) : headW a b (ix2 k 1) = b (ix2 k 0) := by
  unfold headW
  refine (scatter_col_hit scatter_S128x128_S1_S128_0_1_1_0_wf _ _ _ k (1 : Fin 128) ?_).trans (col_as_vec b k)
  show (1#32 : BitVec 32).toInt = ((1 : Fin 128).val : ℤ)
  decide

/-- Entry (0, 0) of the bias row is the first head's bias: the second scatter writes entry (0, 1) only. -/
theorem headB_ent0 (a b : FVec Ideal S1 .f32) : headB a b (ix2 0 0) = a (ix1 0) := by
  unfold headB
  refine (scatter_ent_miss scatter_S1x128_S2_S__n_01_01_0_wf _ _ _ (0 : Fin 1) (0 : Fin 128) ?_).trans ?_
  · rw [word2_fst, word2_snd]
    decide
  refine (scatter_ent_hit scatter_S1x128_S2_S__n_01_01_0_wf _ _ _ (0 : Fin 1) (0 : Fin 128) ?_ ?_).trans (one_as_scalar a)
  · rw [word2_fst]; decide
  · rw [word2_snd]; decide

/-- Entry (0, 1) of the bias row is the second head's bias. -/
theorem headB_ent1 (a b : FVec Ideal S1 .f32) : headB a b (ix2 0 1) = b (ix1 0) := by
  unfold headB
  refine (scatter_ent_hit scatter_S1x128_S2_S__n_01_01_0_wf _ _ _ (0 : Fin 1) (1 : Fin 128) ?_ ?_).trans (one_as_scalar b)
  · rw [word2_fst]; decide
  · rw [word2_snd]; decide

end C1

variable (m : (ℓ : Loc nD τ sig) → Buf (Elt Ideal) ℓ) (ρ : Dev nD → PrngReg)

/-! ## What the stretch leaves in each array it writes, and the buffers it does not write -/

/-- A buffer none of the stretch's operations writes holds what it held before. -/
local macro "stretch_keeps" : tactic =>
  `(tactic| exact StableHlo.after_of_forall_not_mem _ _ (List.forall_iff_forall_mem.mp (by
      simp only [hostOps9, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- The weight after the stretch. -/
theorem C1.W18_v71 (c : Dev nD) :
    ((W18 m ρ c (Proc.devRef .tc main_v71)) : FVec Ideal S128x128 .f32)
      = headW (W17 m ρ c (Proc.devRef .tc main_arg9)) (W17 m ρ c (Proc.devRef .tc main_arg11)) := by
  show StableHlo.after hostOps9 (W17 m ρ c) (Proc.devRef .tc main_v71) = _
  after_results
  rfl

/-- The bias row after the stretch. -/
theorem C1.W18_v82 (c : Dev nD) :
    ((W18 m ρ c (Proc.devRef .tc main_v82)) : FVec Ideal S1x128 .f32)
      = headB (W17 m ρ c (Proc.devRef .tc main_arg10)) (W17 m ρ c (Proc.devRef .tc main_arg12)) := by
  show StableHlo.after hostOps9 (W17 m ρ c) (Proc.devRef .tc main_v82) = _
  after_results
  rfl

/-- The column of graph words after the stretch. -/
theorem C1.W18_v83 (c : Dev nD) :
    ((W18 m ρ c (Proc.devRef .tc main_v83)) : IVec S100000x1 32)
      = shapeCast S100000x1 ((W17 m ρ c (Proc.devRef .tc main_arg2)) : IVec S100000 32) shapeCasts_S100000_S100000x1 := by
  show StableHlo.after hostOps9 (W17 m ρ c) (Proc.devRef .tc main_v83) = _
  after_results
  rfl

-- boundary 18: the last region's entry contents, over boundary 17's
theorem C1_h (c : Dev nD) : W18 m ρ c (Proc.devRef .tc main_v64) = W17 m ρ c (Proc.devRef .tc main_v64) := by
  stretch_keeps
theorem C1_x1 (c : Dev nD) : W18 m ρ c (Proc.devRef .tc main_v0_0) = W17 m ρ c (Proc.devRef .tc main_v0_0) := by
  stretch_keeps
theorem C1_arg2 (c : Dev nD) : W18 m ρ c (Proc.devRef .tc main_arg2) = W17 m ρ c (Proc.devRef .tc main_arg2) := by
  stretch_keeps
theorem C1_w0 (c : Dev nD) (k : Fin 128) : ((W18 m ρ c (Proc.devRef .tc main_v71)) : FVec Ideal S128x128 .f32) (ix2 k 0) = ((W17 m ρ c (Proc.devRef .tc main_arg9)) : FVec Ideal S128x1 .f32) (ix2 k 0) :=
  (congrFun (C1.W18_v71 m ρ c) (ix2 k 0)).trans (C1.headW_col0 _ _ k)
theorem C1_w1 (c : Dev nD) (k : Fin 128) : ((W18 m ρ c (Proc.devRef .tc main_v71)) : FVec Ideal S128x128 .f32) (ix2 k 1) = ((W17 m ρ c (Proc.devRef .tc main_arg11)) : FVec Ideal S128x1 .f32) (ix2 k 0) :=
  (congrFun (C1.W18_v71 m ρ c) (ix2 k 1)).trans (C1.headW_col1 _ _ k)
theorem C1_b0 (c : Dev nD) : ((W18 m ρ c (Proc.devRef .tc main_v82)) : FVec Ideal S1x128 .f32) (ix2 0 0) = ((W17 m ρ c (Proc.devRef .tc main_arg10)) : FVec Ideal S1 .f32) (ix1 0) :=
  (congrFun (C1.W18_v82 m ρ c) (ix2 0 0)).trans (C1.headB_ent0 _ _)
theorem C1_b1 (c : Dev nD) : ((W18 m ρ c (Proc.devRef .tc main_v82)) : FVec Ideal S1x128 .f32) (ix2 0 1) = ((W17 m ρ c (Proc.devRef .tc main_arg12)) : FVec Ideal S1 .f32) (ix1 0) :=
  (congrFun (C1.W18_v82 m ρ c) (ix2 0 1)).trans (C1.headB_ent1 _ _)
theorem C1_col (c : Dev nD) (n : Fin 100000) : ((W18 m ρ c (Proc.devRef .tc main_v83)) : IVec S100000x1 32) (ix2 n 0) = ((W17 m ρ c (Proc.devRef .tc main_arg2)) : IVec S100000 32) (ix1 n) :=
  (congrFun (C1.W18_v83 m ρ c) (ix2 n 0)).trans (RowOps.shapeCast_a_a1_apply _ shapeCasts_S100000_S100000x1 n 0)

end Cert.KernelIdeal.Chain

end
-- ==== Proof.KFinal9Lin.lean ====
/-
  The last region's two per-row result arrays: the linear heads on the rectified state, and their softplus.
-/
import proofs.«400059_j34591666602133_1_alg».proof.Proof.Gen.KernelIdeal.Frame
import proofs.«400059_j34591666602133_1_alg».proof.Proof.Spec
import proofs.«400059_j34591666602133_1_alg».proof.Proof.LibDenseLayer

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen

-- the TensorCore's buffer contents when the region is entered: the parameter the region's proof data are stated at
variable (V : (c : Dev nD) → (b : Ref sig .tc) → Buf (Elt Ideal) ((c : Thread nD τ).loc b))

/-!
  Every grid point works on one block of 2000 rows of the state. Whether or not the point is the first (the only
  point at which the per-graph accumulator is reset), its body stores into the two per-row outputs one payload each,
  computed from the point's own input blocks alone: the block's rows, rectified, times the whole 128×128 weight, plus
  the bias row; and the softplus of that. So no induction over the points is needed: each point writes back its own
  block of one function of the whole arrays, and the 50 blocks tile the 100000 rows.

  At the ideal values a change of float format is the identity, the product into the zero accumulator is the plain
  sum over the contracted axis, and the bias row repeated down the rows reads the row's entry of that column: the
  payload at (p, q) of block t is the specification's linear value at row 2000·t + p, column q. The softplus is
  written in the stable form max(y, 0) + log(1 + e^(−|y|)) under a guard "y − 0 ≠ y − 0", which no extended real
  satisfies, so the guarded branch is never read; y − 0 = y, 0 − a = −a and |a| = max(a, −a) make the remaining
  branch the specification's softplus.
-/

namespace Final9Lin

/-! ## What each case of the body leaves in the two per-row outputs -/

theorem hz : (![0, 0] : Fin 2 → Nat) = fun _ => 0 := funext fun a => by fin_cases a <;> rfl

section Pieces
variable {F : FTy → Type} [FloatOps F]

/-- At the first point the linear output's buffer holds the linear payload of the point's input blocks. -/
theorem out_A_4 (c : Dev nD) (i : grid9.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x1 .i32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S512x128 .f32) (harg7 : arg7.IsWhole) (hc0 : cond9_0 i)
    (x0 : Vec F S2000x128 .f32) (x1 : Vec F S128x128 .f32) (x2 : Vec F S1x128 .f32) (x3 : Vec F S2000x1 .i32) :
    out9_A_4 c i arg1 harg1 arg2 harg2 arg3 harg3 arg4 harg4 arg5 harg5 arg6 harg6 arg7 harg7 hc0 x0 x1 x2 x3 = k9_pay3 x0 x1 x2 := by
  unfold out9_A_4
  rw [View.read_writes_eq_canon _ _ _ (cover9_A_4 c i arg1 harg1 arg2 harg2 arg3 harg3 arg4 harg4 arg5 harg5 arg6 harg6 arg7 harg7 hc0 x0 x1 x2 x3)]
  unfold kernelRun9_A
  dsimp only
  sl_unfold_words
  rw [View.canon_unit_zero hz]
  simp only [View.readAt_eq_ld, harg1.read_unread, harg2.read_unread, harg3.read_unread, View.ld_unit_zero (S := S2000x128) hz,
    View.ld_unit_zero (S := S128x128) hz, View.ld_unit_zero (S := S1x128) hz]

/-- At the first point the softplus output's buffer holds the softplus payload of the point's input blocks. -/
theorem out_A_5 (c : Dev nD) (i : grid9.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x1 .i32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S512x128 .f32) (harg7 : arg7.IsWhole) (hc0 : cond9_0 i)
    (x0 : Vec F S2000x128 .f32) (x1 : Vec F S128x128 .f32) (x2 : Vec F S1x128 .f32) (x3 : Vec F S2000x1 .i32) :
    out9_A_5 c i arg1 harg1 arg2 harg2 arg3 harg3 arg4 harg4 arg5 harg5 arg6 harg6 arg7 harg7 hc0 x0 x1 x2 x3 = k9_pay4 x0 x1 x2 := by
  unfold out9_A_5
  rw [View.read_writes_eq_canon _ _ _ (cover9_A_5 c i arg1 harg1 arg2 harg2 arg3 harg3 arg4 harg4 arg5 harg5 arg6 harg6 arg7 harg7 hc0 x0 x1 x2 x3)]
  unfold kernelRun9_A
  dsimp only
  sl_unfold_words
  rw [View.canon_unit_zero hz]
  simp only [View.readAt_eq_ld, harg1.read_unread, harg2.read_unread, harg3.read_unread, View.ld_unit_zero (S := S2000x128) hz,
    View.ld_unit_zero (S := S128x128) hz, View.ld_unit_zero (S := S1x128) hz]

/-- At every later point the linear output's buffer holds the linear payload of the point's input blocks. -/
theorem out_B_4 (c : Dev nD) (i : grid9.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x1 .i32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S512x128 .f32) (harg7 : arg7.IsWhole) (hc0 : ¬cond9_0 i)
    (x0 : Vec F S2000x128 .f32) (x1 : Vec F S128x128 .f32) (x2 : Vec F S1x128 .f32) (x3 : Vec F S2000x1 .i32) (xo6 : Vec F S512x128 .f32) :
    out9_B_4 c i arg1 harg1 arg2 harg2 arg3 harg3 arg4 harg4 arg5 harg5 arg6 harg6 arg7 harg7 hc0 x0 x1 x2 x3 xo6 = k9_pay3 x0 x1 x2 := by
  unfold out9_B_4
  rw [View.read_writes_eq_canon _ _ _ (cover9_B_4 c i arg1 harg1 arg2 harg2 arg3 harg3 arg4 harg4 arg5 harg5 arg6 harg6 arg7 harg7 hc0 x0 x1 x2 x3 xo6)]
  unfold kernelRun9_B
  dsimp only
  sl_unfold_words
  rw [View.canon_unit_zero hz]
  simp only [View.readAt_eq_ld, harg1.read_unread, harg2.read_unread, harg3.read_unread, View.ld_unit_zero (S := S2000x128) hz,
    View.ld_unit_zero (S := S128x128) hz, View.ld_unit_zero (S := S1x128) hz]

/-- At every later point the softplus output's buffer holds the softplus payload of the point's input blocks. -/
theorem out_B_5 (c : Dev nD) (i : grid9.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x1 .i32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S512x128 .f32) (harg7 : arg7.IsWhole) (hc0 : ¬cond9_0 i)
    (x0 : Vec F S2000x128 .f32) (x1 : Vec F S128x128 .f32) (x2 : Vec F S1x128 .f32) (x3 : Vec F S2000x1 .i32) (xo6 : Vec F S512x128 .f32) :
    out9_B_5 c i arg1 harg1 arg2 harg2 arg3 harg3 arg4 harg4 arg5 harg5 arg6 harg6 arg7 harg7 hc0 x0 x1 x2 x3 xo6 = k9_pay4 x0 x1 x2 := by
  unfold out9_B_5
  rw [View.read_writes_eq_canon _ _ _ (cover9_B_5 c i arg1 harg1 arg2 harg2 arg3 harg3 arg4 harg4 arg5 harg5 arg6 harg6 arg7 harg7 hc0 x0 x1 x2 x3 xo6)]
  unfold kernelRun9_B
  dsimp only
  sl_unfold_words
  rw [View.canon_unit_zero hz]
  simp only [View.readAt_eq_ld, harg1.read_unread, harg2.read_unread, harg3.read_unread, View.ld_unit_zero (S := S2000x128) hz,
    View.ld_unit_zero (S := S128x128) hz, View.ld_unit_zero (S := S1x128) hz]

end Pieces

/-! ## The two payloads at an index, at the ideal values -/

/-- The linear payload at (p, q): row p of the rectified block against column q of the weight, plus the bias row at q. -/
theorem pay3_apply (v3 : FVec Ideal S2000x128 .f32) (v8 : FVec Ideal S128x128 .f32) (v12 : FVec Ideal S1x128 .f32)
    (p : Fin 2000) (q : Fin 128) :
    k9_pay3 (F := Ideal) v3 v8 v12 (ix2 p q)
      = (∑ l : Fin 128, max (v3 (ix2 p l)) 0 * v8 (ix2 l q)) + v12 (ix2 (0 : Fin 1) q) := by
  unfold k9_pay3
  refine congrArg₂ (· + ·) ?_ ?_
  · refine (DenseLayer.matmul_rows_apply dot_S2000x128_S128x128_S2000x128_1_0_0_1_n_n_wf none _ _ p q).trans ?_
    refine Finset.sum_congr rfl fun l _ => congrArg₂ (· * ·) ?_ ?_
    · show max (shapeCast S2000x128 v3 shapeCasts_S2000x128_S2000x128 (ix2 p l)) (Ideal.ofBits .f32 0x00000000#32) = _
      rw [shapeCast_self, Ideal.ofBits_zero_f32]
    · show shapeCast S128x128 v8 shapeCasts_S128x128_S128x128 (ix2 l q) = _
      rw [shapeCast_self]
  · refine (broadcastTo_1b_ab_apply _ broadcasts_S1x128_S2000x128 p q).trans ?_
    rw [shapeCast_self]

/-- The stable softplus under its guard: the guard compares a value with itself for inequality, so it is never set. -/
theorem softplus_guarded (y : EReal) :
    Scalar.select (Ideal.cmp .one (y - 0) (y - 0)) (y + 0)
        (max y 0 + Ideal.log1p (Ideal.exp (0 - max (y - 0) (-(y - 0))))) = Cert.Spec.softplus y := by
  have hc : Ideal.cmp .one (y - 0) (y - 0) = 0#1 := by
    unfold Ideal.cmp
    simp
  rw [hc, select_zero, sub_zero, zero_sub]
  rfl

/-- The softplus payload is the softplus of the linear payload, entry by entry. -/
theorem pay4_apply (v3 : FVec Ideal S2000x128 .f32) (v8 : FVec Ideal S128x128 .f32) (v12 : FVec Ideal S1x128 .f32)
    (j : S2000x128.Idx) :
    k9_pay4 (F := Ideal) v3 v8 v12 j = Cert.Spec.softplus (k9_pay3 (F := Ideal) v3 v8 v12 j) := by
  unfold k9_pay4
  generalize k9_pay3 (F := Ideal) v3 v8 v12 = Y
  show Scalar.select (Ideal.cmp .one (Y j - Ideal.ofBits .f32 0x00000000#32) (Y j - Ideal.ofBits .f32 0x00000000#32))
      (Y j + Ideal.ofBits .f32 0x00000000#32)
      (max (Y j) (Ideal.ofBits .f32 0x00000000#32) + Ideal.log1p (Ideal.exp (Ideal.ofBits .f32 0x00000000#32
        - max (Y j - Ideal.ofBits .f32 0x00000000#32) (-(Y j - Ideal.ofBits .f32 0x00000000#32))))) = _
  rw [Ideal.ofBits_zero_f32]
  exact softplus_guarded (Y j)

/-! ## The point's input blocks, and where their entries sit in the arrays -/

/-- The point's block of the state, of the weight (the whole of it) and of the bias row (the whole of it). -/
abbrev hblk (c : Dev nD) (t : Fin cfg9.N) : FVec Ideal S2000x128 .f32 := iblk9 V c 0 t
abbrev wblk (c : Dev nD) (t : Fin cfg9.N) : FVec Ideal S128x128 .f32 := iblk9 V c 1 t
abbrev bblk (c : Dev nD) (t : Fin cfg9.N) : FVec Ideal S1x128 .f32 := iblk9 V c 2 t

/-- The printed index maps, decided over the grid: the row-blocked windows sit at block row t, the whole ones at
    block (0, 0). -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_4.index t (0 : Fin 2) = t.val ∧ win9_4.index t (1 : Fin 2) = 0
    ∧ win9_5.index t (0 : Fin 2) = t.val ∧ win9_5.index t (1 : Fin 2) = 0 :=
  (by decide +kernel : ∀ t : Fin grid9.N, _)

/-- Entry (p, l) of the state's block at point t is the state's entry at row 2000·t + p. -/
theorem hblk_apply (c : Dev nD) (t : Fin cfg9.N) (p : Fin 2000) (l : Fin 128) (r : Fin 100000)
    (hr : r.val = 2000 * t.val + p.val) : hblk V c t (ix2 p l) = V c main_v64 (ix2 r l) := by
  obtain ⟨e0, e1, -⟩ := idx_facts t
  show V c main_v64 (((cfg9.win 0).blk t).view.emb (ix2 p l)) = V c main_v64 (ix2 r l)
  refine congrArg _ (funext fun a => Fin.ext ?_)
  match a with
  | ⟨0, _⟩ => show win9_0.index t (0 : Fin 2) * 2000 + 1 * p.val = r.val; rw [e0, hr]; omega
  | ⟨1, _⟩ => show win9_0.index t (1 : Fin 2) * 128 + 1 * l.val = l.val; rw [e1]; omega

/-- The weight's block is the weight. -/
theorem wblk_apply (c : Dev nD) (t : Fin cfg9.N) (l : Fin 128) (q : Fin 128) :
    wblk V c t (ix2 l q) = V c main_v71 (ix2 l q) := by
  obtain ⟨-, -, e0, e1, -⟩ := idx_facts t
  show V c main_v71 (((cfg9.win 1).blk t).view.emb (ix2 l q)) = V c main_v71 (ix2 l q)
  refine congrArg _ (funext fun a => Fin.ext ?_)
  match a with
  | ⟨0, _⟩ => show win9_1.index t (0 : Fin 2) * 128 + 1 * l.val = l.val; rw [e0]; omega
  | ⟨1, _⟩ => show win9_1.index t (1 : Fin 2) * 128 + 1 * q.val = q.val; rw [e1]; omega

/-- The bias row's block is the bias row. -/
theorem bblk_apply (c : Dev nD) (t : Fin cfg9.N) (q : Fin 128) :
    bblk V c t (ix2 (0 : Fin 1) q) = V c main_v82 (ix2 (0 : Fin 1) q) := by
  obtain ⟨-, -, -, -, e0, e1, -⟩ := idx_facts t
  show V c main_v82 (((cfg9.win 2).blk t).view.emb (ix2 (0 : Fin 1) q)) = V c main_v82 (ix2 (0 : Fin 1) q)
  refine congrArg _ (funext fun a => Fin.ext ?_)
  match a with
  | ⟨0, _⟩ => show win9_2.index t (0 : Fin 2) * 1 + 1 * (0 : Fin 1).val = (0 : Fin 1).val; rw [e0]; rfl
  | ⟨1, _⟩ => show win9_2.index t (1 : Fin 2) * 128 + 1 * q.val = q.val; rw [e1]; omega

/-- The linear payload of the blocks at point t, at (p, q), is the specification's linear value at row 2000·t + p and
    column q. -/
theorem lin_blk (c : Dev nD) (t : Fin cfg9.N) (p : Fin 2000) (q : Fin 128) (r : Fin 100000) (q' : Fin 128)
    (hr : r.val = 2000 * t.val + p.val) (hq : q'.val = q.val) :
    k9_pay3 (F := Ideal) (hblk V c t) (wblk V c t) (bblk V c t) (ix2 p q)
      = Cert.Spec.linAt (V c main_v64) (V c main_v71) (V c main_v82) r q' := by
  obtain rfl : q' = q := Fin.ext hq
  refine (pay3_apply (hblk V c t) (wblk V c t) (bblk V c t) p q').trans ?_
  unfold Cert.Spec.linAt
  exact congrArg₂ (· + ·)
    (Finset.sum_congr rfl fun l _ => congrArg₂ (· * ·) (congrArg (max · 0) (hblk_apply V c t p l r hr)) (wblk_apply V c t l q'))
    (bblk_apply V c t q')

/-! ## What the two per-row outputs hold after the body at point t -/

/-- After the body at any point the linear output's buffer holds the linear payload of the point's blocks. -/
theorem outs4_eq (c : Dev nD) (t : Fin cfg9.N) :
    (outsAt9 V c t.val t.isLt).1 = k9_pay3 (F := Ideal) (hblk V c t) (wblk V c t) (bblk V c t) := by
  by_cases h0 : t.val % 50 = 0
  · rw [outsAt9_A V c t h0]; dsimp only
    exact out_A_4 (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) ((hcond9_0 t).mpr h0) (iblk9 V c 0 t) (iblk9 V c 1 t) (iblk9 V c 2 t) (iblk9 V c 3 t)
  · rw [outsAt9_B V c t h0]; dsimp only
    exact out_B_4 (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (fun h => h0 ((hcond9_0 t).mp h)) (iblk9 V c 0 t) (iblk9 V c 1 t) (iblk9 V c 2 t) (iblk9 V c 3 t) (outsAt9 V c (t.val - 1) (Nat.lt_of_le_of_lt (Nat.sub_le _ _) t.isLt)).2.2

/-- After the body at any point the softplus output's buffer holds the softplus payload of the point's blocks. -/
theorem outs5_eq (c : Dev nD) (t : Fin cfg9.N) :
    (outsAt9 V c t.val t.isLt).2.1 = k9_pay4 (F := Ideal) (hblk V c t) (wblk V c t) (bblk V c t) := by
  by_cases h0 : t.val % 50 = 0
  · rw [outsAt9_A V c t h0]; dsimp only
    exact out_A_5 (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) ((hcond9_0 t).mpr h0) (iblk9 V c 0 t) (iblk9 V c 1 t) (iblk9 V c 2 t) (iblk9 V c 3 t)
  · rw [outsAt9_B V c t h0]; dsimp only
    exact out_B_5 (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (fun h => h0 ((hcond9_0 t).mp h)) (iblk9 V c 0 t) (iblk9 V c 1 t) (iblk9 V c 2 t) (iblk9 V c 3 t) (outsAt9 V c (t.val - 1) (Nat.lt_of_le_of_lt (Nat.sub_le _ _) t.isLt)).2.2

/-! ## From the blocks to the arrays -/

/-- The linear values as one array, and their softplus. -/
abbrev linArr (c : Dev nD) : S100000x128.Idx → EReal :=
  fun i => Cert.Spec.linAt (V c main_v64) (V c main_v71) (V c main_v82) (i 0) (i 1)
abbrev spArr (c : Dev nD) : S100000x128.Idx → EReal :=
  fun i => Cert.Spec.softplus (Cert.Spec.linAt (V c main_v64) (V c main_v71) (V c main_v82) (i 0) (i 1))

/-- What point t writes back into the linear array is its block of the linear values. -/
theorem flushed4_eq (c : Dev nD) (t : Fin cfg9.N) :
    (dat9 V c).flushed 4 t = ((cfg9.win 4).blk t).view.read (Elt Ideal) (linArr V c) := by
  show (cfg9.win 4).cut (grid9.coords t) ((dat9 V c).after 4 t) = _
  rw [after9_4, outs4_eq]
  obtain ⟨-, -, -, -, -, -, e0, e1, -⟩ := idx_facts t
  funext j
  obtain ⟨p, q, rfl⟩ : ∃ (p : Fin 2000) (q : Fin 128), j = ix2 p q := ⟨j 0, j 1, eq_ix2 j⟩
  show k9_pay3 (F := Ideal) (hblk V c t) (wblk V c t) (bblk V c t) (ix2 p q)
    = linArr V c (((cfg9.win 4).blk t).view.emb (ix2 p q))
  exact lin_blk V c t p q _ _
    (by show win9_4.index t (0 : Fin 2) * 2000 + 1 * p.val = _; rw [e0]; omega)
    (by show win9_4.index t (1 : Fin 2) * 128 + 1 * q.val = _; rw [e1]; omega)

/-- What point t writes back into the softplus array is its block of the softplus values. -/
theorem flushed5_eq (c : Dev nD) (t : Fin cfg9.N) :
    (dat9 V c).flushed 5 t = ((cfg9.win 5).blk t).view.read (Elt Ideal) (spArr V c) := by
  show (cfg9.win 5).cut (grid9.coords t) ((dat9 V c).after 5 t) = _
  rw [after9_5, outs5_eq]
  obtain ⟨-, -, -, -, -, -, -, -, e0, e1⟩ := idx_facts t
  funext j
  obtain ⟨p, q, rfl⟩ : ∃ (p : Fin 2000) (q : Fin 128), j = ix2 p q := ⟨j 0, j 1, eq_ix2 j⟩
  show k9_pay4 (F := Ideal) (hblk V c t) (wblk V c t) (bblk V c t) (ix2 p q)
    = spArr V c (((cfg9.win 5).blk t).view.emb (ix2 p q))
  refine (pay4_apply (hblk V c t) (wblk V c t) (bblk V c t) (ix2 p q)).trans (congrArg Cert.Spec.softplus ?_)
  exact lin_blk V c t p q _ _
    (by show win9_5.index t (0 : Fin 2) * 2000 + 1 * p.val = _; rw [e0]; omega)
    (by show win9_5.index t (1 : Fin 2) * 128 + 1 * q.val = _; rw [e1]; omega)

/-- An index of the linear array is in point t's block iff each coordinate is in the block's range on its axis. -/
theorem mem_blk4 (t : Fin cfg9.N) (i : S100000x128.Idx) :
    i ∈ ((cfg9.win 4).blk t).view.set ↔ ∀ a : Fin 2, win9_4.index t a * S2000x128.size a ≤ (i a).val
      ∧ (i a).val < win9_4.index t a * S2000x128.size a + S2000x128.size a := by
  show i ∈ ((View.whole main_v84_0).slice (win9_4.rect t)).set ↔ _
  rw [View.set_slice_whole, Rect.mem_set_unit]
  exact Iff.rfl

/-- The same for the softplus array. -/
theorem mem_blk5 (t : Fin cfg9.N) (i : S100000x128.Idx) :
    i ∈ ((cfg9.win 5).blk t).view.set ↔ ∀ a : Fin 2, win9_5.index t a * S2000x128.size a ≤ (i a).val
      ∧ (i a).val < win9_5.index t a * S2000x128.size a + S2000x128.size a := by
  show i ∈ ((View.whole main_v84_1).slice (win9_5.rect t)).set ↔ _
  rw [View.set_slice_whole, Rect.mem_set_unit]
  exact Iff.rfl

/-- Row r lies in the block of the point r / 2000: the 50 blocks of 2000 rows tile the linear array. -/
theorem cover4 (i : S100000x128.Idx) :
    ∃ t : Fin cfg9.N, (cfg9.win 4).flush t = true ∧ i ∈ ((cfg9.win 4).blk t).view.set := by
  have hi0 : (i 0).val < 100000 := (i 0).isLt
  have hi1 : (i 1).val < 128 := (i 1).isLt
  obtain ⟨t, ht⟩ : ∃ t : Fin cfg9.N, t.val = (i 0).val / 2000 :=
    ⟨⟨(i 0).val / 2000, lt_of_lt_of_eq (show (i 0).val / 2000 < 50 by omega) N_9.symm⟩, rfl⟩
  obtain ⟨-, -, -, -, -, -, e0, e1, -⟩ := idx_facts t
  refine ⟨t, flush9_4 t, ?_⟩
  rw [mem_blk4]
  intro a
  match a with
  | ⟨0, _⟩ =>
    show win9_4.index t (0 : Fin 2) * 2000 ≤ (i 0).val ∧ (i 0).val < win9_4.index t (0 : Fin 2) * 2000 + 2000
    rw [e0, ht]; omega
  | ⟨1, _⟩ =>
    show win9_4.index t (1 : Fin 2) * 128 ≤ (i 1).val ∧ (i 1).val < win9_4.index t (1 : Fin 2) * 128 + 128
    rw [e1]; omega

/-- The same for the softplus array. -/
theorem cover5 (i : S100000x128.Idx) :
    ∃ t : Fin cfg9.N, (cfg9.win 5).flush t = true ∧ i ∈ ((cfg9.win 5).blk t).view.set := by
  have hi0 : (i 0).val < 100000 := (i 0).isLt
  have hi1 : (i 1).val < 128 := (i 1).isLt
  obtain ⟨t, ht⟩ : ∃ t : Fin cfg9.N, t.val = (i 0).val / 2000 :=
    ⟨⟨(i 0).val / 2000, lt_of_lt_of_eq (show (i 0).val / 2000 < 50 by omega) N_9.symm⟩, rfl⟩
  obtain ⟨-, -, -, -, -, -, -, -, e0, e1⟩ := idx_facts t
  refine ⟨t, flush9_5 t, ?_⟩
  rw [mem_blk5]
  intro a
  match a with
  | ⟨0, _⟩ =>
    show win9_5.index t (0 : Fin 2) * 2000 ≤ (i 0).val ∧ (i 0).val < win9_5.index t (0 : Fin 2) * 2000 + 2000
    rw [e0, ht]; omega
  | ⟨1, _⟩ =>
    show win9_5.index t (1 : Fin 2) * 128 ≤ (i 1).val ∧ (i 1).val < win9_5.index t (1 : Fin 2) * 128 + 128
    rw [e1]; omega

end Final9Lin

/-- The linear array after the region: the specification's linear value at every row and column. -/
theorem final9_lin (c : Dev nD) : (dat9 V c).arrAt 4 cfg9.N
    = fun (i : S100000x128.Idx) => Cert.Spec.linAt (V c main_v64) (V c main_v71) (V c main_v82) (i 0) (i 1) :=
  (dat9 V c).arrAt_eq_of_cover 4 (Final9Lin.linArr V c) (fun t _ => Final9Lin.flushed4_eq V c t) Final9Lin.cover4

/-- The softplus array after the region: the softplus of the specification's linear value at every row and column. -/
theorem final9_sp (c : Dev nD) : (dat9 V c).arrAt 5 cfg9.N
    = fun (i : S100000x128.Idx) => Cert.Spec.softplus (Cert.Spec.linAt (V c main_v64) (V c main_v71) (V c main_v82) (i 0) (i 1)) :=
  (dat9 V c).arrAt_eq_of_cover 5 (Final9Lin.spArr V c) (fun t _ => Final9Lin.flushed5_eq V c t) Final9Lin.cover5

end Cert.KernelIdeal.RegionValue

end
-- ==== Proof.LibBlockSums.lean ====
/-
  Sums over a line of entries cut into equal blocks.

  A kernel that accumulates over a grid axis walks a line of entries block by block: at block t it adds up the B entries
  B·t, …, B·t + B − 1, and it carries the total across the T blocks. Over a commutative monoid the order and the grouping of a finite sum do not
  matter, so the T block sums together are the one sum over the first T·B entries. When the line of entries was padded
  past its first N entries with entries that contribute zero, the padding drops out of the sum.
-/
import Mathlib.Algebra.BigOperators.Group.Finset.Basic
import Mathlib.Algebra.BigOperators.Fin
import Mathlib.Data.Fintype.BigOperators

namespace Idealize.ShloMosaic.BlockSums

open Finset

variable {M : Type*} [AddCommMonoid M]

/-- T consecutive blocks of B entries each, summed block by block, are the first T·B entries summed in a row. -/
theorem sum_blocks (f : ℕ → M) (B : ℕ) : ∀ T : ℕ,
    ∑ t ∈ range T, ∑ j : Fin B, f (B * t + j.val) = ∑ n ∈ range (T * B), f n
  | 0 => by simp
  | T + 1 => by
    rw [sum_range_succ, sum_blocks f B T, Nat.succ_mul, sum_range_add,
      Fin.sum_univ_eq_sum_range (fun j => f (B * T + j)) B, Nat.mul_comm B T]

/-- Entries from N on that are all zero do not count. -/
theorem sum_range_pad (f : ℕ → M) (N P : ℕ) (h : ∀ n, N ≤ n → f n = 0) :
    ∑ n ∈ range (N + P), f n = ∑ n ∈ range N, f n := by
  rw [sum_range_add, sum_eq_zero (fun x _ => h _ (Nat.le_add_right _ _)), add_zero]

/-- Both together: T blocks of B entries covering N entries and P entries of padding that contribute zero sum to the
    N entries' sum, written over `Fin N`. -/
theorem sum_blocks_pad (f : ℕ → M) (B T N P : ℕ) (hTB : T * B = N + P) (h : ∀ n, N ≤ n → f n = 0) :
    ∑ t ∈ range T, ∑ j : Fin B, f (B * t + j.val) = ∑ n : Fin N, f n.val := by
  rw [sum_blocks f B T, hTB, sum_range_pad f N P h, Fin.sum_univ_eq_sum_range]

end Idealize.ShloMosaic.BlockSums
-- ==== Proof.KFinal9Sums.lean ====
/-
  The last region's accumulated result array: the per-graph sums, carried from grid point to grid point.
-/
import proofs.«400059_j34591666602133_1_alg».proof.Proof.Gen.KernelIdeal.Frame
import proofs.«400059_j34591666602133_1_alg».proof.Proof.Spec
import proofs.«400059_j34591666602133_1_alg».proof.Proof.LibDenseLayer
import proofs.«400059_j34591666602133_1_alg».proof.Proof.LibBlockSums
import Idealize.ShloMosaic.Lib.Pipeline.Value
import Idealize.ShloMosaic.Lib.ValueIdx
import Idealize.ShloMosaic.Lib.ValueLayout
import Idealize.ShloMosaic.Lib.KernelVsHost
import Idealize.ShloMosaic.Lib.Tactic

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen

-- the TensorCore's buffer contents when the region is entered: the parameter the region's proof data are stated at
variable (V : (c : Dev nD) → (b : Ref sig .tc) → Buf (Elt Ideal) ((c : Thread nD τ).loc b))

/-! The region walks the 100000 nodes in 50 blocks of 2000 rows. At each block it forms the rows that are summed — the
linear head's column 0, its softplus's column 1, zero in the other 126 columns — and a one-hot matrix whose entry
(r, g) is 1 exactly when row r's graph word reads g. The transposed one-hot matrix times the rows is, at (g, col),
the sum over the block's rows r of [word of r = g] · row r at col. The result block starts from zero at the first
point and each point adds its block's product to what the point before left; after the last point it holds, at
(g, col), the sum over all 100000 nodes of [word of n = g] · row n at col: the specification's per-graph sums. The
block is written back once, after the last point, and it is the whole result array. -/

namespace Sums9

/-! ## What one grid point leaves in the sums' block

Both cases end with one store of the whole block: the block's old contents plus the product. At the first point the
old contents are the zero block the body has just stored and read back; at every later point they are what the point
before left. The three arrays the product is formed from are the linear head of the state's block, its softplus, and
the one-hot matrix of the graph words' block. -/

section Pieces
variable {F : FTy → Type} [FloatOps F]

/-- The zero offsets of a whole-block access, as a constant function. -/
theorem hz : (![0, 0] : Fin 2 → Nat) = fun _ => 0 := funext fun a => by fin_cases a <;> rfl

/-- At a point past the first, the body leaves in the sums' buffer its old contents plus the block's product. -/
theorem out_B (c : Dev nD) (i : grid9.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x1 .i32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S512x128 .f32) (harg7 : arg7.IsWhole) (hc0 : ¬cond9_0 i)
    (x0 : Vec F S2000x128 .f32) (x1 : Vec F S128x128 .f32) (x2 : Vec F S1x128 .f32) (x3 : Vec F S2000x1 .i32) (xo6 : Vec F S512x128 .f32) :
    out9_B_6 c i arg1 harg1 arg2 harg2 arg3 harg3 arg4 harg4 arg5 harg5 arg6 harg6 arg7 harg7 hc0 x0 x1 x2 x3 xo6
      = k9_pay1 (k9_pay3 x0 x1 x2) (k9_pay4 x0 x1 x2) (k9_pay5 (F := F) x3) xo6 := by
  unfold out9_B_6
  rw [View.read_writes_eq_canon _ _ _ (cover9_B_6 c i arg1 harg1 arg2 harg2 arg3 harg3 arg4 harg4 arg5 harg5 arg6 harg6 arg7 harg7 hc0 x0 x1 x2 x3 xo6)]
  unfold kernelRun9_B
  dsimp only
  sl_unfold_words
  rw [View.canon_unit_zero hz]
  simp only [View.readAt_eq_ld, harg1.read_unread, harg2.read_unread, harg3.read_unread, harg4.read_unread, harg7.read_unread,
    View.ld_unit_zero (S := S2000x128) hz, View.ld_unit_zero (S := S128x128) hz, View.ld_unit_zero (S := S1x128) hz,
    View.ld_unit_zero (S := S2000x1) hz, View.ld_unit_zero (S := S512x128) hz]

/-- At the first point, the body stores the zero block, reads it back, and leaves it plus the block's product. -/
theorem out_A (c : Dev nD) (i : grid9.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x1 .i32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S512x128 .f32) (harg7 : arg7.IsWhole) (hc0 : cond9_0 i)
    (x0 : Vec F S2000x128 .f32) (x1 : Vec F S128x128 .f32) (x2 : Vec F S1x128 .f32) (x3 : Vec F S2000x1 .i32) :
    out9_A_6 c i arg1 harg1 arg2 harg2 arg3 harg3 arg4 harg4 arg5 harg5 arg6 harg6 arg7 harg7 hc0 x0 x1 x2 x3
      = k9_pay1 (k9_pay3 x0 x1 x2) (k9_pay4 x0 x1 x2) (k9_pay5 (F := F) x3) (k9_pay2 (F := F)) := by
  unfold out9_A_6
  rw [View.read_writes_eq_canon _ _ _ (cover9_A_6 c i arg1 harg1 arg2 harg2 arg3 harg3 arg4 harg4 arg5 harg5 arg6 harg6 arg7 harg7 hc0 x0 x1 x2 x3)]
  unfold kernelRun9_A
  dsimp only
  sl_unfold_words
  rw [View.canon_cons_unit_zero (S := S512x128) hz, View.readCov_unit_zero (S := S512x128) _ hz]
  simp only [View.readAt_eq_ld, harg1.read_unread, harg2.read_unread, harg3.read_unread, harg4.read_unread,
    View.ld_unit_zero (S := S2000x128) hz, View.ld_unit_zero (S := S128x128) hz, View.ld_unit_zero (S := S1x128) hz,
    View.ld_unit_zero (S := S2000x1) hz]

end Pieces

/-! ## The block's arrays at an index, over the extended reals -/

section AtIndex

/-- A 32-bit word is the number g below 512 exactly when it reads, signed, as g. -/
theorem word_eq_iff (w : BitVec 32) (g : ℕ) (hg : g < 512) : BitVec.ofNat 32 g = w ↔ w.toInt = (g : ℤ) := by
  have key : (BitVec.ofNat 32 g).toInt = (g : ℤ) := by
    rw [BitVec.toInt_eq_toNat_cond, BitVec.toNat_ofNat, Nat.mod_eq_of_lt (by omega), if_pos (by omega)]
  exact ⟨fun h => h ▸ key, fun h => BitVec.eq_of_toInt_eq (key.trans h.symm)⟩

/-- The one-hot entry at (r, g), as an extended real: 1 when row r's graph word reads g, else 0. -/
theorem onehot_apply (gw : Vec Ideal S2000x1 .i32) (r : Fin 2000) (g : Fin 512) :
    (((k9_pay5 (F := Ideal) gw (ix2 r g)).toInt : ℝ) : EReal) = if (gw (ix2 r (0 : Fin 1))).toInt = (g.val : ℤ) then 1 else 0 := by
  have e : k9_pay5 (F := Ideal) gw (ix2 r g) = (IntOp.cmpi .eq (BitVec.ofNat 32 g.val) (gw (ix2 r (0 : Fin 1)))).setWidth 32 := by
    unfold k9_pay5
    show (IntOp.cmpi .eq (iota .tc S2000x512 32 [1] iota_S2000x512_d1_w32 (ix2 r g))
      (broadcastTo S2000x512 (shapeCast S2000x1 gw shapeCasts_S2000x1_S2000x1) broadcasts_S2000x1_S2000x512 (ix2 r g))).setWidth 32 = _
    have h1 : iota .tc S2000x512 32 [1] iota_S2000x512_d1_w32 (ix2 r g) = BitVec.ofNat 32 g.val :=
      iota_single_apply _ _ _ _ _ _
    have h2 : broadcastTo S2000x512 (shapeCast S2000x1 gw shapeCasts_S2000x1_S2000x1) broadcasts_S2000x1_S2000x512 (ix2 r g)
        = gw (ix2 r (0 : Fin 1)) := by
      refine (broadcastTo_apply _ _ (ix2 r g) (ix2 r (0 : Fin 1)) fun ax => ?_).trans (congrFun (shapeCast_self gw _) _)
      match ax with
      | ⟨0, _⟩ => rfl
      | ⟨1, _⟩ => rfl
    rw [h1, h2]
  rw [e, toInt_setWidth_bit]
  show ((((BitVec.ofBool (BitVec.ofNat 32 g.val == gw (ix2 r (0 : Fin 1)))).toNat : ℤ) : ℝ) : EReal) = _
  by_cases h : BitVec.ofNat 32 g.val = gw (ix2 r (0 : Fin 1))
  · rw [if_pos ((word_eq_iff _ _ g.isLt).mp h), beq_iff_eq.mpr h]; simp
  · rw [if_neg (fun h' => h ((word_eq_iff _ _ g.isLt).mpr h')), beq_eq_false_iff_ne.mpr h]; simp

/-- One row of the product's right operand: the first array's column 0, the second's column 1, zero elsewhere. -/
def rowAt (y sp : FVec Ideal S2000x128 .f32) (l : Fin 2000) (col : Fin 128) : EReal :=
  if col.val = 0 then y (ix2 l col) else if col.val = 1 then sp (ix2 l col) else 0

/-- The three-piece row [y[:, 0:1] | sp[:, 1:2] | zeros] read at (l, col). -/
theorem concat_row_apply (y sp : FVec Ideal S2000x128 .f32) (l : Fin 2000) (col : Fin 128) :
    concatenate S2000x128 1 [⟨S2000x1, extractStridedSlice S2000x1 ![0, 0] y slices_S2000x128_o0_0_S2000x1⟩,
        ⟨S2000x1, extractStridedSlice S2000x1 ![0, 1] sp slices_S2000x128_o0_1_S2000x1⟩,
        ⟨S2000x126, broadcast S2000x126 (Scalar.ofBits (F := Ideal) .f32 0x00000000#32)⟩]
      concatenates_S2000x1_S2000x1_S2000x126_S2000x128_d1 (ix2 l col) = rowAt y sp l col := by
  unfold rowAt
  by_cases h0 : col.val = 0
  · rw [if_pos h0]
    refine (concatenate_apply_piece (1 : Fin 2) _ _ (ix2 l col) 0 ?_ S2000x1 (extractStridedSlice S2000x1 ![0, 0] y slices_S2000x128_o0_0_S2000x1) ?_ rfl 0 ?_ (ix2 l (0 : Fin 1))
      (fun b hb => ?_) ?_).trans (slice2_axis1_apply 0 y _ l 0 col (by omega))
    · show 0 < 3; omega
    · rfl
    · rfl
    · match b, hb with
      | ⟨0, _⟩, _ => rfl
      | ⟨1, _⟩, hb => exact absurd rfl hb
    · show 0 + 0 = col.val; omega
  · rw [if_neg h0]
    by_cases h1 : col.val = 1
    · rw [if_pos h1]
      refine (concatenate_apply_piece (1 : Fin 2) _ _ (ix2 l col) 1 ?_ S2000x1 (extractStridedSlice S2000x1 ![0, 1] sp slices_S2000x128_o0_1_S2000x1) ?_ rfl 1 ?_ (ix2 l (0 : Fin 1))
        (fun b hb => ?_) ?_).trans (slice2_axis1_apply 1 sp _ l 0 col (by omega))
      · show 1 < 3; omega
      · rfl
      · rfl
      · match b, hb with
        | ⟨0, _⟩, _ => rfl
        | ⟨1, _⟩, hb => exact absurd rfl hb
      · show 1 + 0 = col.val; omega
    · rw [if_neg h1]
      have hc : col.val - 2 < 126 := by have := col.isLt; omega
      refine (concatenate_apply_piece (1 : Fin 2) _ _ (ix2 l col) 2 ?_ S2000x126 (broadcast S2000x126 (Scalar.ofBits (F := Ideal) .f32 0x00000000#32)) ?_ rfl 2 ?_ (ix2 l (⟨col.val - 2, hc⟩ : Fin 126))
        (fun b hb => ?_) ?_).trans Ideal.ofBits_zero_f32
      · show 2 < 3; omega
      · rfl
      · rfl
      · match b, hb with
        | ⟨0, _⟩, _ => rfl
        | ⟨1, _⟩, hb => exact absurd rfl hb
      · show 2 + (col.val - 2) = col.val; omega

/-- The linear head of one block at (r, c): row r of the rectified block against column c of the weight, plus the
    bias row at c. -/
def linB (hb : Vec Ideal S2000x128 .f32) (w : Vec Ideal S128x128 .f32) (b : Vec Ideal S1x128 .f32) (r : Fin 2000) (c : Fin 128) : EReal :=
  (∑ k : Fin 128, max (hb (ix2 r k)) 0 * w (ix2 k c)) + b (ix2 (0 : Fin 1) c)

/-- The stored linear head of one block IS that: the product into the zero accumulator is the plain sum, rectifying
    against the zero word is max(·, 0), and the bias row is repeated down the rows. -/
theorem lin_apply (hb : Vec Ideal S2000x128 .f32) (w : Vec Ideal S128x128 .f32) (b : Vec Ideal S1x128 .f32) (r : Fin 2000) (c : Fin 128) :
    k9_pay3 (F := Ideal) hb w b (ix2 r c) = linB hb w b r c := by
  unfold k9_pay3 linB
  refine (addf_apply _ _ _).trans (congrArg₂ (· + ·) ?_ ?_)
  · refine (DenseLayer.matmul_rows_apply dot_S2000x128_S128x128_S2000x128_1_0_0_1_n_n_wf none _ _ r c).trans
      (Finset.sum_congr rfl fun k _ => ?_)
    show max (shapeCast S2000x128 hb shapeCasts_S2000x128_S2000x128 (ix2 r k)) (Ideal.ofBits .f32 0x00000000#32)
      * shapeCast S128x128 w shapeCasts_S128x128_S128x128 (ix2 k c) = _
    rw [shapeCast_self, shapeCast_self, Ideal.ofBits_zero_f32]
  · exact (broadcastTo_1b_ab_apply _ _ r c).trans (congrFun (shapeCast_self b _) _)

end AtIndex

section AtIndex2

/-- The softplus array of one block at (r, c): the stable spelling's guard compares a value with itself for
    inequality, which no extended real satisfies, so the second branch is read. -/
theorem sp_apply (hb : Vec Ideal S2000x128 .f32) (w : Vec Ideal S128x128 .f32) (b : Vec Ideal S1x128 .f32) (r : Fin 2000) (c : Fin 128) :
    k9_pay4 (F := Ideal) hb w b (ix2 r c) = Cert.Spec.softplus (linB hb w b r c) := by
  rw [← lin_apply hb w b r c]
  unfold k9_pay4 Cert.Spec.softplus
  show Scalar.select
      (Ideal.cmp .one (k9_pay3 (F := Ideal) hb w b (ix2 r c) - Ideal.ofBits .f32 0x00000000#32)
        (k9_pay3 (F := Ideal) hb w b (ix2 r c) - Ideal.ofBits .f32 0x00000000#32))
      (k9_pay3 (F := Ideal) hb w b (ix2 r c) + Ideal.ofBits .f32 0x00000000#32)
      (max (k9_pay3 (F := Ideal) hb w b (ix2 r c)) (Ideal.ofBits .f32 0x00000000#32)
        + Ideal.log1p (Ideal.exp (Ideal.ofBits .f32 0x00000000#32
            - max (k9_pay3 (F := Ideal) hb w b (ix2 r c) - Ideal.ofBits .f32 0x00000000#32)
                (-(k9_pay3 (F := Ideal) hb w b (ix2 r c) - Ideal.ofBits .f32 0x00000000#32))))) = _
  generalize k9_pay3 (F := Ideal) hb w b (ix2 r c) = y
  rw [Ideal.ofBits_zero_f32, sub_zero, zero_sub]
  have hc : Ideal.cmp .one y y = 0#1 := by simp [Ideal.cmp]
  rw [hc, select_zero]

/-- The accumulating payload at (g, col): the old contents there plus, over the block's rows, the one-hot entry of
    (row, g) times the row's entry at col. -/
theorem pay1_apply (y sp : FVec Ideal S2000x128 .f32) (oh : IVec S2000x512 32) (acc : Vec Ideal S512x128 .f32)
    (g : Fin 512) (col : Fin 128) :
    k9_pay1 (F := Ideal) y sp oh acc (ix2 g col)
      = acc (ix2 g col) + ∑ l : Fin 2000, (((oh (ix2 l g)).toInt : ℝ) : EReal) * rowAt y sp l col := by
  unfold k9_pay1
  refine (addf_apply _ _ _).trans (congrArg₂ (· + ·) (congrFun (shapeCast_self acc _) _) ?_)
  refine (DenseLayer.matmul_rows_apply dot_S512x2000_S2000x128_S512x128_1_0_0_1_n_n_wf none _ _ g col).trans
    (Finset.sum_congr rfl fun l _ => congrArg₂ (· * ·) ?_ ?_)
  · exact transpose_ix2_apply _ _ g l
  · exact concat_row_apply y sp l col

end AtIndex2

/-! ## The blocks as parts of the arrays -/

section Blocks

/-- The four input blocks at a grid point, and the four arrays they are cut from, at their literal types. -/
abbrev hblk (c : Dev nD) (t : Fin cfg9.N) : Vec Ideal S2000x128 .f32 := iblk9 V c 0 t
abbrev wblk (c : Dev nD) (t : Fin cfg9.N) : Vec Ideal S128x128 .f32 := iblk9 V c 1 t
abbrev bblk (c : Dev nD) (t : Fin cfg9.N) : Vec Ideal S1x128 .f32 := iblk9 V c 2 t
abbrev gblk (c : Dev nD) (t : Fin cfg9.N) : Vec Ideal S2000x1 .i32 := iblk9 V c 3 t
abbrev harr (c : Dev nD) : Vec Ideal S100000x128 .f32 := V c main_v64
abbrev warr (c : Dev nD) : Vec Ideal S128x128 .f32 := V c main_v71
abbrev barr (c : Dev nD) : Vec Ideal S1x128 .f32 := V c main_v82
abbrev garr (c : Dev nD) : Vec Ideal S100000x1 .i32 := V c main_v83

/-- Where each window's block sits at a grid point: the row-blocked windows at block row t, the whole ones at 0. -/
theorem idx_h : ∀ t : Fin cfg9.N, win9_0.index t 0 = t.val ∧ win9_0.index t 1 = 0 :=
  (by decide +kernel : ∀ t : Fin grid9.N, win9_0.index t 0 = t.val ∧ win9_0.index t 1 = 0)
theorem idx_w : ∀ t : Fin cfg9.N, win9_1.index t 0 = 0 ∧ win9_1.index t 1 = 0 :=
  (by decide +kernel : ∀ t : Fin grid9.N, win9_1.index t 0 = 0 ∧ win9_1.index t 1 = 0)
theorem idx_b : ∀ t : Fin cfg9.N, win9_2.index t 0 = 0 ∧ win9_2.index t 1 = 0 :=
  (by decide +kernel : ∀ t : Fin grid9.N, win9_2.index t 0 = 0 ∧ win9_2.index t 1 = 0)
theorem idx_g : ∀ t : Fin cfg9.N, win9_3.index t 0 = t.val ∧ win9_3.index t 1 = 0 :=
  (by decide +kernel : ∀ t : Fin grid9.N, win9_3.index t 0 = t.val ∧ win9_3.index t 1 = 0)
theorem idx_o : ∀ t : Fin cfg9.N, win9_6.index t 0 = 0 ∧ win9_6.index t 1 = 0 :=
  (by decide +kernel : ∀ t : Fin grid9.N, win9_6.index t 0 = 0 ∧ win9_6.index t 1 = 0)

/-- Row r of the state's block t is node 2000·t + r. -/
theorem hblk_apply (c : Dev nD) (t : Fin cfg9.N) (r : Fin 2000) (k : Fin 128) (n : Fin 100000)
    (hn : n.val = 2000 * t.val + r.val) : hblk V c t (ix2 r k) = harr V c (ix2 n k) := by
  show iblk9 V c 0 t (ix2 r k) = _
  unfold iblk9
  rw [View.read_apply]
  show V c main_v64 _ = V c main_v64 _
  congr 1
  funext a
  apply Fin.ext
  match a with
  | ⟨0, _⟩ => show win9_0.index t 0 * 2000 + 1 * r.val = n.val; rw [(idx_h t).1]; omega
  | ⟨1, _⟩ => show win9_0.index t 1 * 128 + 1 * k.val = k.val; rw [(idx_h t).2]; omega

/-- Row r of the graph words' block t is node 2000·t + r. -/
theorem gblk_apply (c : Dev nD) (t : Fin cfg9.N) (r : Fin 2000) (n : Fin 100000)
    (hn : n.val = 2000 * t.val + r.val) : gblk V c t (ix2 r (0 : Fin 1)) = garr V c (ix2 n (0 : Fin 1)) := by
  show iblk9 V c 3 t (ix2 r (0 : Fin 1)) = _
  unfold iblk9
  rw [View.read_apply]
  show V c main_v83 _ = V c main_v83 _
  congr 1
  funext a
  apply Fin.ext
  match a with
  | ⟨0, _⟩ => show win9_3.index t 0 * 2000 + 1 * r.val = n.val; rw [(idx_g t).1]; omega
  | ⟨1, _⟩ => show win9_3.index t 1 * 1 + 1 * 0 = 0; rw [(idx_g t).2]

/-- The weights' block is the whole weight array at every point. -/
theorem wblk_eq (c : Dev nD) (t : Fin cfg9.N) : wblk V c t = warr V c := by
  funext j
  show iblk9 V c 1 t j = _
  unfold iblk9
  rw [View.read_apply]
  show V c main_v71 _ = V c main_v71 _
  congr 1
  funext a
  apply Fin.ext
  match a with
  | ⟨0, _⟩ => show win9_1.index t 0 * 128 + 1 * (j 0).val = (j 0).val; rw [(idx_w t).1]; omega
  | ⟨1, _⟩ => show win9_1.index t 1 * 128 + 1 * (j 1).val = (j 1).val; rw [(idx_w t).2]; omega

/-- The bias row's block is the whole bias row at every point. -/
theorem bblk_eq (c : Dev nD) (t : Fin cfg9.N) : bblk V c t = barr V c := by
  funext j
  show iblk9 V c 2 t j = _
  unfold iblk9
  rw [View.read_apply]
  show V c main_v82 _ = V c main_v82 _
  congr 1
  funext a
  apply Fin.ext
  match a with
  | ⟨0, _⟩ => show win9_2.index t 0 * 1 + 1 * (j 0).val = (j 0).val; rw [(idx_b t).1]; omega
  | ⟨1, _⟩ => show win9_2.index t 1 * 128 + 1 * (j 1).val = (j 1).val; rw [(idx_b t).2]; omega

end Blocks

/-! ## The accumulation over the grid -/

section Accumulation

/-- Node n's contribution to the sum at (g, col): its row of the summed array when its graph word reads g; nothing
    past the last node. -/
def term (c : Dev nD) (g : Fin 512) (col : Fin 128) (n : ℕ) : EReal :=
  if h : n < 100000 then
    (if (garr V c (ix2 (⟨n, h⟩ : Fin 100000) (0 : Fin 1))).toInt = (g.val : ℤ)
      then Cert.Spec.msAt (harr V c) (warr V c) (barr V c) ⟨n, h⟩ col else 0)
  else 0

/-- The linear head of block t at row r is the specification's at node 2000·t + r. -/
theorem linB_eq (c : Dev nD) (t : Fin cfg9.N) (r : Fin 2000) (col : Fin 128) (n : Fin 100000)
    (hn : n.val = 2000 * t.val + r.val) :
    linB (hblk V c t) (wblk V c t) (bblk V c t) r col = Cert.Spec.linAt (harr V c) (warr V c) (barr V c) n col := by
  unfold linB Cert.Spec.linAt
  rw [wblk_eq, bblk_eq]
  refine congrArg (· + barr V c (ix2 (0 : Fin 1) col)) (Finset.sum_congr rfl fun k _ => ?_)
  rw [hblk_apply V c t r k n hn]

/-- One summand of block t's product at (g, col): the one-hot entry of (r, g) times row r's entry at col is node
    2000·t + r's contribution. -/
theorem term_row (c : Dev nD) (t : Fin cfg9.N) (g : Fin 512) (col : Fin 128) (r : Fin 2000) :
    (((k9_pay5 (F := Ideal) (gblk V c t) (ix2 r g)).toInt : ℝ) : EReal)
        * rowAt (k9_pay3 (F := Ideal) (hblk V c t) (wblk V c t) (bblk V c t))
            (k9_pay4 (F := Ideal) (hblk V c t) (wblk V c t) (bblk V c t)) r col
      = term V c g col (2000 * t.val + r.val) := by
  have hN : t.val < 50 := lt_of_lt_of_eq t.isLt (show cfg9.N = 50 from N_9)
  have hlt : 2000 * t.val + r.val < 100000 := by have := r.isLt; omega
  unfold term
  rw [dif_pos hlt, onehot_apply, gblk_apply V c t r ⟨_, hlt⟩ rfl]
  unfold rowAt Cert.Spec.msAt
  rw [lin_apply, sp_apply, linB_eq V c t r col ⟨_, hlt⟩ rfl]
  by_cases hg : (garr V c (ix2 (⟨2000 * t.val + r.val, hlt⟩ : Fin 100000) (0 : Fin 1))).toInt = (g.val : ℤ)
  · rw [if_pos hg, if_pos hg, one_mul]
  · rw [if_neg hg, if_neg hg, zero_mul]

/-- Block t's update at (g, col): the old contents plus the contributions of nodes 2000·t … 2000·t + 1999. -/
theorem block_apply (c : Dev nD) (t : Fin cfg9.N) (acc : Vec Ideal S512x128 .f32) (g : Fin 512) (col : Fin 128) :
    k9_pay1 (F := Ideal) (k9_pay3 (hblk V c t) (wblk V c t) (bblk V c t)) (k9_pay4 (hblk V c t) (wblk V c t) (bblk V c t))
        (k9_pay5 (F := Ideal) (gblk V c t)) acc (ix2 g col)
      = acc (ix2 g col) + ∑ r : Fin 2000, term V c g col (2000 * t.val + r.val) :=
  (pay1_apply _ _ _ acc g col).trans
    (congrArg (acc (ix2 g col) + ·) (Finset.sum_congr rfl fun r _ => term_row V c t g col r))

/-- THE INVARIANT: after grid point n the sums' buffer holds, at (g, col), the contributions of the nodes of blocks
    0 … n — by induction on the point: the first point resets to zero and adds block 0, every later one adds its block
    to what the point before left. -/
theorem outs_eq (c : Dev nD) (g : Fin 512) (col : Fin 128) : ∀ (n : ℕ) (hn : n < cfg9.N),
    (outsAt9 V c n hn).2.2 (ix2 g col)
      = ∑ s ∈ Finset.range (n + 1), ∑ r : Fin 2000, term V c g col (2000 * s + r.val)
  | 0, hn => by
    rw [outsAt9_A V c ⟨0, hn⟩ rfl]
    dsimp only
    refine (congrFun (out_A (F := Ideal) c (grid9.coords ⟨0, hn⟩) (ms9_0 ⟨0, hn⟩) (hs9_0 ⟨0, hn⟩) (ms9_1 ⟨0, hn⟩) (hs9_1 ⟨0, hn⟩)
      (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩)
      (ms9_6 ⟨0, hn⟩) (hs9_6 ⟨0, hn⟩) ((hcond9_0 ⟨0, hn⟩).mpr rfl) (iblk9 V c 0 ⟨0, hn⟩) (iblk9 V c 1 ⟨0, hn⟩) (iblk9 V c 2 ⟨0, hn⟩)
      (iblk9 V c 3 ⟨0, hn⟩)) (ix2 g col)).trans ?_
    refine (block_apply V c ⟨0, hn⟩ (k9_pay2 (F := Ideal)) g col).trans ?_
    rw [Finset.sum_range_one]
    show Ideal.ofBits .f32 0x00000000#32 + _ = _
    rw [Ideal.ofBits_zero_f32, zero_add]
  | n + 1, hn => by
    have hN : cfg9.N = 50 := N_9
    have hB : ¬(⟨n + 1, hn⟩ : Fin cfg9.N).val % 50 = 0 := by dsimp only; omega
    rw [outsAt9_B V c ⟨n + 1, hn⟩ hB]
    dsimp only
    refine (congrFun (out_B (F := Ideal) c (grid9.coords ⟨n + 1, hn⟩) (ms9_0 ⟨n + 1, hn⟩) (hs9_0 ⟨n + 1, hn⟩) (ms9_1 ⟨n + 1, hn⟩) (hs9_1 ⟨n + 1, hn⟩)
      (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩)
      (ms9_6 ⟨n + 1, hn⟩) (hs9_6 ⟨n + 1, hn⟩) (fun h => hB ((hcond9_0 ⟨n + 1, hn⟩).mp h)) (iblk9 V c 0 ⟨n + 1, hn⟩) (iblk9 V c 1 ⟨n + 1, hn⟩) (iblk9 V c 2 ⟨n + 1, hn⟩)
      (iblk9 V c 3 ⟨n + 1, hn⟩) (outsAt9 V c n (Nat.lt_of_succ_lt hn)).2.2) (ix2 g col)).trans ?_
    refine (block_apply V c ⟨n + 1, hn⟩ _ g col).trans ?_
    rw [Finset.sum_range_succ _ (n + 1)]
    exact congrArg₂ (· + ·) (outs_eq c g col n (Nat.lt_of_succ_lt hn)) rfl

/-- After the last point the buffer holds the per-graph sums: 50 blocks of 2000 nodes are the 100000 nodes in a row. -/
theorem result_eq (c : Dev nD) (g : Fin 512) (col : Fin 128) : ∀ (n : ℕ) (hn : n < cfg9.N), n = 49 →
    (outsAt9 V c n hn).2.2 (ix2 g col) = Cert.Spec.sumsAt (garr V c) (harr V c) (warr V c) (barr V c) g col := by
  intro n hn e
  subst e
  refine (outs_eq V c g col 49 hn).trans ?_
  refine (Idealize.ShloMosaic.BlockSums.sum_blocks (term V c g col) 2000 50).trans ?_
  refine (Fin.sum_univ_eq_sum_range (term V c g col) 100000).symm.trans ?_
  unfold Cert.Spec.sumsAt
  refine Finset.sum_congr rfl fun n _ => ?_
  unfold term
  rw [dif_pos n.isLt]

/-- The last grid point, the one point that writes the sums' block back. -/
abbrev tLast : Fin cfg9.N := ⟨49, by decide⟩

/-- The per-graph sums as contents of the result array. -/
abbrev sums (c : Dev nD) : Buf (Elt Ideal) ((c : Thread nD τ).loc main_v84_2) :=
  fun (i : S512x128.Idx) => Cert.Spec.sumsAt (V c main_v83) (V c main_v64) (V c main_v71) (V c main_v82) (i 0) (i 1)

/-- The one write-back, after the last point, writes them: the block is the whole array, read at zero offsets. -/
theorem flushed_eq (c : Dev nD) (t : Fin cfg9.N) (hf : (cfg9.win 6).flush t = true) :
    (dat9 V c).flushed 6 t = ((cfg9.win 6).blk t).view.read (Elt Ideal) (sums V c) := by
  have hN : cfg9.N = 50 := N_9
  have h49 : t.val = 49 := by have := (flush9_6 t).mp hf; have := t.isLt; omega
  obtain rfl : t = tLast := Fin.ext h49
  have hX : (outsAt9 V c tLast.val tLast.isLt).2.2 = sums V c := by
    funext i
    obtain ⟨g, col, rfl⟩ : ∃ (g : Fin 512) (col : Fin 128), i = ix2 g col := ⟨i 0, i 1, eq_ix2 i⟩
    exact result_eq V c g col tLast.val tLast.isLt rfl
  show (cfg9.win 6).cut (grid9.coords tLast) ((dat9 V c).after 6 tLast) = _
  rw [after9_6, hX]
  -- the block sits at offset 0 on both axes, so the array read through it is the array itself
  have hoff : (fun a => win9_6.index tLast a * main_v84_2.ty.shape.size a) = fun _ => 0 :=
    funext fun a => match a with
      | ⟨0, _⟩ => (by decide +kernel : win9_6.index tLast 0 * 512 = 0)
      | ⟨1, _⟩ => (by decide +kernel : win9_6.index tLast 1 * 128 = 0)
  have hread : ((cfg9.win 6).blk tLast).view.read (Elt Ideal) (sums V c) = sums V c :=
    Memref.read_access_unit_zero (Elt Ideal) main_v84_2 hoff
      (fun a => le_of_eq (by
        rw [show win9_6.index tLast a * main_v84_2.ty.shape.size a = 0 from congrFun hoff a, Nat.zero_add]))
      (sums V c)
  rw [hread]
  rfl

/-- The extents of the block the last point writes back: the whole 512 × 128. -/
theorem xsize_o : win9_6.xsize (grid9.coords tLast) 0 = 512 ∧ win9_6.xsize (grid9.coords tLast) 1 = 128 := by
  decide +kernel

/-- Every index of the result array lies in the last point's block: on each axis the block starts at 0 and is as long
    as the array. -/
theorem covered (i : S512x128.Idx) : i ∈ ((cfg9.win 6).blk tLast).view.set := by
  show i ∈ ((View.whole main_v84_2).slice (win9_6.rect tLast)).set
  rw [View.set_slice_whole, Rect.mem_set_unit]
  intro a
  match a with
  | ⟨0, _⟩ =>
    show win9_6.index tLast 0 * win9_6.size 0 ≤ (i 0 : Nat)
      ∧ (i 0 : Nat) < win9_6.index tLast 0 * win9_6.size 0 + win9_6.xsize (grid9.coords tLast) 0
    rw [(idx_o tLast).1, xsize_o.1, Nat.zero_mul]
    have h0 : (i 0 : Nat) < 512 := (i 0).isLt
    omega
  | ⟨1, _⟩ =>
    show win9_6.index tLast 1 * win9_6.size 1 ≤ (i 1 : Nat)
      ∧ (i 1 : Nat) < win9_6.index tLast 1 * win9_6.size 1 + win9_6.xsize (grid9.coords tLast) 1
    rw [(idx_o tLast).2, xsize_o.2, Nat.zero_mul]
    have h1 : (i 1 : Nat) < 128 := (i 1).isLt
    omega

end Accumulation

end Sums9

/-- The result array after the run: the last point's block covers it, and that block holds the per-graph sums. -/
theorem final9_sums (c : Dev nD) : (dat9 V c).arrAt 6 cfg9.N
    = fun (i : S512x128.Idx) => Cert.Spec.sumsAt (V c main_v83) (V c main_v64) (V c main_v71) (V c main_v82) (i 0) (i 1) :=
  (dat9 V c).arrAt_eq_of_cover 6 (Sums9.sums V c) (Sums9.flushed_eq V c) fun i =>
    ⟨Sums9.tLast, (flush9_6 Sums9.tLast).mpr rfl, Sums9.covered i⟩

end Cert.KernelIdeal.RegionValue

end
-- ==== Proof.LibGatherVec.lean ====
/-
  A gather of single entries of a vector, read at an index.

  A table `T : [N]` gathered at a column `idx : [R, 1]` of start indices with no offset axes, collapsed_slice_dims = [0],
  start_index_map = [0], index_vector_dim = 1 and slice sizes [1] has the result `[R]` whose entry `e` is an entry of the
  table. Read at `e` it is the table at `r`, where `r` is the start index `idx[e, 0]` read as a signed integer and clamped
  into `[0, N − 1]`: the table's one axis is start-indexed and collapsed, so its slice has extent one and the clamp's upper
  end is `N − 1`.

  The library states this for the index `Shape.Idx.ofFin e` and the column position `ixP e`
  (`StableHlo.Predicate.gather_take`); here it is restated over the coordinate constructors `ix1 e` and `ix2 e 0`, the form
  a value proof written with those constructors meets.
-/
import Idealize.ShloMosaic.PureOps.ShapeOps
import Idealize.ShloMosaic.Lib.ValueIdx
import Idealize.ShloMosaic.Lib.StableHlo.Predicate

namespace Idealize.ShloMosaic.GatherVec

open Idealize.ShloMosaic Idealize.ShloMosaic.ValueIdx

/-- The rank-1 index built from a coordinate is the same index however it is spelt. -/
theorem ix1_eq_ofFin {n : Nat} (e : Fin n) : (ix1 e : (⟨1, ![n]⟩ : Shape).Idx) = Shape.Idx.ofFin e := by
  funext a
  match a with
  | ⟨0, _⟩ => exact Fin.ext rfl

/-- Row `e` of an `[n, 1]` column is the index `(e, 0)`. -/
theorem ix2_zero_eq_ixP {n : Nat} (e : Fin n) :
    (ix2 e (0 : Fin 1) : (⟨2, ![n, 1]⟩ : Shape).Idx) = StableHlo.Predicate.ixP e := by
  funext a
  match a with
  | ⟨0, _⟩ => rfl
  | ⟨1, _⟩ => rfl

/-- THE ENTRY GATHER READ AT `e`. For dimension numbers over a table `[N]`, start indices `[R, 1]` and result `[R]` with
    collapsed axis 0, no batching axes, start index map `[0]` and the index vector on axis 1 (`hcoll` … `hivd`: the record's
    field values): the table at entry `idx[e, 0]`, read signed and clamped into `[0, N − 1]`. -/
theorem gather_vec {α : Type} {N R w : Nat} (d : GatherDims ⟨1, ![N]⟩ ⟨2, ![R, 1]⟩ ⟨1, ![R]⟩)
    (hcoll : d.collapsedSliceDims = [0]) (hob : d.operandBatchingDims = [])
    (hsim : d.startIndexMap = [0]) (hivd : d.indexVectorDim = 1)
    (T : (⟨1, ![N]⟩ : Shape).Idx → α) (idx : IVec ⟨2, ![R, 1]⟩ w) (e : Fin R) (hN : 0 < N) :
    Host.gather d T idx (ix1 e) = T (ix1 ⟨min (idx (ix2 e 0)).toInt.toNat (N - 1), by omega⟩) := by
  rw [ix1_eq_ofFin e, StableHlo.Predicate.gather_take d hcoll hob hsim hivd T idx e hN, ← ix1_eq_ofFin]
  refine congrArg (fun r => T (ix1 r)) (Fin.ext ?_)
  show min (idx (StableHlo.Predicate.ixP e)).toInt.toNat (N - 1) = min (idx (ix2 e 0)).toInt.toNat (N - 1)
  rw [ix2_zero_eq_ixP]

end Idealize.ShloMosaic.GatherVec
-- ==== Proof.KChainC2.lean ====
/-
  The last region and the host tail: the mean and the width are columns 0 and 1 of the region's two row arrays, the
  per-graph sums columns 0 and 1 of its accumulated array; each node looks its graph's sums up and the mean is corrected.
-/
import proofs.«400059_j34591666602133_1_alg».proof.Proof.Gen.KernelIdeal.Frame
import proofs.«400059_j34591666602133_1_alg».proof.Proof.Spec
import proofs.«400059_j34591666602133_1_alg».proof.Proof.KChainDefs
import proofs.«400059_j34591666602133_1_alg».proof.Proof.KFinal9Lin
import proofs.«400059_j34591666602133_1_alg».proof.Proof.KFinal9Sums
import proofs.«400059_j34591666602133_1_alg».proof.Proof.LibGatherVec
set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## Reading a column of an array, laid out as a vector, and a lookup in a table of 512 entries -/

/-- Column `k` of an `[R, C]` array, cut out as an `[R, 1]` column and reshaped to a vector of `R` entries, holds at
    `n` the array's entry `(n, k)`. -/
theorem colVec_apply {α : Type} {R C : Nat} (o : Nat) (X : (⟨2, ![R, C]⟩ : Shape).Idx → α)
    (hS : (⟨2, ![R, C]⟩ : Shape).Slices ![0, o] ⟨2, ![R, 1]⟩) (hC : (⟨2, ![R, 1]⟩ : Shape).ShapeCasts ⟨1, ![R]⟩)
    (n : Fin R) (k : Fin C) (hk : k.val = o) :
    shapeCast ⟨1, ![R]⟩ (extractStridedSlice ⟨2, ![R, 1]⟩ ![0, o] X hS) hC (ix1 n) = X (ix2 n k) :=
  (shapeCast_apply _ hC (ix1 n) (ix2 n (0 : Fin 1)) (by
    rw [Shape.rowMajor_val_two, Shape.rowMajor_val_one]
    show n.val * 1 + 0 = n.val
    omega)).trans (slice2_axis1_apply o X hS n 0 k (by show k.val = o + 0; omega))

/-- A table of 512 entries looked up by the column of wrapped graph words holds at node `n` the table's entry at the
    node's graph. -/
theorem lookup_apply (T : FVec Ideal S512 .f32) (b : IVec S100000 32) (n : Fin 100000) :
    Host.gather gather_S512_S100000x1_S100000_n_0_n_n_0_1_1 T (graphCol b) (ix1 n) = T (ix1 (graphOf b n)) :=
  (GatherVec.gather_vec gather_S512_S100000x1_S100000_n_0_n_n_0_1_1 rfl rfl rfl rfl T (graphCol b) n (by decide)).trans
    (congrArg (fun r => T (ix1 r)) (Fin.ext rfl))

/-- The corrected mean read at node `n`: the mean, less its graph's mean sum times the width's share of its graph's
    width sum; the mean and the width are columns 0 and 1 of `L` and `P`, the sums columns 0 and 1 of `Sm`. -/
theorem muc_apply (L P : FVec Ideal S100000x128 .f32) (Sm : FVec Ideal S512x128 .f32) (b : IVec S100000 32) (n : Fin 100000) :
    (subf (F := Ideal) (s := S100000) (φ := .f32) (shapeCast S100000 (extractStridedSlice S100000x1 ![0, 0] L slices_S100000x128_S100000x1_0_0) shapeCasts_S100000x1_S100000)
        (mulf (F := Ideal) (s := S100000) (φ := .f32)
          (Host.gather gather_S512_S100000x1_S100000_n_0_n_n_0_1_1
            (shapeCast S512 (extractStridedSlice S512x1 ![0, 0] Sm slices_S512x128_S512x1_0_0) shapeCasts_S512x1_S512)
            (graphCol b))
          (Host.divf (F := Ideal) (s := S100000) (φ := .f32)
            (shapeCast S100000 (extractStridedSlice S100000x1 ![0, 1] P slices_S100000x128_S100000x1_0_1) shapeCasts_S100000x1_S100000)
            (Host.gather gather_S512_S100000x1_S100000_n_0_n_n_0_1_1
              (shapeCast S512 (extractStridedSlice S512x1 ![0, 1] Sm slices_S512x128_S512x1_0_1) shapeCasts_S512x1_S512)
              (graphCol b))))) (ix1 n)
      = L (ix2 n 0) - Sm (ix2 (graphOf b n) 0) * Ideal.div (P (ix2 n 1)) (Sm (ix2 (graphOf b n) 1)) := by
  show shapeCast S100000 (extractStridedSlice S100000x1 ![0, 0] L slices_S100000x128_S100000x1_0_0) shapeCasts_S100000x1_S100000 (ix1 n)
      - Host.gather gather_S512_S100000x1_S100000_n_0_n_n_0_1_1
            (shapeCast S512 (extractStridedSlice S512x1 ![0, 0] Sm slices_S512x128_S512x1_0_0) shapeCasts_S512x1_S512)
            (graphCol b) (ix1 n)
        * Ideal.div (shapeCast S100000 (extractStridedSlice S100000x1 ![0, 1] P slices_S100000x128_S100000x1_0_1) shapeCasts_S100000x1_S100000 (ix1 n))
            (Host.gather gather_S512_S100000x1_S100000_n_0_n_n_0_1_1
              (shapeCast S512 (extractStridedSlice S512x1 ![0, 1] Sm slices_S512x128_S512x1_0_1) shapeCasts_S512x1_S512)
              (graphCol b) (ix1 n)) = _
  rw [lookup_apply, lookup_apply,
    colVec_apply 0 L slices_S100000x128_S100000x1_0_0 shapeCasts_S100000x1_S100000 n 0 rfl,
    colVec_apply 1 P slices_S100000x128_S100000x1_0_1 shapeCasts_S100000x1_S100000 n 1 rfl,
    colVec_apply 0 Sm slices_S512x128_S512x1_0_0 shapeCasts_S512x1_S512 (graphOf b n) 0 rfl,
    colVec_apply 1 Sm slices_S512x128_S512x1_0_1 shapeCasts_S512x1_S512 (graphOf b n) 1 rfl]

/-! ## Boundary 19: the last region's three results, every other buffer as it was -/

theorem b19_lin (c : Dev nD) : W19 m ρ c (Proc.devRef .tc main_v84_0)
    = fun (i : S100000x128.Idx) => Cert.Spec.linAt (W18 m ρ c (Proc.devRef .tc main_v64)) (W18 m ρ c (Proc.devRef .tc main_v71)) (W18 m ρ c (Proc.devRef .tc main_v82)) (i 0) (i 1) :=
  (W19_arr m ρ c 4).trans (RegionValue.final9_lin (V18 m ρ) c)

theorem b19_sp (c : Dev nD) : W19 m ρ c (Proc.devRef .tc main_v84_1)
    = fun (i : S100000x128.Idx) => Cert.Spec.softplus (Cert.Spec.linAt (W18 m ρ c (Proc.devRef .tc main_v64)) (W18 m ρ c (Proc.devRef .tc main_v71)) (W18 m ρ c (Proc.devRef .tc main_v82)) (i 0) (i 1)) :=
  (W19_arr m ρ c 5).trans (RegionValue.final9_sp (V18 m ρ) c)

theorem b19_sums (c : Dev nD) : W19 m ρ c (Proc.devRef .tc main_v84_2)
    = fun (i : S512x128.Idx) => Cert.Spec.sumsAt (W18 m ρ c (Proc.devRef .tc main_v83)) (W18 m ρ c (Proc.devRef .tc main_v64)) (W18 m ρ c (Proc.devRef .tc main_v71)) (W18 m ρ c (Proc.devRef .tc main_v82)) (i 0) (i 1) :=
  (W19_arr m ρ c 6).trans (RegionValue.final9_sums (V18 m ρ) c)

theorem b19_arg2 (c : Dev nD) : W19 m ρ c (Proc.devRef .tc main_arg2) = W18 m ρ c (Proc.devRef .tc main_arg2) :=
  W19_of_ne m ρ c main_arg2 (by decide)

/-! ## Boundary 20: what the tail's operations leave, over boundary 19's contents -/

theorem tail_x1 (c : Dev nD) : W20 m ρ c (Proc.devRef .tc main_v0_0) = W19 m ρ c (Proc.devRef .tc main_v0_0) :=
  StableHlo.after_of_forall_not_mem (b := Proc.devRef .tc main_v0_0) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem tail_mu (c : Dev nD) : W20 m ρ c (Proc.devRef .tc main_v86)
    = shapeCast S100000 (extractStridedSlice S100000x1 ![0, 0] (W19 m ρ c (Proc.devRef .tc main_v84_0)) slices_S100000x128_S100000x1_0_0) shapeCasts_S100000x1_S100000 := by
  show StableHlo.after hostOps10 (W19 m ρ c) (Proc.devRef .tc main_v86) = _
  after_results
  rfl

theorem tail_sig (c : Dev nD) : W20 m ρ c (Proc.devRef .tc main_v88)
    = shapeCast S100000 (extractStridedSlice S100000x1 ![0, 1] (W19 m ρ c (Proc.devRef .tc main_v84_1)) slices_S100000x128_S100000x1_0_1) shapeCasts_S100000x1_S100000 := by
  show StableHlo.after hostOps10 (W19 m ρ c) (Proc.devRef .tc main_v88) = _
  after_results
  rfl

theorem tail_muc (c : Dev nD) : W20 m ρ c (Proc.devRef .tc main_v109)
    = (subf (F := Ideal) (s := S100000) (φ := .f32) (shapeCast S100000 (extractStridedSlice S100000x1 ![0, 0] (W19 m ρ c (Proc.devRef .tc main_v84_0)) slices_S100000x128_S100000x1_0_0) shapeCasts_S100000x1_S100000)
        (mulf (F := Ideal) (s := S100000) (φ := .f32)
          (Host.gather gather_S512_S100000x1_S100000_n_0_n_n_0_1_1
            (shapeCast S512 (extractStridedSlice S512x1 ![0, 0] (W19 m ρ c (Proc.devRef .tc main_v84_2)) slices_S512x128_S512x1_0_0) shapeCasts_S512x1_S512)
            (graphCol (W19 m ρ c (Proc.devRef .tc main_arg2))))
          (Host.divf (F := Ideal) (s := S100000) (φ := .f32)
            (shapeCast S100000 (extractStridedSlice S100000x1 ![0, 1] (W19 m ρ c (Proc.devRef .tc main_v84_1)) slices_S100000x128_S100000x1_0_1) shapeCasts_S100000x1_S100000)
            (Host.gather gather_S512_S100000x1_S100000_n_0_n_n_0_1_1
              (shapeCast S512 (extractStridedSlice S512x1 ![0, 1] (W19 m ρ c (Proc.devRef .tc main_v84_2)) slices_S512x128_S512x1_0_1) shapeCasts_S512x1_S512)
              (graphCol (W19 m ρ c (Proc.devRef .tc main_arg2)))))) : FVec Ideal S100000 .f32) := by
  show StableHlo.after hostOps10 (W19 m ρ c) (Proc.devRef .tc main_v109) = _
  after_results_simp
  rfl

-- boundary 20: the four results, over boundary 18's contents
theorem C2_x1 (c : Dev nD) : W20 m ρ c (Proc.devRef .tc main_v0_0) = W18 m ρ c (Proc.devRef .tc main_v0_0) :=
  (tail_x1 m ρ c).trans (W19_of_ne m ρ c main_v0_0 (by decide))
theorem C2_mu (c : Dev nD) : W20 m ρ c (Proc.devRef .tc main_v86) = fun (i : S100000.Idx) => Cert.Spec.linAt (W18 m ρ c (Proc.devRef .tc main_v64)) (W18 m ρ c (Proc.devRef .tc main_v71)) (W18 m ρ c (Proc.devRef .tc main_v82)) (i 0) 0 := by
  rw [tail_mu m ρ c, b19_lin m ρ c]
  funext i
  obtain ⟨n, rfl⟩ : ∃ n : Fin 100000, i = ix1 n := ⟨i 0, eq_ix1 i⟩
  exact colVec_apply 0 _ _ _ n 0 rfl
theorem C2_sig (c : Dev nD) : W20 m ρ c (Proc.devRef .tc main_v88) = fun (i : S100000.Idx) => Cert.Spec.softplus (Cert.Spec.linAt (W18 m ρ c (Proc.devRef .tc main_v64)) (W18 m ρ c (Proc.devRef .tc main_v71)) (W18 m ρ c (Proc.devRef .tc main_v82)) (i 0) 1) := by
  rw [tail_sig m ρ c, b19_sp m ρ c]
  funext i
  obtain ⟨n, rfl⟩ : ∃ n : Fin 100000, i = ix1 n := ⟨i 0, eq_ix1 i⟩
  exact colVec_apply 1 _ _ _ n 1 rfl
theorem C2_muc (c : Dev nD) : W20 m ρ c (Proc.devRef .tc main_v109)
    = fun (i : S100000.Idx) => Cert.Spec.linAt (W18 m ρ c (Proc.devRef .tc main_v64)) (W18 m ρ c (Proc.devRef .tc main_v71)) (W18 m ρ c (Proc.devRef .tc main_v82)) (i 0) 0
        - Cert.Spec.sumsAt (W18 m ρ c (Proc.devRef .tc main_v83)) (W18 m ρ c (Proc.devRef .tc main_v64)) (W18 m ρ c (Proc.devRef .tc main_v71)) (W18 m ρ c (Proc.devRef .tc main_v82)) (graphOf (W18 m ρ c (Proc.devRef .tc main_arg2)) (i 0)) 0
          * Ideal.div (Cert.Spec.softplus (Cert.Spec.linAt (W18 m ρ c (Proc.devRef .tc main_v64)) (W18 m ρ c (Proc.devRef .tc main_v71)) (W18 m ρ c (Proc.devRef .tc main_v82)) (i 0) 1)) (Cert.Spec.sumsAt (W18 m ρ c (Proc.devRef .tc main_v83)) (W18 m ρ c (Proc.devRef .tc main_v64)) (W18 m ρ c (Proc.devRef .tc main_v71)) (W18 m ρ c (Proc.devRef .tc main_v82)) (graphOf (W18 m ρ c (Proc.devRef .tc main_arg2)) (i 0)) 1) := by
  rw [tail_muc m ρ c, b19_lin m ρ c, b19_sp m ρ c, b19_sums m ρ c, b19_arg2 m ρ c]
  funext i
  obtain ⟨n, rfl⟩ : ∃ n : Fin 100000, i = ix1 n := ⟨i 0, eq_ix1 i⟩
  exact muc_apply _ _ _ _ n

end Cert.KernelIdeal.Chain

end
-- ==== Proof.SpecHeads.lean ====
/-
  The last kernel's 128-wide layout against the two heads.

  The last kernel keeps both heads in one 128×128 weight and one bias row: column 0 is the mean's head, column 1 the
  width's pre-activation. Read at those two columns, its linear result is the head's, the row it sums per graph is the
  mean, respectively the width, and so its per-graph sums are the heads' per-graph sums; the corrected mean written
  with the kernel's arrays is the corrected mean of the two heads.
-/
import proofs.«400059_j34591666602133_1_alg».proof.Proof.Spec

noncomputable section

open scoped BigOperators

namespace Cert.Spec

open Idealize.ShloMosaic Idealize.ShloMosaic.ValueIdx

/-- Column 0 of the linear result is the head whose weights are column 0 of the weight and whose bias is entry 0 of
    the bias row. -/
theorem linAt_col0 (h : Mat 100000 128) (w : Mat 128 128) (b : Mat 1 128) (w1 : Fin 128 → EReal) (b1 : EReal)
    (hw : ∀ k : Fin 128, w (ix2 k 0) = w1 k) (hb : b (ix2 0 0) = b1) (r : Fin 100000) :
    linAt h w b r 0 = headAt h w1 b1 r := by
  unfold linAt headAt
  rw [hb]
  exact congrArg (· + b1) (Finset.sum_congr rfl fun k _ => by rw [hw k])

/-- Column 1 of the linear result is the head whose weights are column 1 of the weight and whose bias is entry 1 of
    the bias row. -/
theorem linAt_col1 (h : Mat 100000 128) (w : Mat 128 128) (b : Mat 1 128) (w2 : Fin 128 → EReal) (b2 : EReal)
    (hw : ∀ k : Fin 128, w (ix2 k 1) = w2 k) (hb : b (ix2 0 1) = b2) (r : Fin 100000) :
    linAt h w b r 1 = headAt h w2 b2 r := by
  unfold linAt headAt
  rw [hb]
  exact congrArg (· + b2) (Finset.sum_congr rfl fun k _ => by rw [hw k])

/-- Column 0 of the per-graph sums is the mean's per-graph sum, the graph words read from the column of words or from
    the vector of words alike. -/
theorem sumsAt_col0 (bcol : IVec ⟨2, ![100000, 1]⟩ 32) (batch : IVec ⟨1, ![100000]⟩ 32)
    (hcol : ∀ n : Fin 100000, bcol (ix2 n 0) = batch (ix1 n)) (h : Mat 100000 128) (w : Mat 128 128) (b : Mat 1 128)
    (w1 : Fin 128 → EReal) (b1 : EReal) (hw : ∀ k : Fin 128, w (ix2 k 0) = w1 k) (hb : b (ix2 0 0) = b1)
    (g : Fin 512) : sumsAt bcol h w b g 0 = segAt batch (muAt h w1 b1) g := by
  -- column 0 of the summed row is the uncorrected mean
  have row : ∀ n : Fin 100000, msAt h w b n 0 = muAt h w1 b1 n := fun n => by
    unfold msAt muAt
    rw [if_pos (show (0 : Fin 128).val = 0 from rfl)]
    exact linAt_col0 h w b w1 b1 hw hb n
  unfold sumsAt segAt
  exact Finset.sum_congr rfl fun n _ => by rw [hcol n, row n]

/-- Column 1 of the per-graph sums is the width's per-graph sum. -/
theorem sumsAt_col1 (bcol : IVec ⟨2, ![100000, 1]⟩ 32) (batch : IVec ⟨1, ![100000]⟩ 32)
    (hcol : ∀ n : Fin 100000, bcol (ix2 n 0) = batch (ix1 n)) (h : Mat 100000 128) (w : Mat 128 128) (b : Mat 1 128)
    (w2 : Fin 128 → EReal) (b2 : EReal) (hw : ∀ k : Fin 128, w (ix2 k 1) = w2 k) (hb : b (ix2 0 1) = b2)
    (g : Fin 512) : sumsAt bcol h w b g 1 = segAt batch (sigAt h w2 b2) g := by
  -- column 1 of the summed row is the width
  have row : ∀ n : Fin 100000, msAt h w b n 1 = sigAt h w2 b2 n := fun n => by
    unfold msAt sigAt
    rw [if_neg (show ¬ (1 : Fin 128).val = 0 by decide), if_pos (show (1 : Fin 128).val = 1 from rfl),
      linAt_col1 h w b w2 b2 hw hb n]
  unfold sumsAt segAt
  exact Finset.sum_congr rfl fun n _ => by rw [hcol n, row n]

/-- The corrected mean written with the last kernel's arrays — column 0 of the linear result, less column 0 of its
    graph's sums weighted by the softplus of column 1 over column 1 of its graph's sums — is the corrected mean of the
    two heads. -/
theorem muc_of_layout (bcol : IVec ⟨2, ![100000, 1]⟩ 32) (batch : IVec ⟨1, ![100000]⟩ 32)
    (hcol : ∀ n : Fin 100000, bcol (ix2 n 0) = batch (ix1 n)) (h : Mat 100000 128) (w : Mat 128 128) (b : Mat 1 128)
    (w1 : Fin 128 → EReal) (b1 : EReal) (w2 : Fin 128 → EReal) (b2 : EReal)
    (hw0 : ∀ k : Fin 128, w (ix2 k 0) = w1 k) (hw1 : ∀ k : Fin 128, w (ix2 k 1) = w2 k)
    (hb0 : b (ix2 0 0) = b1) (hb1 : b (ix2 0 1) = b2) (q : Fin 100000 → Fin 512) (n : Fin 100000) :
    linAt h w b n 0 - sumsAt bcol h w b (q n) 0 * Ideal.div (softplus (linAt h w b n 1)) (sumsAt bcol h w b (q n) 1)
      = mucAt batch q h w1 b1 w2 b2 n := by
  rw [linAt_col0 h w b w1 b1 hw0 hb0 n, linAt_col1 h w b w2 b2 hw1 hb1 n,
    sumsAt_col0 bcol batch hcol h w b w1 b1 hw0 hb0 (q n), sumsAt_col1 bcol batch hcol h w b w2 b2 hw1 hb1 (q n)]
  rfl

end Cert.Spec

end
-- ==== Proof.KValue.lean ====
/-
  The kernel program's four results as the specification's functions of its arguments: the run with each result at the
  last boundary's contents, read back boundary by boundary (the last region and the tail, the heads' layout, rounds
  four to two, round one and the embedding).
-/
import proofs.«400059_j34591666602133_1_alg».proof.Proof.KRun
import proofs.«400059_j34591666602133_1_alg».proof.Proof.KChainA
import proofs.«400059_j34591666602133_1_alg».proof.Proof.KChainB
import proofs.«400059_j34591666602133_1_alg».proof.Proof.KChainC1
import proofs.«400059_j34591666602133_1_alg».proof.Proof.KChainC2
import proofs.«400059_j34591666602133_1_alg».proof.Proof.SpecHeads

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- What the two host programs compute alike from the arguments, as the kernel program spells it. -/
def sharedK (c : Dev nD) : Cert.Spec.Shared where
  Agg := aggOf (srcOf (m ((c : Thread nD τ).loc main_arg1))) (dstOf (m ((c : Thread nD τ).loc main_arg1)))
  W0 := wOf0 (m ((c : Thread nD τ).loc main_arg4))
  W1 := wOf1 (m ((c : Thread nD τ).loc main_arg4))
  W2 := wOf2 (m ((c : Thread nD τ).loc main_arg4))
  W3 := wOf3 (m ((c : Thread nD τ).loc main_arg4))
  wi := wT (m ((c : Thread nD τ).loc main_arg5))
  wh := wT (m ((c : Thread nD τ).loc main_arg6))
  q := graphOf (m ((c : Thread nD τ).loc main_arg2))

/-- The cell's two bias vectors, entry by entry. -/
def biK (c : Dev nD) : Fin 384 → EReal := fun k => (m ((c : Thread nD τ).loc main_arg7)) (ix1 k)
def bhK (c : Dev nD) : Fin 384 → EReal := fun k => (m ((c : Thread nD τ).loc main_arg8)) (ix1 k)
/-- The two heads' weight columns and biases. -/
def w1K (c : Dev nD) : Fin 128 → EReal := fun k => (m ((c : Thread nD τ).loc main_arg9)) (ix2 k 0)
def b1K (c : Dev nD) : EReal := (m ((c : Thread nD τ).loc main_arg10)) (ix1 0)
def w2K (c : Dev nD) : Fin 128 → EReal := fun k => (m ((c : Thread nD τ).loc main_arg11)) (ix2 k 0)
def b2K (c : Dev nD) : EReal := (m ((c : Thread nD τ).loc main_arg12)) (ix1 0)

/-- The state after the four rounds. -/
def stateK (c : Dev nD) : Cert.Spec.Mat 100000 128 := Cert.Spec.state (sharedK m c) (biK m c) (bhK m c) (m ((c : Thread nD τ).loc main_arg0)) (m ((c : Thread nD τ).loc main_arg3))

/-- Boundary 17 holds the state after the four rounds. -/
theorem h4_eq (c : Dev nD) : W17 m ρ c (Proc.devRef .tc main_v64) = stateK m c := by
  rw [B_h4 m ρ c, A_h1 m ρ c, A_src m ρ c, A_dst m ρ c, A_wi m ρ c, A_wh m ρ c, A_arg4 m ρ c]
  simp only [A_bi m ρ c, A_bh m ρ c]
  rfl

theorem x1_eq (c : Dev nD) : W20 m ρ c (Proc.devRef .tc main_v0_0) = Cert.Spec.embed (m ((c : Thread nD τ).loc main_arg0)) (m ((c : Thread nD τ).loc main_arg3)) := by
  rw [C2_x1 m ρ c, C1_x1 m ρ c, B_keep_v0_0 m ρ c, A_x1 m ρ c]

/-- The graph words and the heads' parameters at boundary 17 are the arguments'. -/
theorem arg2_eq (c : Dev nD) : W17 m ρ c (Proc.devRef .tc main_arg2) = (m ((c : Thread nD τ).loc main_arg2)) := (B_keep_arg2 m ρ c).trans (A_arg2 m ρ c)
theorem arg9_eq (c : Dev nD) : W17 m ρ c (Proc.devRef .tc main_arg9) = (m ((c : Thread nD τ).loc main_arg9)) := (B_keep_arg9 m ρ c).trans (A_arg9 m ρ c)
theorem arg10_eq (c : Dev nD) : W17 m ρ c (Proc.devRef .tc main_arg10) = (m ((c : Thread nD τ).loc main_arg10)) := (B_keep_arg10 m ρ c).trans (A_arg10 m ρ c)
theorem arg11_eq (c : Dev nD) : W17 m ρ c (Proc.devRef .tc main_arg11) = (m ((c : Thread nD τ).loc main_arg11)) := (B_keep_arg11 m ρ c).trans (A_arg11 m ρ c)
theorem arg12_eq (c : Dev nD) : W17 m ρ c (Proc.devRef .tc main_arg12) = (m ((c : Thread nD τ).loc main_arg12)) := (B_keep_arg12 m ρ c).trans (A_arg12 m ρ c)

/-- The last region's weight columns, bias entries and graph column are the heads' parameters and the graph words. -/
theorem hw0 (c : Dev nD) (k : Fin 128) : (W18 m ρ c (Proc.devRef .tc main_v71) : FVec Ideal S128x128 .f32) (ix2 k 0) = w1K m c k := by
  rw [C1_w0 m ρ c k, arg9_eq m ρ c]; rfl
theorem hw1 (c : Dev nD) (k : Fin 128) : (W18 m ρ c (Proc.devRef .tc main_v71) : FVec Ideal S128x128 .f32) (ix2 k 1) = w2K m c k := by
  rw [C1_w1 m ρ c k, arg11_eq m ρ c]; rfl
theorem hb0 (c : Dev nD) : (W18 m ρ c (Proc.devRef .tc main_v82) : FVec Ideal S1x128 .f32) (ix2 0 0) = b1K m c := by
  rw [C1_b0 m ρ c, arg10_eq m ρ c]; rfl
theorem hb1 (c : Dev nD) : (W18 m ρ c (Proc.devRef .tc main_v82) : FVec Ideal S1x128 .f32) (ix2 0 1) = b2K m c := by
  rw [C1_b1 m ρ c, arg12_eq m ρ c]; rfl
theorem hcol (c : Dev nD) (n : Fin 100000) : (W18 m ρ c (Proc.devRef .tc main_v83) : IVec S100000x1 32) (ix2 n 0) = (m ((c : Thread nD τ).loc main_arg2)) (ix1 n) := by
  rw [C1_col m ρ c n, arg2_eq m ρ c]
theorem h18_eq (c : Dev nD) : W18 m ρ c (Proc.devRef .tc main_v64) = stateK m c := (C1_h m ρ c).trans (h4_eq m ρ c)
theorem arg2_18_eq (c : Dev nD) : W18 m ρ c (Proc.devRef .tc main_arg2) = (m ((c : Thread nD τ).loc main_arg2)) := (C1_arg2 m ρ c).trans (arg2_eq m ρ c)

theorem mu_eq (c : Dev nD) : W20 m ρ c (Proc.devRef .tc main_v86)
    = fun (i : S100000.Idx) => Cert.Spec.muAt (stateK m c) (w1K m c) (b1K m c) (i 0) := by
  rw [C2_mu m ρ c]; funext i
  obtain ⟨n, rfl⟩ : ∃ n : Fin 100000, i = ix1 n := ⟨i 0, eq_ix1 i⟩
  refine (Cert.Spec.linAt_col0 (W18 m ρ c (Proc.devRef .tc main_v64)) (W18 m ρ c (Proc.devRef .tc main_v71)) (W18 m ρ c (Proc.devRef .tc main_v82)) (w1K m c) (b1K m c) (hw0 m ρ c) (hb0 m ρ c) n).trans ?_
  rw [h18_eq m ρ c]; rfl

theorem sig_eq (c : Dev nD) : W20 m ρ c (Proc.devRef .tc main_v88)
    = fun (i : S100000.Idx) => Cert.Spec.sigAt (stateK m c) (w2K m c) (b2K m c) (i 0) := by
  rw [C2_sig m ρ c]; funext i
  obtain ⟨n, rfl⟩ : ∃ n : Fin 100000, i = ix1 n := ⟨i 0, eq_ix1 i⟩
  refine (congrArg Cert.Spec.softplus (Cert.Spec.linAt_col1 (W18 m ρ c (Proc.devRef .tc main_v64)) (W18 m ρ c (Proc.devRef .tc main_v71)) (W18 m ρ c (Proc.devRef .tc main_v82)) (w2K m c) (b2K m c) (hw1 m ρ c) (hb1 m ρ c) n)).trans ?_
  rw [h18_eq m ρ c]; rfl

theorem muc_eq (c : Dev nD) : W20 m ρ c (Proc.devRef .tc main_v109)
    = fun (i : S100000.Idx) => Cert.Spec.mucAt (m ((c : Thread nD τ).loc main_arg2)) (graphOf (m ((c : Thread nD τ).loc main_arg2))) (stateK m c) (w1K m c) (b1K m c) (w2K m c) (b2K m c) (i 0) := by
  rw [C2_muc m ρ c]; funext i
  obtain ⟨n, rfl⟩ : ∃ n : Fin 100000, i = ix1 n := ⟨i 0, eq_ix1 i⟩
  refine (Cert.Spec.muc_of_layout (W18 m ρ c (Proc.devRef .tc main_v83)) (m ((c : Thread nD τ).loc main_arg2)) (hcol m ρ c) (W18 m ρ c (Proc.devRef .tc main_v64)) (W18 m ρ c (Proc.devRef .tc main_v71)) (W18 m ρ c (Proc.devRef .tc main_v82))
    (w1K m c) (b1K m c) (w2K m c) (b2K m c) (hw0 m ρ c) (hw1 m ρ c) (hb0 m ρ c) (hb1 m ρ c) (graphOf (W18 m ρ c (Proc.devRef .tc main_arg2))) n).trans ?_
  rw [h18_eq m ρ c, arg2_18_eq m ρ c]

/-- THE KERNEL PROGRAM'S RUN, READ: every weakly fair execution terminates without a fault with the four results at the
    specification's functions of the arguments, the arguments unchanged. -/
theorem run : θ_run defs (onTc (τ := τ) (main (F := Ideal))) ⟨m, fun _ => 0, ρ⟩ (fun r => ∀ c : Dev nD,
      r.2.mem ((c.tc : Thread nD τ).loc main_v109) = (fun (i : S100000.Idx) => Cert.Spec.mucAt (m ((c : Thread nD τ).loc main_arg2)) (graphOf (m ((c : Thread nD τ).loc main_arg2))) (stateK m c) (w1K m c) (b1K m c) (w2K m c) (b2K m c) (i 0))
      ∧ r.2.mem ((c.tc : Thread nD τ).loc main_v0_0) = Cert.Spec.embed (m ((c : Thread nD τ).loc main_arg0)) (m ((c : Thread nD τ).loc main_arg3))
      ∧ r.2.mem ((c.tc : Thread nD τ).loc main_v88) = (fun (i : S100000.Idx) => Cert.Spec.sigAt (stateK m c) (w2K m c) (b2K m c) (i 0))
      ∧ r.2.mem ((c.tc : Thread nD τ).loc main_v86) = (fun (i : S100000.Idx) => Cert.Spec.muAt (stateK m c) (w1K m c) (b1K m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c).1.trans (muc_eq m ρ c), (h c).2.1.trans (x1_eq m ρ c), (h c).2.2.1.trans (sig_eq m ρ c), (h c).2.2.2.1.trans (mu_eq m ρ c), (h c).2.2.2.2⟩)
    (Cert.KernelIdeal.GenRun.run_values (F := Ideal) m ρ)

end Cert.KernelIdeal.Chain

end
-- ==== Proof.RLayer.lean ====
/-
  The reference's layers, read as the shared specification.

  The reference embeds the node table by a dense layer and a logistic spelt 1 / (1 + e^(−x)), widens the result with
  zero columns, and then runs four rounds. Each round multiplies the state by the round's 128×128 weight, aggregates the
  product's rows along the edges, and feeds the aggregate and the old state to a gated recurrent cell: two gate rows
  (a product with a 128×384 weight plus a bias vector repeated down the rows), cut into three column blocks; the reset
  and update gates by the logistic in the same expanded spelling, the candidate by the hyperbolic tangent, and the
  convex mix with the old state.

  The cell is stated once, over an arbitrary aggregate and an arbitrary old state, and shown to be the specification's
  cell entry by entry; each of the four rounds is that cell applied to its own stages, so one proof serves all four.
  The aggregation along the edges is carried as one function of the message product and never opened.
-/
import proofs.«400059_j34591666602133_1_alg».proof.Proof.RRead
import proofs.«400059_j34591666602133_1_alg».proof.Proof.Spec
import proofs.«400059_j34591666602133_1_alg».proof.Proof.LibDenseLayer
import Idealize.ShloMosaic.Lib.IdealHost
import Idealize.ShloMosaic.Lib.KernelVsHost

noncomputable section

namespace Cert.ReferenceIdeal.StageValue

open Idealize.ShloMosaic Idealize.ShloMosaic.ValueIdx Cert.ReferenceIdeal Cert.ReferenceIdeal.Gen Cert.ReferenceIdeal.Stage

/-- The aggregation along the edges as the reference's first round spells it: a gather of rows by the wrapped source words, scatter-added into zeros by the target words. NEVER opened: both programs apply the same chain. -/
def aggR (x1 : (⟨S2x1600000, .i32⟩ : BufTy).Contents (Elt Ideal)) (M : FVec Ideal S100000x128 .f32) : FVec Ideal S100000x128 .f32 :=
  Host.scatterAdd scatter_S100000x128_S1600000x1_S1600000x128_1_0_0_1 (val_main_v22 (F := Ideal)) (val_main_v23 (F := Ideal) x1) (Host.gather gather_S100000x128_S1600000x1_S1600000x128_1_0_n_n_0_1_1128 M (val_main_v20 (F := Ideal) x1))

/-! ## The cell as the reference spells it -/

/-- The literal one, repeated over the state's shape. -/
def onesR : FVec Ideal S100000x128 .f32 :=
  broadcastInDim S100000x128 ![] bcast_S_S100000x128 (constant (F := Ideal) S_ .f32 0x3F800000#32)

/-- The logistic in the reference's spelling: one over one plus the exponential of the negation. -/
def sigR (y : FVec Ideal S100000x128 .f32) : FVec Ideal S100000x128 .f32 :=
  Host.divf onesR (addf onesR (Host.exp (Host.negf y)))

/-- A gate row: the product with a 128×384 weight plus the bias vector laid along the columns and repeated down the rows. -/
def gateRowR (a : FVec Ideal S100000x128 .f32) (w : FVec Ideal S128x384 .f32) (b : FVec Ideal S384 .f32) :
    FVec Ideal S100000x384 .f32 :=
  addf (Host.dotGeneral dot_S100000x128_S128x384_S100000x384_1_0_0_1_n_n none a w)
    (broadcastInDim S100000x384 ![0, 1] bcast_S1x384_S100000x384_0_1 (broadcastInDim S1x384 ![1] bcast_S384_S1x384_1 b))

/-- The three column blocks of a gate row. -/
def blk0R (g : FVec Ideal S100000x384 .f32) : FVec Ideal S100000x128 .f32 :=
  extractStridedSlice S100000x128 ![0, 0] g slices_S100000x384_S100000x128_0_0
def blk1R (g : FVec Ideal S100000x384 .f32) : FVec Ideal S100000x128 .f32 :=
  extractStridedSlice S100000x128 ![0, 128] g slices_S100000x384_S100000x128_0_128
def blk2R (g : FVec Ideal S100000x384 .f32) : FVec Ideal S100000x128 .f32 :=
  extractStridedSlice S100000x128 ![0, 256] g slices_S100000x384_S100000x128_0_256

/-- The gated cell as the reference spells it, over the aggregated messages `a` and the old state `h`. -/
def cellR (a h : FVec Ideal S100000x128 .f32) (wi wh : FVec Ideal S128x384 .f32) (bi bh : FVec Ideal S384 .f32) :
    FVec Ideal S100000x128 .f32 :=
  addf
    (mulf (subf onesR (sigR (addf (blk1R (gateRowR a wi bi)) (blk1R (gateRowR h wh bh)))))
      (Host.tanh (addf (blk2R (gateRowR a wi bi))
        (mulf (sigR (addf (blk0R (gateRowR a wi bi)) (blk0R (gateRowR h wh bh)))) (blk2R (gateRowR h wh bh))))))
    (mulf (sigR (addf (blk1R (gateRowR a wi bi)) (blk1R (gateRowR h wh bh)))) h)

/-! ## The pieces read at an index -/

/-- The broadcast literal reads one everywhere. -/
theorem onesR_apply (i : S100000x128.Idx) : onesR i = 1 := by
  unfold onesR
  rw [broadcastInDim_apply _ bcast_S_S100000x128 _ i (fun a => a.elim0) (fun a => a.elim0)]
  exact Ideal.ofBits_one_f32

/-- The reference's spelling of the logistic is the logistic, entry by entry. -/
theorem sigR_apply (y : FVec Ideal S100000x128 .f32) (i : S100000x128.Idx) : sigR y i = Ideal.logistic (y i) := by
  show Ideal.div (onesR i) (onesR i + Ideal.exp (-(y i))) = _
  rw [onesR_apply]
  rfl

/-- The hyperbolic tangent acts entry by entry. -/
theorem tanhR_apply (y : FVec Ideal S100000x128 .f32) (i : S100000x128.Idx) : Host.tanh y i = Ideal.tanh (y i) := rfl

/-- A gate row at (r, c): row r of `a` against column c of the weight, plus the bias at c. -/
theorem gateRowR_apply (a : FVec Ideal S100000x128 .f32) (w : FVec Ideal S128x384 .f32) (b : FVec Ideal S384 .f32)
    (r : Fin 100000) (c : Fin 384) :
    gateRowR a w b (ix2 r c) = Cert.Spec.gateAt a w (fun k => b (ix1 k)) r c := by
  unfold gateRowR Cert.Spec.gateAt
  rw [addf_apply, DenseLayer.bias_inDim_apply]
  exact congrArg (· + b (ix1 c))
    (DenseLayer.dotGeneral_rows_apply dot_S100000x128_S128x384_S100000x384_1_0_0_1_n_n_wf none .single a w r c)

/-- The first column block reads columns 0 to 127. -/
theorem blk0R_apply (g : FVec Ideal S100000x384 .f32) (r : Fin 100000) (j : Fin 128) :
    blk0R g (ix2 r j) = g (ix2 r (Cert.Spec.col0 j)) := by
  unfold blk0R
  exact extractStridedSlice_apply ![0, 0] g slices_S100000x384_S100000x128_0_0 (ix2 r j) (ix2 r (Cert.Spec.col0 j))
    (fun a => match a with
      | ⟨0, _⟩ => by show r.val = 0 + r.val; omega
      | ⟨1, _⟩ => by show j.val = 0 + j.val; omega)

/-- The second column block reads columns 128 to 255. -/
theorem blk1R_apply (g : FVec Ideal S100000x384 .f32) (r : Fin 100000) (j : Fin 128) :
    blk1R g (ix2 r j) = g (ix2 r (Cert.Spec.col1 j)) := by
  unfold blk1R
  exact extractStridedSlice_apply ![0, 128] g slices_S100000x384_S100000x128_0_128 (ix2 r j) (ix2 r (Cert.Spec.col1 j))
    (fun a => match a with
      | ⟨0, _⟩ => by show r.val = 0 + r.val; omega
      | ⟨1, _⟩ => by show j.val + 128 = 128 + j.val; omega)

/-- The third column block reads columns 256 to 383. -/
theorem blk2R_apply (g : FVec Ideal S100000x384 .f32) (r : Fin 100000) (j : Fin 128) :
    blk2R g (ix2 r j) = g (ix2 r (Cert.Spec.col2 j)) := by
  unfold blk2R
  exact extractStridedSlice_apply ![0, 256] g slices_S100000x384_S100000x128_0_256 (ix2 r j) (ix2 r (Cert.Spec.col2 j))
    (fun a => match a with
      | ⟨0, _⟩ => by show r.val = 0 + r.val; omega
      | ⟨1, _⟩ => by show j.val + 256 = 256 + j.val; omega)

/-- The reference's cell at (r, j) is the gated recurrent cell there. -/
theorem cellR_apply (a h : FVec Ideal S100000x128 .f32) (wi wh : FVec Ideal S128x384 .f32) (bi bh : FVec Ideal S384 .f32)
    (r : Fin 100000) (j : Fin 128) :
    cellR a h wi wh bi bh (ix2 r j)
      = Cert.Spec.gruAt a h wi wh (fun k => bi (ix1 k)) (fun k => bh (ix1 k)) r j := by
  unfold cellR Cert.Spec.gruAt
  simp only [addf_apply, mulf_apply, subf_apply, sigR_apply, tanhR_apply, onesR_apply, blk0R_apply, blk1R_apply,
    blk2R_apply, gateRowR_apply]

/-- The reference's cell is the gated recurrent cell. -/
theorem cellR_eq (a h : FVec Ideal S100000x128 .f32) (wi wh : FVec Ideal S128x384 .f32) (bi bh : FVec Ideal S384 .f32) :
    cellR a h wi wh bi bh = Cert.Spec.gru a h wi wh (fun k => bi (ix1 k)) (fun k => bh (ix1 k)) := by
  funext i
  obtain ⟨r, j, rfl⟩ : ∃ (r : Fin 100000) (j : Fin 128), i = ix2 r j := ⟨i 0, i 1, eq_ix2 i⟩
  exact cellR_apply a h wi wh bi bh r j

/-- The host's product of the state with a round's weight is the message product. -/
theorem msgR_eq (h : FVec Ideal S100000x128 .f32) (W : FVec Ideal S128x128 .f32) :
    Host.dotGeneral (F := Ideal) dot_S100000x128_S128x128_S100000x128_1_0_0_1_n_n none h W = Cert.Spec.msg h W := by
  funext i
  obtain ⟨r, j, rfl⟩ : ∃ (r : Fin 100000) (j : Fin 128), i = ix2 r j := ⟨i 0, i 1, eq_ix2 i⟩
  exact DenseLayer.dotGeneral_rows_apply dot_S100000x128_S128x128_S100000x128_1_0_0_1_n_n_wf none .single h W r j

/-! ## The embedding and its padding -/

/-- The reference's embedding at (r, j): the logistic of row r of the node table against column j of the weight. -/
theorem embedR_apply (x0 : (⟨S100000x27, .f32⟩ : BufTy).Contents (Elt Ideal)) (x3 : (⟨S27x64, .f32⟩ : BufTy).Contents (Elt Ideal))
    (r : Fin 100000) (j : Fin 64) :
    val_main_v6 (F := Ideal) x0 x3 (ix2 r j) = Cert.Spec.embedAt x0 x3 r j := by
  have h0 : val_main_v0 (F := Ideal) x0 x3 (ix2 r j) = ∑ k : Fin 27, x0 (ix2 r k) * x3 (ix2 k j) :=
    DenseLayer.dotGeneral_rows_apply dot_S100000x27_S27x64_S100000x64_1_0_0_1_n_n_wf none .single x0 x3 r j
  rw [val_main_v6_apply, val_main_v5_apply, val_main_cst_0_apply, val_main_v4_apply, val_main_v3_apply, val_main_cst_apply,
    val_main_v2_apply, val_main_v1_apply, h0]
  show Ideal.div (Ideal.ofBits .f32 0x3F800000#32) (Ideal.ofBits .f32 0x3F800000#32 + Ideal.exp (-(∑ k : Fin 27, x0 (ix2 r k) * x3 (ix2 k j)))) = _
  rw [Ideal.ofBits_one_f32]
  rfl

/-- The reference's padded embedding is the embedding widened by zero columns. -/
theorem pad_embed (x0 : (⟨S100000x27, .f32⟩ : BufTy).Contents (Elt Ideal)) (x3 : (⟨S27x64, .f32⟩ : BufTy).Contents (Elt Ideal)) :
    val_main_v7 (F := Ideal) x0 x3 = Cert.Spec.pad (Cert.Spec.embed x0 x3) := by
  funext i
  obtain ⟨r, j, rfl⟩ : ∃ (r : Fin 100000) (j : Fin 128), i = ix2 r j := ⟨i 0, i 1, eq_ix2 i⟩
  rw [Cert.Spec.pad_apply]
  unfold Cert.Spec.padAt val_main_v7
  by_cases hj : j.val < 64
  · rw [dif_pos hj, Cert.Spec.embed_apply, ← embedR_apply]
    exact pad_apply_of_inside ![0, 0] ![0, 64] ![0, 0] (val_main_v6 (F := Ideal) x0 x3) (val_main_call0_v0 (F := Ideal))
      pads_S100000x64_S100000x128_000_0640 h_S_ (ix2 r j) (ix2 r ⟨j.val, hj⟩) (fun a => match a with
        | ⟨0, _⟩ => by show r.val = 0 + r.val * (0 + 1); omega
        | ⟨1, _⟩ => by show j.val = 0 + j.val * (0 + 1); omega)
  · rw [dif_neg hj]
    refine (pad_apply_of_not_inside ![0, 0] ![0, 64] ![0, 0] (val_main_v6 (F := Ideal) x0 x3) (val_main_call0_v0 (F := Ideal))
      pads_S100000x64_S100000x128_000_0640 h_S_ (ix2 r j) 1 ?_).trans ?_
    · show ¬(0 ≤ j.val ∧ (j.val - 0) % (0 + 1) = 0 ∧ (j.val - 0) / (0 + 1) < 64)
      omega
    · show (((0#32 : BitVec 32).toInt : ℝ) : EReal) = 0
      simp

/-! ## The four rounds -/

/-- Round 1 of the reference: the message product of the previous state, its aggregation along the edges, and the gated cell. -/
theorem round1 (x0 : (⟨S100000x27, .f32⟩ : BufTy).Contents (Elt Ideal)) (x1 : (⟨S2x1600000, .i32⟩ : BufTy).Contents (Elt Ideal)) (x3 : (⟨S27x64, .f32⟩ : BufTy).Contents (Elt Ideal)) (x4 : (⟨S4x128x128, .f32⟩ : BufTy).Contents (Elt Ideal)) (x5 x6 : (⟨S384x128, .f32⟩ : BufTy).Contents (Elt Ideal)) (x7 x8 : (⟨S384, .f32⟩ : BufTy).Contents (Elt Ideal)) :
    val_main_v62 (F := Ideal) x0 x1 x3 x4 x5 x6 x7 x8
      = Cert.Spec.round (aggR x1) (val_main_v13 (F := Ideal) x4) (val_main_v25 (F := Ideal) x5) (val_main_v30 (F := Ideal) x6)
          (fun k => x7 (ix1 k)) (fun k => x8 (ix1 k)) (val_main_v7 (F := Ideal) x0 x3) := by
  have hcell : val_main_v62 (F := Ideal) x0 x1 x3 x4 x5 x6 x7 x8
      = cellR (val_main_v24 (F := Ideal) x0 x1 x3 x4) (val_main_v7 (F := Ideal) x0 x3)
          (val_main_v25 (F := Ideal) x5) (val_main_v30 (F := Ideal) x6) x7 x8 := rfl
  have hagg : val_main_v24 (F := Ideal) x0 x1 x3 x4 = aggR x1 (val_main_v14 (F := Ideal) x0 x3 x4) := rfl
  have hmsg : val_main_v14 (F := Ideal) x0 x3 x4
      = Cert.Spec.msg (val_main_v7 (F := Ideal) x0 x3) (val_main_v13 (F := Ideal) x4) := msgR_eq _ _
  rw [hcell, cellR_eq, hagg, hmsg]
  rfl

/-- Round 2 of the reference: the message product of the previous state, its aggregation along the edges, and the gated cell. -/
theorem round2 (x0 : (⟨S100000x27, .f32⟩ : BufTy).Contents (Elt Ideal)) (x1 : (⟨S2x1600000, .i32⟩ : BufTy).Contents (Elt Ideal)) (x3 : (⟨S27x64, .f32⟩ : BufTy).Contents (Elt Ideal)) (x4 : (⟨S4x128x128, .f32⟩ : BufTy).Contents (Elt Ideal)) (x5 x6 : (⟨S384x128, .f32⟩ : BufTy).Contents (Elt Ideal)) (x7 x8 : (⟨S384, .f32⟩ : BufTy).Contents (Elt Ideal)) :
    val_main_v113 (F := Ideal) x0 x1 x3 x4 x5 x6 x7 x8
      = Cert.Spec.round (aggR x1) (val_main_v64 (F := Ideal) x4) (val_main_v25 (F := Ideal) x5) (val_main_v30 (F := Ideal) x6)
          (fun k => x7 (ix1 k)) (fun k => x8 (ix1 k)) (val_main_v62 (F := Ideal) x0 x1 x3 x4 x5 x6 x7 x8) := by
  have hcell : val_main_v113 (F := Ideal) x0 x1 x3 x4 x5 x6 x7 x8
      = cellR (val_main_v75 (F := Ideal) x0 x1 x3 x4 x5 x6 x7 x8) (val_main_v62 (F := Ideal) x0 x1 x3 x4 x5 x6 x7 x8)
          (val_main_v25 (F := Ideal) x5) (val_main_v30 (F := Ideal) x6) x7 x8 := rfl
  have hagg : val_main_v75 (F := Ideal) x0 x1 x3 x4 x5 x6 x7 x8 = aggR x1 (val_main_v65 (F := Ideal) x0 x1 x3 x4 x5 x6 x7 x8) := rfl
  have hmsg : val_main_v65 (F := Ideal) x0 x1 x3 x4 x5 x6 x7 x8
      = Cert.Spec.msg (val_main_v62 (F := Ideal) x0 x1 x3 x4 x5 x6 x7 x8) (val_main_v64 (F := Ideal) x4) := msgR_eq _ _
  rw [hcell, cellR_eq, hagg, hmsg]
  rfl

/-- Round 3 of the reference: the message product of the previous state, its aggregation along the edges, and the gated cell. -/
theorem round3 (x0 : (⟨S100000x27, .f32⟩ : BufTy).Contents (Elt Ideal)) (x1 : (⟨S2x1600000, .i32⟩ : BufTy).Contents (Elt Ideal)) (x3 : (⟨S27x64, .f32⟩ : BufTy).Contents (Elt Ideal)) (x4 : (⟨S4x128x128, .f32⟩ : BufTy).Contents (Elt Ideal)) (x5 x6 : (⟨S384x128, .f32⟩ : BufTy).Contents (Elt Ideal)) (x7 x8 : (⟨S384, .f32⟩ : BufTy).Contents (Elt Ideal)) :
    val_main_v164 (F := Ideal) x0 x1 x3 x4 x5 x6 x7 x8
      = Cert.Spec.round (aggR x1) (val_main_v115 (F := Ideal) x4) (val_main_v25 (F := Ideal) x5) (val_main_v30 (F := Ideal) x6)
          (fun k => x7 (ix1 k)) (fun k => x8 (ix1 k)) (val_main_v113 (F := Ideal) x0 x1 x3 x4 x5 x6 x7 x8) := by
  have hcell : val_main_v164 (F := Ideal) x0 x1 x3 x4 x5 x6 x7 x8
      = cellR (val_main_v126 (F := Ideal) x0 x1 x3 x4 x5 x6 x7 x8) (val_main_v113 (F := Ideal) x0 x1 x3 x4 x5 x6 x7 x8)
          (val_main_v25 (F := Ideal) x5) (val_main_v30 (F := Ideal) x6) x7 x8 := rfl
  have hagg : val_main_v126 (F := Ideal) x0 x1 x3 x4 x5 x6 x7 x8 = aggR x1 (val_main_v116 (F := Ideal) x0 x1 x3 x4 x5 x6 x7 x8) := rfl
  have hmsg : val_main_v116 (F := Ideal) x0 x1 x3 x4 x5 x6 x7 x8
      = Cert.Spec.msg (val_main_v113 (F := Ideal) x0 x1 x3 x4 x5 x6 x7 x8) (val_main_v115 (F := Ideal) x4) := msgR_eq _ _
  rw [hcell, cellR_eq, hagg, hmsg]
  rfl

/-- Round 4 of the reference: the message product of the previous state, its aggregation along the edges, and the gated cell. -/
theorem round4 (x0 : (⟨S100000x27, .f32⟩ : BufTy).Contents (Elt Ideal)) (x1 : (⟨S2x1600000, .i32⟩ : BufTy).Contents (Elt Ideal)) (x3 : (⟨S27x64, .f32⟩ : BufTy).Contents (Elt Ideal)) (x4 : (⟨S4x128x128, .f32⟩ : BufTy).Contents (Elt Ideal)) (x5 x6 : (⟨S384x128, .f32⟩ : BufTy).Contents (Elt Ideal)) (x7 x8 : (⟨S384, .f32⟩ : BufTy).Contents (Elt Ideal)) :
    val_main_v215 (F := Ideal) x0 x1 x3 x4 x5 x6 x7 x8
      = Cert.Spec.round (aggR x1) (val_main_v166 (F := Ideal) x4) (val_main_v25 (F := Ideal) x5) (val_main_v30 (F := Ideal) x6)
          (fun k => x7 (ix1 k)) (fun k => x8 (ix1 k)) (val_main_v164 (F := Ideal) x0 x1 x3 x4 x5 x6 x7 x8) := by
  have hcell : val_main_v215 (F := Ideal) x0 x1 x3 x4 x5 x6 x7 x8
      = cellR (val_main_v177 (F := Ideal) x0 x1 x3 x4 x5 x6 x7 x8) (val_main_v164 (F := Ideal) x0 x1 x3 x4 x5 x6 x7 x8)
          (val_main_v25 (F := Ideal) x5) (val_main_v30 (F := Ideal) x6) x7 x8 := rfl
  have hagg : val_main_v177 (F := Ideal) x0 x1 x3 x4 x5 x6 x7 x8 = aggR x1 (val_main_v167 (F := Ideal) x0 x1 x3 x4 x5 x6 x7 x8) := rfl
  have hmsg : val_main_v167 (F := Ideal) x0 x1 x3 x4 x5 x6 x7 x8
      = Cert.Spec.msg (val_main_v164 (F := Ideal) x0 x1 x3 x4 x5 x6 x7 x8) (val_main_v166 (F := Ideal) x4) := msgR_eq _ _
  rw [hcell, cellR_eq, hagg, hmsg]
  rfl

end Cert.ReferenceIdeal.StageValue

end
-- ==== Proof.LibGatherRows.lean ====
/-
  A gather of whole rows of a table, read at an index.

  A table `T : [N, C]` gathered at a column `idx : [R, 1]` of start indices with offset_dims = [1],
  collapsed_slice_dims = [0], start_index_map = [0], index_vector_dim = 1 and slice sizes [1, C] has the result `[R, C]`
  whose row `e` is a row of the table. Read at `(e, j)` it is the table at `(r, j)`, where `r` is the start index
  `idx[e, 0]` read as a signed integer and clamped into `[0, N − 1]`: the one start-indexed axis is collapsed, so its
  slice has extent one and the clamp's upper end is `N − 1`; the column axis is the one offset axis, not start-indexed, so
  its slice starts at column 0 and the result's column coordinate is the table's.

  Stated for any dimension-numbers record with those field values (`gather_rows`), and for the record built from the
  extents and the well-formedness witness alone (`rowDims`, `gather_rowDims_apply`).
-/
import Idealize.ShloMosaic.PureOps.ShapeOps
import Idealize.ShloMosaic.Lib.ValueIdx

namespace Idealize.ShloMosaic.GatherRows

open Idealize.ShloMosaic Idealize.ShloMosaic.ValueIdx

/-- A list that is one entry long has that entry at every position it has. -/
theorem getElem_of_eq_singleton {β : Type} (l : List β) (b : β) (n : Nat) (h : n < l.length) (hl : l = [b]) : l[n] = b := by
  subst hl
  have : n = 0 := by simpa using h
  subst this; rfl

/-- THE ROW GATHER READ AT `(e, j)`. For dimension numbers over a table `[N, C]`, start indices `[R, 1]` and result
    `[R, C]` with offset axis 1, collapsed axis 0, no batching axes, start index map `[0]` and the index vector on axis 1
    (`hoff` … `hivd`: the record's field values; its conditions give the slice sizes `[1, C]`): the table at row
    `idx[e, 0]`, read signed and clamped into `[0, N − 1]`, column `j`. -/
theorem gather_rows {α : Type} {N R C w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (T : (⟨2, ![N, C]⟩ : Shape).Idx → α) (idx : IVec ⟨2, ![R, 1]⟩ w) (e : Fin R) (j : Fin C) (hN : 0 < N) :
    Host.gather d T idx (ix2 e j) = T (ix2 ⟨min (idx (ix2 e 0)).toInt.toNat (N - 1), by omega⟩ j) := by
  unfold Host.gather
  congr 1
  funext a
  apply Fin.ext
  have hb : ∀ a, a ∉ d.operandBatchingDims := fun a => by rw [hob]; exact List.not_mem_nil
  match a with
  | ⟨0, _⟩ =>
    -- the row axis: start-indexed and collapsed, so the coordinate is the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e j) idx 0 + d.batchCoord (ix2 e j) 0 + d.offCoord (ix2 e j) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 e 0)).toInt.toNat (N - 1)
    rw [hsl]
    congr 3
    congr 1
    -- the start-indices index of result index (e, j), component 0, is (e, 0)
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = _
        rw [hoff]; rfl
      rw [getElem_of_eq_singleton d.batchDims 0 _ _ hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: the one offset axis, not start-indexed, so the coordinate is the result's column
    have hk : (1 : Fin 2) ∈ d.sKept := by rw [GatherDims.mem_sKept, hcoll]; exact ⟨by simp, hb 1⟩
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1)]
    unfold GatherDims.start GatherDims.offCoord
    rw [dif_neg hm, dif_pos hk]
    simp only [Nat.add_zero, Nat.zero_add]
    rw [getElem_of_eq_singleton d.offsetDims 1 _ _ hoff]
    rfl

/-- Those dimension numbers for a table `[N, C]`, start indices `[R, 1]` and result `[R, C]`; their conditions `wf` are
    decided on literal extents. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather by `rowDims` read at `(e, j)`. -/
theorem gather_rowDims_apply {α : Type} {N R C w : Nat} (hN : 0 < N)
    (wf : GatherDims.WF ⟨2, ![N, C]⟩ ⟨2, ![R, 1]⟩ ⟨2, ![R, C]⟩ [1] [0] [] [0] [] 1 ![1, C])
    (T : (⟨2, ![N, C]⟩ : Shape).Idx → α) (idx : IVec ⟨2, ![R, 1]⟩ w) (e : Fin R) (j : Fin C) :
    Host.gather (rowDims N R C wf) T idx (ix2 e j) = T (ix2 ⟨min (idx (ix2 e 0)).toInt.toNat (N - 1), by omega⟩ j) :=
  gather_rows (rowDims N R C wf) rfl rfl rfl rfl rfl T idx e j hN

end Idealize.ShloMosaic.GatherRows
-- ==== Proof.RTail.lean ====
/-
  The reference's last stretch, read entry by entry: the embedding, the two linear heads on the rectified state, the
  softplus, the per-graph sums, the lookups of each node's graph, and the corrected mean.

  The state after the four rounds is never opened: every statement below holds for whatever array that stage is.
-/
import proofs.«400059_j34591666602133_1_alg».proof.Proof.RRead
import proofs.«400059_j34591666602133_1_alg».proof.Proof.Spec
import proofs.«400059_j34591666602133_1_alg».proof.Proof.LibScatterAddRows
import proofs.«400059_j34591666602133_1_alg».proof.Proof.LibGatherRows
import Idealize.ShloMosaic.Lib.IdealHost

noncomputable section

open scoped BigOperators

namespace Cert.ReferenceIdeal.StageValue

open Idealize.ShloMosaic Idealize.ShloMosaic.ValueIdx Cert.ReferenceIdeal Cert.ReferenceIdeal.Stage

variable (x0 : (⟨S100000x27, .f32⟩ : BufTy).Contents (Elt Ideal)) (x1 : (⟨S2x1600000, .i32⟩ : BufTy).Contents (Elt Ideal))
  (x2 : (⟨S100000, .i32⟩ : BufTy).Contents (Elt Ideal)) (x3 : (⟨S27x64, .f32⟩ : BufTy).Contents (Elt Ideal))
  (x4 : (⟨S4x128x128, .f32⟩ : BufTy).Contents (Elt Ideal)) (x5 x6 : (⟨S384x128, .f32⟩ : BufTy).Contents (Elt Ideal))
  (x7 x8 : (⟨S384, .f32⟩ : BufTy).Contents (Elt Ideal)) (x9 : (⟨S128x1, .f32⟩ : BufTy).Contents (Elt Ideal))
  (x10 : (⟨S1, .f32⟩ : BufTy).Contents (Elt Ideal)) (x11 : (⟨S128x1, .f32⟩ : BufTy).Contents (Elt Ideal))
  (x12 : (⟨S1, .f32⟩ : BufTy).Contents (Elt Ideal))

/-! ## The embedding -/

/-- The embedding stage is the specification's: a dense layer through one over one plus the exponential of the
    negated sum, which is the logistic. -/
theorem x1_eq : val_main_v6 (F := Ideal) x0 x3 = Cert.Spec.embed x0 x3 := by
  funext i
  obtain ⟨r, j, rfl⟩ : ∃ (r : Fin 100000) (j : Fin 64), i = ix2 r j := ⟨i 0, i 1, eq_ix2 i⟩
  have el : ∀ k : Fin 27, lidx_main_v0 (ix2 r j) k = ix2 r k := fun k => funext fun a => Fin.ext (by
    match a with | ⟨0, _⟩ => rfl | ⟨1, _⟩ => rfl)
  have er : ∀ k : Fin 27, ridx_main_v0 (ix2 r j) k = ix2 k j := fun k => funext fun a => Fin.ext (by
    match a with | ⟨0, _⟩ => rfl | ⟨1, _⟩ => rfl)
  rw [Cert.Spec.embed_apply, val_main_v6_apply, val_main_v5_apply, val_main_cst_0_apply, val_main_v4_apply,
    val_main_v3_apply, val_main_cst_apply, val_main_v2_apply, val_main_v1_apply, val_main_v0_apply]
  simp only [el, er, Ideal.hostDivf_def, Ideal.addf_def, Ideal.hostUnary_exp_def, Ideal.hostNegf_def, Ideal.negf_def,
    Ideal.ofBits_def, Ideal.ofBits_one_f32]
  rfl

/-! ## The two heads -/

/-- The rectified state at an entry: the maximum with zero. -/
theorem relu_apply (i : S100000x128.Idx) :
    val_main_v216 (F := Ideal) x0 x1 x3 x4 x5 x6 x7 x8 i = max (val_main_v215 (F := Ideal) x0 x1 x3 x4 x5 x6 x7 x8 i) 0 := by
  rw [val_main_v216_apply, val_main_call1_v0_apply, val_main_call1_cst_apply]
  simp only [Ideal.maximumf_def, Ideal.ofBits_def, Ideal.ofBits_zero_f32]

/-- The mean head's column at row n: the rectified row against the weight column, plus the bias. -/
theorem mean_col (n : Fin 100000) :
    val_main_v220 (F := Ideal) x0 x1 x3 x4 x5 x6 x7 x8 x9 x10 (ix2 n 0)
      = Cert.Spec.headAt (val_main_v215 (F := Ideal) x0 x1 x3 x4 x5 x6 x7 x8) (fun k => x9 (ix2 k 0)) (x10 (ix1 0)) n := by
  have el : ∀ k : Fin 128, lidx_main_v217 (ix2 n (0 : Fin 1)) k = ix2 n k := fun k => funext fun a => Fin.ext (by
    match a with | ⟨0, _⟩ => rfl | ⟨1, _⟩ => rfl)
  have er : ∀ k : Fin 128, ridx_main_v217 (ix2 n (0 : Fin 1)) k = ix2 k 0 := fun k => funext fun a => Fin.ext (by
    match a with | ⟨0, _⟩ => rfl | ⟨1, _⟩ => rfl)
  have eb : idx_main_v218 (idx_main_v219 (ix2 n (0 : Fin 1))) = ix1 0 := funext fun a => Fin.ext (by
    match a with | ⟨0, _⟩ => rfl)
  rw [val_main_v220_apply, val_main_v217_apply, val_main_v219_apply, val_main_v218_apply, eb]
  simp only [el, er, relu_apply, Ideal.addf_def]
  rfl

/-- The width head's column at row n, before the softplus. -/
theorem width_col (n : Fin 100000) :
    val_main_v224 (F := Ideal) x0 x1 x3 x4 x5 x6 x7 x8 x11 x12 (ix2 n 0)
      = Cert.Spec.headAt (val_main_v215 (F := Ideal) x0 x1 x3 x4 x5 x6 x7 x8) (fun k => x11 (ix2 k 0)) (x12 (ix1 0)) n := by
  have el : ∀ k : Fin 128, lidx_main_v221 (ix2 n (0 : Fin 1)) k = ix2 n k := fun k => funext fun a => Fin.ext (by
    match a with | ⟨0, _⟩ => rfl | ⟨1, _⟩ => rfl)
  have er : ∀ k : Fin 128, ridx_main_v221 (ix2 n (0 : Fin 1)) k = ix2 k 0 := fun k => funext fun a => Fin.ext (by
    match a with | ⟨0, _⟩ => rfl | ⟨1, _⟩ => rfl)
  have eb : idx_main_v222 (idx_main_v223 (ix2 n (0 : Fin 1))) = ix1 0 := funext fun a => Fin.ext (by
    match a with | ⟨0, _⟩ => rfl)
  rw [val_main_v224_apply, val_main_v221_apply, val_main_v223_apply, val_main_v222_apply, eb]
  simp only [el, er, relu_apply, Ideal.addf_def]
  rfl

/-! ## The softplus -/

/-- No extended real differs from itself: the guard's bit is zero. -/
theorem une_self (d : EReal) : FloatOps.cmpf (F := Ideal) (φ := .f32) .une d d = 0#1 := by
  show Ideal.cmp .une d d = 0#1
  simp [Ideal.cmp]

/-- The softplus call at an entry: the guard never fires, y − 0 is y, and the absolute value is the larger of y and −y. -/
theorem softplus_apply (i : S100000x1.Idx) :
    val_main_v225 (F := Ideal) x0 x1 x3 x4 x5 x6 x7 x8 x11 x12 i
      = Cert.Spec.softplus (val_main_v224 (F := Ideal) x0 x1 x3 x4 x5 x6 x7 x8 x11 x12 i) := by
  rw [val_main_v225_apply, val_main_call2_v4_apply, une_self, select_zero, val_main_call2_v11_apply,
    val_main_call2_v1_apply, val_main_call2_v10_apply, val_main_call2_v9_apply, val_main_call2_v8_apply,
    val_main_call2_v7_apply, val_main_call2_v3_apply, val_main_call2_v0_apply, val_main_call2_v2_apply,
    val_main_call2_cst_apply]
  simp only [Ideal.addf_def, Ideal.maximumf_def, Ideal.hostUnary_log1p_def, Ideal.hostUnary_exp_def, Ideal.hostNegf_def,
    Ideal.negf_def, Ideal.subf_def, Ideal.ofBits_def, Ideal.ofBits_zero_f32, sub_zero]
  rfl

/-- The width's column at row n. -/
theorem sig_col (n : Fin 100000) :
    val_main_v225 (F := Ideal) x0 x1 x3 x4 x5 x6 x7 x8 x11 x12 (ix2 n 0)
      = Cert.Spec.sigAt (val_main_v215 (F := Ideal) x0 x1 x3 x4 x5 x6 x7 x8) (fun k => x11 (ix2 k 0)) (x12 (ix1 0)) n := by
  rw [softplus_apply, width_col]
  rfl

/-! ## The per-graph sums -/

/-- The graph words laid out as a column: entry (n, 0) is word n. -/
theorem words_col (n : Fin 100000) : val_main_v227 (F := Ideal) x2 (ix2 n 0) = x2 (ix1 n) := by
  rw [val_main_v227_apply]
  exact congrArg x2 (funext fun a => Fin.ext (by
    match a with | ⟨0, _⟩ => rfl))

/-- The zero column the sums start from. -/
theorem zeros_col (g : Fin 512) : val_main_v226 (F := Ideal) (ix2 g 0) = 0 := by
  rw [val_main_v226_apply, val_main_cst_33_apply]
  exact Ideal.ofBits_zero_f32

/-- A column of values accumulated into a zero column by a column holding the graph words, read at graph g: the sum of
    the values of the nodes whose word reads g. -/
theorem seg_col (z : (⟨S512x1, .f32⟩ : BufTy).Contents (Elt Ideal)) (idx : (⟨S100000x1, .i32⟩ : BufTy).Contents (Elt Ideal))
    (u : (⟨S100000x1, .f32⟩ : BufTy).Contents (Elt Ideal)) (hz : ∀ g : Fin 512, z (ix2 g 0) = 0)
    (hidx : ∀ n : Fin 100000, idx (ix2 n 0) = x2 (ix1 n)) (g : Fin 512) :
    Host.scatterAdd (F := Ideal) (φ := .f32) scatter_S512x1_S100000x1_S100000x1_1_0_0_1 z idx u (ix2 g 0)
      = Cert.Spec.segAt x2 (fun n => u (ix2 n 0)) g := by
  refine (ScatterAddRows.scatterAdd_rows_apply Facts₀.scatter_S512x1_S100000x1_S100000x1_1_0_0_1_wf z idx u g 0).trans ?_
  rw [hz, zero_add]
  simp only [hidx]
  rfl

/-- The means summed per graph. -/
theorem musum_col (g : Fin 512) :
    val_main_v228 (F := Ideal) x0 x1 x2 x3 x4 x5 x6 x7 x8 x9 x10 (ix2 g 0)
      = Cert.Spec.segAt x2 (Cert.Spec.muAt (val_main_v215 (F := Ideal) x0 x1 x3 x4 x5 x6 x7 x8) (fun k => x9 (ix2 k 0)) (x10 (ix1 0))) g := by
  unfold val_main_v228
  rw [seg_col x2 _ _ _ zeros_col (words_col x2)]
  exact congrArg (fun v => Cert.Spec.segAt x2 v g) (funext fun n => mean_col x0 x1 x3 x4 x5 x6 x7 x8 x9 x10 n)

/-- The widths summed per graph. -/
theorem sigsum_col (g : Fin 512) :
    val_main_v231 (F := Ideal) x0 x1 x2 x3 x4 x5 x6 x7 x8 x11 x12 (ix2 g 0)
      = Cert.Spec.segAt x2 (Cert.Spec.sigAt (val_main_v215 (F := Ideal) x0 x1 x3 x4 x5 x6 x7 x8) (fun k => x11 (ix2 k 0)) (x12 (ix1 0))) g := by
  unfold val_main_v231
  rw [seg_col x2 _ _ _ (show ∀ g : Fin 512, val_main_v229 (F := Ideal) (ix2 g 0) = 0 from zeros_col)
    (show ∀ n : Fin 100000, val_main_v230 (F := Ideal) x2 (ix2 n 0) = x2 (ix1 n) from words_col x2)]
  exact congrArg (fun v => Cert.Spec.segAt x2 v g) (funext fun n => sig_col x0 x1 x3 x4 x5 x6 x7 x8 x11 x12 n)

/-! ## The lookups and the correction -/

/-- Each node's graph, as the reference looks it up: the wrapped graph word, read signed and clamped into [0, 511]. -/
def qR (x2 : (⟨S100000, .i32⟩ : BufTy).Contents (Elt Ideal)) (n : Fin 100000) : Fin 512 :=
  ⟨min (val_main_v237 (F := Ideal) x2 (ix2 n 0)).toInt.toNat 511, by omega⟩

/-- A 512-row column looked up by the wrapped graph words: row n is the column's entry at node n's graph. -/
theorem lookup_col (T : (⟨S512x1, .f32⟩ : BufTy).Contents (Elt Ideal)) (n : Fin 100000) :
    Host.gather gather_S512x1_S100000x1_S100000x1_1_0_n_n_0_1_11 T (val_main_v237 (F := Ideal) x2) (ix2 n 0)
      = T (ix2 (qR x2 n) 0) :=
  GatherRows.gather_rows gather_S512x1_S100000x1_S100000x1_1_0_n_n_0_1_11 rfl rfl rfl rfl rfl T
    (val_main_v237 (F := Ideal) x2) n 0 (by decide)

/-- The means' sum of node n's graph. -/
theorem musum_look (n : Fin 100000) :
    val_main_v238 (F := Ideal) x0 x1 x2 x3 x4 x5 x6 x7 x8 x9 x10 (ix2 n 0)
      = Cert.Spec.segAt x2 (Cert.Spec.muAt (val_main_v215 (F := Ideal) x0 x1 x3 x4 x5 x6 x7 x8) (fun k => x9 (ix2 k 0)) (x10 (ix1 0))) (qR x2 n) := by
  unfold val_main_v238
  rw [lookup_col, musum_col]

/-- The widths' sum of node n's graph: the second lookup goes through the same column of wrapped words. -/
theorem sigsum_look (n : Fin 100000) :
    val_main_v245 (F := Ideal) x0 x1 x2 x3 x4 x5 x6 x7 x8 x11 x12 (ix2 n 0)
      = Cert.Spec.segAt x2 (Cert.Spec.sigAt (val_main_v215 (F := Ideal) x0 x1 x3 x4 x5 x6 x7 x8) (fun k => x11 (ix2 k 0)) (x12 (ix1 0))) (qR x2 n) := by
  unfold val_main_v245
  rw [show val_main_v244 (F := Ideal) x2 = val_main_v237 (F := Ideal) x2 from rfl, lookup_col, sigsum_col]

/-- The corrected mean's column at row n. -/
theorem muc_col (n : Fin 100000) :
    val_main_v248 (F := Ideal) x0 x1 x2 x3 x4 x5 x6 x7 x8 x9 x10 x11 x12 (ix2 n 0)
      = Cert.Spec.mucAt x2 (qR x2) (val_main_v215 (F := Ideal) x0 x1 x3 x4 x5 x6 x7 x8) (fun k => x9 (ix2 k 0)) (x10 (ix1 0)) (fun k => x11 (ix2 k 0)) (x12 (ix1 0)) n := by
  rw [val_main_v248_apply, val_main_v247_apply, val_main_v246_apply, mean_col, musum_look, sig_col, sigsum_look]
  simp only [Ideal.subf_def, Ideal.mulf_def, Ideal.hostDivf_def]
  rfl

/-! ## The three results, as vectors -/

/-- A column [100000, 1] flattened to a vector reads, at n, the column's entry (n, 0). -/
theorem flat_idx (n : Fin 100000) : idx_main_v249 (ix1 n) = ix2 n 0 := funext fun a => Fin.ext (by
  match a with | ⟨0, _⟩ => exact Nat.div_one _ | ⟨1, _⟩ => rfl)

/-- The uncorrected mean. -/
theorem mu_eq : val_main_v251 (F := Ideal) x0 x1 x3 x4 x5 x6 x7 x8 x9 x10
    = fun i => Cert.Spec.muAt (val_main_v215 (F := Ideal) x0 x1 x3 x4 x5 x6 x7 x8) (fun k => x9 (ix2 k 0)) (x10 (ix1 0)) (i 0) := by
  funext i
  obtain ⟨n, rfl⟩ : ∃ n : Fin 100000, i = ix1 n := ⟨i 0, eq_ix1 i⟩
  rw [val_main_v251_apply, show idx_main_v251 (ix1 n) = ix2 n 0 from flat_idx n, mean_col]
  rfl

/-- The width. -/
theorem sig_eq : val_main_v250 (F := Ideal) x0 x1 x3 x4 x5 x6 x7 x8 x11 x12
    = fun i => Cert.Spec.sigAt (val_main_v215 (F := Ideal) x0 x1 x3 x4 x5 x6 x7 x8) (fun k => x11 (ix2 k 0)) (x12 (ix1 0)) (i 0) := by
  funext i
  obtain ⟨n, rfl⟩ : ∃ n : Fin 100000, i = ix1 n := ⟨i 0, eq_ix1 i⟩
  rw [val_main_v250_apply, show idx_main_v250 (ix1 n) = ix2 n 0 from flat_idx n, sig_col]

/-- The corrected mean. -/
theorem muc_eq : val_main_v249 (F := Ideal) x0 x1 x2 x3 x4 x5 x6 x7 x8 x9 x10 x11 x12
    = fun i => Cert.Spec.mucAt x2 (qR x2) (val_main_v215 (F := Ideal) x0 x1 x3 x4 x5 x6 x7 x8) (fun k => x9 (ix2 k 0)) (x10 (ix1 0)) (fun k => x11 (ix2 k 0)) (x12 (ix1 0)) (i 0) := by
  funext i
  obtain ⟨n, rfl⟩ : ∃ n : Fin 100000, i = ix1 n := ⟨i 0, eq_ix1 i⟩
  rw [val_main_v249_apply, flat_idx n, muc_col]

end Cert.ReferenceIdeal.StageValue

end
-- ==== Proof.RStages.lean ====
import proofs.«400059_j34591666602133_1_alg».proof.Proof.RRun
import proofs.«400059_j34591666602133_1_alg».proof.Proof.RRead

/-!
# The reference's run, read as its named stages

`RunFold.run_fold` leaves every buffer of a core at the fold `after ops` of @main's 309 host operations over the
core's launch contents. Here that fold is evaluated at the four result buffers and at the thirteen arguments:

* at a result buffer `%N` it is the stage function `val_main_vN` of the launch contents of the arguments;
* at an argument it is the launch contents themselves (no operation writes an argument).

The operations come in five lines `ops0 … ops4`, so the fold is five folds in a row. `V1 … V5` are the contents
after the first one, …, five lines. For each boundary we prove, for every buffer that a later line (or the end)
still reads, that it holds its named stage; a line's proof unfolds only the operations of that line and takes
the buffers it reads from earlier lines as the named stages already established there. A buffer that a line does
not write is carried through it unchanged.
-/

set_option maxRecDepth 16384
set_option maxHeartbeats 2000000

noncomputable section

namespace Cert.ReferenceIdeal.StageValue

open Idealize.ShloMosaic Idealize.ShloMosaic.TcCoe Idealize.ShloMosaic.StableHlo Idealize.SL.Sem Cert.ReferenceIdeal Cert.ReferenceIdeal.RunFold Cert.ReferenceIdeal.Stage

variable (m : (ℓ : Loc nD τ sig) → Buf (Elt Ideal) ℓ) (c : Dev nD)

/-! ## The arguments and the buffers each line writes -/

/-- @main's thirteen arguments. -/
abbrev Args : List (Ref sig .tc) :=
  [main_arg0, main_arg1, main_arg2, main_arg3, main_arg4, main_arg5, main_arg6, main_arg7, main_arg8, main_arg9,
   main_arg10, main_arg11, main_arg12]

-- the launch contents of the arguments on core `c`
set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)
local notation "a12" => m ((c.tc : Thread nD τ).loc main_arg12)
set_option quotPrecheck true

/-- The buffers the first line writes: `%0 … %50` with their constants, the padding value of `@_pad` among them. -/
abbrev W0 : List (Ref sig .tc) :=
  [main_v0, main_v1, main_v2, main_cst, main_v3, main_v4, main_cst_0, main_v5, main_v6, main_c, main_call0_v0, main_v7,
   main_v8, main_v9, main_v10, main_v11, main_v12, main_v13, main_v14, main_c_1, main_v15, main_v16, main_c_2, main_v17,
   main_v18, main_v19, main_v20, main_v21, main_cst_3, main_v22, main_v23, main_v24, main_v25, main_v26, main_v27,
   main_v28, main_v29, main_v30, main_v31, main_v32, main_v33, main_v34, main_v35, main_v36, main_v37, main_v38,
   main_v39, main_v40, main_v41, main_v42, main_v43, main_cst_4, main_v44, main_v45, main_cst_5, main_v46, main_v47,
   main_v48, main_v49, main_v50, main_cst_6]

/-- The buffers the second line writes: `%51 … %102` with their constants. -/
abbrev W1 : List (Ref sig .tc) :=
  [main_v51, main_v52, main_cst_7, main_v53, main_v54, main_v55, main_v56, main_v57, main_cst_8, main_v58, main_v59,
   main_v60, main_v61, main_v62, main_v63, main_v64, main_v65, main_c_9, main_v66, main_v67, main_c_10, main_v68,
   main_v69, main_v70, main_v71, main_v72, main_cst_11, main_v73, main_v74, main_v75, main_v76, main_v77, main_v78,
   main_v79, main_v80, main_v81, main_v82, main_v83, main_v84, main_v85, main_v86, main_v87, main_v88, main_v89,
   main_v90, main_v91, main_v92, main_v93, main_v94, main_cst_12, main_v95, main_v96, main_cst_13, main_v97, main_v98,
   main_v99, main_v100, main_v101, main_cst_14, main_v102]

/-- The buffers the third line writes: `%103 … %154` with their constants. -/
abbrev W2 : List (Ref sig .tc) :=
  [main_v103, main_cst_15, main_v104, main_v105, main_v106, main_v107, main_v108, main_cst_16, main_v109, main_v110,
   main_v111, main_v112, main_v113, main_v114, main_v115, main_v116, main_c_17, main_v117, main_v118, main_c_18,
   main_v119, main_v120, main_v121, main_v122, main_v123, main_cst_19, main_v124, main_v125, main_v126, main_v127,
   main_v128, main_v129, main_v130, main_v131, main_v132, main_v133, main_v134, main_v135, main_v136, main_v137,
   main_v138, main_v139, main_v140, main_v141, main_v142, main_v143, main_v144, main_v145, main_cst_20, main_v146,
   main_v147, main_cst_21, main_v148, main_v149, main_v150, main_v151, main_v152, main_cst_22, main_v153, main_v154]

/-- The buffers the fourth line writes: `%155 … %205` with their constants. -/
abbrev W3 : List (Ref sig .tc) :=
  [main_cst_23, main_v155, main_v156, main_v157, main_v158, main_v159, main_cst_24, main_v160, main_v161, main_v162,
   main_v163, main_v164, main_v165, main_v166, main_v167, main_c_25, main_v168, main_v169, main_c_26, main_v170,
   main_v171, main_v172, main_v173, main_v174, main_cst_27, main_v175, main_v176, main_v177, main_v178, main_v179,
   main_v180, main_v181, main_v182, main_v183, main_v184, main_v185, main_v186, main_v187, main_v188, main_v189,
   main_v190, main_v191, main_v192, main_v193, main_v194, main_v195, main_v196, main_cst_28, main_v197, main_v198,
   main_cst_29, main_v199, main_v200, main_v201, main_v202, main_v203, main_cst_30, main_v204, main_v205, main_cst_31]

/-- The buffers the fifth line writes: `%206 … %251` with their constants and the values of `@relu` and `@softplus`. -/
abbrev W4 : List (Ref sig .tc) :=
  [main_v206, main_v207, main_v208, main_v209, main_v210, main_cst_32, main_v211, main_v212, main_v213, main_v214,
   main_v215, main_call1_cst, main_call1_v0, main_v216, main_v217, main_v218, main_v219, main_v220, main_v221,
   main_v222, main_v223, main_v224, main_call2_cst, main_call2_v0, main_call2_v1, main_call2_v2, main_call2_v3,
   main_call2_v4, main_call2_v5, main_call2_v6, main_call2_v7, main_call2_v8, main_call2_v9, main_call2_v10,
   main_call2_v11, main_v225, main_cst_33, main_v226, main_v227, main_v228, main_cst_34, main_v229, main_v230,
   main_v231, main_c_35, main_v232, main_v233, main_c_36, main_v234, main_v235, main_v236, main_v237, main_v238,
   main_c_37, main_v239, main_v240, main_c_38, main_v241, main_v242, main_v243, main_v244, main_v245, main_v246,
   main_v247, main_v248, main_v249, main_v250, main_v251]

/-- Each operation of a literal line writes one buffer, and that buffer is in the given list: operation by
    operation, the written set is the singleton of its result and the result is found in the list. -/
local macro "writes_in_list" : tactic =>
  `(tactic| (intro _ h
             (repeat (cases h with
               | head => exact (by
                   simp only [nullary_writes, unary_writes, binary_writes, ternary_writes, reshape_writes,
                     Finset.singleton_subset_iff, List.mem_toFinset]
                   exact List.mem_map_of_mem (by decide))
               | tail _ h => ?_))
             exact nomatch h))

theorem ops0_writes : (ops0 : List (HloOp τ sig (Elt Ideal))).Forall fun op =>
    op.writes ⊆ (W0.map (Proc.devRef (τ := τ) .tc)).toFinset :=
  List.forall_iff_forall_mem.mpr (by writes_in_list)
theorem ops1_writes : (ops1 : List (HloOp τ sig (Elt Ideal))).Forall fun op =>
    op.writes ⊆ (W1.map (Proc.devRef (τ := τ) .tc)).toFinset :=
  List.forall_iff_forall_mem.mpr (by writes_in_list)
theorem ops2_writes : (ops2 : List (HloOp τ sig (Elt Ideal))).Forall fun op =>
    op.writes ⊆ (W2.map (Proc.devRef (τ := τ) .tc)).toFinset :=
  List.forall_iff_forall_mem.mpr (by writes_in_list)
theorem ops3_writes : (ops3 : List (HloOp τ sig (Elt Ideal))).Forall fun op =>
    op.writes ⊆ (W3.map (Proc.devRef (τ := τ) .tc)).toFinset :=
  List.forall_iff_forall_mem.mpr (by writes_in_list)
theorem ops4_writes : (ops4 : List (HloOp τ sig (Elt Ideal))).Forall fun op =>
    op.writes ⊆ (W4.map (Proc.devRef (τ := τ) .tc)).toFinset :=
  List.forall_iff_forall_mem.mpr (by writes_in_list)

/-- No line writes an argument. -/
theorem args_not_written : ∀ r ∈ Args, r ∉ W0 ∧ r ∉ W1 ∧ r ∉ W2 ∧ r ∉ W3 ∧ r ∉ W4 := by decide

/-! ## After the first line

The first line embeds (`%0 … %6`: the logistic of `x @ w`), pads to 128 columns (`%7`), splits the edge words into
their two rows (`%9`, `%11`) and runs the first round up to the exponential of its second gate (`%50`). -/

/-- The contents after the first line. -/
def V1 : Valuation τ sig (Elt Ideal) := after ops0 (launchContents m c)

/-- A buffer the first line does not write still holds its launch contents. -/
theorem V1_keep (r : Ref sig .tc) (h : r ∉ W0) : V1 m c (Proc.devRef .tc r) = launchContents m c (Proc.devRef .tc r) :=
  after_of_writes_sub ops0 _ ops0_writes h

theorem V1_arg (r : Ref sig .tc) (hr : r ∈ Args) : V1 m c (Proc.devRef .tc r) = m ((c.tc : Thread nD τ).loc r) :=
  V1_keep m c r (args_not_written r hr).1

theorem V1_v6 : V1 m c (Proc.devRef .tc main_v6) = val_main_v6 (F := Ideal) a0 a3 := by
  unfold V1
  after_results_simp
  rfl

theorem V1_v7 : V1 m c (Proc.devRef .tc main_v7) = val_main_v7 (F := Ideal) a0 a3 := by
  unfold V1
  after_results_simp
  rfl

theorem V1_v9 : V1 m c (Proc.devRef .tc main_v9) = val_main_v9 (F := Ideal) a1 := by
  unfold V1
  after_results_simp
  rfl

theorem V1_v11 : V1 m c (Proc.devRef .tc main_v11) = val_main_v11 (F := Ideal) a1 := by
  unfold V1
  after_results_simp
  rfl

theorem V1_v37 : V1 m c (Proc.devRef .tc main_v37) = val_main_v37 (F := Ideal) a0 a1 a3 a4 a5 a7 := by
  unfold V1
  after_results_simp
  rfl

theorem V1_v40 : V1 m c (Proc.devRef .tc main_v40) = val_main_v40 (F := Ideal) a0 a3 a6 a8 := by
  unfold V1
  after_results_simp
  rfl

theorem V1_v47 : V1 m c (Proc.devRef .tc main_v47) = val_main_v47 (F := Ideal) a0 a1 a3 a4 a5 a6 a7 a8 := by
  unfold V1
  after_results_simp
  rfl

theorem V1_v50 : V1 m c (Proc.devRef .tc main_v50) = val_main_v50 (F := Ideal) a0 a1 a3 a4 a5 a6 a7 a8 := by
  unfold V1
  after_results_simp
  rfl

theorem V1_cst_6 : V1 m c (Proc.devRef .tc main_cst_6) = val_main_cst_6 (F := Ideal) := by
  unfold V1
  after_results_simp
  rfl

/-! ## After the second line

The second line finishes the first round (the state `%62`) and runs the second round up to the exponential of its
second gate (`%101`) and the one it is added to (`%102`). It reads, of the first line, the padded embedding `%7`,
the three gate terms `%37`, `%40`, `%47`, the exponential `%50` with the constant beside it, and the edge words. -/

/-- The contents after the first two lines. -/
def V2 : Valuation τ sig (Elt Ideal) := after ops1 (V1 m c)

/-- A buffer the second line does not write is carried through it. -/
theorem V2_keep (r : Ref sig .tc) (h : r ∉ W1) : V2 m c (Proc.devRef .tc r) = V1 m c (Proc.devRef .tc r) :=
  after_of_writes_sub ops1 _ ops1_writes h

theorem V2_arg (r : Ref sig .tc) (hr : r ∈ Args) : V2 m c (Proc.devRef .tc r) = m ((c.tc : Thread nD τ).loc r) :=
  (V2_keep m c r (args_not_written r hr).2.1).trans (V1_arg m c r hr)

theorem V2_v6 : V2 m c (Proc.devRef .tc main_v6) = val_main_v6 (F := Ideal) a0 a3 :=
  (V2_keep m c main_v6 (by decide)).trans (V1_v6 m c)

theorem V2_v9 : V2 m c (Proc.devRef .tc main_v9) = val_main_v9 (F := Ideal) a1 :=
  (V2_keep m c main_v9 (by decide)).trans (V1_v9 m c)

theorem V2_v11 : V2 m c (Proc.devRef .tc main_v11) = val_main_v11 (F := Ideal) a1 :=
  (V2_keep m c main_v11 (by decide)).trans (V1_v11 m c)

theorem V2_v62 : V2 m c (Proc.devRef .tc main_v62) = val_main_v62 (F := Ideal) a0 a1 a3 a4 a5 a6 a7 a8 := by
  unfold V2
  after_results_simp
  simp only [V1_v7 m c, V1_v37 m c, V1_v40 m c, V1_v47 m c, V1_v50 m c, V1_cst_6 m c]
  rfl

theorem V2_v88 : V2 m c (Proc.devRef .tc main_v88) = val_main_v88 (F := Ideal) a0 a1 a3 a4 a5 a6 a7 a8 := by
  unfold V2
  after_results_simp
  simp only [V1_v7 m c, V1_v9 m c, V1_v11 m c, V1_v37 m c, V1_v40 m c, V1_v47 m c, V1_v50 m c, V1_cst_6 m c,
    V1_arg m c main_arg4 (by decide), V1_arg m c main_arg5 (by decide), V1_arg m c main_arg7 (by decide)]
  rfl

theorem V2_v91 : V2 m c (Proc.devRef .tc main_v91) = val_main_v91 (F := Ideal) a0 a1 a3 a4 a5 a6 a7 a8 := by
  unfold V2
  after_results_simp
  simp only [V1_v7 m c, V1_v37 m c, V1_v40 m c, V1_v47 m c, V1_v50 m c, V1_cst_6 m c,
    V1_arg m c main_arg6 (by decide), V1_arg m c main_arg8 (by decide)]
  rfl

theorem V2_v98 : V2 m c (Proc.devRef .tc main_v98) = val_main_v98 (F := Ideal) a0 a1 a3 a4 a5 a6 a7 a8 := by
  unfold V2
  after_results_simp
  simp only [V1_v7 m c, V1_v9 m c, V1_v11 m c, V1_v37 m c, V1_v40 m c, V1_v47 m c, V1_v50 m c, V1_cst_6 m c,
    V1_arg m c main_arg4 (by decide), V1_arg m c main_arg5 (by decide), V1_arg m c main_arg6 (by decide),
    V1_arg m c main_arg7 (by decide), V1_arg m c main_arg8 (by decide)]
  rfl

theorem V2_v101 : V2 m c (Proc.devRef .tc main_v101) = val_main_v101 (F := Ideal) a0 a1 a3 a4 a5 a6 a7 a8 := by
  unfold V2
  after_results_simp
  simp only [V1_v7 m c, V1_v9 m c, V1_v11 m c, V1_v37 m c, V1_v40 m c, V1_v47 m c, V1_v50 m c, V1_cst_6 m c,
    V1_arg m c main_arg4 (by decide), V1_arg m c main_arg5 (by decide), V1_arg m c main_arg6 (by decide),
    V1_arg m c main_arg7 (by decide), V1_arg m c main_arg8 (by decide)]
  rfl

theorem V2_v102 : V2 m c (Proc.devRef .tc main_v102) = val_main_v102 (F := Ideal) := by
  unfold V2
  after_results_simp
  rfl

/-! ## After the third line

The third line finishes the second round (the state `%113`) and runs the third round up to the sum under its
second gate (`%154`). It reads, of the second line, the state `%62`, the gate terms `%88`, `%91`, `%98` and the
exponential `%101` with the constant `%102` beside it; the edge words come from the first line. -/

/-- The contents after the first three lines. -/
def V3 : Valuation τ sig (Elt Ideal) := after ops2 (V2 m c)

/-- A buffer the third line does not write is carried through it. -/
theorem V3_keep (r : Ref sig .tc) (h : r ∉ W2) : V3 m c (Proc.devRef .tc r) = V2 m c (Proc.devRef .tc r) :=
  after_of_writes_sub ops2 _ ops2_writes h

theorem V3_arg (r : Ref sig .tc) (hr : r ∈ Args) : V3 m c (Proc.devRef .tc r) = m ((c.tc : Thread nD τ).loc r) :=
  (V3_keep m c r (args_not_written r hr).2.2.1).trans (V2_arg m c r hr)

theorem V3_v6 : V3 m c (Proc.devRef .tc main_v6) = val_main_v6 (F := Ideal) a0 a3 :=
  (V3_keep m c main_v6 (by decide)).trans (V2_v6 m c)

theorem V3_v9 : V3 m c (Proc.devRef .tc main_v9) = val_main_v9 (F := Ideal) a1 :=
  (V3_keep m c main_v9 (by decide)).trans (V2_v9 m c)

theorem V3_v11 : V3 m c (Proc.devRef .tc main_v11) = val_main_v11 (F := Ideal) a1 :=
  (V3_keep m c main_v11 (by decide)).trans (V2_v11 m c)

theorem V3_v113 : V3 m c (Proc.devRef .tc main_v113) = val_main_v113 (F := Ideal) a0 a1 a3 a4 a5 a6 a7 a8 := by
  unfold V3
  after_results_simp
  simp only [V2_v62 m c, V2_v88 m c, V2_v91 m c, V2_v98 m c, V2_v101 m c, V2_v102 m c]
  rfl

theorem V3_v139 : V3 m c (Proc.devRef .tc main_v139) = val_main_v139 (F := Ideal) a0 a1 a3 a4 a5 a6 a7 a8 := by
  unfold V3
  after_results_simp
  simp only [V2_v9 m c, V2_v11 m c, V2_v62 m c, V2_v88 m c, V2_v91 m c, V2_v98 m c, V2_v101 m c, V2_v102 m c,
    V2_arg m c main_arg4 (by decide), V2_arg m c main_arg5 (by decide), V2_arg m c main_arg7 (by decide)]
  rfl

theorem V3_v142 : V3 m c (Proc.devRef .tc main_v142) = val_main_v142 (F := Ideal) a0 a1 a3 a4 a5 a6 a7 a8 := by
  unfold V3
  after_results_simp
  simp only [V2_v62 m c, V2_v88 m c, V2_v91 m c, V2_v98 m c, V2_v101 m c, V2_v102 m c,
    V2_arg m c main_arg6 (by decide), V2_arg m c main_arg8 (by decide)]
  rfl

theorem V3_v149 : V3 m c (Proc.devRef .tc main_v149) = val_main_v149 (F := Ideal) a0 a1 a3 a4 a5 a6 a7 a8 := by
  unfold V3
  after_results_simp
  simp only [V2_v9 m c, V2_v11 m c, V2_v62 m c, V2_v88 m c, V2_v91 m c, V2_v98 m c, V2_v101 m c, V2_v102 m c,
    V2_arg m c main_arg4 (by decide), V2_arg m c main_arg5 (by decide), V2_arg m c main_arg6 (by decide),
    V2_arg m c main_arg7 (by decide), V2_arg m c main_arg8 (by decide)]
  rfl

theorem V3_v154 : V3 m c (Proc.devRef .tc main_v154) = val_main_v154 (F := Ideal) a0 a1 a3 a4 a5 a6 a7 a8 := by
  unfold V3
  after_results_simp
  simp only [V2_v9 m c, V2_v11 m c, V2_v62 m c, V2_v88 m c, V2_v91 m c, V2_v98 m c, V2_v101 m c, V2_v102 m c,
    V2_arg m c main_arg4 (by decide), V2_arg m c main_arg5 (by decide), V2_arg m c main_arg6 (by decide),
    V2_arg m c main_arg7 (by decide), V2_arg m c main_arg8 (by decide)]
  rfl

/-! ## After the fourth line

The fourth line finishes the third round (the state `%164`) and runs the fourth round up to the sum under its
second gate (`%205`) and the constant for the next division. It reads, of the third line, the state `%113`, the gate
terms `%139`, `%142`, `%149` and the sum `%154`; the edge words come from the first line and are not read after it. -/

/-- The contents after the first four lines. -/
def V4 : Valuation τ sig (Elt Ideal) := after ops3 (V3 m c)

/-- A buffer the fourth line does not write is carried through it. -/
theorem V4_keep (r : Ref sig .tc) (h : r ∉ W3) : V4 m c (Proc.devRef .tc r) = V3 m c (Proc.devRef .tc r) :=
  after_of_writes_sub ops3 _ ops3_writes h

theorem V4_arg (r : Ref sig .tc) (hr : r ∈ Args) : V4 m c (Proc.devRef .tc r) = m ((c.tc : Thread nD τ).loc r) :=
  (V4_keep m c r (args_not_written r hr).2.2.2.1).trans (V3_arg m c r hr)

theorem V4_v6 : V4 m c (Proc.devRef .tc main_v6) = val_main_v6 (F := Ideal) a0 a3 :=
  (V4_keep m c main_v6 (by decide)).trans (V3_v6 m c)

theorem V4_v164 : V4 m c (Proc.devRef .tc main_v164) = val_main_v164 (F := Ideal) a0 a1 a3 a4 a5 a6 a7 a8 := by
  unfold V4
  after_results_simp
  simp only [V3_v113 m c, V3_v139 m c, V3_v142 m c, V3_v149 m c, V3_v154 m c]
  rfl

theorem V4_v190 : V4 m c (Proc.devRef .tc main_v190) = val_main_v190 (F := Ideal) a0 a1 a3 a4 a5 a6 a7 a8 := by
  unfold V4
  after_results_simp
  simp only [V3_v9 m c, V3_v11 m c, V3_v113 m c, V3_v139 m c, V3_v142 m c, V3_v149 m c, V3_v154 m c,
    V3_arg m c main_arg4 (by decide), V3_arg m c main_arg5 (by decide), V3_arg m c main_arg7 (by decide)]
  rfl

theorem V4_v193 : V4 m c (Proc.devRef .tc main_v193) = val_main_v193 (F := Ideal) a0 a1 a3 a4 a5 a6 a7 a8 := by
  unfold V4
  after_results_simp
  simp only [V3_v113 m c, V3_v139 m c, V3_v142 m c, V3_v149 m c, V3_v154 m c,
    V3_arg m c main_arg6 (by decide), V3_arg m c main_arg8 (by decide)]
  rfl

theorem V4_v200 : V4 m c (Proc.devRef .tc main_v200) = val_main_v200 (F := Ideal) a0 a1 a3 a4 a5 a6 a7 a8 := by
  unfold V4
  after_results_simp
  simp only [V3_v9 m c, V3_v11 m c, V3_v113 m c, V3_v139 m c, V3_v142 m c, V3_v149 m c, V3_v154 m c,
    V3_arg m c main_arg4 (by decide), V3_arg m c main_arg5 (by decide), V3_arg m c main_arg6 (by decide),
    V3_arg m c main_arg7 (by decide), V3_arg m c main_arg8 (by decide)]
  rfl

theorem V4_v205 : V4 m c (Proc.devRef .tc main_v205) = val_main_v205 (F := Ideal) a0 a1 a3 a4 a5 a6 a7 a8 := by
  unfold V4
  after_results_simp
  simp only [V3_v9 m c, V3_v11 m c, V3_v113 m c, V3_v139 m c, V3_v142 m c, V3_v149 m c, V3_v154 m c,
    V3_arg m c main_arg4 (by decide), V3_arg m c main_arg5 (by decide), V3_arg m c main_arg6 (by decide),
    V3_arg m c main_arg7 (by decide), V3_arg m c main_arg8 (by decide)]
  rfl

theorem V4_cst_31 : V4 m c (Proc.devRef .tc main_cst_31) = val_main_cst_31 (F := Ideal) := by
  unfold V4
  after_results_simp
  rfl

/-! ## After the fifth line

The fifth line finishes the fourth round (the state `%215`), takes its positive part, applies the two linear heads
(`%220`, `%224`), the softplus of the second (`%225`), the two per-graph sums with their gathers back to the nodes
and the closing arithmetic; the three results are reshapes of `%248`, `%225` and `%220`. It reads, of the fourth
line, the state `%164`, the gate terms `%190`, `%193`, `%200`, the sum `%205` and the constant beside it. -/

/-- The contents after all five lines. -/
def V5 : Valuation τ sig (Elt Ideal) := after ops4 (V4 m c)

/-- A buffer the fifth line does not write is carried through it. -/
theorem V5_keep (r : Ref sig .tc) (h : r ∉ W4) : V5 m c (Proc.devRef .tc r) = V4 m c (Proc.devRef .tc r) :=
  after_of_writes_sub ops4 _ ops4_writes h

theorem V5_arg (r : Ref sig .tc) (hr : r ∈ Args) : V5 m c (Proc.devRef .tc r) = m ((c.tc : Thread nD τ).loc r) :=
  (V5_keep m c r (args_not_written r hr).2.2.2.2).trans (V4_arg m c r hr)

theorem V5_v6 : V5 m c (Proc.devRef .tc main_v6) = val_main_v6 (F := Ideal) a0 a3 :=
  (V5_keep m c main_v6 (by decide)).trans (V4_v6 m c)

/-! ### The called functions' typed buffers

`@relu` and `@softplus` read and write their buffers at the type of the tensor value; stored in the buffer and read
back, a value is unchanged, and at a literal buffer the passage between the two types is the identity. -/

/-- Contents at a value's type, stored in its buffer and read back: the value. -/
theorem ofBuf_toBuf {T : BufTy} (x : TRef sig T) (v : T.Contents (Elt Ideal)) : x.ofBuf (x.toBuf v) = v := by
  obtain ⟨r, h, _, _⟩ := x
  subst h
  rfl

/-- The state `%215` read at `@relu`'s argument type is itself. -/
theorem ofBuf_v215 (h1 h2 h3) (v : (⟨S100000x128, .f32⟩ : BufTy).Contents (Elt Ideal)) :
    (TRef.of (sig := sig) (T := ⟨S100000x128, .f32⟩) main_v215 h1 h2 h3).ofBuf (Val := Elt Ideal) v = v := rfl

/-- `@relu`'s result stored in `%216` is itself. -/
theorem toBuf_v216 (h1 h2 h3) (v : (⟨S100000x128, .f32⟩ : BufTy).Contents (Elt Ideal)) :
    (TRef.of (sig := sig) (T := ⟨S100000x128, .f32⟩) main_v216 h1 h2 h3).toBuf (Val := Elt Ideal) v = v := rfl

/-- The second head `%224` read at `@softplus`'s argument type is itself. -/
theorem ofBuf_v224 (h1 h2 h3) (v : (⟨S100000x1, .f32⟩ : BufTy).Contents (Elt Ideal)) :
    (TRef.of (sig := sig) (T := ⟨S100000x1, .f32⟩) main_v224 h1 h2 h3).ofBuf (Val := Elt Ideal) v = v := rfl

/-- `@softplus`'s result stored in `%225` is itself. -/
theorem toBuf_v225 (h1 h2 h3) (v : (⟨S100000x1, .f32⟩ : BufTy).Contents (Elt Ideal)) :
    (TRef.of (sig := sig) (T := ⟨S100000x1, .f32⟩) main_v225 h1 h2 h3).toBuf (Val := Elt Ideal) v = v := rfl

theorem V5_v251 : V5 m c (Proc.devRef .tc main_v251) = val_main_v251 (F := Ideal) a0 a1 a3 a4 a5 a6 a7 a8 a9 a10 := by
  unfold V5
  after_results_simp
  simp only [ofBuf_toBuf, ofBuf_v215, toBuf_v216, V4_v164 m c, V4_v190 m c, V4_v193 m c, V4_v200 m c, V4_v205 m c,
    V4_cst_31 m c, V4_arg m c main_arg9 (by decide), V4_arg m c main_arg10 (by decide)]
  rfl

theorem V5_v250 : V5 m c (Proc.devRef .tc main_v250) = val_main_v250 (F := Ideal) a0 a1 a3 a4 a5 a6 a7 a8 a11 a12 := by
  unfold V5
  after_results_simp
  simp only [ofBuf_toBuf, ofBuf_v215, toBuf_v216, ofBuf_v224, toBuf_v225, V4_v164 m c, V4_v190 m c, V4_v193 m c,
    V4_v200 m c, V4_v205 m c, V4_cst_31 m c, V4_arg m c main_arg11 (by decide), V4_arg m c main_arg12 (by decide)]
  rfl

theorem V5_v249 : V5 m c (Proc.devRef .tc main_v249) = val_main_v249 (F := Ideal) a0 a1 a2 a3 a4 a5 a6 a7 a8 a9 a10 a11 a12 := by
  unfold V5
  after_results_simp
  simp only [ofBuf_toBuf, ofBuf_v215, toBuf_v216, ofBuf_v224, toBuf_v225, V4_v164 m c, V4_v190 m c, V4_v193 m c,
    V4_v200 m c, V4_v205 m c, V4_cst_31 m c, V4_arg m c main_arg2 (by decide), V4_arg m c main_arg9 (by decide),
    V4_arg m c main_arg10 (by decide), V4_arg m c main_arg11 (by decide), V4_arg m c main_arg12 (by decide)]
  rfl

/-! ## The whole fold -/

/-- The fold of all 309 operations is the five lines' folds in a row. -/
theorem after_ops : after (ops (F := Ideal)) (launchContents m c) = V5 m c := by
  simp only [ops, after_append]
  rfl

/-- The first result of the reference, `%249`, as its stage function of the arguments' launch contents. -/
theorem fold_v249 : StableHlo.after (ops (F := Ideal)) (launchContents m c) (Proc.devRef .tc main_v249)
    = val_main_v249 (F := Ideal) a0 a1 a2 a3 a4 a5 a6 a7 a8 a9 a10 a11 a12 := by
  rw [after_ops m c]; exact V5_v249 m c

/-- The embedding `%6`, the reference's second result. -/
theorem fold_v6 : StableHlo.after (ops (F := Ideal)) (launchContents m c) (Proc.devRef .tc main_v6)
    = val_main_v6 (F := Ideal) a0 a3 := by
  rw [after_ops m c]; exact V5_v6 m c

/-- The third result, `%250`. -/
theorem fold_v250 : StableHlo.after (ops (F := Ideal)) (launchContents m c) (Proc.devRef .tc main_v250)
    = val_main_v250 (F := Ideal) a0 a1 a3 a4 a5 a6 a7 a8 a11 a12 := by
  rw [after_ops m c]; exact V5_v250 m c

/-- The fourth result, `%251`. -/
theorem fold_v251 : StableHlo.after (ops (F := Ideal)) (launchContents m c) (Proc.devRef .tc main_v251)
    = val_main_v251 (F := Ideal) a0 a1 a3 a4 a5 a6 a7 a8 a9 a10 := by
  rw [after_ops m c]; exact V5_v251 m c

/-- An argument is written by no operation: after the run it still holds its launch contents. -/
theorem fold_arg (r : Ref sig .tc) (hr : r ∈ Args) :
    StableHlo.after (ops (F := Ideal)) (launchContents m c) (Proc.devRef .tc r) = m ((c.tc : Thread nD τ).loc r) := by
  rw [after_ops m c]; exact V5_arg m c r hr

theorem fold_arg0 : StableHlo.after (ops (F := Ideal)) (launchContents m c) (Proc.devRef .tc main_arg0) = a0 :=
  fold_arg m c main_arg0 (by decide)
theorem fold_arg1 : StableHlo.after (ops (F := Ideal)) (launchContents m c) (Proc.devRef .tc main_arg1) = a1 :=
  fold_arg m c main_arg1 (by decide)
theorem fold_arg2 : StableHlo.after (ops (F := Ideal)) (launchContents m c) (Proc.devRef .tc main_arg2) = a2 :=
  fold_arg m c main_arg2 (by decide)
theorem fold_arg3 : StableHlo.after (ops (F := Ideal)) (launchContents m c) (Proc.devRef .tc main_arg3) = a3 :=
  fold_arg m c main_arg3 (by decide)
theorem fold_arg4 : StableHlo.after (ops (F := Ideal)) (launchContents m c) (Proc.devRef .tc main_arg4) = a4 :=
  fold_arg m c main_arg4 (by decide)
theorem fold_arg5 : StableHlo.after (ops (F := Ideal)) (launchContents m c) (Proc.devRef .tc main_arg5) = a5 :=
  fold_arg m c main_arg5 (by decide)
theorem fold_arg6 : StableHlo.after (ops (F := Ideal)) (launchContents m c) (Proc.devRef .tc main_arg6) = a6 :=
  fold_arg m c main_arg6 (by decide)
theorem fold_arg7 : StableHlo.after (ops (F := Ideal)) (launchContents m c) (Proc.devRef .tc main_arg7) = a7 :=
  fold_arg m c main_arg7 (by decide)
theorem fold_arg8 : StableHlo.after (ops (F := Ideal)) (launchContents m c) (Proc.devRef .tc main_arg8) = a8 :=
  fold_arg m c main_arg8 (by decide)
theorem fold_arg9 : StableHlo.after (ops (F := Ideal)) (launchContents m c) (Proc.devRef .tc main_arg9) = a9 :=
  fold_arg m c main_arg9 (by decide)
theorem fold_arg10 : StableHlo.after (ops (F := Ideal)) (launchContents m c) (Proc.devRef .tc main_arg10) = a10 :=
  fold_arg m c main_arg10 (by decide)
theorem fold_arg11 : StableHlo.after (ops (F := Ideal)) (launchContents m c) (Proc.devRef .tc main_arg11) = a11 :=
  fold_arg m c main_arg11 (by decide)
theorem fold_arg12 : StableHlo.after (ops (F := Ideal)) (launchContents m c) (Proc.devRef .tc main_arg12) = a12 :=
  fold_arg m c main_arg12 (by decide)

end Cert.ReferenceIdeal.StageValue

end
-- ==== Proof.RValue.lean ====
/-
  The reference program's four results as the specification's functions of its arguments: its run with every buffer at
  the fold of its operations, the fold at the result buffers as the named stages, the stages as the specification's
  rounds, heads and correction.
-/
import proofs.«400059_j34591666602133_1_alg».proof.Proof.RRun
import proofs.«400059_j34591666602133_1_alg».proof.Proof.RRead
import proofs.«400059_j34591666602133_1_alg».proof.Proof.RLayer
import proofs.«400059_j34591666602133_1_alg».proof.Proof.RTail
import proofs.«400059_j34591666602133_1_alg».proof.Proof.RStages
import proofs.«400059_j34591666602133_1_alg».proof.Proof.Spec

set_option maxRecDepth 16384

noncomputable section

namespace Cert.ReferenceIdeal.StageValue

open Idealize.ShloMosaic Idealize.ShloMosaic.TcCoe Idealize.ShloMosaic.ValueIdx Idealize.ShloMosaic.StableHlo Idealize.SL.Sem
open Cert.ReferenceIdeal Cert.ReferenceIdeal.RunFold Cert.ReferenceIdeal.Stage

variable (m : (ℓ : Loc nD τ sig) → Buf (Elt Ideal) ℓ) (ρ : Dev nD → PrngReg)

/-- What the two host programs compute alike from the arguments, as the reference spells it. -/
def sharedR (c : Dev nD) : Cert.Spec.Shared where
  Agg := aggR (m ((c.tc : Thread nD τ).loc main_arg1))
  W0 := val_main_v13 (F := Ideal) (m ((c.tc : Thread nD τ).loc main_arg4))
  W1 := val_main_v64 (F := Ideal) (m ((c.tc : Thread nD τ).loc main_arg4))
  W2 := val_main_v115 (F := Ideal) (m ((c.tc : Thread nD τ).loc main_arg4))
  W3 := val_main_v166 (F := Ideal) (m ((c.tc : Thread nD τ).loc main_arg4))
  wi := val_main_v25 (F := Ideal) (m ((c.tc : Thread nD τ).loc main_arg5))
  wh := val_main_v30 (F := Ideal) (m ((c.tc : Thread nD τ).loc main_arg6))
  q := qR (m ((c.tc : Thread nD τ).loc main_arg2))

/-- The state after the four rounds. -/
def stateR (c : Dev nD) : Cert.Spec.Mat 100000 128 :=
  Cert.Spec.state (sharedR m c) (fun k => (m ((c.tc : Thread nD τ).loc main_arg7)) (ix1 k)) (fun k => (m ((c.tc : Thread nD τ).loc main_arg8)) (ix1 k)) (m ((c.tc : Thread nD τ).loc main_arg0)) (m ((c.tc : Thread nD τ).loc main_arg3))

theorem state_eq (c : Dev nD) : val_main_v215 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = stateR m c := by
  rw [round4, round3, round2, round1, pad_embed]; rfl

/-- THE REFERENCE'S RUN, READ: every weakly fair execution terminates without a fault with the four results at the
    specification's functions of the arguments, the arguments unchanged. -/
theorem run : θ_run defs (onTc (τ := τ) (main (F := Ideal))) ⟨m, fun _ => 0, ρ⟩ (fun r => ∀ c : Dev nD,
      r.2.mem ((c.tc : Thread nD τ).loc main_v249) = (fun (i : S100000.Idx) => Cert.Spec.mucAt (m ((c.tc : Thread nD τ).loc main_arg2)) (qR (m ((c.tc : Thread nD τ).loc main_arg2))) (stateR m c) (fun k => (m ((c.tc : Thread nD τ).loc main_arg9)) (ix2 k 0)) ((m ((c.tc : Thread nD τ).loc main_arg10)) (ix1 0)) (fun k => (m ((c.tc : Thread nD τ).loc main_arg11)) (ix2 k 0)) ((m ((c.tc : Thread nD τ).loc main_arg12)) (ix1 0)) (i 0))
      ∧ r.2.mem ((c.tc : Thread nD τ).loc main_v6) = Cert.Spec.embed (m ((c.tc : Thread nD τ).loc main_arg0)) (m ((c.tc : Thread nD τ).loc main_arg3))
      ∧ r.2.mem ((c.tc : Thread nD τ).loc main_v250) = (fun (i : S100000.Idx) => Cert.Spec.sigAt (stateR m c) (fun k => (m ((c.tc : Thread nD τ).loc main_arg11)) (ix2 k 0)) ((m ((c.tc : Thread nD τ).loc main_arg12)) (ix1 0)) (i 0))
      ∧ r.2.mem ((c.tc : Thread nD τ).loc main_v251) = (fun (i : S100000.Idx) => Cert.Spec.muAt (stateR m c) (fun k => (m ((c.tc : Thread nD τ).loc main_arg9)) (ix2 k 0)) ((m ((c.tc : Thread nD τ).loc main_arg10)) (ix1 0)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c main_v249).trans ((fold_v249 m c).trans ((muc_eq _ _ _ _ _ _ _ _ _ _ _ _ _).trans (by rw [state_eq m c]))),
     (h c main_v6).trans ((fold_v6 m c).trans (x1_eq _ _)),
     (h c main_v250).trans ((fold_v250 m c).trans ((sig_eq _ _ _ _ _ _ _ _ _ _).trans (by rw [state_eq m c]))),
     (h c main_v251).trans ((fold_v251 m c).trans ((mu_eq _ _ _ _ _ _ _ _ _ _).trans (by rw [state_eq m c]))),
     (h c main_arg0).trans (fold_arg0 m c),
     (h c main_arg1).trans (fold_arg1 m c),
     (h c main_arg2).trans (fold_arg2 m c),
     (h c main_arg3).trans (fold_arg3 m c),
     (h c main_arg4).trans (fold_arg4 m c),
     (h c main_arg5).trans (fold_arg5 m c),
     (h c main_arg6).trans (fold_arg6 m c),
     (h c main_arg7).trans (fold_arg7 m c),
     (h c main_arg8).trans (fold_arg8 m c),
     (h c main_arg9).trans (fold_arg9 m c),
     (h c main_arg10).trans (fold_arg10 m c),
     (h c main_arg11).trans (fold_arg11 m c),
     (h c main_arg12).trans (fold_arg12 m c)⟩)
    (run_fold (F := Ideal) m ρ)

end Cert.ReferenceIdeal.StageValue

end
-- ==== Proof.Agree.lean ====
/-
  What the two host programs compute alike from the arguments — the aggregation along the edges, the four round
  weights, the transposed cell weights, the node-to-graph lookup — is one chain of host operations spelt twice: the
  reference's named stages unfold to the kernel program's operations.
-/
import proofs.«400059_j34591666602133_1_alg».proof.Proof.KChainDefs
import proofs.«400059_j34591666602133_1_alg».proof.Proof.RLayer
import proofs.«400059_j34591666602133_1_alg».proof.Proof.RTail

set_option maxRecDepth 16384

noncomputable section

namespace Cert.Proof

open Idealize.ShloMosaic Idealize.ShloMosaic.ValueIdx
open Cert.KernelIdeal.Chain Cert.ReferenceIdeal.StageValue

/-- The aggregation along the edges: the reference's stages are the kernel program's operations. -/
theorem agg_agree (e : IVec Cert.KernelIdeal.S2x1600000 32) : aggR e = aggOf (srcOf e) (dstOf e) := by
  funext M
  unfold aggR aggOf srcOf dstOf
  unfold Cert.ReferenceIdeal.Stage.val_main_v23 Cert.ReferenceIdeal.Stage.val_main_v22 Cert.ReferenceIdeal.Stage.val_main_v20
    Cert.ReferenceIdeal.Stage.val_main_v19 Cert.ReferenceIdeal.Stage.val_main_v18 Cert.ReferenceIdeal.Stage.val_main_v17
    Cert.ReferenceIdeal.Stage.val_main_v16 Cert.ReferenceIdeal.Stage.val_main_v15 Cert.ReferenceIdeal.Stage.val_main_v11
    Cert.ReferenceIdeal.Stage.val_main_v10 Cert.ReferenceIdeal.Stage.val_main_v9 Cert.ReferenceIdeal.Stage.val_main_v8
    Cert.ReferenceIdeal.Stage.val_main_cst_3 Cert.ReferenceIdeal.Stage.val_main_c_1 Cert.ReferenceIdeal.Stage.val_main_c_2
  rfl

/-- The four round weights. -/
theorem w0_agree (g : FVec Ideal Cert.KernelIdeal.S4x128x128 .f32) : Cert.ReferenceIdeal.Stage.val_main_v13 (F := Ideal) g = wOf0 g := by
  unfold Cert.ReferenceIdeal.Stage.val_main_v13 Cert.ReferenceIdeal.Stage.val_main_v12 wOf0; rfl
theorem w1_agree (g : FVec Ideal Cert.KernelIdeal.S4x128x128 .f32) : Cert.ReferenceIdeal.Stage.val_main_v64 (F := Ideal) g = wOf1 g := by
  unfold Cert.ReferenceIdeal.Stage.val_main_v64 Cert.ReferenceIdeal.Stage.val_main_v63 wOf1; rfl
theorem w2_agree (g : FVec Ideal Cert.KernelIdeal.S4x128x128 .f32) : Cert.ReferenceIdeal.Stage.val_main_v115 (F := Ideal) g = wOf2 g := by
  unfold Cert.ReferenceIdeal.Stage.val_main_v115 Cert.ReferenceIdeal.Stage.val_main_v114 wOf2; rfl
theorem w3_agree (g : FVec Ideal Cert.KernelIdeal.S4x128x128 .f32) : Cert.ReferenceIdeal.Stage.val_main_v166 (F := Ideal) g = wOf3 g := by
  unfold Cert.ReferenceIdeal.Stage.val_main_v166 Cert.ReferenceIdeal.Stage.val_main_v165 wOf3; rfl
/-- The transposed cell weights. -/
theorem wi_agree (w : FVec Ideal Cert.KernelIdeal.S384x128 .f32) : Cert.ReferenceIdeal.Stage.val_main_v25 (F := Ideal) w = wT w := by
  unfold Cert.ReferenceIdeal.Stage.val_main_v25 wT; rfl
theorem wh_agree (w : FVec Ideal Cert.KernelIdeal.S384x128 .f32) : Cert.ReferenceIdeal.Stage.val_main_v30 (F := Ideal) w = wT w := by
  unfold Cert.ReferenceIdeal.Stage.val_main_v30 wT; rfl
/-- The node-to-graph lookup. -/
theorem q_agree (b : IVec Cert.KernelIdeal.S100000 32) : qR b = graphOf b := by
  funext n
  unfold qR graphOf graphCol
  unfold Cert.ReferenceIdeal.Stage.val_main_v237 Cert.ReferenceIdeal.Stage.val_main_v236 Cert.ReferenceIdeal.Stage.val_main_v235
    Cert.ReferenceIdeal.Stage.val_main_v234 Cert.ReferenceIdeal.Stage.val_main_v233 Cert.ReferenceIdeal.Stage.val_main_v232
    Cert.ReferenceIdeal.Stage.val_main_c_35 Cert.ReferenceIdeal.Stage.val_main_c_36
  rfl

end Cert.Proof

end
-- ==== Proof.lean ====
/-
  The certificate: the kernel program (a gated graph network: an embedding, four rounds of message product,
  aggregation along the edges and gated recurrent cell, two heads with a per-graph correction) and its reference
  compute the same four arrays over the extended reals.

  Both programs' runs are read back to one specification (Proof/Spec.lean): the kernel program's through the contents
  at its segment boundaries (each region's result array as a whole-array function of what the region finds; the host
  stretches between them), the reference's through its operations' named stages. What the two host programs compute
  alike from the arguments — the aggregation along the edges, the round weights, the transposed cell weights, the
  node-to-graph lookup — is the same chain of operations in both, and is carried as a parameter that is never opened:
  Proof/Agree.lean shows that the two spellings agree. The sigmoid is one operation in the kernel and
  1 / (1 + e^(−x)) in the reference, one function over the extended reals; the per-graph sums are a one-hot product
  accumulated over the grid in the kernel and a scatter-add in the reference, both the sum over the graph's nodes.
  The frames are the generated ones; the reference's is its run with the results dropped. No rewrite was applied by
  the idealization, so there is nothing to preserve.
-/
import proofs.«400059_j34591666602133_1_alg».proof.Defs
import proofs.«400059_j34591666602133_1_alg».proof.Proof.Gen.Kernel.Frame
import proofs.«400059_j34591666602133_1_alg».proof.Proof.Gen.KernelIdeal.Frame
import proofs.«400059_j34591666602133_1_alg».proof.Proof.Gen.ReferenceIdeal
import proofs.«400059_j34591666602133_1_alg».proof.Proof.Gen.Pre_finite_inputs
import proofs.«400059_j34591666602133_1_alg».proof.Proof.KValue
import proofs.«400059_j34591666602133_1_alg».proof.Proof.RValue
import proofs.«400059_j34591666602133_1_alg».proof.Proof.Agree
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.KernelIdeal.Chain Cert.ReferenceIdeal.StageValue

/-! ## The claims -/

theorem frame_k : Cert.frame_Kernel := fun m ρ _ => Cert.Kernel.Gen.frame m ρ
theorem frame_ki : Cert.frame_KernelIdeal := fun m ρ _ => Cert.KernelIdeal.Gen.frame m ρ
/-- The reference's frame is its run with the results dropped. -/
theorem frame_ri : Cert.frame_ReferenceIdeal := fun m ρ _ =>
  (θ_run Cert.ReferenceIdeal.defs _ _).mono (fun _ h c => (h c).2.2.2.2) (Cert.ReferenceIdeal.StageValue.run m ρ)

theorem preserves : Cert.preserves_Kernel_KernelIdeal := trivial

/-- From memories agreeing on the arguments both programs end with the specification's four arrays. -/
theorem algebraic : Cert.algebraic_KernelIdeal_ReferenceIdeal := by
  intro m ρ m' ρ' _ hagree
  refine ⟨_, _, _, _, Cert.KernelIdeal.Chain.run m ρ, ?_⟩
  refine (θ_run Cert.ReferenceIdeal.defs _ _).mono (fun r h c => ?_) (Cert.ReferenceIdeal.StageValue.run m' ρ')
  obtain ⟨h0, h1, h2, h3, hargs⟩ := h c
  obtain ⟨e0, e1, e2, e3, e4, e5, e6, e7, e8, e9, e10, e11, e12⟩ := hagree c
  have hstate : stateR m' c = stateK m c := by
    unfold stateR stateK sharedR sharedK biK bhK
    rw [e0, e1, e2, e3, e4, e5, e6, e7, e8, agg_agree, w0_agree, w1_agree, w2_agree, w3_agree, wi_agree, wh_agree, q_agree]
  refine ⟨h0.trans ?_, h1.trans ?_, h2.trans ?_, h3.trans ?_, hargs⟩
  · rw [hstate, e2, e9, e10, e11, e12, q_agree]; rfl
  · rw [e0, e3]
  · rw [hstate, e11, e12]; rfl
  · rw [hstate, e9, e10]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
